-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v82)) (v1 : (c : Dev Cert.KernelIdeal.nD) → Buf (Elt Ideal) ((c.tc : Thread Cert.KernelIdeal.nD Cert.KernelIdeal.τ).loc Cert.KernelIdeal.main_v24)) (v2 : (c : Dev Cert.KernelIdeal.nD) → Buf (Elt Ideal) ((c.tc : Thread Cert.KernelIdeal.nD Cert.KernelIdeal.τ).loc Cert.KernelIdeal.main_v42)) (v3 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_v24) = v1 c
          ∧ r.2.mem ((c.tc : Thread Cert.KernelIdeal.nD Cert.KernelIdeal.τ).loc Cert.KernelIdeal.main_v42) = v2 c
          ∧ r.2.mem ((c.tc : Thread Cert.KernelIdeal.nD Cert.KernelIdeal.τ).loc Cert.KernelIdeal.main_v81) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_v43) = v2 c
          ∧ r.2.mem ((c.tc : Thread Cert.ReferenceIdeal.nD Cert.ReferenceIdeal.τ).loc Cert.ReferenceIdeal.main_v82) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x16x32 : Shape := ⟨3, ![16, 16, 32]⟩
abbrev S16x16 : Shape := ⟨2, ![16, 16]⟩
abbrev S16x16x32x12000 : Shape := ⟨4, ![16, 16, 32, 12000]⟩
abbrev S16x64 : Shape := ⟨2, ![16, 64]⟩
abbrev S16 : Shape := ⟨1, ![16]⟩
abbrev S16x64x20 : Shape := ⟨3, ![16, 64, 20]⟩
abbrev S16x16x2 : Shape := ⟨3, ![16, 16, 2]⟩
abbrev S_ : Shape := ⟨0, ![]⟩

class Facts : Prop where
  bcast_S_S16x16x32x12000 : S_.BroadcastsInDim S16x16x32x12000 (![] : Fin 0 → Fin S16x16x32x12000.rank)
  reducesTo_S16x16x32x12000_S_d0_1_2_3 : S16x16x32x12000.ReducesTo [0, 1, 2, 3] S_
  h_S_ : 0 < S_.numel
  bcast_S_S16x64x20 : S_.BroadcastsInDim S16x64x20 (![] : Fin 0 → Fin S16x64x20.rank)
  reducesTo_S16x64x20_S_d0_1_2 : S16x64x20.ReducesTo [0, 1, 2] S_
  bcast_S_S16x16x2 : S_.BroadcastsInDim S16x16x2 (![] : Fin 0 → Fin S16x16x2.rank)
  reducesTo_S16x16x2_S_d0_1_2 : S16x16x2.ReducesTo [0, 1, 2] S_
  bcast_S_S16x16x32 : S_.BroadcastsInDim S16x16x32 (![] : Fin 0 → Fin S16x16x32.rank)
  reducesTo_S16x16x32_S_d0_1_2 : S16x16x32.ReducesTo [0, 1, 2] S_

variable [Facts]

def fn_part1 {F : FTy → Type} [FloatOps F] (main_arg0 : IVec S16x16x32 32) (main_v13 : IVec S_ 1) (main_v16 : IVec S16x16x2 1) : IVec S_ 1 :=
  let main_c_5 : IVec S_ 1 := constantI S_ 1 1#1
  let main_v17 : IVec S_ 1 := (fun x v => Host.reduce IntOp.andi x v reducesTo_S16x16x2_S_d0_1_2 h_S_) main_v16 main_c_5
  let main_v18 : IVec S_ 1 := andi main_v13 main_v17
  let main_c_6 : IVec S_ 32 := constantI S_ 32 0#32
  let main_v19 : IVec S16x16x32 32 := broadcastInDim S16x16x32 ![] bcast_S_S16x16x32 main_c_6
  let main_v20 : IVec S16x16x32 1 := cmpi .sge main_arg0 main_v19
  let main_c_7 : IVec S_ 32 := constantI S_ 32 12000#32
  let main_v21 : IVec S16x16x32 32 := broadcastInDim S16x16x32 ![] bcast_S_S16x16x32 main_c_7
  let main_v22 : IVec S16x16x32 1 := cmpi .slt main_arg0 main_v21
  let main_v23 : IVec S16x16x32 1 := andi main_v20 main_v22
  let main_c_8 : IVec S_ 1 := constantI S_ 1 1#1
  let main_v24 : IVec S_ 1 := (fun x v => Host.reduce IntOp.andi x v reducesTo_S16x16x32_S_d0_1_2 h_S_) main_v23 main_c_8
  let main_v25 : IVec S_ 1 := andi main_v18 main_v24
  main_v25

def fn {F : FTy → Type} [FloatOps F] (main_arg0 : IVec S16x16x32 32) (main_arg1 : IVec S16x16 32) (main_arg2 : FVec F S16x16x32x12000 .f32) (main_arg3 : IVec S16x64 32) (main_arg4 : IVec S16 32) (main_arg5 : FVec F S16x64x20 .f32) (main_arg6 : FVec F S16x16x2 .f32) (main_arg7 : FVec F S16x16x2 .f32) (main_arg8 : IVec S16 32) (main_arg9 : IVec S16 32) : IVec S_ 1 :=
  let main_v0 : FVec F S16x16x32x12000 .f32 := Host.absf main_arg2
  let main_cst : FVec F S_ .f32 := constant S_ .f32 0x7F800000#32
  let main_v1 : FVec F S16x16x32x12000 .f32 := broadcastInDim S16x16x32x12000 ![] bcast_S_S16x16x32x12000 main_cst
  let main_v2 : IVec S16x16x32x12000 1 := cmpf .olt main_v0 main_v1
  let main_c : IVec S_ 1 := constantI S_ 1 1#1
  let main_v3 : IVec S_ 1 := (fun x v => Host.reduce IntOp.andi x v reducesTo_S16x16x32x12000_S_d0_1_2_3 h_S_) main_v2 main_c
  let main_v4 : FVec F S16x64x20 .f32 := Host.absf main_arg5
  let main_cst_0 : FVec F S_ .f32 := constant S_ .f32 0x7F800000#32
  let main_v5 : FVec F S16x64x20 .f32 := broadcastInDim S16x64x20 ![] bcast_S_S16x64x20 main_cst_0
  let main_v6 : IVec S16x64x20 1 := cmpf .olt main_v4 main_v5
  let main_c_1 : IVec S_ 1 := constantI S_ 1 1#1
  let main_v7 : IVec S_ 1 := (fun x v => Host.reduce IntOp.andi x v reducesTo_S16x64x20_S_d0_1_2 h_S_) main_v6 main_c_1
  let main_v8 : IVec S_ 1 := andi main_v3 main_v7
  let main_v9 : FVec F S16x16x2 .f32 := Host.absf main_arg6
  let main_cst_2 : FVec F S_ .f32 := constant S_ .f32 0x7F800000#32
  let main_v10 : FVec F S16x16x2 .f32 := broadcastInDim S16x16x2 ![] bcast_S_S16x16x2 main_cst_2
  let main_v11 : IVec S16x16x2 1 := cmpf .olt main_v9 main_v10
  let main_c_3 : IVec S_ 1 := constantI S_ 1 1#1
  let main_v12 : IVec S_ 1 := (fun x v => Host.reduce IntOp.andi x v reducesTo_S16x16x2_S_d0_1_2 h_S_) main_v11 main_c_3
  let main_v13 : IVec S_ 1 := andi main_v8 main_v12
  let main_v14 : FVec F S16x16x2 .f32 := Host.absf main_arg7
  let main_cst_4 : FVec F S_ .f32 := constant S_ .f32 0x7F800000#32
  let main_v15 : FVec F S16x16x2 .f32 := broadcastInDim S16x16x2 ![] bcast_S_S16x16x2 main_cst_4
  let main_v16 : IVec S16x16x2 1 := cmpf .olt main_v14 main_v15
  fn_part1 (F := F) main_arg0 main_v13 main_v16
-- ==== Kernel.lean ====
abbrev S16x16x32 : Shape := ⟨3, ![16, 16, 32]⟩
abbrev S16x16 : Shape := ⟨2, ![16, 16]⟩
abbrev S16x16x32x12000 : Shape := ⟨4, ![16, 16, 32, 12000]⟩
abbrev S16x64 : Shape := ⟨2, ![16, 64]⟩
abbrev S16 : Shape := ⟨1, ![16]⟩
abbrev S16x64x20 : Shape := ⟨3, ![16, 64, 20]⟩
abbrev S16x16x2 : Shape := ⟨3, ![16, 16, 2]⟩
abbrev S32 : Shape := ⟨1, ![32]⟩
abbrev S1x1x32 : Shape := ⟨3, ![1, 1, 32]⟩
abbrev S16x16x1 : Shape := ⟨3, ![16, 16, 1]⟩
abbrev S1x16x1 : Shape := ⟨3, ![1, 16, 1]⟩
abbrev S16x1x1 : Shape := ⟨3, ![16, 1, 1]⟩
abbrev S8192x1 : Shape := ⟨2, ![8192, 1]⟩
abbrev S8192x12000 : Shape := ⟨2, ![8192, 12000]⟩
abbrev S_ : Shape := ⟨0, ![]⟩
abbrev S1x1 : Shape := ⟨2, ![1, 1]⟩
abbrev S128x12000 : Shape := ⟨2, ![128, 12000]⟩
abbrev S128x1 : Shape := ⟨2, ![128, 1]⟩
abbrev S128 : Shape := ⟨1, ![128]⟩
abbrev S1x128x1 : Shape := ⟨3, ![1, 128, 1]⟩
abbrev S1 : Shape := ⟨1, ![1]⟩
abbrev S1x1x1 : Shape := ⟨3, ![1, 1, 1]⟩
abbrev S64 : Shape := ⟨1, ![64]⟩
abbrev S1x64 : Shape := ⟨2, ![1, 64]⟩
abbrev S16x1 : Shape := ⟨2, ![16, 1]⟩
abbrev S16x64x1 : Shape := ⟨3, ![16, 64, 1]⟩
abbrev S16x64x1x1 : Shape := ⟨4, ![16, 64, 1, 1]⟩
abbrev S1x1x1x1 : Shape := ⟨4, ![1, 1, 1, 1]⟩
abbrev S1x16 : Shape := ⟨2, ![1, 16]⟩

abbrev nBuf : Space → Nat
  | .hbm => 147
  | .vmem => 8
  | .smem => 0
  | _ => 0

abbrev hbmTy0_0 (i : Nat) : BufTy := match i % 128 with
  | 0 => ⟨S16x16x32, .i32⟩
  | 1 => ⟨S16x16, .i32⟩
  | 2 => ⟨S16x16x32x12000, .f32⟩
  | 3 => ⟨S16x64, .i32⟩
  | 4 => ⟨S16, .i32⟩
  | 5 => ⟨S16x64x20, .f32⟩
  | 6 => ⟨S16x16x2, .f32⟩
  | 7 => ⟨S16x16x2, .f32⟩
  | 8 => ⟨S16, .i32⟩
  | 9 => ⟨S16, .i32⟩
  | 10 => ⟨S32, .i32⟩
  | 11 => ⟨S1x1x32, .i32⟩
  | 12 => ⟨S16x16x1, .i32⟩
  | 13 => ⟨S16x16x32, .i32⟩
  | 14 => ⟨S16x16x32, .i32⟩
  | 15 => ⟨S16x16x32, .i1⟩
  | 16 => ⟨S16, .i32⟩
  | 17 => ⟨S1x16x1, .i32⟩
  | 18 => ⟨S16x1x1, .i32⟩
  | 19 => ⟨S16x16x1, .i32⟩
  | 20 => ⟨S16x16x1, .i32⟩
  | 21 => ⟨S16x16x1, .i1⟩
  | 22 => ⟨S16x16x32, .i1⟩
  | 23 => ⟨S16x16x32, .i1⟩
  | 24 => ⟨S16x16x32, .f32⟩
  | 25 => ⟨S8192x1, .f32⟩
  | 26 => ⟨S8192x1, .i32⟩
  | 27 => ⟨S8192x12000, .f32⟩
  | 28 => ⟨S16x16x32, .i32⟩
  | 29 => ⟨S_, .i32⟩
  | 30 => ⟨S_, .i32⟩
  | 31 => ⟨S_, .i32⟩
  | 32 => ⟨S_, .i32⟩
  | 33 => ⟨S_, .f32⟩
  | 34 => ⟨S1x1, .f32⟩
  | 35 => ⟨S_, .f32⟩
  | 36 => ⟨S_, .f32⟩
  | 37 => ⟨S64, .i32⟩
  | 38 => ⟨S1x64, .i32⟩
  | 39 => ⟨S16x1, .i32⟩
  | 40 => ⟨S16x64, .i32⟩
  | 41 => ⟨S16x64, .i32⟩
  | 42 => ⟨S16x64, .i1⟩
  | 43 => ⟨S_, .f32⟩
  | 44 => ⟨S16x64, .f32⟩
  | 45 => ⟨S_, .f32⟩
  | 46 => ⟨S16x64, .f32⟩
  | 47 => ⟨S16x64, .f32⟩
  | 48 => ⟨S16x64x1, .f32⟩
  | 49 => ⟨S16x64x20, .f32⟩
  | 50 => ⟨S16x64x20, .f32⟩
  | 51 => ⟨S16x64x20, .f32⟩
  | 52 => ⟨S_, .f32⟩
  | 53 => ⟨S16x64, .f32⟩
  | 54 => ⟨S16x64x1, .f32⟩
  | 55 => ⟨S16x64x1, .f32⟩
  | 56 => ⟨S16x64x20, .f32⟩
  | 57 => ⟨S16x64x20, .f32⟩
  | 58 => ⟨S16x64x1, .i32⟩
  | 59 => ⟨S_, .i32⟩
  | 60 => ⟨S16x64x1, .i32⟩
  | 61 => ⟨S16x64x1, .i1⟩
  | 62 => ⟨S_, .i32⟩
  | 63 => ⟨S16x64x1, .i32⟩
  | 64 => ⟨S16x64x1, .i32⟩
  | 65 => ⟨S16x64x1, .i32⟩
  | 66 => ⟨S16x64x1x1, .i32⟩
  | 67 => ⟨S1, .i32⟩
  | 68 => ⟨S_, .i32⟩
  | 69 => ⟨S16x64x1x1, .i32⟩
  | 70 => ⟨S16x64x1x1, .i1⟩
  | 71 => ⟨S1x1x1x1, .i32⟩
  | 72 => ⟨S16x64x1x1, .i32⟩
  | 73 => ⟨S16x64x1x1, .i1⟩
  | 74 => ⟨S16x64x1x1, .i1⟩
  | 75 => ⟨S_, .i1⟩
  | 76 => ⟨S16x64x1, .i1⟩
  | 77 => ⟨S16x64x1, .f32⟩
  | 78 => ⟨S_, .f32⟩
  | 79 => ⟨S16x64x1, .f32⟩
  | 80 => ⟨S16x64x1, .f32⟩
  | 81 => ⟨S16x64, .f32⟩
  | 82 => ⟨S16x64, .f32⟩
  | 83 => ⟨S_, .f32⟩
  | 84 => ⟨S_, .f32⟩
  | 85 => ⟨S16x64, .f32⟩
  | 86 => ⟨S16x64, .f32⟩
  | 87 => ⟨S_, .f32⟩
  | 88 => ⟨S_, .f32⟩
  | 89 => ⟨S16x64, .i32⟩
  | 90 => ⟨S_, .i32⟩
  | 91 => ⟨S_, .i32⟩
  | 92 => ⟨S_, .i32⟩
  | 93 => ⟨S_, .i32⟩
  | 94 => ⟨S_, .f32⟩
  | 95 => ⟨S_, .f32⟩
  | 96 => ⟨S16, .i32⟩
  | 97 => ⟨S1x16, .i32⟩
  | 98 => ⟨S16x1, .i32⟩
  | 99 => ⟨S16x16, .i32⟩
  | 100 => ⟨S16x16, .i32⟩
  | 101 => ⟨S16x16, .i1⟩
  | 102 => ⟨S16x16x1, .f32⟩
  | 103 => ⟨S16x16, .f32⟩
  | 104 => ⟨S16x16x1, .f32⟩
  | 105 => ⟨S16x16, .f32⟩
  | 106 => ⟨S16x16, .f32⟩
  | 107 => ⟨S16x16x1, .f32⟩
  | 108 => ⟨S16x16, .f32⟩
  | 109 => ⟨S16x16x1, .f32⟩
  | 110 => ⟨S16x16, .f32⟩
  | 111 => ⟨S16x16, .f32⟩
  | 112 => ⟨S16x16, .f32⟩
  | 113 => ⟨S_, .f32⟩
  | 114 => ⟨S_, .f32⟩
  | 115 => ⟨S16x16, .f32⟩
  | 116 => ⟨S16x16, .f32⟩
  | 117 => ⟨S16x16x1, .f32⟩
  | 118 => ⟨S16x16, .f32⟩
  | 119 => ⟨S16x16x1, .f32⟩
  | 120 => ⟨S16x16, .f32⟩
  | 121 => ⟨S16x16, .f32⟩
  | 122 => ⟨S16x16x1, .f32⟩
  | 123 => ⟨S16x16, .f32⟩
  | 124 => ⟨S16x16x1, .f32⟩
  | 125 => ⟨S16x16, .f32⟩
  | 126 => ⟨S16x16, .f32⟩
  | 127 => ⟨S16x16, .f32⟩
  | _ => ⟨S16x16x32, .i32⟩

abbrev hbmTy0_1 (i : Nat) : BufTy := match i % 128 with
  | 0 => ⟨S_, .f32⟩
  | 1 => ⟨S16x16, .f32⟩
  | 2 => ⟨S16x16, .f32⟩
  | 3 => ⟨S16x16, .f32⟩
  | 4 => ⟨S_, .f32⟩
  | 5 => ⟨S_, .f32⟩
  | 6 => ⟨S16x16, .f32⟩
  | 7 => ⟨S16x16, .f32⟩
  | 8 => ⟨S_, .i32⟩
  | 9 => ⟨S_, .i32⟩
  | 10 => ⟨S_, .i32⟩
  | 11 => ⟨S_, .i32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | _ => ⟨S16x16x32, .i32⟩

abbrev hbmTy (i : Nat) : BufTy := match i / 128 with
  | 0 => hbmTy0_0 i
  | 1 => hbmTy0_1 i
  | _ => ⟨S16x16x32, .i32⟩

abbrev bufTy : (tb : Table) → Fin (tcTables nBuf tb) → BufTy
  | .hbm, ⟨i, _⟩ => hbmTy i
  | .local _ .vmem, ⟨0, _⟩ => ⟨S128x12000, .f32⟩
  | .local _ .vmem, ⟨1, _⟩ => ⟨S128x12000, .f32⟩
  | .local _ .vmem, ⟨2, _⟩ => ⟨S128x1, .i32⟩
  | .local _ .vmem, ⟨3, _⟩ => ⟨S128x1, .i32⟩
  | .local _ .vmem, ⟨4, _⟩ => ⟨S128x1, .f32⟩
  | .local _ .vmem, ⟨5, _⟩ => ⟨S128x1, .f32⟩
  | .local _ .vmem, ⟨6, _⟩ => ⟨S1x1, .f32⟩
  | .local _ .vmem, ⟨7, _⟩ => ⟨S1x1, .f32⟩
  | _, _ => ⟨S16x16x32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c : Ref sig .tc := ⟨.hbm, 29, rfl⟩
abbrev main_v19 : Ref sig .tc := ⟨.hbm, 30, rfl⟩
abbrev main_c_0 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_call0_cst : Ref sig .tc := ⟨.hbm, 43, rfl⟩
abbrev main_call0_v0 : Ref sig .tc := ⟨.hbm, 44, rfl⟩
abbrev main_call0_cst_0 : Ref sig .tc := ⟨.hbm, 45, rfl⟩
abbrev main_call0_v1 : Ref sig .tc := ⟨.hbm, 46, rfl⟩
abbrev main_call0_v2 : Ref sig .tc := ⟨.hbm, 47, rfl⟩
abbrev main_call0_v3 : Ref sig .tc := ⟨.hbm, 48, rfl⟩
abbrev main_call0_v4 : Ref sig .tc := ⟨.hbm, 49, rfl⟩
abbrev main_call0_v5 : Ref sig .tc := ⟨.hbm, 50, rfl⟩
abbrev main_call0_v6 : Ref sig .tc := ⟨.hbm, 51, rfl⟩
abbrev main_call0_cst_1 : Ref sig .tc := ⟨.hbm, 52, rfl⟩
abbrev main_call0_v7 : Ref sig .tc := ⟨.hbm, 53, rfl⟩
abbrev main_call0_v8 : Ref sig .tc := ⟨.hbm, 54, rfl⟩
abbrev main_call0_v9 : Ref sig .tc := ⟨.hbm, 55, rfl⟩
abbrev main_call0_v10 : Ref sig .tc := ⟨.hbm, 56, rfl⟩
abbrev main_v31 : Ref sig .tc := ⟨.hbm, 57, rfl⟩
abbrev main_v32 : Ref sig .tc := ⟨.hbm, 58, rfl⟩
abbrev main_call1_c : Ref sig .tc := ⟨.hbm, 59, rfl⟩
abbrev main_call1_v0 : Ref sig .tc := ⟨.hbm, 60, rfl⟩
abbrev main_call1_v1 : Ref sig .tc := ⟨.hbm, 61, rfl⟩
abbrev main_call1_c_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_c_1 : Ref sig .tc := ⟨.hbm, 67, rfl⟩
abbrev main_call1_c_2 : Ref sig .tc := ⟨.hbm, 68, rfl⟩
abbrev main_call1_v6 : Ref sig .tc := ⟨.hbm, 69, rfl⟩
abbrev main_call1_v7 : Ref sig .tc := ⟨.hbm, 70, rfl⟩
abbrev main_call1_v8 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_c_3 : Ref sig .tc := ⟨.hbm, 75, rfl⟩
abbrev main_call1_v12 : Ref sig .tc := ⟨.hbm, 76, rfl⟩
abbrev main_call1_v13 : Ref sig .tc := ⟨.hbm, 77, rfl⟩
abbrev main_call1_cst : Ref sig .tc := ⟨.hbm, 78, rfl⟩
abbrev main_call1_v14 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_cst : Ref sig .tc := ⟨.hbm, 83, rfl⟩
abbrev main_call2_v0 : Ref sig .tc := ⟨.hbm, 84, rfl⟩
abbrev main_call2_v1 : Ref sig .tc := ⟨.hbm, 85, rfl⟩
abbrev main_v36 : Ref sig .tc := ⟨.hbm, 86, rfl⟩
abbrev main_cst_1 : Ref sig .tc := ⟨.hbm, 87, rfl⟩
abbrev main_v37 : Ref sig .tc := ⟨.hbm, 88, rfl⟩
abbrev main_v38 : Ref sig .tc := ⟨.hbm, 89, rfl⟩
abbrev main_c_2 : Ref sig .tc := ⟨.hbm, 90, rfl⟩
abbrev main_v39 : Ref sig .tc := ⟨.hbm, 91, rfl⟩
abbrev main_c_3 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_v44 : Ref sig .tc := ⟨.hbm, 97, rfl⟩
abbrev main_v45 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_v50 : Ref sig .tc := ⟨.hbm, 103, rfl⟩
abbrev main_v51 : Ref sig .tc := ⟨.hbm, 104, rfl⟩
abbrev main_v52 : Ref sig .tc := ⟨.hbm, 105, rfl⟩
abbrev main_v53 : Ref sig .tc := ⟨.hbm, 106, rfl⟩
abbrev main_v54 : Ref sig .tc := ⟨.hbm, 107, rfl⟩
abbrev main_v55 : Ref sig .tc := ⟨.hbm, 108, rfl⟩
abbrev main_v56 : Ref sig .tc := ⟨.hbm, 109, rfl⟩
abbrev main_v57 : Ref sig .tc := ⟨.hbm, 110, rfl⟩
abbrev main_v58 : Ref sig .tc := ⟨.hbm, 111, rfl⟩
abbrev main_v59 : Ref sig .tc := ⟨.hbm, 112, rfl⟩
abbrev main_cst_4 : Ref sig .tc := ⟨.hbm, 113, rfl⟩
abbrev main_call3_v0 : Ref sig .tc := ⟨.hbm, 114, rfl⟩
abbrev main_call3_v1 : Ref sig .tc := ⟨.hbm, 115, rfl⟩
abbrev main_v60 : Ref sig .tc := ⟨.hbm, 116, rfl⟩
abbrev main_v61 : Ref sig .tc := ⟨.hbm, 117, rfl⟩
abbrev main_v62 : Ref sig .tc := ⟨.hbm, 118, rfl⟩
abbrev main_v63 : Ref sig .tc := ⟨.hbm, 119, rfl⟩
abbrev main_v64 : Ref sig .tc := ⟨.hbm, 120, rfl⟩
abbrev main_v65 : Ref sig .tc := ⟨.hbm, 121, rfl⟩
abbrev main_v66 : Ref sig .tc := ⟨.hbm, 122, rfl⟩
abbrev main_v67 : Ref sig .tc := ⟨.hbm, 123, rfl⟩
abbrev main_v68 : Ref sig .tc := ⟨.hbm, 124, rfl⟩
abbrev main_v69 : Ref sig .tc := ⟨.hbm, 125, rfl⟩
abbrev main_v70 : Ref sig .tc := ⟨.hbm, 126, rfl⟩
abbrev main_v71 : Ref sig .tc := ⟨.hbm, 127, rfl⟩
abbrev main_cst_5 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_cst_6 : Ref sig .tc := ⟨.hbm, 132, rfl⟩
abbrev main_call4_v0 : Ref sig .tc := ⟨.hbm, 133, rfl⟩
abbrev main_call4_v1 : Ref sig .tc := ⟨.hbm, 134, rfl⟩
abbrev main_v75 : Ref sig .tc := ⟨.hbm, 135, rfl⟩
abbrev main_c_7 : Ref sig .tc := ⟨.hbm, 136, rfl⟩
abbrev main_v76 : Ref sig .tc := ⟨.hbm, 137, rfl⟩
abbrev main_c_8 : Ref sig .tc := ⟨.hbm, 138, rfl⟩
abbrev main_v77 : Ref sig .tc := ⟨.hbm, 139, rfl⟩
abbrev main_v78 : Ref sig .tc := ⟨.hbm, 140, rfl⟩
abbrev main_cst_9 : Ref sig .tc := ⟨.hbm, 141, rfl⟩
abbrev main_v79 : Ref sig .tc := ⟨.hbm, 142, rfl⟩
abbrev main_v80 : Ref sig .tc := ⟨.hbm, 143, rfl⟩
abbrev main_cst_10 : Ref sig .tc := ⟨.hbm, 144, rfl⟩
abbrev main_v81 : Ref sig .tc := ⟨.hbm, 145, rfl⟩
abbrev main_v82 : Ref sig .tc := ⟨.hbm, 146, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v40 : BitVec 1 := Scalar.cmpi .eq arg0 c63_i32
  let v41 : BitVec 32 := Scalar.extui v40
  let c0_i32_16 : BitVec 32 := 0#32
  let v42 : BitVec 1 := Scalar.cmpi .ne v41 c0_i32_16
  v42

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x12000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  bcast_S32_S1x1x32_2 : S32.BroadcastsInDim S1x1x32 (![2] : Fin 1 → Fin S1x1x32.rank)
  bcast_S16x16_S16x16x1_0_1 : S16x16.BroadcastsInDim S16x16x1 (![0, 1] : Fin 2 → Fin S16x16x1.rank)
  bcast_S1x1x32_S16x16x32_0_1_2 : S1x1x32.BroadcastsInDim S16x16x32 (![0, 1, 2] : Fin 3 → Fin S16x16x32.rank)
  bcast_S16x16x1_S16x16x32_0_1_2 : S16x16x1.BroadcastsInDim S16x16x32 (![0, 1, 2] : Fin 3 → Fin S16x16x32.rank)
  bcast_S16_S1x16x1_1 : S16.BroadcastsInDim S1x16x1 (![1] : Fin 1 → Fin S1x16x1.rank)
  bcast_S16_S16x1x1_0 : S16.BroadcastsInDim S16x1x1 (![0] : Fin 1 → Fin S16x1x1.rank)
  bcast_S1x16x1_S16x16x1_0_1_2 : S1x16x1.BroadcastsInDim S16x16x1 (![0, 1, 2] : Fin 3 → Fin S16x16x1.rank)
  bcast_S16x1x1_S16x16x1_0_1_2 : S16x1x1.BroadcastsInDim S16x16x1 (![0, 1, 2] : Fin 3 → Fin S16x16x1.rank)
  shapeCasts_S16x16x32_S8192x1 : S16x16x32.ShapeCasts S8192x1
  shapeCasts_S16x16x32x12000_S8192x12000 : S16x16x32x12000.ShapeCasts S8192x12000
  natLt_1_32 : 1 < 32
  reducesTo_S16x16x32_S_d0_1_2 : S16x16x32.ReducesTo [0, 1, 2] S_
  h_S_ : 0 < S_.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S128x12000_S128x12000_0_0 : ∀ a, (![0, 0] : Fin 2 → Nat) a + S128x12000.size a ≤ S128x12000.size a
  h_S128x12000 : 0 < S128x12000.numel
  shapeCasts_S128x12000_S128x12000 : S128x12000.ShapeCasts S128x12000
  inb_S128x1_S128x1_0_0 : ∀ a, (![0, 0] : Fin 2 → Nat) a + S128x1.size a ≤ S128x1.size a
  h_S128x1 : 0 < S128x1.numel
  shapeCasts_S128x1_S128x1 : S128x1.ShapeCasts S128x1
  reduces_S128x12000_S128 : S128x12000.Reduces [1] S128
  shapeCasts_S128_S128x1 : S128.ShapeCasts S128x1
  broadcasts_S128x1_S128x12000 : S128x1.Broadcasts S128x12000
  iota_S128x12000_d1_w32 : S128x12000.Iotas .tc 32 [1]
  shapeCasts_S128x1_S1x128x1 : S128x1.ShapeCasts S1x128x1
  reduces_S1x128x1_S1 : S1x128x1.Reduces [1, 2] S1
  shapeCasts_S1_S1x1x1 : S1.ShapeCasts S1x1x1
  inpos_S1x1x1_p0_0_0 : ∀ a, (![0, 0, 0] : Fin 3 → Nat) a < S1x1x1.size a
  shapeCasts_S1x1_S_ : S1x1.ShapeCasts S_
  bcast_S64_S1x64_1 : S64.BroadcastsInDim S1x64 (![1] : Fin 1 → Fin S1x64.rank)
  bcast_S16_S16x1_0 : S16.BroadcastsInDim S16x1 (![0] : Fin 1 → Fin S16x1.rank)
  bcast_S1x64_S16x64_0_1 : S1x64.BroadcastsInDim S16x64 (![0, 1] : Fin 2 → Fin S16x64.rank)
  bcast_S16x1_S16x64_0_1 : S16x1.BroadcastsInDim S16x64 (![0, 1] : Fin 2 → Fin S16x64.rank)
  reducesTo_S16x64x20_S16x64_d2 : S16x64x20.ReducesTo [2] S16x64
  bcast_S_S16x64 : S_.BroadcastsInDim S16x64 (![] : Fin 0 → Fin S16x64.rank)
  bcast_S16x64_S16x64x1_0_1 : S16x64.BroadcastsInDim S16x64x1 (![0, 1] : Fin 2 → Fin S16x64x1.rank)
  bcast_S16x64x1_S16x64x20_0_1_2 : S16x64x1.BroadcastsInDim S16x64x20 (![0, 1, 2] : Fin 3 → Fin S16x64x20.rank)
  bcast_S_S16x64x1 : S_.BroadcastsInDim S16x64x1 (![] : Fin 0 → Fin S16x64x1.rank)
  shapeCasts_S16x64x1_S16x64x1x1 : S16x64x1.ShapeCasts S16x64x1x1
  bcast_S_S16x64x1x1 : S_.BroadcastsInDim S16x64x1x1 (![] : Fin 0 → Fin S16x64x1x1.rank)
  bcast_S1_S1x1x1x1_3 : S1.BroadcastsInDim S1x1x1x1 (![3] : Fin 1 → Fin S1x1x1x1.rank)
  bcast_S1x1x1x1_S16x64x1x1_0_1_2_3 : S1x1x1x1.BroadcastsInDim S16x64x1x1 (![0, 1, 2, 3] : Fin 4 → Fin S16x64x1x1.rank)
  reducesTo_S16x64x1x1_S16x64x1_d3 : S16x64x1x1.ReducesTo [3] S16x64x1
  shapeCasts_S16x64x1_S16x64 : S16x64x1.ShapeCasts S16x64
  reducesTo_S16x64_S_d0_1 : S16x64.ReducesTo [0, 1] S_
  bcast_S16_S1x16_1 : S16.BroadcastsInDim S1x16 (![1] : Fin 1 → Fin S1x16.rank)
  bcast_S1x16_S16x16_0_1 : S1x16.BroadcastsInDim S16x16 (![0, 1] : Fin 2 → Fin S16x16.rank)
  bcast_S16x1_S16x16_0_1 : S16x1.BroadcastsInDim S16x16 (![0, 1] : Fin 2 → Fin S16x16.rank)
  slices_S16x16x2_S16x16x1_0_0_1 : S16x16x2.Slices ![0, 0, 1] S16x16x1
  shapeCasts_S16x16x1_S16x16 : S16x16x1.ShapeCasts S16x16
  slices_S16x16x2_S16x16x1_0_0_0 : S16x16x2.Slices ![0, 0, 0] S16x16x1
  bcast_S_S16x16 : S_.BroadcastsInDim S16x16 (![] : Fin 0 → Fin S16x16.rank)
  reducesTo_S16_S_d0 : S16.ReducesTo [0] S_
  reducesTo_S16x16_S_d0_1 : S16x16.ReducesTo [0, 1] S_
  gather_S16x64x20_S16x64x1x1_S16x64x1_n_2_01_01_2_3_111_wf : GatherDims.WF S16x64x20 S16x64x1x1 S16x64x1 [] [2] [0, 1] [2] [0, 1] 3 ![1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x12000.size a ≤ S8192x12000.size a
  hwx0_0 : ∀ i : grid0.Coords, EltTy.bits .f32 = 32 ∨ (Rect.block (s := S8192x12000) S128x12000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x1.size a ≤ S8192x1.size a
  hwx0_1 : ∀ i : grid0.Coords, EltTy.bits .i32 = 32 ∨ (Rect.block (s := S8192x1) S128x1.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x1.size a ≤ S8192x1.size a
  hwx0_2 : ∀ i : grid0.Coords, EltTy.bits .f32 = 32 ∨ (Rect.block (s := S8192x1) S128x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

def gather_S16x64x20_S16x64x1x1_S16x64x1_n_2_01_01_2_3_111 : GatherDims S16x64x20 S16x64x1x1 S16x64x1 where
  offsetDims := []
  collapsedSliceDims := [2]
  operandBatchingDims := [0, 1]
  startIndicesBatchingDims := [0, 1]
  startIndexMap := [2]
  indexVectorDim := 3
  sliceSizes := ![1, 1, 1]
  wf := gather_S16x64x20_S16x64x1x1_S16x64x1_n_2_01_01_2_3_111_wf

abbrev win0_0 : Pipeline.Window sig grid0 :=
  Pipeline.Window.ofSpec (Memref.whole main_v17) S128x12000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S128x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v22) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S16x16x32 : Shape := ⟨3, ![16, 16, 32]⟩
abbrev S16x16 : Shape := ⟨2, ![16, 16]⟩
abbrev S16x16x32x12000 : Shape := ⟨4, ![16, 16, 32, 12000]⟩
abbrev S16x64 : Shape := ⟨2, ![16, 64]⟩
abbrev S16 : Shape := ⟨1, ![16]⟩
abbrev S16x64x20 : Shape := ⟨3, ![16, 64, 20]⟩
abbrev S16x16x2 : Shape := ⟨3, ![16, 16, 2]⟩
abbrev S32 : Shape := ⟨1, ![32]⟩
abbrev S1x1x32 : Shape := ⟨3, ![1, 1, 32]⟩
abbrev S16x16x1 : Shape := ⟨3, ![16, 16, 1]⟩
abbrev S1x16x1 : Shape := ⟨3, ![1, 16, 1]⟩
abbrev S16x1x1 : Shape := ⟨3, ![16, 1, 1]⟩
abbrev S_ : Shape := ⟨0, ![]⟩
abbrev S16x16x32x1 : Shape := ⟨4, ![16, 16, 32, 1]⟩
abbrev S16x16x32x1x1 : Shape := ⟨5, ![16, 16, 32, 1, 1]⟩
abbrev S1 : Shape := ⟨1, ![1]⟩
abbrev S1x1x1x1x1 : Shape := ⟨5, ![1, 1, 1, 1, 1]⟩
abbrev S64 : Shape := ⟨1, ![64]⟩
abbrev S1x64 : Shape := ⟨2, ![1, 64]⟩
abbrev S16x1 : Shape := ⟨2, ![16, 1]⟩
abbrev S16x64x1 : Shape := ⟨3, ![16, 64, 1]⟩
abbrev S16x64x1x1 : Shape := ⟨4, ![16, 64, 1, 1]⟩
abbrev S1x1x1x1 : Shape := ⟨4, ![1, 1, 1, 1]⟩
abbrev S1x16 : Shape := ⟨2, ![1, 16]⟩

abbrev nBuf : Space → Nat
  | .hbm => 187
  | .vmem => 0
  | .smem => 0
  | _ => 0

abbrev hbmTy0_0 (i : Nat) : BufTy := match i % 128 with
  | 0 => ⟨S16x16x32, .i32⟩
  | 1 => ⟨S16x16, .i32⟩
  | 2 => ⟨S16x16x32x12000, .f32⟩
  | 3 => ⟨S16x64, .i32⟩
  | 4 => ⟨S16, .i32⟩
  | 5 => ⟨S16x64x20, .f32⟩
  | 6 => ⟨S16x16x2, .f32⟩
  | 7 => ⟨S16x16x2, .f32⟩
  | 8 => ⟨S16, .i32⟩
  | 9 => ⟨S16, .i32⟩
  | 10 => ⟨S32, .i32⟩
  | 11 => ⟨S1x1x32, .i32⟩
  | 12 => ⟨S16x16x1, .i32⟩
  | 13 => ⟨S16x16x32, .i32⟩
  | 14 => ⟨S16x16x32, .i32⟩
  | 15 => ⟨S16x16x32, .i1⟩
  | 16 => ⟨S16, .i32⟩
  | 17 => ⟨S1x16x1, .i32⟩
  | 18 => ⟨S16x1x1, .i32⟩
  | 19 => ⟨S16x16x1, .i32⟩
  | 20 => ⟨S16x16x1, .i32⟩
  | 21 => ⟨S16x16x1, .i1⟩
  | 22 => ⟨S16x16x32, .i1⟩
  | 23 => ⟨S16x16x32, .i1⟩
  | 24 => ⟨S_, .f32⟩
  | 25 => ⟨S16x16x32, .f32⟩
  | 26 => ⟨S_, .f32⟩
  | 27 => ⟨S16x16x32, .f32⟩
  | 28 => ⟨S16x16x32, .f32⟩
  | 29 => ⟨S16x16x32x1, .f32⟩
  | 30 => ⟨S16x16x32x12000, .f32⟩
  | 31 => ⟨S16x16x32x12000, .f32⟩
  | 32 => ⟨S16x16x32x12000, .f32⟩
  | 33 => ⟨S_, .f32⟩
  | 34 => ⟨S16x16x32, .f32⟩
  | 35 => ⟨S16x16x32x1, .f32⟩
  | 36 => ⟨S16x16x32x1, .f32⟩
  | 37 => ⟨S16x16x32x12000, .f32⟩
  | 38 => ⟨S16x16x32x12000, .f32⟩
  | 39 => ⟨S16x16x32x1, .i32⟩
  | 40 => ⟨S_, .i32⟩
  | 41 => ⟨S16x16x32x1, .i32⟩
  | 42 => ⟨S16x16x32x1, .i1⟩
  | 43 => ⟨S_, .i32⟩
  | 44 => ⟨S16x16x32x1, .i32⟩
  | 45 => ⟨S16x16x32x1, .i32⟩
  | 46 => ⟨S16x16x32x1, .i32⟩
  | 47 => ⟨S16x16x32x1x1, .i32⟩
  | 48 => ⟨S1, .i32⟩
  | 49 => ⟨S_, .i32⟩
  | 50 => ⟨S16x16x32x1x1, .i32⟩
  | 51 => ⟨S16x16x32x1x1, .i1⟩
  | 52 => ⟨S1x1x1x1x1, .i32⟩
  | 53 => ⟨S16x16x32x1x1, .i32⟩
  | 54 => ⟨S16x16x32x1x1, .i1⟩
  | 55 => ⟨S16x16x32x1x1, .i1⟩
  | 56 => ⟨S_, .i1⟩
  | 57 => ⟨S16x16x32x1, .i1⟩
  | 58 => ⟨S16x16x32x1, .f32⟩
  | 59 => ⟨S_, .f32⟩
  | 60 => ⟨S16x16x32x1, .f32⟩
  | 61 => ⟨S16x16x32x1, .f32⟩
  | 62 => ⟨S16x16x32, .f32⟩
  | 63 => ⟨S16x16x32, .f32⟩
  | 64 => ⟨S16x16x32, .i32⟩
  | 65 => ⟨S_, .i32⟩
  | 66 => ⟨S_, .i32⟩
  | 67 => ⟨S_, .i32⟩
  | 68 => ⟨S_, .i32⟩
  | 69 => ⟨S_, .f32⟩
  | 70 => ⟨S_, .f32⟩
  | 71 => ⟨S_, .f32⟩
  | 72 => ⟨S16x16x32, .f32⟩
  | 73 => ⟨S16x16x32, .f32⟩
  | 74 => ⟨S_, .f32⟩
  | 75 => ⟨S_, .f32⟩
  | 76 => ⟨S_, .f32⟩
  | 77 => ⟨S64, .i32⟩
  | 78 => ⟨S1x64, .i32⟩
  | 79 => ⟨S16x1, .i32⟩
  | 80 => ⟨S16x64, .i32⟩
  | 81 => ⟨S16x64, .i32⟩
  | 82 => ⟨S16x64, .i1⟩
  | 83 => ⟨S_, .f32⟩
  | 84 => ⟨S16x64, .f32⟩
  | 85 => ⟨S_, .f32⟩
  | 86 => ⟨S16x64, .f32⟩
  | 87 => ⟨S16x64, .f32⟩
  | 88 => ⟨S16x64x1, .f32⟩
  | 89 => ⟨S16x64x20, .f32⟩
  | 90 => ⟨S16x64x20, .f32⟩
  | 91 => ⟨S16x64x20, .f32⟩
  | 92 => ⟨S_, .f32⟩
  | 93 => ⟨S16x64, .f32⟩
  | 94 => ⟨S16x64x1, .f32⟩
  | 95 => ⟨S16x64x1, .f32⟩
  | 96 => ⟨S16x64x20, .f32⟩
  | 97 => ⟨S16x64x20, .f32⟩
  | 98 => ⟨S16x64x1, .i32⟩
  | 99 => ⟨S_, .i32⟩
  | 100 => ⟨S16x64x1, .i32⟩
  | 101 => ⟨S16x64x1, .i1⟩
  | 102 => ⟨S_, .i32⟩
  | 103 => ⟨S16x64x1, .i32⟩
  | 104 => ⟨S16x64x1, .i32⟩
  | 105 => ⟨S16x64x1, .i32⟩
  | 106 => ⟨S16x64x1x1, .i32⟩
  | 107 => ⟨S1, .i32⟩
  | 108 => ⟨S_, .i32⟩
  | 109 => ⟨S16x64x1x1, .i32⟩
  | 110 => ⟨S16x64x1x1, .i1⟩
  | 111 => ⟨S1x1x1x1, .i32⟩
  | 112 => ⟨S16x64x1x1, .i32⟩
  | 113 => ⟨S16x64x1x1, .i1⟩
  | 114 => ⟨S16x64x1x1, .i1⟩
  | 115 => ⟨S_, .i1⟩
  | 116 => ⟨S16x64x1, .i1⟩
  | 117 => ⟨S16x64x1, .f32⟩
  | 118 => ⟨S_, .f32⟩
  | 119 => ⟨S16x64x1, .f32⟩
  | 120 => ⟨S16x64x1, .f32⟩
  | 121 => ⟨S16x64, .f32⟩
  | 122 => ⟨S16x64, .f32⟩
  | 123 => ⟨S_, .f32⟩
  | 124 => ⟨S_, .f32⟩
  | 125 => ⟨S16x64, .f32⟩
  | 126 => ⟨S16x64, .f32⟩
  | 127 => ⟨S_, .f32⟩
  | _ => ⟨S16x16x32, .i32⟩

abbrev hbmTy0_1 (i : Nat) : BufTy := match i % 128 with
  | 0 => ⟨S_, .f32⟩
  | 1 => ⟨S16x64, .i32⟩
  | 2 => ⟨S_, .i32⟩
  | 3 => ⟨S_, .i32⟩
  | 4 => ⟨S_, .i32⟩
  | 5 => ⟨S_, .i32⟩
  | 6 => ⟨S_, .f32⟩
  | 7 => ⟨S_, .f32⟩
  | 8 => ⟨S16, .i32⟩
  | 9 => ⟨S1x16, .i32⟩
  | 10 => ⟨S16x1, .i32⟩
  | 11 => ⟨S16x16, .i32⟩
  | 12 => ⟨S16x16, .i32⟩
  | 13 => ⟨S16x16, .i1⟩
  | 14 => ⟨S16x16x1, .f32⟩
  | 15 => ⟨S16x16, .f32⟩
  | 16 => ⟨S16x16x1, .f32⟩
  | 17 => ⟨S16x16, .f32⟩
  | 18 => ⟨S16x16, .f32⟩
  | 19 => ⟨S16x16x1, .f32⟩
  | 20 => ⟨S16x16, .f32⟩
  | 21 => ⟨S16x16x1, .f32⟩
  | 22 => ⟨S16x16, .f32⟩
  | 23 => ⟨S16x16, .f32⟩
  | 24 => ⟨S16x16, .f32⟩
  | 25 => ⟨S_, .f32⟩
  | 26 => ⟨S_, .f32⟩
  | 27 => ⟨S16x16, .f32⟩
  | 28 => ⟨S16x16, .f32⟩
  | 29 => ⟨S16x16x1, .f32⟩
  | 30 => ⟨S16x16, .f32⟩
  | 31 => ⟨S16x16x1, .f32⟩
  | 32 => ⟨S16x16, .f32⟩
  | 33 => ⟨S16x16, .f32⟩
  | 34 => ⟨S16x16x1, .f32⟩
  | 35 => ⟨S16x16, .f32⟩
  | 36 => ⟨S16x16x1, .f32⟩
  | 37 => ⟨S16x16, .f32⟩
  | 38 => ⟨S16x16, .f32⟩
  | 39 => ⟨S16x16, .f32⟩
  | 40 => ⟨S_, .f32⟩
  | 41 => ⟨S16x16, .f32⟩
  | 42 => ⟨S16x16, .f32⟩
  | 43 => ⟨S16x16, .f32⟩
  | 44 => ⟨S_, .f32⟩
  | 45 => ⟨S_, .f32⟩
  | 46 => ⟨S16x16, .f32⟩
  | 47 => ⟨S16x16, .f32⟩
  | 48 => ⟨S_, .i32⟩
  | 49 => ⟨S_, .i32⟩
  | 50 => ⟨S_, .i32⟩
  | 51 => ⟨S_, .i32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | _ => ⟨S16x16x32, .i32⟩

abbrev hbmTy (i : Nat) : BufTy := match i / 128 with
  | 0 => hbmTy0_0 i
  | 1 => hbmTy0_1 i
  | _ => ⟨S16x16x32, .i32⟩

abbrev bufTy : (tb : Table) → Fin (tcTables nBuf tb) → BufTy
  | .hbm, ⟨i, _⟩ => hbmTy i
  | _, _ => ⟨S16x16x32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_call0_cst : Ref sig .tc := ⟨.hbm, 24, rfl⟩
abbrev main_call0_v0 : Ref sig .tc := ⟨.hbm, 25, rfl⟩
abbrev main_call0_cst_0 : Ref sig .tc := ⟨.hbm, 26, rfl⟩
abbrev main_call0_v1 : Ref sig .tc := ⟨.hbm, 27, rfl⟩
abbrev main_call0_v2 : Ref sig .tc := ⟨.hbm, 28, rfl⟩
abbrev main_call0_v3 : Ref sig .tc := ⟨.hbm, 29, rfl⟩
abbrev main_call0_v4 : Ref sig .tc := ⟨.hbm, 30, rfl⟩
abbrev main_call0_v5 : Ref sig .tc := ⟨.hbm, 31, rfl⟩
abbrev main_call0_v6 : Ref sig .tc := ⟨.hbm, 32, rfl⟩
abbrev main_call0_cst_1 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_v14 : Ref sig .tc := ⟨.hbm, 38, rfl⟩
abbrev main_v15 : Ref sig .tc := ⟨.hbm, 39, rfl⟩
abbrev main_call1_c : Ref sig .tc := ⟨.hbm, 40, rfl⟩
abbrev main_call1_v0 : Ref sig .tc := ⟨.hbm, 41, rfl⟩
abbrev main_call1_v1 : Ref sig .tc := ⟨.hbm, 42, rfl⟩
abbrev main_call1_c_0 : Ref sig .tc := ⟨.hbm, 43, rfl⟩
abbrev main_call1_v2 : Ref sig .tc := ⟨.hbm, 44, rfl⟩
abbrev main_call1_v3 : Ref sig .tc := ⟨.hbm, 45, rfl⟩
abbrev main_call1_v4 : Ref sig .tc := ⟨.hbm, 46, rfl⟩
abbrev main_call1_v5 : Ref sig .tc := ⟨.hbm, 47, rfl⟩
abbrev main_call1_c_1 : Ref sig .tc := ⟨.hbm, 48, rfl⟩
abbrev main_call1_c_2 : Ref sig .tc := ⟨.hbm, 49, rfl⟩
abbrev main_call1_v6 : Ref sig .tc := ⟨.hbm, 50, rfl⟩
abbrev main_call1_v7 : Ref sig .tc := ⟨.hbm, 51, rfl⟩
abbrev main_call1_v8 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_c_3 : Ref sig .tc := ⟨.hbm, 56, rfl⟩
abbrev main_call1_v12 : Ref sig .tc := ⟨.hbm, 57, rfl⟩
abbrev main_call1_v13 : Ref sig .tc := ⟨.hbm, 58, rfl⟩
abbrev main_call1_cst : Ref sig .tc := ⟨.hbm, 59, rfl⟩
abbrev main_call1_v14 : Ref sig .tc := ⟨.hbm, 60, rfl⟩
abbrev main_v16 : Ref sig .tc := ⟨.hbm, 61, rfl⟩
abbrev main_v17 : Ref sig .tc := ⟨.hbm, 62, rfl⟩
abbrev main_v18 : Ref sig .tc := ⟨.hbm, 63, rfl⟩
abbrev main_v19 : Ref sig .tc := ⟨.hbm, 64, rfl⟩
abbrev main_c : Ref sig .tc := ⟨.hbm, 65, rfl⟩
abbrev main_v20 : Ref sig .tc := ⟨.hbm, 66, rfl⟩
abbrev main_c_0 : Ref sig .tc := ⟨.hbm, 67, rfl⟩
abbrev main_v21 : Ref sig .tc := ⟨.hbm, 68, rfl⟩
abbrev main_v22 : Ref sig .tc := ⟨.hbm, 69, rfl⟩
abbrev main_cst : Ref sig .tc := ⟨.hbm, 70, rfl⟩
abbrev main_call2_v0 : Ref sig .tc := ⟨.hbm, 71, rfl⟩
abbrev main_call2_v1 : Ref sig .tc := ⟨.hbm, 72, rfl⟩
abbrev main_v23 : Ref sig .tc := ⟨.hbm, 73, rfl⟩
abbrev main_cst_1 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_call3_cst : Ref sig .tc := ⟨.hbm, 83, rfl⟩
abbrev main_call3_v0 : Ref sig .tc := ⟨.hbm, 84, rfl⟩
abbrev main_call3_cst_0 : Ref sig .tc := ⟨.hbm, 85, rfl⟩
abbrev main_call3_v1 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_call3_v5 : Ref sig .tc := ⟨.hbm, 90, rfl⟩
abbrev main_call3_v6 : Ref sig .tc := ⟨.hbm, 91, rfl⟩
abbrev main_call3_cst_1 : Ref sig .tc := ⟨.hbm, 92, rfl⟩
abbrev main_call3_v7 : Ref sig .tc := ⟨.hbm, 93, rfl⟩
abbrev main_call3_v8 : Ref sig .tc := ⟨.hbm, 94, rfl⟩
abbrev main_call3_v9 : Ref sig .tc := ⟨.hbm, 95, rfl⟩
abbrev main_call3_v10 : Ref sig .tc := ⟨.hbm, 96, rfl⟩
abbrev main_v32 : Ref sig .tc := ⟨.hbm, 97, rfl⟩
abbrev main_v33 : Ref sig .tc := ⟨.hbm, 98, rfl⟩
abbrev main_call4_c : Ref sig .tc := ⟨.hbm, 99, rfl⟩
abbrev main_call4_v0 : Ref sig .tc := ⟨.hbm, 100, rfl⟩
abbrev main_call4_v1 : Ref sig .tc := ⟨.hbm, 101, rfl⟩
abbrev main_call4_c_0 : Ref sig .tc := ⟨.hbm, 102, rfl⟩
abbrev main_call4_v2 : Ref sig .tc := ⟨.hbm, 103, rfl⟩
abbrev main_call4_v3 : Ref sig .tc := ⟨.hbm, 104, rfl⟩
abbrev main_call4_v4 : Ref sig .tc := ⟨.hbm, 105, rfl⟩
abbrev main_call4_v5 : Ref sig .tc := ⟨.hbm, 106, rfl⟩
abbrev main_call4_c_1 : Ref sig .tc := ⟨.hbm, 107, rfl⟩
abbrev main_call4_c_2 : Ref sig .tc := ⟨.hbm, 108, rfl⟩
abbrev main_call4_v6 : Ref sig .tc := ⟨.hbm, 109, rfl⟩
abbrev main_call4_v7 : Ref sig .tc := ⟨.hbm, 110, rfl⟩
abbrev main_call4_v8 : Ref sig .tc := ⟨.hbm, 111, rfl⟩
abbrev main_call4_v9 : Ref sig .tc := ⟨.hbm, 112, rfl⟩
abbrev main_call4_v10 : Ref sig .tc := ⟨.hbm, 113, rfl⟩
abbrev main_call4_v11 : Ref sig .tc := ⟨.hbm, 114, rfl⟩
abbrev main_call4_c_3 : Ref sig .tc := ⟨.hbm, 115, rfl⟩
abbrev main_call4_v12 : Ref sig .tc := ⟨.hbm, 116, rfl⟩
abbrev main_call4_v13 : Ref sig .tc := ⟨.hbm, 117, rfl⟩
abbrev main_call4_cst : Ref sig .tc := ⟨.hbm, 118, rfl⟩
abbrev main_call4_v14 : Ref sig .tc := ⟨.hbm, 119, rfl⟩
abbrev main_v34 : Ref sig .tc := ⟨.hbm, 120, rfl⟩
abbrev main_v35 : Ref sig .tc := ⟨.hbm, 121, rfl⟩
abbrev main_v36 : Ref sig .tc := ⟨.hbm, 122, rfl⟩
abbrev main_cst_2 : Ref sig .tc := ⟨.hbm, 123, rfl⟩
abbrev main_call5_v0 : Ref sig .tc := ⟨.hbm, 124, rfl⟩
abbrev main_call5_v1 : Ref sig .tc := ⟨.hbm, 125, rfl⟩
abbrev main_v37 : Ref sig .tc := ⟨.hbm, 126, rfl⟩
abbrev main_cst_3 : Ref sig .tc := ⟨.hbm, 127, rfl⟩
abbrev main_v38 : Ref sig .tc := ⟨.hbm, 128, rfl⟩
abbrev main_v39 : Ref sig .tc := ⟨.hbm, 129, rfl⟩
abbrev main_c_4 : Ref sig .tc := ⟨.hbm, 130, rfl⟩
abbrev main_v40 : Ref sig .tc := ⟨.hbm, 131, rfl⟩
abbrev main_c_5 : Ref sig .tc := ⟨.hbm, 132, rfl⟩
abbrev main_v41 : Ref sig .tc := ⟨.hbm, 133, rfl⟩
abbrev main_v42 : Ref sig .tc := ⟨.hbm, 134, rfl⟩
abbrev main_v43 : Ref sig .tc := ⟨.hbm, 135, rfl⟩
abbrev main_v44 : Ref sig .tc := ⟨.hbm, 136, rfl⟩
abbrev main_v45 : Ref sig .tc := ⟨.hbm, 137, rfl⟩
abbrev main_v46 : Ref sig .tc := ⟨.hbm, 138, rfl⟩
abbrev main_v47 : Ref sig .tc := ⟨.hbm, 139, rfl⟩
abbrev main_v48 : Ref sig .tc := ⟨.hbm, 140, rfl⟩
abbrev main_v49 : Ref sig .tc := ⟨.hbm, 141, rfl⟩
abbrev main_v50 : Ref sig .tc := ⟨.hbm, 142, rfl⟩
abbrev main_v51 : Ref sig .tc := ⟨.hbm, 143, rfl⟩
abbrev main_v52 : Ref sig .tc := ⟨.hbm, 144, rfl⟩
abbrev main_v53 : Ref sig .tc := ⟨.hbm, 145, rfl⟩
abbrev main_v54 : Ref sig .tc := ⟨.hbm, 146, rfl⟩
abbrev main_v55 : Ref sig .tc := ⟨.hbm, 147, rfl⟩
abbrev main_v56 : Ref sig .tc := ⟨.hbm, 148, rfl⟩
abbrev main_v57 : Ref sig .tc := ⟨.hbm, 149, rfl⟩
abbrev main_v58 : Ref sig .tc := ⟨.hbm, 150, rfl⟩
abbrev main_v59 : Ref sig .tc := ⟨.hbm, 151, rfl⟩
abbrev main_v60 : Ref sig .tc := ⟨.hbm, 152, rfl⟩
abbrev main_cst_6 : Ref sig .tc := ⟨.hbm, 153, rfl⟩
abbrev main_call6_v0 : Ref sig .tc := ⟨.hbm, 154, rfl⟩
abbrev main_call6_v1 : Ref sig .tc := ⟨.hbm, 155, rfl⟩
abbrev main_v61 : Ref sig .tc := ⟨.hbm, 156, rfl⟩
abbrev main_v62 : Ref sig .tc := ⟨.hbm, 157, rfl⟩
abbrev main_v63 : Ref sig .tc := ⟨.hbm, 158, rfl⟩
abbrev main_v64 : Ref sig .tc := ⟨.hbm, 159, rfl⟩
abbrev main_v65 : Ref sig .tc := ⟨.hbm, 160, rfl⟩
abbrev main_v66 : Ref sig .tc := ⟨.hbm, 161, rfl⟩
abbrev main_v67 : Ref sig .tc := ⟨.hbm, 162, rfl⟩
abbrev main_v68 : Ref sig .tc := ⟨.hbm, 163, rfl⟩
abbrev main_v69 : Ref sig .tc := ⟨.hbm, 164, rfl⟩
abbrev main_v70 : Ref sig .tc := ⟨.hbm, 165, rfl⟩
abbrev main_v71 : Ref sig .tc := ⟨.hbm, 166, rfl⟩
abbrev main_v72 : Ref sig .tc := ⟨.hbm, 167, rfl⟩
abbrev main_cst_7 : Ref sig .tc := ⟨.hbm, 168, rfl⟩
abbrev main_v73 : Ref sig .tc := ⟨.hbm, 169, rfl⟩
abbrev main_v74 : Ref sig .tc := ⟨.hbm, 170, rfl⟩
abbrev main_v75 : Ref sig .tc := ⟨.hbm, 171, rfl⟩
abbrev main_cst_8 : Ref sig .tc := ⟨.hbm, 172, rfl⟩
abbrev main_call7_v0 : Ref sig .tc := ⟨.hbm, 173, rfl⟩
abbrev main_call7_v1 : Ref sig .tc := ⟨.hbm, 174, rfl⟩
abbrev main_v76 : Ref sig .tc := ⟨.hbm, 175, rfl⟩
abbrev main_c_9 : Ref sig .tc := ⟨.hbm, 176, rfl⟩
abbrev main_v77 : Ref sig .tc := ⟨.hbm, 177, rfl⟩
abbrev main_c_10 : Ref sig .tc := ⟨.hbm, 178, rfl⟩
abbrev main_v78 : Ref sig .tc := ⟨.hbm, 179, rfl⟩
abbrev main_v79 : Ref sig .tc := ⟨.hbm, 180, rfl⟩
abbrev main_cst_11 : Ref sig .tc := ⟨.hbm, 181, rfl⟩
abbrev main_v80 : Ref sig .tc := ⟨.hbm, 182, rfl⟩
abbrev main_v81 : Ref sig .tc := ⟨.hbm, 183, rfl⟩
abbrev main_cst_12 : Ref sig .tc := ⟨.hbm, 184, rfl⟩
abbrev main_v82 : Ref sig .tc := ⟨.hbm, 185, rfl⟩
abbrev main_v83 : Ref sig .tc := ⟨.hbm, 186, rfl⟩

abbrev nD : Nat := 1
abbrev τ : Topo := Topo.v7x

variable {F : FTy → Type} [FloatOps F]

class Facts₀ : Prop where
  bcast_S32_S1x1x32_2 : S32.BroadcastsInDim S1x1x32 (![2] : Fin 1 → Fin S1x1x32.rank)
  bcast_S16x16_S16x16x1_0_1 : S16x16.BroadcastsInDim S16x16x1 (![0, 1] : Fin 2 → Fin S16x16x1.rank)
  bcast_S1x1x32_S16x16x32_0_1_2 : S1x1x32.BroadcastsInDim S16x16x32 (![0, 1, 2] : Fin 3 → Fin S16x16x32.rank)
  bcast_S16x16x1_S16x16x32_0_1_2 : S16x16x1.BroadcastsInDim S16x16x32 (![0, 1, 2] : Fin 3 → Fin S16x16x32.rank)
  bcast_S16_S1x16x1_1 : S16.BroadcastsInDim S1x16x1 (![1] : Fin 1 → Fin S1x16x1.rank)
  bcast_S16_S16x1x1_0 : S16.BroadcastsInDim S16x1x1 (![0] : Fin 1 → Fin S16x1x1.rank)
  bcast_S1x16x1_S16x16x1_0_1_2 : S1x16x1.BroadcastsInDim S16x16x1 (![0, 1, 2] : Fin 3 → Fin S16x16x1.rank)
  bcast_S16x1x1_S16x16x1_0_1_2 : S16x1x1.BroadcastsInDim S16x16x1 (![0, 1, 2] : Fin 3 → Fin S16x16x1.rank)
  reducesTo_S16x16x32x12000_S16x16x32_d3 : S16x16x32x12000.ReducesTo [3] S16x16x32
  h_S_ : 0 < S_.numel
  bcast_S_S16x16x32 : S_.BroadcastsInDim S16x16x32 (![] : Fin 0 → Fin S16x16x32.rank)
  bcast_S16x16x32_S16x16x32x1_0_1_2 : S16x16x32.BroadcastsInDim S16x16x32x1 (![0, 1, 2] : Fin 3 → Fin S16x16x32x1.rank)
  bcast_S16x16x32x1_S16x16x32x12000_0_1_2_3 : S16x16x32x1.BroadcastsInDim S16x16x32x12000 (![0, 1, 2, 3] : Fin 4 → Fin S16x16x32x12000.rank)
  bcast_S_S16x16x32x1 : S_.BroadcastsInDim S16x16x32x1 (![] : Fin 0 → Fin S16x16x32x1.rank)
  shapeCasts_S16x16x32x1_S16x16x32x1x1 : S16x16x32x1.ShapeCasts S16x16x32x1x1
  bcast_S_S16x16x32x1x1 : S_.BroadcastsInDim S16x16x32x1x1 (![] : Fin 0 → Fin S16x16x32x1x1.rank)
  bcast_S1_S1x1x1x1x1_4 : S1.BroadcastsInDim S1x1x1x1x1 (![4] : Fin 1 → Fin S1x1x1x1x1.rank)
  bcast_S1x1x1x1x1_S16x16x32x1x1_0_1_2_3_4 : S1x1x1x1x1.BroadcastsInDim S16x16x32x1x1 (![0, 1, 2, 3, 4] : Fin 5 → Fin S16x16x32x1x1.rank)
  reducesTo_S16x16x32x1x1_S16x16x32x1_d4 : S16x16x32x1x1.ReducesTo [4] S16x16x32x1
  shapeCasts_S16x16x32x1_S16x16x32 : S16x16x32x1.ShapeCasts S16x16x32
  natLt_1_32 : 1 < 32
  reducesTo_S16x16x32_S_d0_1_2 : S16x16x32.ReducesTo [0, 1, 2] S_
  bcast_S64_S1x64_1 : S64.BroadcastsInDim S1x64 (![1] : Fin 1 → Fin S1x64.rank)
  bcast_S16_S16x1_0 : S16.BroadcastsInDim S16x1 (![0] : Fin 1 → Fin S16x1.rank)
  bcast_S1x64_S16x64_0_1 : S1x64.BroadcastsInDim S16x64 (![0, 1] : Fin 2 → Fin S16x64.rank)
  bcast_S16x1_S16x64_0_1 : S16x1.BroadcastsInDim S16x64 (![0, 1] : Fin 2 → Fin S16x64.rank)
  reducesTo_S16x64x20_S16x64_d2 : S16x64x20.ReducesTo [2] S16x64
  bcast_S_S16x64 : S_.BroadcastsInDim S16x64 (![] : Fin 0 → Fin S16x64.rank)
  bcast_S16x64_S16x64x1_0_1 : S16x64.BroadcastsInDim S16x64x1 (![0, 1] : Fin 2 → Fin S16x64x1.rank)
  bcast_S16x64x1_S16x64x20_0_1_2 : S16x64x1.BroadcastsInDim S16x64x20 (![0, 1, 2] : Fin 3 → Fin S16x64x20.rank)
  bcast_S_S16x64x1 : S_.BroadcastsInDim S16x64x1 (![] : Fin 0 → Fin S16x64x1.rank)
  shapeCasts_S16x64x1_S16x64x1x1 : S16x64x1.ShapeCasts S16x64x1x1
  bcast_S_S16x64x1x1 : S_.BroadcastsInDim S16x64x1x1 (![] : Fin 0 → Fin S16x64x1x1.rank)
  bcast_S1_S1x1x1x1_3 : S1.BroadcastsInDim S1x1x1x1 (![3] : Fin 1 → Fin S1x1x1x1.rank)
  bcast_S1x1x1x1_S16x64x1x1_0_1_2_3 : S1x1x1x1.BroadcastsInDim S16x64x1x1 (![0, 1, 2, 3] : Fin 4 → Fin S16x64x1x1.rank)
  reducesTo_S16x64x1x1_S16x64x1_d3 : S16x64x1x1.ReducesTo [3] S16x64x1
  shapeCasts_S16x64x1_S16x64 : S16x64x1.ShapeCasts S16x64
  reducesTo_S16x64_S_d0_1 : S16x64.ReducesTo [0, 1] S_
  bcast_S16_S1x16_1 : S16.BroadcastsInDim S1x16 (![1] : Fin 1 → Fin S1x16.rank)
  bcast_S1x16_S16x16_0_1 : S1x16.BroadcastsInDim S16x16 (![0, 1] : Fin 2 → Fin S16x16.rank)
  bcast_S16x1_S16x16_0_1 : S16x1.BroadcastsInDim S16x16 (![0, 1] : Fin 2 → Fin S16x16.rank)
  slices_S16x16x2_S16x16x1_0_0_1 : S16x16x2.Slices ![0, 0, 1] S16x16x1
  shapeCasts_S16x16x1_S16x16 : S16x16x1.ShapeCasts S16x16
  slices_S16x16x2_S16x16x1_0_0_0 : S16x16x2.Slices ![0, 0, 0] S16x16x1
  bcast_S_S16x16 : S_.BroadcastsInDim S16x16 (![] : Fin 0 → Fin S16x16.rank)
  reducesTo_S16_S_d0 : S16.ReducesTo [0] S_
  reducesTo_S16x16_S_d0_1 : S16x16.ReducesTo [0, 1] S_
  gather_S16x16x32x12000_S16x16x32x1x1_S16x16x32x1_n_3_012_012_3_4_1111_wf : GatherDims.WF S16x16x32x12000 S16x16x32x1x1 S16x16x32x1 [] [3] [0, 1, 2] [3] [0, 1, 2] 4 ![1, 1, 1, 1]
  gather_S16x64x20_S16x64x1x1_S16x64x1_n_2_01_01_2_3_111_wf : GatherDims.WF S16x64x20 S16x64x1x1 S16x64x1 [] [2] [0, 1] [2] [0, 1] 3 ![1, 1, 1]

variable [Facts₀]

def gather_S16x16x32x12000_S16x16x32x1x1_S16x16x32x1_n_3_012_012_3_4_1111 : GatherDims S16x16x32x12000 S16x16x32x1x1 S16x16x32x1 where
  offsetDims := []
  collapsedSliceDims := [3]
  operandBatchingDims := [0, 1, 2]
  startIndicesBatchingDims := [0, 1, 2]
  startIndexMap := [3]
  indexVectorDim := 4
  sliceSizes := ![1, 1, 1, 1]
  wf := gather_S16x16x32x12000_S16x16x32x1x1_S16x16x32x1_n_3_012_012_3_4_1111_wf
def gather_S16x64x20_S16x64x1x1_S16x64x1_n_2_01_01_2_3_111 : GatherDims S16x64x20 S16x64x1x1 S16x64x1 where
  offsetDims := []
  collapsedSliceDims := [2]
  operandBatchingDims := [0, 1]
  startIndicesBatchingDims := [0, 1]
  startIndexMap := [2]
  indexVectorDim := 3
  sliceSizes := ![1, 1, 1]
  wf := gather_S16x64x20_S16x64x1x1_S16x64x1_n_2_01_01_2_3_111_wf

class Facts : Prop extends Facts₀ where

variable [Facts]
-- ==== Proof.K.Around.lean ====
/-
  @main around its one kernel region, for any float instance.

  @main is: a stretch of host operations that builds the region's three input arrays (the token mask as floats, the
  labels and the logits, each laid out with the 8192 tokens in one line) and the token count; the region; eleven
  stretches of host operations that divide the region's result by the count and compute the two other losses.
  What the region finds in a buffer is what the first stretch left there (`V`); the later stretches touch only the
  region's arrays and buffers that bypass it, allocate nothing, and write none of the region's arrays; no stretch
  writes an argument. The body's two conditions, "first point" and "last point", are decided over the 64 grid points,
  and the output window is idle and not written back except at the last point.
-/
import proofs.«424876_j87643102642642_3_alg».proof.Proof.Gen.Kernel.Launch
import proofs.«424876_j87643102642642_3_alg».proof.Proof.Gen.Kernel.Skeleton
import proofs.«424876_j87643102642642_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The stretches of host operations -/

/-- The stretches after the region, in order. -/
abbrev tail : List (List (HloOp τ sig (Elt F))) :=
  [hostOps1, hostOps1_1, hostOps1_2, hostOps1_3, hostOps1_4, hostOps1_5, hostOps1_6, hostOps1_7, hostOps1_8, hostOps1_9, hostOps1_10]

/-- Core `c`'s buffer contents when the region is entered: after the first stretch. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- Every stretch after the region touches TensorCore references only. -/
theorem tail_sub : ∀ ops ∈ (tail : List (List (HloOp τ sig (Elt F)))), ops.Forall fun op => op.bufs ⊆ StableHlo.tcRefs τ sig := by
  intro ops hops
  simp only [tail, List.mem_cons, List.mem_nil_iff, or_false] at hops
  rcases hops with rfl | rfl | rfl | rfl | rfl | rfl | rfl | rfl | rfl | rfl | rfl
  · exact hostOps1_sub
  · exact hostOps1_1_sub
  · exact hostOps1_2_sub
  · exact hostOps1_3_sub
  · exact hostOps1_4_sub
  · exact hostOps1_5_sub
  · exact hostOps1_6_sub
  · exact hostOps1_7_sub
  · exact hostOps1_8_sub
  · exact hostOps1_9_sub
  · exact hostOps1_10_sub

/-- No operation after the region allocates. -/
theorem tail_fresh : ∀ ops ∈ (tail : List (List (HloOp τ sig (Elt F)))), ops.Forall fun op => op.fresh = ∅ := by
  intro ops hops
  simp only [tail, List.mem_cons, List.mem_nil_iff, or_false] at hops
  rcases hops with rfl | rfl | rfl | rfl | rfl | rfl | rfl | rfl | rfl | rfl | rfl <;>
    (simp only [List.Forall]; repeat' constructor)

/-- @main reduces to the region continued by the later stretches, the region entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tail (F := F)).map StableHlo.seq)) :=
  Pipeline.hmain_around cfgs 0 defs₀ 𝒱₀ m main [hostOps0] tail (by simp only [List.Forall]; exact hostOps0_sub)
    (by simp only [List.Forall]; exact hostOps0_fresh) main_chain

/-- The later stretches touch the region's arrays and the bypassing buffers only. -/
theorem sfx_sub : ∀ ops ∈ (tail : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op ((List.forall_iff_forall_mem.mp (tail_sub ops hops)) op hop)

/-- They allocate nothing. -/
theorem sfx_fresh : ∀ ops ∈ (tail : List (List (HloOp τ sig (Elt F)))), ∀ op ∈ ops, op.fresh = ∅ := by
  intro ops hops op hop
  exact (List.forall_iff_forall_mem.mp (tail_fresh ops hops)) op hop

/-! ### No operation after the region writes an array of the region
  (each writes only its own result buffer, which is none of the four arrays; one statement per stretch) -/

set_option maxHeartbeats 2000000 in
theorem hostOps1_keeps : ∀ op ∈ (hostOps1 : List (HloOp τ sig (Elt F))), ∀ w, Proc.devRef .tc (Pipeline.arrRef spec0 w) ∉ op.writes := by
  intro op hop
  simp only [hostOps1, List.mem_cons, List.mem_nil_iff, or_false] at hop
  rcases hop with rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxHeartbeats 2000000 in
theorem hostOps1_1_keeps : ∀ op ∈ (hostOps1_1 : List (HloOp τ sig (Elt F))), ∀ w, Proc.devRef .tc (Pipeline.arrRef spec0 w) ∉ op.writes := by
  intro op hop
  simp only [hostOps1_1, List.mem_cons, List.mem_nil_iff, or_false] at hop
  rcases hop with rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxHeartbeats 2000000 in
theorem hostOps1_2_keeps : ∀ op ∈ (hostOps1_2 : List (HloOp τ sig (Elt F))), ∀ w, Proc.devRef .tc (Pipeline.arrRef spec0 w) ∉ op.writes := by
  intro op hop
  simp only [hostOps1_2, List.mem_cons, List.mem_nil_iff, or_false] at hop
  rcases hop with rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxHeartbeats 2000000 in
theorem hostOps1_3_keeps : ∀ op ∈ (hostOps1_3 : List (HloOp τ sig (Elt F))), ∀ w, Proc.devRef .tc (Pipeline.arrRef spec0 w) ∉ op.writes := by
  intro op hop
  simp only [hostOps1_3, List.mem_cons, List.mem_nil_iff, or_false] at hop
  rcases hop with rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxHeartbeats 2000000 in
theorem hostOps1_4_keeps : ∀ op ∈ (hostOps1_4 : List (HloOp τ sig (Elt F))), ∀ w, Proc.devRef .tc (Pipeline.arrRef spec0 w) ∉ op.writes := by
  intro op hop
  simp only [hostOps1_4, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxHeartbeats 2000000 in
theorem hostOps1_5_keeps : ∀ op ∈ (hostOps1_5 : List (HloOp τ sig (Elt F))), ∀ w, Proc.devRef .tc (Pipeline.arrRef spec0 w) ∉ op.writes := by
  intro op hop
  simp only [hostOps1_5, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxHeartbeats 2000000 in
theorem hostOps1_6_keeps : ∀ op ∈ (hostOps1_6 : List (HloOp τ sig (Elt F))), ∀ w, Proc.devRef .tc (Pipeline.arrRef spec0 w) ∉ op.writes := by
  intro op hop
  simp only [hostOps1_6, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxHeartbeats 2000000 in
theorem hostOps1_7_keeps : ∀ op ∈ (hostOps1_7 : List (HloOp τ sig (Elt F))), ∀ w, Proc.devRef .tc (Pipeline.arrRef spec0 w) ∉ op.writes := by
  intro op hop
  simp only [hostOps1_7, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxHeartbeats 2000000 in
theorem hostOps1_8_keeps : ∀ op ∈ (hostOps1_8 : List (HloOp τ sig (Elt F))), ∀ w, Proc.devRef .tc (Pipeline.arrRef spec0 w) ∉ op.writes := by
  intro op hop
  simp only [hostOps1_8, List.mem_cons, List.mem_nil_iff, or_false] at hop
  rcases hop with rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxHeartbeats 2000000 in
theorem hostOps1_9_keeps : ∀ op ∈ (hostOps1_9 : List (HloOp τ sig (Elt F))), ∀ w, Proc.devRef .tc (Pipeline.arrRef spec0 w) ∉ op.writes := by
  intro op hop
  simp only [hostOps1_9, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxHeartbeats 2000000 in
theorem hostOps1_10_keeps : ∀ op ∈ (hostOps1_10 : List (HloOp τ sig (Elt F))), ∀ w, Proc.devRef .tc (Pipeline.arrRef spec0 w) ∉ op.writes := by
  intro op hop
  simp only [hostOps1_10, List.mem_cons, List.mem_nil_iff, or_false] at hop
  rcases hop with rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The later stretches write no array of the region. -/
theorem sfx_keeps : ∀ ops ∈ (tail : List (List (HloOp τ sig (Elt F)))), ∀ op ∈ ops,
    ∀ w, Proc.devRef .tc (Pipeline.arrRef spec0 w) ∉ op.writes := by
  intro ops hops
  simp only [tail, List.mem_cons, List.mem_nil_iff, or_false] at hops
  rcases hops with rfl | rfl | rfl | rfl | rfl | rfl | rfl | rfl | rfl | rfl | rfl
  · exact hostOps1_keeps
  · exact hostOps1_1_keeps
  · exact hostOps1_2_keeps
  · exact hostOps1_3_keeps
  · exact hostOps1_4_keeps
  · exact hostOps1_5_keeps
  · exact hostOps1_6_keeps
  · exact hostOps1_7_keeps
  · exact hostOps1_8_keeps
  · exact hostOps1_9_keeps
  · exact hostOps1_10_keeps

/-! ## The arguments are written by no host operation -/

/-- The ten argument references. -/
abbrev argRefs : List (Ref sig .tc) := [main_arg0, main_arg1, main_arg2, main_arg3, main_arg4, main_arg5, main_arg6, main_arg7, main_arg8, main_arg9]

set_option maxHeartbeats 4000000 in
theorem hostOps0_keeps_args : ∀ op ∈ (hostOps0 : List (HloOp τ sig (Elt F))), ∀ b ∈ argRefs, Proc.devRef .tc b ∉ op.writes := by
  intro op hop b hb
  simp only [argRefs, List.mem_cons, List.mem_nil_iff, or_false] at hb
  simp only [hostOps0, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl <;>
    rcases hb with rfl | rfl | rfl | rfl | rfl | rfl | rfl | rfl | rfl | rfl <;>
    simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxHeartbeats 4000000 in
theorem hostOps1_keeps_args : ∀ op ∈ (hostOps1 : List (HloOp τ sig (Elt F))), ∀ b ∈ argRefs, Proc.devRef .tc b ∉ op.writes := by
  intro op hop b hb
  simp only [argRefs, List.mem_cons, List.mem_nil_iff, or_false] at hb
  simp only [hostOps1, List.mem_cons, List.mem_nil_iff, or_false] at hop
  rcases hop with rfl | rfl | rfl | rfl | rfl | rfl | rfl | rfl <;>
    rcases hb with rfl | rfl | rfl | rfl | rfl | rfl | rfl | rfl | rfl | rfl <;>
    simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxHeartbeats 4000000 in
theorem hostOps1_1_keeps_args : ∀ op ∈ (hostOps1_1 : List (HloOp τ sig (Elt F))), ∀ b ∈ argRefs, Proc.devRef .tc b ∉ op.writes := by
  intro op hop b hb
  simp only [argRefs, List.mem_cons, List.mem_nil_iff, or_false] at hb
  simp only [hostOps1_1, List.mem_cons, List.mem_nil_iff, or_false] at hop
  rcases hop with rfl | rfl | rfl | rfl | rfl | rfl | rfl | rfl | rfl | rfl | rfl | rfl | rfl | rfl | rfl <;>
    rcases hb with rfl | rfl | rfl | rfl | rfl | rfl | rfl | rfl | rfl | rfl <;>
    simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxHeartbeats 4000000 in
theorem hostOps1_2_keeps_args : ∀ op ∈ (hostOps1_2 : List (HloOp τ sig (Elt F))), ∀ b ∈ argRefs, Proc.devRef .tc b ∉ op.writes := by
  intro op hop b hb
  simp only [argRefs, List.mem_cons, List.mem_nil_iff, or_false] at hb
  simp only [hostOps1_2, List.mem_cons, List.mem_nil_iff, or_false] at hop
  rcases hop with rfl <;>
    rcases hb with rfl | rfl | rfl | rfl | rfl | rfl | rfl | rfl | rfl | rfl <;>
    simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxHeartbeats 4000000 in
theorem hostOps1_3_keeps_args : ∀ op ∈ (hostOps1_3 : List (HloOp τ sig (Elt F))), ∀ b ∈ argRefs, Proc.devRef .tc b ∉ op.writes := by
  intro op hop b hb
  simp only [argRefs, List.mem_cons, List.mem_nil_iff, or_false] at hb
  simp only [hostOps1_3, List.mem_cons, List.mem_nil_iff, or_false] at hop
  rcases hop with rfl | rfl | rfl | rfl | rfl | rfl | rfl | rfl | rfl | rfl | rfl | rfl | rfl | rfl | rfl | rfl | rfl | rfl | rfl | rfl | rfl | rfl <;>
    rcases hb with rfl | rfl | rfl | rfl | rfl | rfl | rfl | rfl | rfl | rfl <;>
    simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxHeartbeats 4000000 in
theorem hostOps1_4_keeps_args : ∀ op ∈ (hostOps1_4 : List (HloOp τ sig (Elt F))), ∀ b ∈ argRefs, Proc.devRef .tc b ∉ op.writes := by
  intro op hop b hb
  simp only [argRefs, List.mem_cons, List.mem_nil_iff, or_false] at hb
  simp only [hostOps1_4, List.mem_cons, List.mem_nil_iff, or_false] at hop
  rcases hop with rfl | rfl | rfl <;>
    rcases hb with rfl | rfl | rfl | rfl | rfl | rfl | rfl | rfl | rfl | rfl <;>
    simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxHeartbeats 4000000 in
theorem hostOps1_5_keeps_args : ∀ op ∈ (hostOps1_5 : List (HloOp τ sig (Elt F))), ∀ b ∈ argRefs, Proc.devRef .tc b ∉ op.writes := by
  intro op hop b hb
  simp only [argRefs, List.mem_cons, List.mem_nil_iff, or_false] at hb
  simp only [hostOps1_5, List.mem_cons, List.mem_nil_iff, or_false] at hop
  rcases hop with rfl | rfl | rfl <;>
    rcases hb with rfl | rfl | rfl | rfl | rfl | rfl | rfl | rfl | rfl | rfl <;>
    simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxHeartbeats 4000000 in
theorem hostOps1_6_keeps_args : ∀ op ∈ (hostOps1_6 : List (HloOp τ sig (Elt F))), ∀ b ∈ argRefs, Proc.devRef .tc b ∉ op.writes := by
  intro op hop b hb
  simp only [argRefs, List.mem_cons, List.mem_nil_iff, or_false] at hb
  simp only [hostOps1_6, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl <;>
    rcases hb with rfl | rfl | rfl | rfl | rfl | rfl | rfl | rfl | rfl | rfl <;>
    simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxHeartbeats 4000000 in
theorem hostOps1_7_keeps_args : ∀ op ∈ (hostOps1_7 : List (HloOp τ sig (Elt F))), ∀ b ∈ argRefs, Proc.devRef .tc b ∉ op.writes := by
  intro op hop b hb
  simp only [argRefs, List.mem_cons, List.mem_nil_iff, or_false] at hb
  simp only [hostOps1_7, List.mem_cons, List.mem_nil_iff, or_false] at hop
  rcases hop with rfl | rfl | rfl <;>
    rcases hb with rfl | rfl | rfl | rfl | rfl | rfl | rfl | rfl | rfl | rfl <;>
    simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxHeartbeats 4000000 in
theorem hostOps1_8_keeps_args : ∀ op ∈ (hostOps1_8 : List (HloOp τ sig (Elt F))), ∀ b ∈ argRefs, Proc.devRef .tc b ∉ op.writes := by
  intro op hop b hb
  simp only [argRefs, List.mem_cons, List.mem_nil_iff, or_false] at hb
  simp only [hostOps1_8, List.mem_cons, List.mem_nil_iff, or_false] at hop
  rcases hop with rfl | rfl | rfl | rfl | rfl | rfl | rfl | rfl | rfl | rfl | rfl | rfl | rfl | rfl | rfl | rfl <;>
    rcases hb with rfl | rfl | rfl | rfl | rfl | rfl | rfl | rfl | rfl | rfl <;>
    simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxHeartbeats 4000000 in
theorem hostOps1_9_keeps_args : ∀ op ∈ (hostOps1_9 : List (HloOp τ sig (Elt F))), ∀ b ∈ argRefs, Proc.devRef .tc b ∉ op.writes := by
  intro op hop b hb
  simp only [argRefs, List.mem_cons, List.mem_nil_iff, or_false] at hb
  simp only [hostOps1_9, List.mem_cons, List.mem_nil_iff, or_false] at hop
  rcases hop with rfl | rfl | rfl <;>
    rcases hb with rfl | rfl | rfl | rfl | rfl | rfl | rfl | rfl | rfl | rfl <;>
    simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxHeartbeats 4000000 in
theorem hostOps1_10_keeps_args : ∀ op ∈ (hostOps1_10 : List (HloOp τ sig (Elt F))), ∀ b ∈ argRefs, Proc.devRef .tc b ∉ op.writes := by
  intro op hop b hb
  simp only [argRefs, List.mem_cons, List.mem_nil_iff, or_false] at hb
  simp only [hostOps1_10, List.mem_cons, List.mem_nil_iff, or_false] at hop
  rcases hop with rfl | rfl | rfl | rfl | rfl | rfl | rfl | rfl | rfl | rfl | rfl <;>
    rcases hb with rfl | rfl | rfl | rfl | rfl | rfl | rfl | rfl | rfl | rfl <;>
    simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No array of the region is an argument. -/
theorem arr_ne_arg : ∀ b ∈ argRefs, ∀ w, Pipeline.arrRef spec0 w ≠ b := by
  intro b hb
  simp only [argRefs, List.mem_cons, List.mem_nil_iff, or_false] at hb
  rcases hb with rfl | rfl | rfl | rfl | rfl | rfl | rfl | rfl | rfl | rfl <;> decide

/-- The region finds every argument as launched. -/
theorem V_arg (c : Dev nD) (b : Ref sig .tc) (hb : b ∈ argRefs) : V m c b = m ((c : Thread nD τ).loc b) :=
  StableHlo.after_of_forall_not_mem (b := Proc.devRef .tc b) _ _ (by
    intro op hop
    simp only [List.flatten_cons, List.flatten_nil, List.append_nil] at hop
    exact hostOps0_keeps_args op hop b hb)

/-- After the later stretches every argument is still as launched, whatever the region's arrays hold. -/
theorem W_arg (dats : (p : Fin 1) → (c : Dev nD) → Dat τ (Elt F) Unit ℕ (UR sig nD τ) ℕ (cfgs p) c) (c : Dev nD)
    (b : Ref sig .tc) (hb : b ∈ argRefs) :
    Pipeline.afterTail₀ cfgs dats 0 (V0 m) tail c b = m ((c : Thread nD τ).loc b) := by
  unfold Pipeline.afterTail₀
  rw [StableHlo.after_of_forall_not_mem (b := Proc.devRef .tc b) _ _ (by
      intro op hop
      obtain ⟨ops, hops, hop'⟩ := List.mem_flatten.mp hop
      simp only [tail, List.mem_cons, List.mem_nil_iff, or_false] at hops
      rcases hops with rfl | rfl | rfl | rfl | rfl | rfl | rfl | rfl | rfl | rfl | rfl
      · exact hostOps1_keeps_args op hop' b hb
      · exact hostOps1_1_keeps_args op hop' b hb
      · exact hostOps1_2_keeps_args op hop' b hb
      · exact hostOps1_3_keeps_args op hop' b hb
      · exact hostOps1_4_keeps_args op hop' b hb
      · exact hostOps1_5_keeps_args op hop' b hb
      · exact hostOps1_6_keeps_args op hop' b hb
      · exact hostOps1_7_keeps_args op hop' b hb
      · exact hostOps1_8_keeps_args op hop' b hb
      · exact hostOps1_9_keeps_args op hop' b hb
      · exact hostOps1_10_keeps_args op hop' b hb),
    Pipeline.withArrays_of_ne _ c (V0 m c) _ b (arr_ne_arg b hb)]
  exact V_arg m c b hb

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is `V`'s and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is `V`'s and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the frame post read at the ten arguments
    (none is an array of the region: each is a bypassing buffer, kept by every host operation) is the frame claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tail))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
    ((h c).2 main_arg0 (Pipeline.mem_restRefs_of main_arg0 (by decide) (by decide))).trans (W_arg m dats c main_arg0 (by simp only [argRefs, List.mem_cons, List.mem_nil_iff, true_or, or_true])),
    ((h c).2 main_arg1 (Pipeline.mem_restRefs_of main_arg1 (by decide) (by decide))).trans (W_arg m dats c main_arg1 (by simp only [argRefs, List.mem_cons, List.mem_nil_iff, true_or, or_true])),
    ((h c).2 main_arg2 (Pipeline.mem_restRefs_of main_arg2 (by decide) (by decide))).trans (W_arg m dats c main_arg2 (by simp only [argRefs, List.mem_cons, List.mem_nil_iff, true_or, or_true])),
    ((h c).2 main_arg3 (Pipeline.mem_restRefs_of main_arg3 (by decide) (by decide))).trans (W_arg m dats c main_arg3 (by simp only [argRefs, List.mem_cons, List.mem_nil_iff, true_or, or_true])),
    ((h c).2 main_arg4 (Pipeline.mem_restRefs_of main_arg4 (by decide) (by decide))).trans (W_arg m dats c main_arg4 (by simp only [argRefs, List.mem_cons, List.mem_nil_iff, true_or, or_true])),
    ((h c).2 main_arg5 (Pipeline.mem_restRefs_of main_arg5 (by decide) (by decide))).trans (W_arg m dats c main_arg5 (by simp only [argRefs, List.mem_cons, List.mem_nil_iff, true_or, or_true])),
    ((h c).2 main_arg6 (Pipeline.mem_restRefs_of main_arg6 (by decide) (by decide))).trans (W_arg m dats c main_arg6 (by simp only [argRefs, List.mem_cons, List.mem_nil_iff, true_or, or_true])),
    ((h c).2 main_arg7 (Pipeline.mem_restRefs_of main_arg7 (by decide) (by decide))).trans (W_arg m dats c main_arg7 (by simp only [argRefs, List.mem_cons, List.mem_nil_iff, true_or, or_true])),
    ((h c).2 main_arg8 (Pipeline.mem_restRefs_of main_arg8 (by decide) (by decide))).trans (W_arg m dats c main_arg8 (by simp only [argRefs, List.mem_cons, List.mem_nil_iff, true_or, or_true])),
    ((h c).2 main_arg9 (Pipeline.mem_restRefs_of main_arg9 (by decide) (by decide))).trans (W_arg m dats c main_arg9 (by simp only [argRefs, List.mem_cons, List.mem_nil_iff, true_or, or_true]))⟩) h

/-! ## The body's two conditions -/

/-- "This is the first point": the body's first branch, from the grid coordinate. -/
abbrev cond0_0 (i : grid0.Coords) : Prop := (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val % 64 = 0 :=
  (by decide +kernel : ∀ t : Fin grid0.N, cond0_0 (grid0.coords t) ↔ t.val % 64 = 0)

/-- "This is the last point": the body's second branch. -/
abbrev cond0_1 (i : grid0.Coords) : Prop := k0_cond2 i = 1#1
/-- It holds at point 63 only. -/
theorem hcond0_1 : ∀ t : Fin cfg0.N, cond0_1 (grid0.coords t) ↔ t.val % 64 = 63 :=
  (by decide +kernel : ∀ t : Fin grid0.N, cond0_1 (grid0.coords t) ↔ t.val % 64 = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last point the output window is idle (the body stores nothing into it) and is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last point it is live. -/
theorem liveAt0_3 : ∀ t : Fin cfg0.N, cond0_1 (grid0.coords t) → cfg0.idle 3 (grid0.coords t) = false := by decide +kernel

/-! ## The memrefs the body is called with -/

/-- The output window's one staging buffer, through which its contents are stated. -/
abbrev VO0_3 : View sig .tc .vmem S1x1 .f32 := (Memref.whole cc0_stg3_0 : Memref sig .tc .vmem S1x1 .f32).view
abbrev ms0_0 (t : Fin cfg0.N) : Memref sig .tc .vmem S128x12000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
/-- The accumulator: a whole scoped buffer of the kernel's own, passed beside the windows. -/
abbrev scM0_0 : Memref sig .tc .vmem S1x1 .f32 := Memref.whole cc0_scratch0
/-- The accumulator as a view: what it holds is stated through it. -/
abbrev VS0_0 : View sig .tc .vmem S1x1 .f32 := scM0_0.view

/-- The region's invariant with the accumulator as a memref owned at some contents: what the body is handed and
    gives back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.Kernel.Reg

end
-- ==== Proof.K.RunA.lean ====
/-
  The kernel body at the FIRST grid point, run on whole staging memrefs: the accumulator, found at anything, is set to
  zero and then to zero plus this tile's contribution; the inputs' buffers and the output's (which the body does not
  touch here) are handed back as found. What the accumulator ends with is recorded as the list of pieces its stores wrote.
-/
import proofs.«424876_j87643102642642_3_alg».proof.Proof.K.Around

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first point's run: the pieces the accumulator's stores leave, with the body's triple. -/
noncomputable def kernelRun0_A (c : Dev nD) (i : grid0.Coords)
    (arg1 : Memref sig .tc .vmem S128x12000 .f32) (harg1 : arg1.IsWhole) (arg2 : Memref sig .tc .vmem S128x1 .i32) (harg2 : arg2.IsWhole)
    (arg3 : Memref sig .tc .vmem S128x1 .f32) (harg3 : arg3.IsWhole) (arg4 : Memref sig .tc .vmem S1x1 .f32) (harg4 : arg4.IsWhole)
    (arg5 : Memref sig .tc .vmem S1x1 .f32) (harg5 : arg5.IsWhole) (hc0 : cond0_0 i) (hc1 : ¬cond0_1 i)
    (x0 : Vec F S128x12000 .f32) (x1 : Vec F S128x1 .i32) (x2 : Vec F S128x1 .f32) :
    Σ' (L3 : List (View.Piece (Elt F) S1x1 .f32)), { LS0 : List (View.Piece (Elt F) S1x1 .f32) //
      ∀ (xi3 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0__cap_loss_kernel i arg1 harg1 arg2 harg2 arg3 harg3 arg4 harg4 arg5 harg5) K } := by
  refine ⟨[], ?_, fun xi3 E K => ?run⟩
  case run =>
    simp only [cc0__cap_loss_kernel_eq_skeleton]; unfold cc0__cap_loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.Kernel.Reg

end
-- ==== Proof.K.RunB.lean ====
/-
  The kernel body at a MIDDLE grid point (neither first nor last), run on whole staging memrefs: the accumulator, found at
  what the point before left, ends at that plus this tile's contribution; everything else is handed back as found.
-/
import proofs.«424876_j87643102642642_3_alg».proof.Proof.K.RunA

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A middle point's run: the pieces the accumulator's store leaves, with the body's triple. -/
noncomputable def kernelRun0_B (c : Dev nD) (i : grid0.Coords)
    (arg1 : Memref sig .tc .vmem S128x12000 .f32) (harg1 : arg1.IsWhole) (arg2 : Memref sig .tc .vmem S128x1 .i32) (harg2 : arg2.IsWhole)
    (arg3 : Memref sig .tc .vmem S128x1 .f32) (harg3 : arg3.IsWhole) (arg4 : Memref sig .tc .vmem S1x1 .f32) (harg4 : arg4.IsWhole)
    (arg5 : Memref sig .tc .vmem S1x1 .f32) (harg5 : arg5.IsWhole) (hc0 : ¬cond0_0 i) (hc1 : ¬cond0_1 i)
    (x0 : Vec F S128x12000 .f32) (x1 : Vec F S128x1 .i32) (x2 : Vec F S128x1 .f32) (xs0 : Vec F S1x1 .f32) :
    Σ' (L3 : List (View.Piece (Elt F) S1x1 .f32)), { LS0 : List (View.Piece (Elt F) S1x1 .f32) //
      ∀ (xi3 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0__cap_loss_kernel i arg1 harg1 arg2 harg2 arg3 harg3 arg4 harg4 arg5 harg5) K } := by
  refine ⟨[], ?_, fun xi3 E K => ?run⟩
  case run =>
    simp only [cc0__cap_loss_kernel_eq_skeleton]; unfold cc0__cap_loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.Kernel.Reg

end
-- ==== Proof.K.RunC.lean ====
/-
  The kernel body at the LAST grid point, run on whole staging memrefs: the accumulator, found at what the point before
  left, ends at that plus this tile's contribution, and the output's buffer, found at anything, is stored with the
  accumulator's final contents. What each ends with is recorded as the list of pieces its stores wrote.
-/
import proofs.«424876_j87643102642642_3_alg».proof.Proof.K.RunB

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The last point's run: the pieces the output's and the accumulator's stores leave, with the body's triple. -/
noncomputable def kernelRun0_C (c : Dev nD) (i : grid0.Coords)
    (arg1 : Memref sig .tc .vmem S128x12000 .f32) (harg1 : arg1.IsWhole) (arg2 : Memref sig .tc .vmem S128x1 .i32) (harg2 : arg2.IsWhole)
    (arg3 : Memref sig .tc .vmem S128x1 .f32) (harg3 : arg3.IsWhole) (arg4 : Memref sig .tc .vmem S1x1 .f32) (harg4 : arg4.IsWhole)
    (arg5 : Memref sig .tc .vmem S1x1 .f32) (harg5 : arg5.IsWhole) (hc0 : ¬cond0_0 i) (hc1 : cond0_1 i)
    (x0 : Vec F S128x12000 .f32) (x1 : Vec F S128x1 .i32) (x2 : Vec F S128x1 .f32) (xs0 : Vec F S1x1 .f32) :
    Σ' (L3 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc0__cap_loss_kernel i arg1 harg1 arg2 harg2 arg3 harg3 arg4 harg4 arg5 harg5) K } := by
  refine ⟨?_, ?_, fun E K => ?run⟩
  case run =>
    simp only [cc0__cap_loss_kernel_eq_skeleton]; unfold cc0__cap_loss_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.Kernel.Reg

end
-- ==== Proof.K.Frame.lean ====
/-
  The frame of the one kernel region and of @main around it, for any float instance, with what the region leaves NAMED.

  The body runs in three cases over the 64 grid points: the first point (the accumulator is reset, then added to), the
  middle points (added to), the last point (added to, then stored to the output's buffer). What the accumulator and the
  output's buffer hold after each point is defined by recursion on the point (`outsAt0`): each case's stores read
  back, the accumulator found at what the point before left. The region's invariant carries the accumulator at that
  contents from the second point on. With this proof data the body's triple holds at every point (`sound_body`), and
  the library's launch theorem for a region followed by host operations gives the run of @main: it terminates, every
  array of the region ends at what the proof data computes, and every other buffer at what the later host operations
  leave (`run_main`); read at the ten arguments this is the frame claim (`frame`).
-/
import proofs.«424876_j87643102642642_3_alg».proof.Proof.K.RunC

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first point stores nothing into the output's buffer: a placeholder nothing consults (the window is idle there). -/
def out0_A_3 (c : Dev nD) (i : grid0.Coords) (arg1 : Memref sig .tc .vmem S128x12000 .f32) (harg1 : arg1.IsWhole) (arg2 : Memref sig .tc .vmem S128x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S128x12000 .f32) (x1 : Vec F S128x1 .i32) (x2 : Vec F S128x1 .f32) : Vec F S1x1 .f32 :=
  VO0_3.read (Elt F) (VO0_3.writes (Elt F) VO0_3.junk (kernelRun0_A c i arg1 harg1 arg2 harg2 arg3 harg3 arg4 harg4 arg5 harg5 hc0 hc1 x0 x1 x2).1)

/-- The first point's stores into the accumulator cover it. -/
theorem scover0_A_0 (c : Dev nD) (i : grid0.Coords) (arg1 : Memref sig .tc .vmem S128x12000 .f32) (harg1 : arg1.IsWhole) (arg2 : Memref sig .tc .vmem S128x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S128x12000 .f32) (x1 : Vec F S128x1 .i32) (x2 : Vec F S128x1 .f32) (y : S1x1.Idx) :
    ∃ pc ∈ (kernelRun0_A c i arg1 harg1 arg2 harg2 arg3 harg3 arg4 harg4 arg5 harg5 hc0 hc1 x0 x1 x2).2.1, y ∈ pc.1.set :=
  View.cover_of_tiledL (kernelRun0_A c i arg1 harg1 arg2 harg2 arg3 harg3 arg4 harg4 arg5 harg5 hc0 hc1 x0 x1 x2).2.1 S1x1.size (by sl_kernel_rfl) y

/-- What the first point leaves in the accumulator: its stores read back. -/
def sout0_A_0 (c : Dev nD) (i : grid0.Coords) (arg1 : Memref sig .tc .vmem S128x12000 .f32) (harg1 : arg1.IsWhole) (arg2 : Memref sig .tc .vmem S128x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S128x12000 .f32) (x1 : Vec F S128x1 .i32) (x2 : Vec F S128x1 .f32) : Vec F S1x1 .f32 :=
  VS0_0.read (Elt F) (VS0_0.writes (Elt F) VS0_0.junk (kernelRun0_A c i arg1 harg1 arg2 harg2 arg3 harg3 arg4 harg4 arg5 harg5 hc0 hc1 x0 x1 x2).2.1)

/-- A middle point stores nothing into the output's buffer: a placeholder nothing consults. -/
def out0_B_3 (c : Dev nD) (i : grid0.Coords) (arg1 : Memref sig .tc .vmem S128x12000 .f32) (harg1 : arg1.IsWhole) (arg2 : Memref sig .tc .vmem S128x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S128x12000 .f32) (x1 : Vec F S128x1 .i32) (x2 : Vec F S128x1 .f32) (xs0 : Vec F S1x1 .f32) : Vec F S1x1 .f32 :=
  VO0_3.read (Elt F) (VO0_3.writes (Elt F) VO0_3.junk (kernelRun0_B c i arg1 harg1 arg2 harg2 arg3 harg3 arg4 harg4 arg5 harg5 hc0 hc1 x0 x1 x2 xs0).1)

/-- A middle point's store into the accumulator covers it. -/
theorem scover0_B_0 (c : Dev nD) (i : grid0.Coords) (arg1 : Memref sig .tc .vmem S128x12000 .f32) (harg1 : arg1.IsWhole) (arg2 : Memref sig .tc .vmem S128x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S128x12000 .f32) (x1 : Vec F S128x1 .i32) (x2 : Vec F S128x1 .f32) (xs0 : Vec F S1x1 .f32) (y : S1x1.Idx) :
    ∃ pc ∈ (kernelRun0_B c i arg1 harg1 arg2 harg2 arg3 harg3 arg4 harg4 arg5 harg5 hc0 hc1 x0 x1 x2 xs0).2.1, y ∈ pc.1.set :=
  View.cover_of_tiledL (kernelRun0_B c i arg1 harg1 arg2 harg2 arg3 harg3 arg4 harg4 arg5 harg5 hc0 hc1 x0 x1 x2 xs0).2.1 S1x1.size (by sl_kernel_rfl) y

/-- What a middle point leaves in the accumulator. -/
def sout0_B_0 (c : Dev nD) (i : grid0.Coords) (arg1 : Memref sig .tc .vmem S128x12000 .f32) (harg1 : arg1.IsWhole) (arg2 : Memref sig .tc .vmem S128x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S128x12000 .f32) (x1 : Vec F S128x1 .i32) (x2 : Vec F S128x1 .f32) (xs0 : Vec F S1x1 .f32) : Vec F S1x1 .f32 :=
  VS0_0.read (Elt F) (VS0_0.writes (Elt F) VS0_0.junk (kernelRun0_B c i arg1 harg1 arg2 harg2 arg3 harg3 arg4 harg4 arg5 harg5 hc0 hc1 x0 x1 x2 xs0).2.1)

/-- The last point's store into the output's buffer covers it. -/
theorem cover0_C_3 (c : Dev nD) (i : grid0.Coords) (arg1 : Memref sig .tc .vmem S128x12000 .f32) (harg1 : arg1.IsWhole) (arg2 : Memref sig .tc .vmem S128x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S128x12000 .f32) (x1 : Vec F S128x1 .i32) (x2 : Vec F S128x1 .f32) (xs0 : Vec F S1x1 .f32) (y : S1x1.Idx) :
    ∃ pc ∈ (kernelRun0_C c i arg1 harg1 arg2 harg2 arg3 harg3 arg4 harg4 arg5 harg5 hc0 hc1 x0 x1 x2 xs0).1, y ∈ pc.1.set :=
  View.cover_of_tiledL (kernelRun0_C c i arg1 harg1 arg2 harg2 arg3 harg3 arg4 harg4 arg5 harg5 hc0 hc1 x0 x1 x2 xs0).1 S1x1.size (by sl_kernel_rfl) y

/-- What the last point leaves in the output's buffer. -/
def out0_C_3 (c : Dev nD) (i : grid0.Coords) (arg1 : Memref sig .tc .vmem S128x12000 .f32) (harg1 : arg1.IsWhole) (arg2 : Memref sig .tc .vmem S128x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S128x12000 .f32) (x1 : Vec F S128x1 .i32) (x2 : Vec F S128x1 .f32) (xs0 : Vec F S1x1 .f32) : Vec F S1x1 .f32 :=
  VO0_3.read (Elt F) (VO0_3.writes (Elt F) VO0_3.junk (kernelRun0_C c i arg1 harg1 arg2 harg2 arg3 harg3 arg4 harg4 arg5 harg5 hc0 hc1 x0 x1 x2 xs0).1)

/-- The last point's store into the accumulator covers it. -/
theorem scover0_C_0 (c : Dev nD) (i : grid0.Coords) (arg1 : Memref sig .tc .vmem S128x12000 .f32) (harg1 : arg1.IsWhole) (arg2 : Memref sig .tc .vmem S128x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S128x12000 .f32) (x1 : Vec F S128x1 .i32) (x2 : Vec F S128x1 .f32) (xs0 : Vec F S1x1 .f32) (y : S1x1.Idx) :
    ∃ pc ∈ (kernelRun0_C c i arg1 harg1 arg2 harg2 arg3 harg3 arg4 harg4 arg5 harg5 hc0 hc1 x0 x1 x2 xs0).2.1, y ∈ pc.1.set :=
  View.cover_of_tiledL (kernelRun0_C c i arg1 harg1 arg2 harg2 arg3 harg3 arg4 harg4 arg5 harg5 hc0 hc1 x0 x1 x2 xs0).2.1 S1x1.size (by sl_kernel_rfl) y

/-- What the last point leaves in the accumulator. -/
def sout0_C_0 (c : Dev nD) (i : grid0.Coords) (arg1 : Memref sig .tc .vmem S128x12000 .f32) (harg1 : arg1.IsWhole) (arg2 : Memref sig .tc .vmem S128x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S128x12000 .f32) (x1 : Vec F S128x1 .i32) (x2 : Vec F S128x1 .f32) (xs0 : Vec F S1x1 .f32) : Vec F S1x1 .f32 :=
  VS0_0.read (Elt F) (VS0_0.writes (Elt F) VS0_0.junk (kernelRun0_C c i arg1 harg1 arg2 harg2 arg3 harg3 arg4 harg4 arg5 harg5 hc0 hc1 x0 x1 x2 xs0).2.1)

/-! ## What the output's buffer and the accumulator hold after each point -/

theorem not_first (n : ℕ) (hn : n + 1 < cfg0.N) : ¬cond0_0 (grid0.coords ⟨n + 1, hn⟩) := fun h => by
  have h' := (hcond0_0 ⟨n + 1, hn⟩).mp h
  have hN : n + 1 < 64 := lt_of_lt_of_eq hn (show cfg0.N = 64 from N_0)
  (try dsimp only at h'); omega

theorem not_last_zero (hn : 0 < cfg0.N) : ¬cond0_1 (grid0.coords ⟨0, hn⟩) := fun h => by
  have h' := (hcond0_1 ⟨0, hn⟩).mp h
  (try dsimp only at h'); omega

/-- THE ACCUMULATION: the pair (output's buffer, accumulator) after the body at position `n`: the first point's
    contents at 0; afterwards the last point's or a middle point's, run over what the point before left in the accumulator. -/
def outsAt0 (c : Dev nD) : (n : ℕ) → n < cfg0.N → Vec F S1x1 .f32 × Vec F S1x1 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (not_last_zero hn) (iblk m c 0 ⟨0, hn⟩) (iblk m c 1 ⟨0, hn⟩) (iblk m c 2 ⟨0, hn⟩),
              sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (not_last_zero hn) (iblk m c 0 ⟨0, hn⟩) (iblk m c 1 ⟨0, hn⟩) (iblk m c 2 ⟨0, hn⟩))
  | n + 1, hn =>
    if h1 : (n + 1) % 64 = 63 then
      (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (not_first n hn) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (not_first n hn) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2)
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (not_first n hn) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (not_first n hn) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2)

/-- `outsAt0` at the first point. -/
theorem outsAt0_A (c : Dev nD) (t : Fin cfg0.N) (h0 : t.val = 0) (hc0 : cond0_0 (grid0.coords t)) (hc1 : ¬cond0_1 (grid0.coords t)) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t)) := by
  obtain ⟨n, hn⟩ := t
  cases n with
  | zero => exact rfl
  | succ n => exact absurd h0 (Nat.succ_ne_zero n)

/-- `outsAt0` at a middle point: over what the point before left. -/
theorem outsAt0_B (c : Dev nD) (t : Fin cfg0.N) (h0 : t.val ≠ 0) (h1 : ¬t.val % 64 = 63) (hc0 : ¬cond0_0 (grid0.coords t)) (hc1 : ¬cond0_1 (grid0.coords t)) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t) (outsAt0 m c (t.val - 1) (Nat.lt_of_le_of_lt (Nat.sub_le _ _) t.isLt)).2,
      sout0_B_0 c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t) (outsAt0 m c (t.val - 1) (Nat.lt_of_le_of_lt (Nat.sub_le _ _) t.isLt)).2) := by
  obtain ⟨n, hn⟩ := t
  cases n with
  | zero => exact absurd rfl h0
  | succ n => exact (dif_neg h1).trans rfl

/-- `outsAt0` at the last point: over what the point before left. -/
theorem outsAt0_C (c : Dev nD) (t : Fin cfg0.N) (h0 : t.val ≠ 0) (h1 : t.val % 64 = 63) (hc0 : ¬cond0_0 (grid0.coords t)) (hc1 : cond0_1 (grid0.coords t)) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t) (outsAt0 m c (t.val - 1) (Nat.lt_of_le_of_lt (Nat.sub_le _ _) t.isLt)).2,
      sout0_C_0 c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t) (outsAt0 m c (t.val - 1) (Nat.lt_of_le_of_lt (Nat.sub_le _ _) t.isLt)).2) := by
  obtain ⟨n, hn⟩ := t
  cases n with
  | zero => exact absurd rfl h0
  | succ n => exact (dif_pos h1).trans rfl

/-! ## The region's invariant -/

/-- Before the first point: the accumulator at anything. Afterwards: the accumulator at what the point before left,
    and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- The region's proof data on core `c`: the arrays as the region finds them; after the body at point `t` each input's
    buffer at its block and the output's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' memrefs hold their blocks; the point is the first, a middle one or the last;
    the invariant hands the body the accumulator (at anything at the first point, else at what the point before left)
    and takes it back at this point's contents; away from the last point the output's buffer goes back as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : t.val = 0
  · have hc0 : cond0_0 (grid0.coords t) := (hcond0_0 t).mpr (by omega)
    have hc1 : ¬cond0_1 (grid0.coords t) := fun h => by have := (hcond0_1 t).mp h; omega
    rw [Dat.leavesExact_idle (dats m 0 c) 3 t (idleAt0_3 t hc1) (noFlush0_3 t hc1)]
    rw [outsAt0_A m c t h0 hc0 hc1]
    unfold sout0_A_0; (try dsimp only)
    rw [PhiS_castSucc m c t, PhiS_zero m c _ _ h0, PhiA0_eq]
    iintro ⟨⟨HS0, Hg⟩, Ho, ⟨%d0, H0⟩, ⟨%d1, H1⟩, ⟨%d2, H2⟩, ⟨%d3, H3⟩⟩
    iapply ((kernelRun0_A c (grid0.coords t) _ _ _ _ _ _ _ _ _ _ hc0 hc1 (iblk m c 0 t) (iblk m c 1 t) (iblk m c 2 t)).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · have hc0 : ¬cond0_0 (grid0.coords t) := fun h => by have := (hcond0_0 t).mp h; omega
    by_cases h1 : t.val % 64 = 63
    · have hc1 : cond0_1 (grid0.coords t) := (hcond0_1 t).mpr h1
      rw [show (dats m 0 c).leavesExact 3 t = owns (c : Thread nD τ) (ms0_3 t) fullShare ((dats m 0 c).after 3 t) from by
        unfold Dat.leavesExact; rw [liveAt0_3 t hc1], after0_3]
      rw [outsAt0_C m c t h0 h1 hc0 hc1]
      unfold out0_C_3 sout0_C_0; (try dsimp only)
      rw [PhiS_castSucc m c t, PhiS_pos m c _ _ h0]
      iintro ⟨⟨HS0, Hg⟩, Ho, ⟨%d0, H0⟩, ⟨%d1, H1⟩, ⟨%d2, H2⟩, ⟨%d3, H3⟩⟩
      iapply ((kernelRun0_C c (grid0.coords t) _ _ _ _ _ _ _ _ _ _ hc0 hc1 (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · have hc1 : ¬cond0_1 (grid0.coords t) := fun h => h1 ((hcond0_1 t).mp h)
      rw [Dat.leavesExact_idle (dats m 0 c) 3 t (idleAt0_3 t hc1) (noFlush0_3 t hc1)]
      rw [outsAt0_B m c t h0 h1 hc0 hc1]
      unfold sout0_B_0; (try dsimp only)
      rw [PhiS_castSucc m c t, PhiS_pos m c _ _ h0]
      iintro ⟨⟨HS0, Hg⟩, Ho, ⟨%d0, H0⟩, ⟨%d1, H1⟩, ⟨%d2, H2⟩, ⟨%d3, H3⟩⟩
      iapply ((kernelRun0_B c (grid0.coords t) _ _ _ _ _ _ _ _ _ _ hc0 hc1 (iblk m c 0 t) (iblk m c 1 t) (iblk m c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: the accumulator's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- From any memory with zero counters every weakly fair execution of @main terminates, and every final state has every
    array of the region at what the library computes from the proof data and every other unscoped buffer as the host
    operations after the region leave it. -/
theorem run_main : θ_run defs (onTc (τ := τ) (main (F := F))) (s₀ m ρ) (Pipeline.FramePost cfgs (dats m) 0 (Pipeline.afterTail₀ cfgs (dats m) 0 (V0 m) tail)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tail) (hsub := sfx_sub) (hfresh := sfx_fresh) (hkeep := sfx_keeps)
    (hmain := hmain m Variants.none) (hA := A_eq m) (hin := hin m) (hout := hout m)

/-- THE FRAME, at any float instance: @main runs to the end and its ten arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (run_main m ρ)

end Cert.Kernel.Reg

end
-- ==== Proof.KI.Around.lean ====
/-
  @main around its one kernel region, for any float instance.

  @main is: a stretch of host operations that builds the region's three input arrays (the token mask as floats, the
  labels and the logits, each laid out with the 8192 tokens in one line) and the token count; the region; eleven
  stretches of host operations that divide the region's result by the count and compute the two other losses.
  What the region finds in a buffer is what the first stretch left there (`V`); the later stretches touch only the
  region's arrays and buffers that bypass it, allocate nothing, and write none of the region's arrays; no stretch
  writes an argument. The body's two conditions, "first point" and "last point", are decided over the 64 grid points,
  and the output window is idle and not written back except at the last point.
-/
import proofs.«424876_j87643102642642_3_alg».proof.Proof.Gen.KernelIdeal.Launch
import proofs.«424876_j87643102642642_3_alg».proof.Proof.Gen.KernelIdeal.Skeleton
import proofs.«424876_j87643102642642_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The stretches of host operations -/

/-- The stretches after the region, in order. -/
abbrev tail : List (List (HloOp τ sig (Elt F))) :=
  [hostOps1, hostOps1_1, hostOps1_2, hostOps1_3, hostOps1_4, hostOps1_5, hostOps1_6, hostOps1_7, hostOps1_8, hostOps1_9, hostOps1_10]

/-- Core `c`'s buffer contents when the region is entered: after the first stretch. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- Every stretch after the region touches TensorCore references only. -/
theorem tail_sub : ∀ ops ∈ (tail : List (List (HloOp τ sig (Elt F)))), ops.Forall fun op => op.bufs ⊆ StableHlo.tcRefs τ sig := by
  intro ops hops
  simp only [tail, List.mem_cons, List.mem_nil_iff, or_false] at hops
  rcases hops with rfl | rfl | rfl | rfl | rfl | rfl | rfl | rfl | rfl | rfl | rfl
  · exact hostOps1_sub
  · exact hostOps1_1_sub
  · exact hostOps1_2_sub
  · exact hostOps1_3_sub
  · exact hostOps1_4_sub
  · exact hostOps1_5_sub
  · exact hostOps1_6_sub
  · exact hostOps1_7_sub
  · exact hostOps1_8_sub
  · exact hostOps1_9_sub
  · exact hostOps1_10_sub

/-- No operation after the region allocates. -/
theorem tail_fresh : ∀ ops ∈ (tail : List (List (HloOp τ sig (Elt F)))), ops.Forall fun op => op.fresh = ∅ := by
  intro ops hops
  simp only [tail, List.mem_cons, List.mem_nil_iff, or_false] at hops
  rcases hops with rfl | rfl | rfl | rfl | rfl | rfl | rfl | rfl | rfl | rfl | rfl <;>
    (simp only [List.Forall]; repeat' constructor)

/-- @main reduces to the region continued by the later stretches, the region entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tail (F := F)).map StableHlo.seq)) :=
  Pipeline.hmain_around cfgs 0 defs₀ 𝒱₀ m main [hostOps0] tail (by simp only [List.Forall]; exact hostOps0_sub)
    (by simp only [List.Forall]; exact hostOps0_fresh) main_chain

/-- The later stretches touch the region's arrays and the bypassing buffers only. -/
theorem sfx_sub : ∀ ops ∈ (tail : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  exact Pipeline.sub_ucRefs op ((List.forall_iff_forall_mem.mp (tail_sub ops hops)) op hop)

/-- They allocate nothing. -/
theorem sfx_fresh : ∀ ops ∈ (tail : List (List (HloOp τ sig (Elt F)))), ∀ op ∈ ops, op.fresh = ∅ := by
  intro ops hops op hop
  exact (List.forall_iff_forall_mem.mp (tail_fresh ops hops)) op hop

/-! ### No operation after the region writes an array of the region
  (each writes only its own result buffer, which is none of the four arrays; one statement per stretch) -/

set_option maxHeartbeats 2000000 in
theorem hostOps1_keeps : ∀ op ∈ (hostOps1 : List (HloOp τ sig (Elt F))), ∀ w, Proc.devRef .tc (Pipeline.arrRef spec0 w) ∉ op.writes := by
  intro op hop
  simp only [hostOps1, List.mem_cons, List.mem_nil_iff, or_false] at hop
  rcases hop with rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxHeartbeats 2000000 in
theorem hostOps1_1_keeps : ∀ op ∈ (hostOps1_1 : List (HloOp τ sig (Elt F))), ∀ w, Proc.devRef .tc (Pipeline.arrRef spec0 w) ∉ op.writes := by
  intro op hop
  simp only [hostOps1_1, List.mem_cons, List.mem_nil_iff, or_false] at hop
  rcases hop with rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxHeartbeats 2000000 in
theorem hostOps1_2_keeps : ∀ op ∈ (hostOps1_2 : List (HloOp τ sig (Elt F))), ∀ w, Proc.devRef .tc (Pipeline.arrRef spec0 w) ∉ op.writes := by
  intro op hop
  simp only [hostOps1_2, List.mem_cons, List.mem_nil_iff, or_false] at hop
  rcases hop with rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxHeartbeats 2000000 in
theorem hostOps1_3_keeps : ∀ op ∈ (hostOps1_3 : List (HloOp τ sig (Elt F))), ∀ w, Proc.devRef .tc (Pipeline.arrRef spec0 w) ∉ op.writes := by
  intro op hop
  simp only [hostOps1_3, List.mem_cons, List.mem_nil_iff, or_false] at hop
  rcases hop with rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxHeartbeats 2000000 in
theorem hostOps1_4_keeps : ∀ op ∈ (hostOps1_4 : List (HloOp τ sig (Elt F))), ∀ w, Proc.devRef .tc (Pipeline.arrRef spec0 w) ∉ op.writes := by
  intro op hop
  simp only [hostOps1_4, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxHeartbeats 2000000 in
theorem hostOps1_5_keeps : ∀ op ∈ (hostOps1_5 : List (HloOp τ sig (Elt F))), ∀ w, Proc.devRef .tc (Pipeline.arrRef spec0 w) ∉ op.writes := by
  intro op hop
  simp only [hostOps1_5, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxHeartbeats 2000000 in
theorem hostOps1_6_keeps : ∀ op ∈ (hostOps1_6 : List (HloOp τ sig (Elt F))), ∀ w, Proc.devRef .tc (Pipeline.arrRef spec0 w) ∉ op.writes := by
  intro op hop
  simp only [hostOps1_6, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxHeartbeats 2000000 in
theorem hostOps1_7_keeps : ∀ op ∈ (hostOps1_7 : List (HloOp τ sig (Elt F))), ∀ w, Proc.devRef .tc (Pipeline.arrRef spec0 w) ∉ op.writes := by
  intro op hop
  simp only [hostOps1_7, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxHeartbeats 2000000 in
theorem hostOps1_8_keeps : ∀ op ∈ (hostOps1_8 : List (HloOp τ sig (Elt F))), ∀ w, Proc.devRef .tc (Pipeline.arrRef spec0 w) ∉ op.writes := by
  intro op hop
  simp only [hostOps1_8, List.mem_cons, List.mem_nil_iff, or_false] at hop
  rcases hop with rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxHeartbeats 2000000 in
theorem hostOps1_9_keeps : ∀ op ∈ (hostOps1_9 : List (HloOp τ sig (Elt F))), ∀ w, Proc.devRef .tc (Pipeline.arrRef spec0 w) ∉ op.writes := by
  intro op hop
  simp only [hostOps1_9, List.mem_cons, List.mem_nil_iff, or_false] at hop
  rcases hop with rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxHeartbeats 2000000 in
theorem hostOps1_10_keeps : ∀ op ∈ (hostOps1_10 : List (HloOp τ sig (Elt F))), ∀ w, Proc.devRef .tc (Pipeline.arrRef spec0 w) ∉ op.writes := by
  intro op hop
  simp only [hostOps1_10, List.mem_cons, List.mem_nil_iff, or_false] at hop
  rcases hop with rfl | rfl | rfl | rfl | rfl | rfl | rfl | rfl | rfl | rfl | rfl
  all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The later stretches write no array of the region. -/
theorem sfx_keeps : ∀ ops ∈ (tail : List (List (HloOp τ sig (Elt F)))), ∀ op ∈ ops,
    ∀ w, Proc.devRef .tc (Pipeline.arrRef spec0 w) ∉ op.writes := by
  intro ops hops
  simp only [tail, List.mem_cons, List.mem_nil_iff, or_false] at hops
  rcases hops with rfl | rfl | rfl | rfl | rfl | rfl | rfl | rfl | rfl | rfl | rfl
  · exact hostOps1_keeps
  · exact hostOps1_1_keeps
  · exact hostOps1_2_keeps
  · exact hostOps1_3_keeps
  · exact hostOps1_4_keeps
  · exact hostOps1_5_keeps
  · exact hostOps1_6_keeps
  · exact hostOps1_7_keeps
  · exact hostOps1_8_keeps
  · exact hostOps1_9_keeps
  · exact hostOps1_10_keeps

/-! ## The arguments are written by no host operation -/

/-- The ten argument references. -/
abbrev argRefs : List (Ref sig .tc) := [main_arg0, main_arg1, main_arg2, main_arg3, main_arg4, main_arg5, main_arg6, main_arg7, main_arg8, main_arg9]

set_option maxHeartbeats 4000000 in
theorem hostOps0_keeps_args : ∀ op ∈ (hostOps0 : List (HloOp τ sig (Elt F))), ∀ b ∈ argRefs, Proc.devRef .tc b ∉ op.writes := by
  intro op hop b hb
  simp only [argRefs, List.mem_cons, List.mem_nil_iff, or_false] at hb
  simp only [hostOps0, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl <;>
    rcases hb with rfl | rfl | rfl | rfl | rfl | rfl | rfl | rfl | rfl | rfl <;>
    simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxHeartbeats 4000000 in
theorem hostOps1_keeps_args : ∀ op ∈ (hostOps1 : List (HloOp τ sig (Elt F))), ∀ b ∈ argRefs, Proc.devRef .tc b ∉ op.writes := by
  intro op hop b hb
  simp only [argRefs, List.mem_cons, List.mem_nil_iff, or_false] at hb
  simp only [hostOps1, List.mem_cons, List.mem_nil_iff, or_false] at hop
  rcases hop with rfl | rfl | rfl | rfl | rfl | rfl | rfl | rfl <;>
    rcases hb with rfl | rfl | rfl | rfl | rfl | rfl | rfl | rfl | rfl | rfl <;>
    simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxHeartbeats 4000000 in
theorem hostOps1_1_keeps_args : ∀ op ∈ (hostOps1_1 : List (HloOp τ sig (Elt F))), ∀ b ∈ argRefs, Proc.devRef .tc b ∉ op.writes := by
  intro op hop b hb
  simp only [argRefs, List.mem_cons, List.mem_nil_iff, or_false] at hb
  simp only [hostOps1_1, List.mem_cons, List.mem_nil_iff, or_false] at hop
  rcases hop with rfl | rfl | rfl | rfl | rfl | rfl | rfl | rfl | rfl | rfl | rfl | rfl | rfl | rfl | rfl <;>
    rcases hb with rfl | rfl | rfl | rfl | rfl | rfl | rfl | rfl | rfl | rfl <;>
    simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxHeartbeats 4000000 in
theorem hostOps1_2_keeps_args : ∀ op ∈ (hostOps1_2 : List (HloOp τ sig (Elt F))), ∀ b ∈ argRefs, Proc.devRef .tc b ∉ op.writes := by
  intro op hop b hb
  simp only [argRefs, List.mem_cons, List.mem_nil_iff, or_false] at hb
  simp only [hostOps1_2, List.mem_cons, List.mem_nil_iff, or_false] at hop
  rcases hop with rfl <;>
    rcases hb with rfl | rfl | rfl | rfl | rfl | rfl | rfl | rfl | rfl | rfl <;>
    simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxHeartbeats 4000000 in
theorem hostOps1_3_keeps_args : ∀ op ∈ (hostOps1_3 : List (HloOp τ sig (Elt F))), ∀ b ∈ argRefs, Proc.devRef .tc b ∉ op.writes := by
  intro op hop b hb
  simp only [argRefs, List.mem_cons, List.mem_nil_iff, or_false] at hb
  simp only [hostOps1_3, List.mem_cons, List.mem_nil_iff, or_false] at hop
  rcases hop with rfl | rfl | rfl | rfl | rfl | rfl | rfl | rfl | rfl | rfl | rfl | rfl | rfl | rfl | rfl | rfl | rfl | rfl | rfl | rfl | rfl | rfl <;>
    rcases hb with rfl | rfl | rfl | rfl | rfl | rfl | rfl | rfl | rfl | rfl <;>
    simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxHeartbeats 4000000 in
theorem hostOps1_4_keeps_args : ∀ op ∈ (hostOps1_4 : List (HloOp τ sig (Elt F))), ∀ b ∈ argRefs, Proc.devRef .tc b ∉ op.writes := by
  intro op hop b hb
  simp only [argRefs, List.mem_cons, List.mem_nil_iff, or_false] at hb
  simp only [hostOps1_4, List.mem_cons, List.mem_nil_iff, or_false] at hop
  rcases hop with rfl | rfl | rfl <;>
    rcases hb with rfl | rfl | rfl | rfl | rfl | rfl | rfl | rfl | rfl | rfl <;>
    simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxHeartbeats 4000000 in
theorem hostOps1_5_keeps_args : ∀ op ∈ (hostOps1_5 : List (HloOp τ sig (Elt F))), ∀ b ∈ argRefs, Proc.devRef .tc b ∉ op.writes := by
  intro op hop b hb
  simp only [argRefs, List.mem_cons, List.mem_nil_iff, or_false] at hb
  simp only [hostOps1_5, List.mem_cons, List.mem_nil_iff, or_false] at hop
  rcases hop with rfl | rfl | rfl <;>
    rcases hb with rfl | rfl | rfl | rfl | rfl | rfl | rfl | rfl | rfl | rfl <;>
    simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxHeartbeats 4000000 in
theorem hostOps1_6_keeps_args : ∀ op ∈ (hostOps1_6 : List (HloOp τ sig (Elt F))), ∀ b ∈ argRefs, Proc.devRef .tc b ∉ op.writes := by
  intro op hop b hb
  simp only [argRefs, List.mem_cons, List.mem_nil_iff, or_false] at hb
  simp only [hostOps1_6, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl | rfl | rfl | rfl | rfl <;>
    rcases hb with rfl | rfl | rfl | rfl | rfl | rfl | rfl | rfl | rfl | rfl <;>
    simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxHeartbeats 4000000 in
theorem hostOps1_7_keeps_args : ∀ op ∈ (hostOps1_7 : List (HloOp τ sig (Elt F))), ∀ b ∈ argRefs, Proc.devRef .tc b ∉ op.writes := by
  intro op hop b hb
  simp only [argRefs, List.mem_cons, List.mem_nil_iff, or_false] at hb
  simp only [hostOps1_7, List.mem_cons, List.mem_nil_iff, or_false] at hop
  rcases hop with rfl | rfl | rfl <;>
    rcases hb with rfl | rfl | rfl | rfl | rfl | rfl | rfl | rfl | rfl | rfl <;>
    simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxHeartbeats 4000000 in
theorem hostOps1_8_keeps_args : ∀ op ∈ (hostOps1_8 : List (HloOp τ sig (Elt F))), ∀ b ∈ argRefs, Proc.devRef .tc b ∉ op.writes := by
  intro op hop b hb
  simp only [argRefs, List.mem_cons, List.mem_nil_iff, or_false] at hb
  simp only [hostOps1_8, List.mem_cons, List.mem_nil_iff, or_false] at hop
  rcases hop with rfl | rfl | rfl | rfl | rfl | rfl | rfl | rfl | rfl | rfl | rfl | rfl | rfl | rfl | rfl | rfl <;>
    rcases hb with rfl | rfl | rfl | rfl | rfl | rfl | rfl | rfl | rfl | rfl <;>
    simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxHeartbeats 4000000 in
theorem hostOps1_9_keeps_args : ∀ op ∈ (hostOps1_9 : List (HloOp τ sig (Elt F))), ∀ b ∈ argRefs, Proc.devRef .tc b ∉ op.writes := by
  intro op hop b hb
  simp only [argRefs, List.mem_cons, List.mem_nil_iff, or_false] at hb
  simp only [hostOps1_9, List.mem_cons, List.mem_nil_iff, or_false] at hop
  rcases hop with rfl | rfl | rfl <;>
    rcases hb with rfl | rfl | rfl | rfl | rfl | rfl | rfl | rfl | rfl | rfl <;>
    simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

set_option maxHeartbeats 4000000 in
theorem hostOps1_10_keeps_args : ∀ op ∈ (hostOps1_10 : List (HloOp τ sig (Elt F))), ∀ b ∈ argRefs, Proc.devRef .tc b ∉ op.writes := by
  intro op hop b hb
  simp only [argRefs, List.mem_cons, List.mem_nil_iff, or_false] at hb
  simp only [hostOps1_10, List.mem_cons, List.mem_nil_iff, or_false] at hop
  rcases hop with rfl | rfl | rfl | rfl | rfl | rfl | rfl | rfl | rfl | rfl | rfl <;>
    rcases hb with rfl | rfl | rfl | rfl | rfl | rfl | rfl | rfl | rfl | rfl <;>
    simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- No array of the region is an argument. -/
theorem arr_ne_arg : ∀ b ∈ argRefs, ∀ w, Pipeline.arrRef spec0 w ≠ b := by
  intro b hb
  simp only [argRefs, List.mem_cons, List.mem_nil_iff, or_false] at hb
  rcases hb with rfl | rfl | rfl | rfl | rfl | rfl | rfl | rfl | rfl | rfl <;> decide

/-- The region finds every argument as launched. -/
theorem V_arg (c : Dev nD) (b : Ref sig .tc) (hb : b ∈ argRefs) : V m c b = m ((c : Thread nD τ).loc b) :=
  StableHlo.after_of_forall_not_mem (b := Proc.devRef .tc b) _ _ (by
    intro op hop
    simp only [List.flatten_cons, List.flatten_nil, List.append_nil] at hop
    exact hostOps0_keeps_args op hop b hb)

/-- After the later stretches every argument is still as launched, whatever the region's arrays hold. -/
theorem W_arg (dats : (p : Fin 1) → (c : Dev nD) → Dat τ (Elt F) Unit ℕ (UR sig nD τ) ℕ (cfgs p) c) (c : Dev nD)
    (b : Ref sig .tc) (hb : b ∈ argRefs) :
    Pipeline.afterTail₀ cfgs dats 0 (V0 m) tail c b = m ((c : Thread nD τ).loc b) := by
  unfold Pipeline.afterTail₀
  rw [StableHlo.after_of_forall_not_mem (b := Proc.devRef .tc b) _ _ (by
      intro op hop
      obtain ⟨ops, hops, hop'⟩ := List.mem_flatten.mp hop
      simp only [tail, List.mem_cons, List.mem_nil_iff, or_false] at hops
      rcases hops with rfl | rfl | rfl | rfl | rfl | rfl | rfl | rfl | rfl | rfl | rfl
      · exact hostOps1_keeps_args op hop' b hb
      · exact hostOps1_1_keeps_args op hop' b hb
      · exact hostOps1_2_keeps_args op hop' b hb
      · exact hostOps1_3_keeps_args op hop' b hb
      · exact hostOps1_4_keeps_args op hop' b hb
      · exact hostOps1_5_keeps_args op hop' b hb
      · exact hostOps1_6_keeps_args op hop' b hb
      · exact hostOps1_7_keeps_args op hop' b hb
      · exact hostOps1_8_keeps_args op hop' b hb
      · exact hostOps1_9_keeps_args op hop' b hb
      · exact hostOps1_10_keeps_args op hop' b hb),
    Pipeline.withArrays_of_ne _ c (V0 m c) _ b (arr_ne_arg b hb)]
  exact V_arg m c b hb

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof data
    whose array is `V`'s and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not, for any proof data
    whose array is `V`'s and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not, for any proof data
    whose array is `V`'s and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the frame post read at the ten arguments
    (none is an array of the region: each is a bypassing buffer, kept by every host operation) is the frame claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tail))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
    ((h c).2 main_arg0 (Pipeline.mem_restRefs_of main_arg0 (by decide) (by decide))).trans (W_arg m dats c main_arg0 (by simp only [argRefs, List.mem_cons, List.mem_nil_iff, true_or, or_true])),
    ((h c).2 main_arg1 (Pipeline.mem_restRefs_of main_arg1 (by decide) (by decide))).trans (W_arg m dats c main_arg1 (by simp only [argRefs, List.mem_cons, List.mem_nil_iff, true_or, or_true])),
    ((h c).2 main_arg2 (Pipeline.mem_restRefs_of main_arg2 (by decide) (by decide))).trans (W_arg m dats c main_arg2 (by simp only [argRefs, List.mem_cons, List.mem_nil_iff, true_or, or_true])),
    ((h c).2 main_arg3 (Pipeline.mem_restRefs_of main_arg3 (by decide) (by decide))).trans (W_arg m dats c main_arg3 (by simp only [argRefs, List.mem_cons, List.mem_nil_iff, true_or, or_true])),
    ((h c).2 main_arg4 (Pipeline.mem_restRefs_of main_arg4 (by decide) (by decide))).trans (W_arg m dats c main_arg4 (by simp only [argRefs, List.mem_cons, List.mem_nil_iff, true_or, or_true])),
    ((h c).2 main_arg5 (Pipeline.mem_restRefs_of main_arg5 (by decide) (by decide))).trans (W_arg m dats c main_arg5 (by simp only [argRefs, List.mem_cons, List.mem_nil_iff, true_or, or_true])),
    ((h c).2 main_arg6 (Pipeline.mem_restRefs_of main_arg6 (by decide) (by decide))).trans (W_arg m dats c main_arg6 (by simp only [argRefs, List.mem_cons, List.mem_nil_iff, true_or, or_true])),
    ((h c).2 main_arg7 (Pipeline.mem_restRefs_of main_arg7 (by decide) (by decide))).trans (W_arg m dats c main_arg7 (by simp only [argRefs, List.mem_cons, List.mem_nil_iff, true_or, or_true])),
    ((h c).2 main_arg8 (Pipeline.mem_restRefs_of main_arg8 (by decide) (by decide))).trans (W_arg m dats c main_arg8 (by simp only [argRefs, List.mem_cons, List.mem_nil_iff, true_or, or_true])),
    ((h c).2 main_arg9 (Pipeline.mem_restRefs_of main_arg9 (by decide) (by decide))).trans (W_arg m dats c main_arg9 (by simp only [argRefs, List.mem_cons, List.mem_nil_iff, true_or, or_true]))⟩) h

/-! ## The body's two conditions -/

/-- "This is the first point": the body's first branch, from the grid coordinate. -/
abbrev cond0_0 (i : grid0.Coords) : Prop := (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val % 64 = 0 :=
  (by decide +kernel : ∀ t : Fin grid0.N, cond0_0 (grid0.coords t) ↔ t.val % 64 = 0)

/-- "This is the last point": the body's second branch. -/
abbrev cond0_1 (i : grid0.Coords) : Prop := k0_cond2 i = 1#1
/-- It holds at point 63 only. -/
theorem hcond0_1 : ∀ t : Fin cfg0.N, cond0_1 (grid0.coords t) ↔ t.val % 64 = 63 :=
  (by decide +kernel : ∀ t : Fin grid0.N, cond0_1 (grid0.coords t) ↔ t.val % 64 = 63)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Away from the last point the output window is idle (the body stores nothing into it) and is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last point it is live. -/
theorem liveAt0_3 : ∀ t : Fin cfg0.N, cond0_1 (grid0.coords t) → cfg0.idle 3 (grid0.coords t) = false := by decide +kernel

/-! ## The memrefs the body is called with -/

/-- The output window's one staging buffer, through which its contents are stated. -/
abbrev VO0_3 : View sig .tc .vmem S1x1 .f32 := (Memref.whole cc0_stg3_0 : Memref sig .tc .vmem S1x1 .f32).view
abbrev ms0_0 (t : Fin cfg0.N) : Memref sig .tc .vmem S128x12000 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x1 .i32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1 .f32 := win0_3.stage (cfg0.slots t 3)
abbrev hs0_3 (t : Fin cfg0.N) : (ms0_3 t).IsWhole := hstage0_3 ((cfg0.slots t 3).cast nbuf0_3)
/-- The accumulator: a whole scoped buffer of the kernel's own, passed beside the windows. -/
abbrev scM0_0 : Memref sig .tc .vmem S1x1 .f32 := Memref.whole cc0_scratch0
/-- The accumulator as a view: what it holds is stated through it. -/
abbrev VS0_0 : View sig .tc .vmem S1x1 .f32 := scM0_0.view

/-- The region's invariant with the accumulator as a memref owned at some contents: what the body is handed and
    gives back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Reg

end
-- ==== Proof.KI.RunA.lean ====
/-
  The kernel body at the FIRST grid point, run on whole staging memrefs: the accumulator, found at anything, is set to
  zero and then to zero plus this tile's contribution; the inputs' buffers and the output's (which the body does not
  touch here) are handed back as found. What the accumulator ends with is recorded as the list of pieces its stores wrote.
-/
import proofs.«424876_j87643102642642_3_alg».proof.Proof.KI.Around

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The first point's run: the pieces the accumulator's stores leave, with the body's triple. -/
noncomputable def kernelRun0_A (c : Dev nD) (i : grid0.Coords)
    (arg1 : Memref sig .tc .vmem S128x12000 .f32) (harg1 : arg1.IsWhole) (arg2 : Memref sig .tc .vmem S128x1 .i32) (harg2 : arg2.IsWhole)
    (arg3 : Memref sig .tc .vmem S128x1 .f32) (harg3 : arg3.IsWhole) (arg4 : Memref sig .tc .vmem S1x1 .f32) (harg4 : arg4.IsWhole)
    (arg5 : Memref sig .tc .vmem S1x1 .f32) (harg5 : arg5.IsWhole) (hc0 : cond0_0 i) (hc1 : ¬cond0_1 i)
    (x0 : Vec F S128x12000 .f32) (x1 : Vec F S128x1 .i32) (x2 : Vec F S128x1 .f32) :
    Σ' (L3 : List (View.Piece (Elt F) S1x1 .f32)), { LS0 : List (View.Piece (Elt F) S1x1 .f32) //
      ∀ (xi3 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0__cap_loss_kernel i arg1 harg1 arg2 harg2 arg3 harg3 arg4 harg4 arg5 harg5) K } := by
  refine ⟨[], ?_, fun xi3 E K => ?run⟩
  case run =>
    simp only [cc0__cap_loss_kernel_eq_skeleton]; unfold cc0__cap_loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.KernelIdeal.Reg

end
-- ==== Proof.KI.RunB.lean ====
/-
  The kernel body at a MIDDLE grid point (neither first nor last), run on whole staging memrefs: the accumulator, found at
  what the point before left, ends at that plus this tile's contribution; everything else is handed back as found.
-/
import proofs.«424876_j87643102642642_3_alg».proof.Proof.KI.RunA

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- A middle point's run: the pieces the accumulator's store leaves, with the body's triple. -/
noncomputable def kernelRun0_B (c : Dev nD) (i : grid0.Coords)
    (arg1 : Memref sig .tc .vmem S128x12000 .f32) (harg1 : arg1.IsWhole) (arg2 : Memref sig .tc .vmem S128x1 .i32) (harg2 : arg2.IsWhole)
    (arg3 : Memref sig .tc .vmem S128x1 .f32) (harg3 : arg3.IsWhole) (arg4 : Memref sig .tc .vmem S1x1 .f32) (harg4 : arg4.IsWhole)
    (arg5 : Memref sig .tc .vmem S1x1 .f32) (harg5 : arg5.IsWhole) (hc0 : ¬cond0_0 i) (hc1 : ¬cond0_1 i)
    (x0 : Vec F S128x12000 .f32) (x1 : Vec F S128x1 .i32) (x2 : Vec F S128x1 .f32) (xs0 : Vec F S1x1 .f32) :
    Σ' (L3 : List (View.Piece (Elt F) S1x1 .f32)), { LS0 : List (View.Piece (Elt F) S1x1 .f32) //
      ∀ (xi3 : Vec F S1x1 .f32) (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xs0
            ∗ (iprop(owns (c : Thread nD τ) arg1 fullShare x0 ∗ owns (c : Thread nD τ) arg2 fullShare x1 ∗ owns (c : Thread nD τ) arg3 fullShare x2 ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0__cap_loss_kernel i arg1 harg1 arg2 harg2 arg3 harg3 arg4 harg4 arg5 harg5) K } := by
  refine ⟨[], ?_, fun xi3 E K => ?run⟩
  case run =>
    simp only [cc0__cap_loss_kernel_eq_skeleton]; unfold cc0__cap_loss_kernel_skel
    simp only [k0_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg1.eq_unread hf0; obtain rfl := harg2.eq_unread hf1; obtain rfl := harg3.eq_unread hf2; obtain rfl := harg4.eq_unread hf3; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact HS0

end Cert.KernelIdeal.Reg

end
-- ==== Proof.KI.RunC.lean ====
/-
  The kernel body at the LAST grid point, run on whole staging memrefs: the accumulator, found at what the point before
  left, ends at that plus this tile's contribution, and the output's buffer, found at anything, is stored with the
  accumulator's final contents. What each ends with is recorded as the list of pieces its stores wrote.
-/
import proofs.«424876_j87643102642642_3_alg».proof.Proof.KI.RunB

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The last point's run: the pieces the output's and the accumulator's stores leave, with the body's triple. -/
noncomputable def kernelRun0_C (c : Dev nD) (i : grid0.Coords)
    (arg1 : Memref sig .tc .vmem S128x12000 .f32) (harg1 : arg1.IsWhole) (arg2 : Memref sig .tc .vmem S128x1 .i32) (harg2 : arg2.IsWhole)
    (arg3 : Memref sig .tc .vmem S128x1 .f32) (harg3 : arg3.IsWhole) (arg4 : Memref sig .tc .vmem S1x1 .f32) (harg4 : arg4.IsWhole)
    (arg5 : Memref sig .tc .vmem S1x1 .f32) (harg5 : arg5.IsWhole) (hc0 : ¬cond0_0 i) (hc1 : cond0_1 i)
    (x0 : Vec F S128x12000 .f32) (x1 : Vec F S128x1 .i32) (x2 : Vec F S128x1 .f32) (xs0 : Vec F S1x1 .f32) :
    Σ' (L3 : List (View.Piece (Elt F) S1x1 .f32)), { LS0 : List (View.Piece (Elt F) S1x1 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc0__cap_loss_kernel i arg1 harg1 arg2 harg2 arg3 harg3 arg4 harg4 arg5 harg5) K } := by
  refine ⟨?_, ?_, fun E K => ?run⟩
  case run =>
    simp only [cc0__cap_loss_kernel_eq_skeleton]; unfold cc0__cap_loss_kernel_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

end Cert.KernelIdeal.Reg

end
-- ==== Proof.KI.Frame.lean ====
/-
  The frame of the one kernel region and of @main around it, for any float instance, with what the region leaves NAMED.

  The body runs in three cases over the 64 grid points: the first point (the accumulator is reset, then added to), the
  middle points (added to), the last point (added to, then stored to the output's buffer). What the accumulator and the
  output's buffer hold after each point is defined by recursion on the point (`outsAt0`): each case's stores read
  back, the accumulator found at what the point before left. The region's invariant carries the accumulator at that
  contents from the second point on. With this proof data the body's triple holds at every point (`sound_body`), and
  the library's launch theorem for a region followed by host operations gives the run of @main: it terminates, every
  array of the region ends at what the proof data computes, and every other buffer at what the later host operations
  leave (`run_main`); read at the ten arguments this is the frame claim (`frame`).
-/
import proofs.«424876_j87643102642642_3_alg».proof.Proof.KI.RunC

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

/-- The first point stores nothing into the output's buffer: a placeholder nothing consults (the window is idle there). -/
def out0_A_3 (c : Dev nD) (i : grid0.Coords) (arg1 : Memref sig .tc .vmem S128x12000 .f32) (harg1 : arg1.IsWhole) (arg2 : Memref sig .tc .vmem S128x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S128x12000 .f32) (x1 : Vec F S128x1 .i32) (x2 : Vec F S128x1 .f32) : Vec F S1x1 .f32 :=
  VO0_3.read (Elt F) (VO0_3.writes (Elt F) VO0_3.junk (kernelRun0_A c i arg1 harg1 arg2 harg2 arg3 harg3 arg4 harg4 arg5 harg5 hc0 hc1 x0 x1 x2).1)

/-- The first point's stores into the accumulator cover it. -/
theorem scover0_A_0 (c : Dev nD) (i : grid0.Coords) (arg1 : Memref sig .tc .vmem S128x12000 .f32) (harg1 : arg1.IsWhole) (arg2 : Memref sig .tc .vmem S128x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S128x12000 .f32) (x1 : Vec F S128x1 .i32) (x2 : Vec F S128x1 .f32) (y : S1x1.Idx) :
    ∃ pc ∈ (kernelRun0_A c i arg1 harg1 arg2 harg2 arg3 harg3 arg4 harg4 arg5 harg5 hc0 hc1 x0 x1 x2).2.1, y ∈ pc.1.set :=
  View.cover_of_tiledL (kernelRun0_A c i arg1 harg1 arg2 harg2 arg3 harg3 arg4 harg4 arg5 harg5 hc0 hc1 x0 x1 x2).2.1 S1x1.size (by sl_kernel_rfl) y

/-- What the first point leaves in the accumulator: its stores read back. -/
def sout0_A_0 (c : Dev nD) (i : grid0.Coords) (arg1 : Memref sig .tc .vmem S128x12000 .f32) (harg1 : arg1.IsWhole) (arg2 : Memref sig .tc .vmem S128x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S128x12000 .f32) (x1 : Vec F S128x1 .i32) (x2 : Vec F S128x1 .f32) : Vec F S1x1 .f32 :=
  VS0_0.read (Elt F) (VS0_0.writes (Elt F) VS0_0.junk (kernelRun0_A c i arg1 harg1 arg2 harg2 arg3 harg3 arg4 harg4 arg5 harg5 hc0 hc1 x0 x1 x2).2.1)

/-- A middle point stores nothing into the output's buffer: a placeholder nothing consults. -/
def out0_B_3 (c : Dev nD) (i : grid0.Coords) (arg1 : Memref sig .tc .vmem S128x12000 .f32) (harg1 : arg1.IsWhole) (arg2 : Memref sig .tc .vmem S128x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S128x12000 .f32) (x1 : Vec F S128x1 .i32) (x2 : Vec F S128x1 .f32) (xs0 : Vec F S1x1 .f32) : Vec F S1x1 .f32 :=
  VO0_3.read (Elt F) (VO0_3.writes (Elt F) VO0_3.junk (kernelRun0_B c i arg1 harg1 arg2 harg2 arg3 harg3 arg4 harg4 arg5 harg5 hc0 hc1 x0 x1 x2 xs0).1)

/-- A middle point's store into the accumulator covers it. -/
theorem scover0_B_0 (c : Dev nD) (i : grid0.Coords) (arg1 : Memref sig .tc .vmem S128x12000 .f32) (harg1 : arg1.IsWhole) (arg2 : Memref sig .tc .vmem S128x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S128x12000 .f32) (x1 : Vec F S128x1 .i32) (x2 : Vec F S128x1 .f32) (xs0 : Vec F S1x1 .f32) (y : S1x1.Idx) :
    ∃ pc ∈ (kernelRun0_B c i arg1 harg1 arg2 harg2 arg3 harg3 arg4 harg4 arg5 harg5 hc0 hc1 x0 x1 x2 xs0).2.1, y ∈ pc.1.set :=
  View.cover_of_tiledL (kernelRun0_B c i arg1 harg1 arg2 harg2 arg3 harg3 arg4 harg4 arg5 harg5 hc0 hc1 x0 x1 x2 xs0).2.1 S1x1.size (by sl_kernel_rfl) y

/-- What a middle point leaves in the accumulator. -/
def sout0_B_0 (c : Dev nD) (i : grid0.Coords) (arg1 : Memref sig .tc .vmem S128x12000 .f32) (harg1 : arg1.IsWhole) (arg2 : Memref sig .tc .vmem S128x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S128x12000 .f32) (x1 : Vec F S128x1 .i32) (x2 : Vec F S128x1 .f32) (xs0 : Vec F S1x1 .f32) : Vec F S1x1 .f32 :=
  VS0_0.read (Elt F) (VS0_0.writes (Elt F) VS0_0.junk (kernelRun0_B c i arg1 harg1 arg2 harg2 arg3 harg3 arg4 harg4 arg5 harg5 hc0 hc1 x0 x1 x2 xs0).2.1)

/-- The last point's store into the output's buffer covers it. -/
theorem cover0_C_3 (c : Dev nD) (i : grid0.Coords) (arg1 : Memref sig .tc .vmem S128x12000 .f32) (harg1 : arg1.IsWhole) (arg2 : Memref sig .tc .vmem S128x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S128x12000 .f32) (x1 : Vec F S128x1 .i32) (x2 : Vec F S128x1 .f32) (xs0 : Vec F S1x1 .f32) (y : S1x1.Idx) :
    ∃ pc ∈ (kernelRun0_C c i arg1 harg1 arg2 harg2 arg3 harg3 arg4 harg4 arg5 harg5 hc0 hc1 x0 x1 x2 xs0).1, y ∈ pc.1.set :=
  View.cover_of_tiledL (kernelRun0_C c i arg1 harg1 arg2 harg2 arg3 harg3 arg4 harg4 arg5 harg5 hc0 hc1 x0 x1 x2 xs0).1 S1x1.size (by sl_kernel_rfl) y

/-- What the last point leaves in the output's buffer. -/
def out0_C_3 (c : Dev nD) (i : grid0.Coords) (arg1 : Memref sig .tc .vmem S128x12000 .f32) (harg1 : arg1.IsWhole) (arg2 : Memref sig .tc .vmem S128x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S128x12000 .f32) (x1 : Vec F S128x1 .i32) (x2 : Vec F S128x1 .f32) (xs0 : Vec F S1x1 .f32) : Vec F S1x1 .f32 :=
  VO0_3.read (Elt F) (VO0_3.writes (Elt F) VO0_3.junk (kernelRun0_C c i arg1 harg1 arg2 harg2 arg3 harg3 arg4 harg4 arg5 harg5 hc0 hc1 x0 x1 x2 xs0).1)

/-- The last point's store into the accumulator covers it. -/
theorem scover0_C_0 (c : Dev nD) (i : grid0.Coords) (arg1 : Memref sig .tc .vmem S128x12000 .f32) (harg1 : arg1.IsWhole) (arg2 : Memref sig .tc .vmem S128x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S128x12000 .f32) (x1 : Vec F S128x1 .i32) (x2 : Vec F S128x1 .f32) (xs0 : Vec F S1x1 .f32) (y : S1x1.Idx) :
    ∃ pc ∈ (kernelRun0_C c i arg1 harg1 arg2 harg2 arg3 harg3 arg4 harg4 arg5 harg5 hc0 hc1 x0 x1 x2 xs0).2.1, y ∈ pc.1.set :=
  View.cover_of_tiledL (kernelRun0_C c i arg1 harg1 arg2 harg2 arg3 harg3 arg4 harg4 arg5 harg5 hc0 hc1 x0 x1 x2 xs0).2.1 S1x1.size (by sl_kernel_rfl) y

/-- What the last point leaves in the accumulator. -/
def sout0_C_0 (c : Dev nD) (i : grid0.Coords) (arg1 : Memref sig .tc .vmem S128x12000 .f32) (harg1 : arg1.IsWhole) (arg2 : Memref sig .tc .vmem S128x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S128x12000 .f32) (x1 : Vec F S128x1 .i32) (x2 : Vec F S128x1 .f32) (xs0 : Vec F S1x1 .f32) : Vec F S1x1 .f32 :=
  VS0_0.read (Elt F) (VS0_0.writes (Elt F) VS0_0.junk (kernelRun0_C c i arg1 harg1 arg2 harg2 arg3 harg3 arg4 harg4 arg5 harg5 hc0 hc1 x0 x1 x2 xs0).2.1)

/-! ## What the output's buffer and the accumulator hold after each point -/

theorem not_first (n : ℕ) (hn : n + 1 < cfg0.N) : ¬cond0_0 (grid0.coords ⟨n + 1, hn⟩) := fun h => by
  have h' := (hcond0_0 ⟨n + 1, hn⟩).mp h
  have hN : n + 1 < 64 := lt_of_lt_of_eq hn (show cfg0.N = 64 from N_0)
  (try dsimp only at h'); omega

theorem not_last_zero (hn : 0 < cfg0.N) : ¬cond0_1 (grid0.coords ⟨0, hn⟩) := fun h => by
  have h' := (hcond0_1 ⟨0, hn⟩).mp h
  (try dsimp only at h'); omega

/-- THE ACCUMULATION: the pair (output's buffer, accumulator) after the body at position `n`: the first point's
    contents at 0; afterwards the last point's or a middle point's, run over what the point before left in the accumulator. -/
def outsAt0 (c : Dev nD) : (n : ℕ) → n < cfg0.N → Vec F S1x1 .f32 × Vec F S1x1 .f32
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (not_last_zero hn) (iblk m c 0 ⟨0, hn⟩) (iblk m c 1 ⟨0, hn⟩) (iblk m c 2 ⟨0, hn⟩),
              sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (not_last_zero hn) (iblk m c 0 ⟨0, hn⟩) (iblk m c 1 ⟨0, hn⟩) (iblk m c 2 ⟨0, hn⟩))
  | n + 1, hn =>
    if h1 : (n + 1) % 64 = 63 then
      (out0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (not_first n hn) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2,
       sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (not_first n hn) ((hcond0_1 ⟨n + 1, hn⟩).mpr h1) (iblk m c 0 ⟨n + 1, hn⟩) (iblk m c 1 ⟨n + 1, hn⟩) (iblk m c 2 ⟨n + 1, hn⟩) (outsAt0 c n (Nat.lt_of_succ_lt hn)).2)
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (not_first n hn) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2,
       sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (not_first n hn) (fun h => h1 ((hcond0_1 ⟨n + 1, hn⟩).mp h)) (iblk m c 0 ⟨n + 1, hn⟩) (iblk m c 1 ⟨n + 1, hn⟩) (iblk m c 2 ⟨n + 1, hn⟩) (outsAt0 c n (Nat.lt_of_succ_lt hn)).2)

/-- `outsAt0` at the first point. -/
theorem outsAt0_A (c : Dev nD) (t : Fin cfg0.N) (h0 : t.val = 0) (hc0 : cond0_0 (grid0.coords t)) (hc1 : ¬cond0_1 (grid0.coords t)) :
    outsAt0 m c t.val t.isLt = (out0_A_3 c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t), sout0_A_0 c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t)) := by
  obtain ⟨n, hn⟩ := t
  cases n with
  | zero => exact rfl
  | succ n => exact absurd h0 (Nat.succ_ne_zero n)

/-- `outsAt0` at a middle point: over what the point before left. -/
theorem outsAt0_B (c : Dev nD) (t : Fin cfg0.N) (h0 : t.val ≠ 0) (h1 : ¬t.val % 64 = 63) (hc0 : ¬cond0_0 (grid0.coords t)) (hc1 : ¬cond0_1 (grid0.coords t)) :
    outsAt0 m c t.val t.isLt = (out0_B_3 c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t) (outsAt0 m c (t.val - 1) (Nat.lt_of_le_of_lt (Nat.sub_le _ _) t.isLt)).2,
      sout0_B_0 c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t) (outsAt0 m c (t.val - 1) (Nat.lt_of_le_of_lt (Nat.sub_le _ _) t.isLt)).2) := by
  obtain ⟨n, hn⟩ := t
  cases n with
  | zero => exact absurd rfl h0
  | succ n => exact (dif_neg h1).trans rfl

/-- `outsAt0` at the last point: over what the point before left. -/
theorem outsAt0_C (c : Dev nD) (t : Fin cfg0.N) (h0 : t.val ≠ 0) (h1 : t.val % 64 = 63) (hc0 : ¬cond0_0 (grid0.coords t)) (hc1 : cond0_1 (grid0.coords t)) :
    outsAt0 m c t.val t.isLt = (out0_C_3 c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t) (outsAt0 m c (t.val - 1) (Nat.lt_of_le_of_lt (Nat.sub_le _ _) t.isLt)).2,
      sout0_C_0 c (grid0.coords t) (ms0_0 t) (hs0_0 t) (ms0_1 t) (hs0_1 t) (ms0_2 t) (hs0_2 t) (ms0_3 t) (hs0_3 t) scM0_0 (Memref.isWhole_whole _) hc0 hc1 (iblk m c 0 t) (iblk m c 1 t) (iblk m c 2 t) (outsAt0 m c (t.val - 1) (Nat.lt_of_le_of_lt (Nat.sub_le _ _) t.isLt)).2) := by
  obtain ⟨n, hn⟩ := t
  cases n with
  | zero => exact absurd rfl h0
  | succ n => exact (dif_pos h1).trans rfl

/-! ## The region's invariant -/

/-- Before the first point: the accumulator at anything. Afterwards: the accumulator at what the point before left,
    and the generator register at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2)) ∗ (∃ r, prngReg c r)) := by
  cases n with
  | zero => exact absurd rfl hz
  | succ n => rfl

/-! ## The proof data -/

/-- The region's proof data on core `c`: the arrays as the region finds them; after the body at point `t` each input's
    buffer at its block and the output's at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
/-- The body at any point: the inputs' memrefs hold their blocks; the point is the first, a middle one or the last;
    the invariant hands the body the accumulator (at anything at the first point, else at what the point before left)
    and takes it back at this point's contents; away from the last point the output's buffer goes back as found. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  have hN : t.val < 64 := lt_of_lt_of_eq t.isLt (show cfg0.N = 64 from N_0)
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  by_cases h0 : t.val = 0
  · have hc0 : cond0_0 (grid0.coords t) := (hcond0_0 t).mpr (by omega)
    have hc1 : ¬cond0_1 (grid0.coords t) := fun h => by have := (hcond0_1 t).mp h; omega
    rw [Dat.leavesExact_idle (dats m 0 c) 3 t (idleAt0_3 t hc1) (noFlush0_3 t hc1)]
    rw [outsAt0_A m c t h0 hc0 hc1]
    unfold sout0_A_0; (try dsimp only)
    rw [PhiS_castSucc m c t, PhiS_zero m c _ _ h0, PhiA0_eq]
    iintro ⟨⟨HS0, Hg⟩, Ho, ⟨%d0, H0⟩, ⟨%d1, H1⟩, ⟨%d2, H2⟩, ⟨%d3, H3⟩⟩
    iapply ((kernelRun0_A c (grid0.coords t) _ _ _ _ _ _ _ _ _ _ hc0 hc1 (iblk m c 0 t) (iblk m c 1 t) (iblk m c 2 t)).2.2 _ Set.univ _)
    isplitl [H0]; · iexact H0
    isplitl [H1]; · iexact H1
    isplitl [H2]; · iexact H2
    isplitl [H3]; · iexact H3
    isplitl [HS0]; · iexact HS0
    iintro ⟨H0, H1, H2, H3, ⟨%es0, HS0⟩⟩
    isplitl [HS0 Hg]
    · isplitl [HS0]
      · unfold owns; iexists _; isplitr
        swap; · iexact HS0
        ipureintro; exact View.read_writes_of_cover _ _ _ _ _ (scover0_A_0 c _ _ _ _ _ _ _ _ _ _ _ _ _ _ _ _)
      iexact Hg
    isplitl [Ho]; · iexact Ho
    isplitl [H0]; · iexact H0
    isplitl [H1]; · iexact H1
    isplitl [H2]; · iexact H2
    iexists _; iexact H3
  · have hc0 : ¬cond0_0 (grid0.coords t) := fun h => by have := (hcond0_0 t).mp h; omega
    by_cases h1 : t.val % 64 = 63
    · have hc1 : cond0_1 (grid0.coords t) := (hcond0_1 t).mpr h1
      rw [show (dats m 0 c).leavesExact 3 t = owns (c : Thread nD τ) (ms0_3 t) fullShare ((dats m 0 c).after 3 t) from by
        unfold Dat.leavesExact; rw [liveAt0_3 t hc1], after0_3]
      rw [outsAt0_C m c t h0 h1 hc0 hc1]
      unfold out0_C_3 sout0_C_0; (try dsimp only)
      rw [PhiS_castSucc m c t, PhiS_pos m c _ _ h0]
      iintro ⟨⟨HS0, Hg⟩, Ho, ⟨%d0, H0⟩, ⟨%d1, H1⟩, ⟨%d2, H2⟩, ⟨%d3, H3⟩⟩
      iapply ((kernelRun0_C c (grid0.coords t) _ _ _ _ _ _ _ _ _ _ hc0 hc1 (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro; exact View.read_writes_of_cover _ _ _ _ _ (scover0_C_0 c _ _ _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_C_3 c _ _ _ _ _ _ _ _ _ _ _ _ _ _ _ _ _)
    · have hc1 : ¬cond0_1 (grid0.coords t) := fun h => h1 ((hcond0_1 t).mp h)
      rw [Dat.leavesExact_idle (dats m 0 c) 3 t (idleAt0_3 t hc1) (noFlush0_3 t hc1)]
      rw [outsAt0_B m c t h0 h1 hc0 hc1]
      unfold sout0_B_0; (try dsimp only)
      rw [PhiS_castSucc m c t, PhiS_pos m c _ _ h0]
      iintro ⟨⟨HS0, Hg⟩, Ho, ⟨%d0, H0⟩, ⟨%d1, H1⟩, ⟨%d2, H2⟩, ⟨%d3, H3⟩⟩
      iapply ((kernelRun0_B c (grid0.coords t) _ _ _ _ _ _ _ _ _ _ hc0 hc1 (iblk m c 0 t) (iblk m c 1 t) (iblk m c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hg]
      · isplitl [HS0]
        · unfold owns; iexists _; isplitr
          swap; · iexact HS0
          ipureintro; exact View.read_writes_of_cover _ _ _ _ _ (scover0_B_0 c _ _ _ _ _ _ _ _ _ _ _ _ _ _ _ _ _)
        iexact Hg
      isplitl [Ho]; · iexact Ho
      isplitl [H0]; · iexact H0
      isplitl [H1]; · iexact H1
      isplitl [H2]; · iexact H2
      iexists _; iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: the accumulator's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- From any memory with zero counters every weakly fair execution of @main terminates, and every final state has every
    array of the region at what the library computes from the proof data and every other unscoped buffer as the host
    operations after the region leave it. -/
theorem run_main : θ_run defs (onTc (τ := τ) (main (F := F))) (s₀ m ρ) (Pipeline.FramePost cfgs (dats m) 0 (Pipeline.afterTail₀ cfgs (dats m) 0 (V0 m) tail)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tail) (hsub := sfx_sub) (hfresh := sfx_fresh) (hkeep := sfx_keeps)
    (hmain := hmain m Variants.none) (hA := A_eq m) (hin := hin m) (hout := hout m)

/-- THE FRAME, at any float instance: @main runs to the end and its ten arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (run_main m ρ)

end Cert.KernelIdeal.Reg

end
-- ==== Proof.Ref.RunAfter.lean ====
/-
  The reference is a straight line of 177 host operations: from any memory with zero counters every weakly fair
  execution of it terminates, and every buffer ends at the fold of the operations' results over the launch contents.
-/
import proofs.«424876_j87643102642642_3_alg».proof.Proof.RefOpsP

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.ValueP

variable {F : FTy → Type} [FloatOps F]

theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (ops (F := F)) (launchContents m d) (Proc.devRef .tc b) :=
  run_seq scopedRefs_eq scopedSems_eq defs main (fun _ => ops) main_eq (fun _ => ops_sub) m ρ

end Cert.ReferenceIdeal.RunH

end
-- ==== Proof.Ref.AfterArgs.lean ====
/-
  No operation of the reference writes an argument: the fold of the operations leaves each argument's buffer at its launch contents.
-/
import proofs.«424876_j87643102642642_3_alg».proof.Proof.RefOpsP

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.ValueP

variable {F : FTy → Type} [FloatOps F]

set_option maxRecDepth 8192 in
set_option maxHeartbeats 4000000 in
theorem after_arg0 (m : (ℓ : Loc nD τ sig) → Buf (Elt F) ℓ) (c : Dev nD) :
    after (ops (F := F)) (launchContents m c) (Proc.devRef .tc main_arg0) = m ((c.tc : Thread nD τ).loc main_arg0) := by
  after_results_simp <;> rfl

set_option maxRecDepth 8192 in
set_option maxHeartbeats 4000000 in
theorem after_arg1 (m : (ℓ : Loc nD τ sig) → Buf (Elt F) ℓ) (c : Dev nD) :
    after (ops (F := F)) (launchContents m c) (Proc.devRef .tc main_arg1) = m ((c.tc : Thread nD τ).loc main_arg1) := by
  after_results_simp <;> rfl

set_option maxRecDepth 8192 in
set_option maxHeartbeats 4000000 in
theorem after_arg2 (m : (ℓ : Loc nD τ sig) → Buf (Elt F) ℓ) (c : Dev nD) :
    after (ops (F := F)) (launchContents m c) (Proc.devRef .tc main_arg2) = m ((c.tc : Thread nD τ).loc main_arg2) := by
  after_results_simp <;> rfl

set_option maxRecDepth 8192 in
set_option maxHeartbeats 4000000 in
theorem after_arg3 (m : (ℓ : Loc nD τ sig) → Buf (Elt F) ℓ) (c : Dev nD) :
    after (ops (F := F)) (launchContents m c) (Proc.devRef .tc main_arg3) = m ((c.tc : Thread nD τ).loc main_arg3) := by
  after_results_simp <;> rfl

set_option maxRecDepth 8192 in
set_option maxHeartbeats 4000000 in
theorem after_arg4 (m : (ℓ : Loc nD τ sig) → Buf (Elt F) ℓ) (c : Dev nD) :
    after (ops (F := F)) (launchContents m c) (Proc.devRef .tc main_arg4) = m ((c.tc : Thread nD τ).loc main_arg4) := by
  after_results_simp <;> rfl

set_option maxRecDepth 8192 in
set_option maxHeartbeats 4000000 in
theorem after_arg5 (m : (ℓ : Loc nD τ sig) → Buf (Elt F) ℓ) (c : Dev nD) :
    after (ops (F := F)) (launchContents m c) (Proc.devRef .tc main_arg5) = m ((c.tc : Thread nD τ).loc main_arg5) := by
  after_results_simp <;> rfl

set_option maxRecDepth 8192 in
set_option maxHeartbeats 4000000 in
theorem after_arg6 (m : (ℓ : Loc nD τ sig) → Buf (Elt F) ℓ) (c : Dev nD) :
    after (ops (F := F)) (launchContents m c) (Proc.devRef .tc main_arg6) = m ((c.tc : Thread nD τ).loc main_arg6) := by
  after_results_simp <;> rfl

set_option maxRecDepth 8192 in
set_option maxHeartbeats 4000000 in
theorem after_arg7 (m : (ℓ : Loc nD τ sig) → Buf (Elt F) ℓ) (c : Dev nD) :
    after (ops (F := F)) (launchContents m c) (Proc.devRef .tc main_arg7) = m ((c.tc : Thread nD τ).loc main_arg7) := by
  after_results_simp <;> rfl

set_option maxRecDepth 8192 in
set_option maxHeartbeats 4000000 in
theorem after_arg8 (m : (ℓ : Loc nD τ sig) → Buf (Elt F) ℓ) (c : Dev nD) :
    after (ops (F := F)) (launchContents m c) (Proc.devRef .tc main_arg8) = m ((c.tc : Thread nD τ).loc main_arg8) := by
  after_results_simp <;> rfl

set_option maxRecDepth 8192 in
set_option maxHeartbeats 4000000 in
theorem after_arg9 (m : (ℓ : Loc nD τ sig) → Buf (Elt F) ℓ) (c : Dev nD) :
    after (ops (F := F)) (launchContents m c) (Proc.devRef .tc main_arg9) = m ((c.tc : Thread nD τ).loc main_arg9) := by
  after_results_simp <;> rfl

end Cert.ReferenceIdeal.RunH

end
-- ==== Proof.Ref.PlainOps.lean ====
/-
  The reference's operation list with the operations of its outlined functions spelt at their literal buffer types.

  An operation of an outlined function is printed over typed references: its function is applied between two
  transports along the equation "the reference's buffer has this type", which for a literal reference is the
  identity. Each such operation equals the plain operation on the same buffers with the same function, so the
  two lists are equal.
-/
import proofs.«424876_j87643102642642_3_alg».proof.Proof.RefOpsP

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.ValueP

variable {F : FTy → Type} [FloatOps F]

/-- The reference's 177 operations, every one a plain operation on literal references. -/
abbrev opsPlain : List (HloOp τ sig (Elt F)) :=
  [ nullary main_v0 (iotaInDim S32 32 0),
    unary main_v0 main_v1 (broadcastInDim S1x1x32 ![2] bcast_S32_S1x1x32_2 : (⟨S32, .i32⟩ : BufTy).Contents (Elt F) → (⟨S1x1x32, .i32⟩ : BufTy).Contents (Elt F)),
    unary main_arg1 main_v2 (broadcastInDim S16x16x1 ![0, 1] bcast_S16x16_S16x16x1_0_1 : (⟨S16x16, .i32⟩ : BufTy).Contents (Elt F) → (⟨S16x16x1, .i32⟩ : BufTy).Contents (Elt F)),
    unary main_v1 main_v3 (broadcastInDim S16x16x32 ![0, 1, 2] bcast_S1x1x32_S16x16x32_0_1_2 : (⟨S1x1x32, .i32⟩ : BufTy).Contents (Elt F) → (⟨S16x16x32, .i32⟩ : BufTy).Contents (Elt F)),
    unary main_v2 main_v4 (broadcastInDim S16x16x32 ![0, 1, 2] bcast_S16x16x1_S16x16x32_0_1_2 : (⟨S16x16x1, .i32⟩ : BufTy).Contents (Elt F) → (⟨S16x16x32, .i32⟩ : BufTy).Contents (Elt F)),
    binary main_v3 main_v4 main_v5 (cmpi .slt : (⟨S16x16x32, .i32⟩ : BufTy).Contents (Elt F) → (⟨S16x16x32, .i32⟩ : BufTy).Contents (Elt F) → (⟨S16x16x32, .i1⟩ : BufTy).Contents (Elt F)),
    nullary main_v6 (iotaInDim S16 32 0),
    unary main_v6 main_v7 (broadcastInDim S1x16x1 ![1] bcast_S16_S1x16x1_1 : (⟨S16, .i32⟩ : BufTy).Contents (Elt F) → (⟨S1x16x1, .i32⟩ : BufTy).Contents (Elt F)),
    unary main_arg8 main_v8 (broadcastInDim S16x1x1 ![0] bcast_S16_S16x1x1_0 : (⟨S16, .i32⟩ : BufTy).Contents (Elt F) → (⟨S16x1x1, .i32⟩ : BufTy).Contents (Elt F)),
    unary main_v7 main_v9 (broadcastInDim S16x16x1 ![0, 1, 2] bcast_S1x16x1_S16x16x1_0_1_2 : (⟨S1x16x1, .i32⟩ : BufTy).Contents (Elt F) → (⟨S16x16x1, .i32⟩ : BufTy).Contents (Elt F)),
    unary main_v8 main_v10 (broadcastInDim S16x16x1 ![0, 1, 2] bcast_S16x1x1_S16x16x1_0_1_2 : (⟨S16x1x1, .i32⟩ : BufTy).Contents (Elt F) → (⟨S16x16x1, .i32⟩ : BufTy).Contents (Elt F)),
    binary main_v9 main_v10 main_v11 (cmpi .slt : (⟨S16x16x1, .i32⟩ : BufTy).Contents (Elt F) → (⟨S16x16x1, .i32⟩ : BufTy).Contents (Elt F) → (⟨S16x16x1, .i1⟩ : BufTy).Contents (Elt F)),
    unary main_v11 main_v12 (broadcastInDim S16x16x32 ![0, 1, 2] bcast_S16x16x1_S16x16x32_0_1_2 : (⟨S16x16x1, .i1⟩ : BufTy).Contents (Elt F) → (⟨S16x16x32, .i1⟩ : BufTy).Contents (Elt F)),
    binary main_v5 main_v12 main_v13 (andi : (⟨S16x16x32, .i1⟩ : BufTy).Contents (Elt F) → (⟨S16x16x32, .i1⟩ : BufTy).Contents (Elt F) → (⟨S16x16x32, .i1⟩ : BufTy).Contents (Elt F)),
    nullary main_call0_cst ((constant S_ .f32 0xFF800000#32) : (⟨S_, .f32⟩ : BufTy).Contents (Elt F)),
    binary main_arg2 main_call0_cst main_call0_v0 ((fun x v => Host.reduce FloatOps.maximumf x v reducesTo_S16x16x32x12000_S16x16x32_d3 h_S_) : (⟨S16x16x32x12000, .f32⟩ : BufTy).Contents (Elt F) → (⟨S_, .f32⟩ : BufTy).Contents (Elt F) → (⟨S16x16x32, .f32⟩ : BufTy).Contents (Elt F)),
    nullary main_call0_cst_0 ((constant S_ .f32 0xFF800000#32) : (⟨S_, .f32⟩ : BufTy).Contents (Elt F)),
    unary main_call0_cst_0 main_call0_v1 ((broadcastInDim S16x16x32 ![] bcast_S_S16x16x32) : (⟨S_, .f32⟩ : BufTy).Contents (Elt F) → (⟨S16x16x32, .f32⟩ : BufTy).Contents (Elt F)),
    binary main_call0_v1 main_call0_v0 main_call0_v2 (maximumf : (⟨S16x16x32, .f32⟩ : BufTy).Contents (Elt F) → (⟨S16x16x32, .f32⟩ : BufTy).Contents (Elt F) → (⟨S16x16x32, .f32⟩ : BufTy).Contents (Elt F)),
    unary main_call0_v2 main_call0_v3 ((broadcastInDim S16x16x32x1 ![0, 1, 2] bcast_S16x16x32_S16x16x32x1_0_1_2) : (⟨S16x16x32, .f32⟩ : BufTy).Contents (Elt F) → (⟨S16x16x32x1, .f32⟩ : BufTy).Contents (Elt F)),
    unary main_call0_v3 main_call0_v4 ((broadcastInDim S16x16x32x12000 ![0, 1, 2, 3] bcast_S16x16x32x1_S16x16x32x12000_0_1_2_3) : (⟨S16x16x32x1, .f32⟩ : BufTy).Contents (Elt F) → (⟨S16x16x32x12000, .f32⟩ : BufTy).Contents (Elt F)),
    binary main_arg2 main_call0_v4 main_call0_v5 (subf : (⟨S16x16x32x12000, .f32⟩ : BufTy).Contents (Elt F) → (⟨S16x16x32x12000, .f32⟩ : BufTy).Contents (Elt F) → (⟨S16x16x32x12000, .f32⟩ : BufTy).Contents (Elt F)),
    unary main_call0_v5 main_call0_v6 (Host.exp : (⟨S16x16x32x12000, .f32⟩ : BufTy).Contents (Elt F) → (⟨S16x16x32x12000, .f32⟩ : BufTy).Contents (Elt F)),
    nullary main_call0_cst_1 ((constant S_ .f32 0x00000000#32) : (⟨S_, .f32⟩ : BufTy).Contents (Elt F)),
    binary main_call0_v6 main_call0_cst_1 main_call0_v7 ((fun x v => Host.reduceAdd x v reducesTo_S16x16x32x12000_S16x16x32_d3 h_S_) : (⟨S16x16x32x12000, .f32⟩ : BufTy).Contents (Elt F) → (⟨S_, .f32⟩ : BufTy).Contents (Elt F) → (⟨S16x16x32, .f32⟩ : BufTy).Contents (Elt F)),
    unary main_call0_v7 main_call0_v8 ((broadcastInDim S16x16x32x1 ![0, 1, 2] bcast_S16x16x32_S16x16x32x1_0_1_2) : (⟨S16x16x32, .f32⟩ : BufTy).Contents (Elt F) → (⟨S16x16x32x1, .f32⟩ : BufTy).Contents (Elt F)),
    unary main_call0_v8 main_call0_v9 (Host.log : (⟨S16x16x32x1, .f32⟩ : BufTy).Contents (Elt F) → (⟨S16x16x32x1, .f32⟩ : BufTy).Contents (Elt F)),
    unary main_call0_v9 main_call0_v10 ((broadcastInDim S16x16x32x12000 ![0, 1, 2, 3] bcast_S16x16x32x1_S16x16x32x12000_0_1_2_3) : (⟨S16x16x32x1, .f32⟩ : BufTy).Contents (Elt F) → (⟨S16x16x32x12000, .f32⟩ : BufTy).Contents (Elt F)),
    binary main_call0_v5 main_call0_v10 main_v14 (subf : (⟨S16x16x32x12000, .f32⟩ : BufTy).Contents (Elt F) → (⟨S16x16x32x12000, .f32⟩ : BufTy).Contents (Elt F) → (⟨S16x16x32x12000, .f32⟩ : BufTy).Contents (Elt F)),
    unary main_arg0 main_v15 (broadcastInDim S16x16x32x1 ![0, 1, 2] bcast_S16x16x32_S16x16x32x1_0_1_2 : (⟨S16x16x32, .i32⟩ : BufTy).Contents (Elt F) → (⟨S16x16x32x1, .i32⟩ : BufTy).Contents (Elt F)),
    nullary main_call1_c ((constantI S_ 32 0#32) : (⟨S_, .i32⟩ : BufTy).Contents (Elt F)),
    unary main_call1_c main_call1_v0 ((broadcastInDim S16x16x32x1 ![] bcast_S_S16x16x32x1) : (⟨S_, .i32⟩ : BufTy).Contents (Elt F) → (⟨S16x16x32x1, .i32⟩ : BufTy).Contents (Elt F)),
    binary main_v15 main_call1_v0 main_call1_v1 ((cmpi .slt) : (⟨S16x16x32x1, .i32⟩ : BufTy).Contents (Elt F) → (⟨S16x16x32x1, .i32⟩ : BufTy).Contents (Elt F) → (⟨S16x16x32x1, .i1⟩ : BufTy).Contents (Elt F)),
    nullary main_call1_c_0 ((constantI S_ 32 12000#32) : (⟨S_, .i32⟩ : BufTy).Contents (Elt F)),
    unary main_call1_c_0 main_call1_v2 ((broadcastInDim S16x16x32x1 ![] bcast_S_S16x16x32x1) : (⟨S_, .i32⟩ : BufTy).Contents (Elt F) → (⟨S16x16x32x1, .i32⟩ : BufTy).Contents (Elt F)),
    binary main_v15 main_call1_v2 main_call1_v3 (addi : (⟨S16x16x32x1, .i32⟩ : BufTy).Contents (Elt F) → (⟨S16x16x32x1, .i32⟩ : BufTy).Contents (Elt F) → (⟨S16x16x32x1, .i32⟩ : BufTy).Contents (Elt F)),
    ternary main_call1_v1 main_call1_v3 main_v15 main_call1_v4 (select : (⟨S16x16x32x1, .i1⟩ : BufTy).Contents (Elt F) → (⟨S16x16x32x1, .i32⟩ : BufTy).Contents (Elt F) → (⟨S16x16x32x1, .i32⟩ : BufTy).Contents (Elt F) → (⟨S16x16x32x1, .i32⟩ : BufTy).Contents (Elt F)),
    reshape main_call1_v4 main_call1_v5 rfl shapeCasts_S16x16x32x1_S16x16x32x1x1,
    nullary main_call1_c_1 ((constantI S1 32 11999#32) : (⟨S1, .i32⟩ : BufTy).Contents (Elt F)),
    nullary main_call1_c_2 ((constantI S_ 32 0#32) : (⟨S_, .i32⟩ : BufTy).Contents (Elt F)),
    unary main_call1_c_2 main_call1_v6 ((broadcastInDim S16x16x32x1x1 ![] bcast_S_S16x16x32x1x1) : (⟨S_, .i32⟩ : BufTy).Contents (Elt F) → (⟨S16x16x32x1x1, .i32⟩ : BufTy).Contents (Elt F)),
    binary main_call1_v5 main_call1_v6 main_call1_v7 ((cmpi .sge) : (⟨S16x16x32x1x1, .i32⟩ : BufTy).Contents (Elt F) → (⟨S16x16x32x1x1, .i32⟩ : BufTy).Contents (Elt F) → (⟨S16x16x32x1x1, .i1⟩ : BufTy).Contents (Elt F)),
    unary main_call1_c_1 main_call1_v8 ((broadcastInDim S1x1x1x1x1 ![4] bcast_S1_S1x1x1x1x1_4) : (⟨S1, .i32⟩ : BufTy).Contents (Elt F) → (⟨S1x1x1x1x1, .i32⟩ : BufTy).Contents (Elt F)),
    unary main_call1_v8 main_call1_v9 ((broadcastInDim S16x16x32x1x1 ![0, 1, 2, 3, 4] bcast_S1x1x1x1x1_S16x16x32x1x1_0_1_2_3_4) : (⟨S1x1x1x1x1, .i32⟩ : BufTy).Contents (Elt F) → (⟨S16x16x32x1x1, .i32⟩ : BufTy).Contents (Elt F)),
    binary main_call1_v5 main_call1_v9 main_call1_v10 ((cmpi .sle) : (⟨S16x16x32x1x1, .i32⟩ : BufTy).Contents (Elt F) → (⟨S16x16x32x1x1, .i32⟩ : BufTy).Contents (Elt F) → (⟨S16x16x32x1x1, .i1⟩ : BufTy).Contents (Elt F)),
    binary main_call1_v7 main_call1_v10 main_call1_v11 (andi : (⟨S16x16x32x1x1, .i1⟩ : BufTy).Contents (Elt F) → (⟨S16x16x32x1x1, .i1⟩ : BufTy).Contents (Elt F) → (⟨S16x16x32x1x1, .i1⟩ : BufTy).Contents (Elt F)),
    nullary main_call1_c_3 ((constantI S_ 1 1#1) : (⟨S_, .i1⟩ : BufTy).Contents (Elt F)),
    binary main_call1_v11 main_call1_c_3 main_call1_v12 ((fun x v => Host.reduce IntOp.andi x v reducesTo_S16x16x32x1x1_S16x16x32x1_d4 h_S_) : (⟨S16x16x32x1x1, .i1⟩ : BufTy).Contents (Elt F) → (⟨S_, .i1⟩ : BufTy).Contents (Elt F) → (⟨S16x16x32x1, .i1⟩ : BufTy).Contents (Elt F)),
    binary main_v14 main_call1_v5 main_call1_v13 ((fun x i => Host.gather gather_S16x16x32x12000_S16x16x32x1x1_S16x16x32x1_n_3_012_012_3_4_1111 x i) : (⟨S16x16x32x12000, .f32⟩ : BufTy).Contents (Elt F) → (⟨S16x16x32x1x1, .i32⟩ : BufTy).Contents (Elt F) → (⟨S16x16x32x1, .f32⟩ : BufTy).Contents (Elt F)),
    nullary main_call1_cst ((constant S_ .f32 0x7FC00000#32) : (⟨S_, .f32⟩ : BufTy).Contents (Elt F)),
    unary main_call1_cst main_call1_v14 ((broadcastInDim S16x16x32x1 ![] bcast_S_S16x16x32x1) : (⟨S_, .f32⟩ : BufTy).Contents (Elt F) → (⟨S16x16x32x1, .f32⟩ : BufTy).Contents (Elt F)),
    ternary main_call1_v12 main_call1_v13 main_call1_v14 main_v16 (select : (⟨S16x16x32x1, .i1⟩ : BufTy).Contents (Elt F) → (⟨S16x16x32x1, .f32⟩ : BufTy).Contents (Elt F) → (⟨S16x16x32x1, .f32⟩ : BufTy).Contents (Elt F) → (⟨S16x16x32x1, .f32⟩ : BufTy).Contents (Elt F)),
    reshape main_v16 main_v17 rfl shapeCasts_S16x16x32x1_S16x16x32,
    unary main_v17 main_v18 (Host.negf : (⟨S16x16x32, .f32⟩ : BufTy).Contents (Elt F) → (⟨S16x16x32, .f32⟩ : BufTy).Contents (Elt F)),
    unary main_v13 main_v19 ((extui 32 · natLt_1_32) : (⟨S16x16x32, .i1⟩ : BufTy).Contents (Elt F) → (⟨S16x16x32, .i32⟩ : BufTy).Contents (Elt F)),
    nullary main_c (constantI S_ 32 0#32),
    binary main_v19 main_c main_v20 ((fun x v => Host.reduce IntOp.addi x v reducesTo_S16x16x32_S_d0_1_2 h_S_) : (⟨S16x16x32, .i32⟩ : BufTy).Contents (Elt F) → (⟨S_, .i32⟩ : BufTy).Contents (Elt F) → (⟨S_, .i32⟩ : BufTy).Contents (Elt F)),
    nullary main_c_0 (constantI S_ 32 1#32),
    binary main_v20 main_c_0 main_v21 (maxsi : (⟨S_, .i32⟩ : BufTy).Contents (Elt F) → (⟨S_, .i32⟩ : BufTy).Contents (Elt F) → (⟨S_, .i32⟩ : BufTy).Contents (Elt F)),
    unary main_v21 main_v22 (sitofp .f32 : (⟨S_, .i32⟩ : BufTy).Contents (Elt F) → (⟨S_, .f32⟩ : BufTy).Contents (Elt F)),
    nullary main_cst (constant S_ .f32 0x00000000#32),
    unary main_cst main_call2_v0 (id : (⟨S_, .f32⟩ : BufTy).Contents (Elt F) → (⟨S_, .f32⟩ : BufTy).Contents (Elt F)),
    unary main_call2_v0 main_call2_v1 ((broadcastInDim S16x16x32 ![] bcast_S_S16x16x32) : (⟨S_, .f32⟩ : BufTy).Contents (Elt F) → (⟨S16x16x32, .f32⟩ : BufTy).Contents (Elt F)),
    ternary main_v13 main_v18 main_call2_v1 main_v23 (select : (⟨S16x16x32, .i1⟩ : BufTy).Contents (Elt F) → (⟨S16x16x32, .f32⟩ : BufTy).Contents (Elt F) → (⟨S16x16x32, .f32⟩ : BufTy).Contents (Elt F) → (⟨S16x16x32, .f32⟩ : BufTy).Contents (Elt F)),
    nullary main_cst_1 (constant S_ .f32 0x00000000#32),
    binary main_v23 main_cst_1 main_v24 ((fun x v => Host.reduceAdd x v reducesTo_S16x16x32_S_d0_1_2 h_S_) : (⟨S16x16x32, .f32⟩ : BufTy).Contents (Elt F) → (⟨S_, .f32⟩ : BufTy).Contents (Elt F) → (⟨S_, .f32⟩ : BufTy).Contents (Elt F)),
    binary main_v24 main_v22 main_v25 (Host.divf : (⟨S_, .f32⟩ : BufTy).Contents (Elt F) → (⟨S_, .f32⟩ : BufTy).Contents (Elt F) → (⟨S_, .f32⟩ : BufTy).Contents (Elt F)),
    nullary main_v26 (iotaInDim S64 32 0),
    unary main_v26 main_v27 (broadcastInDim S1x64 ![1] bcast_S64_S1x64_1 : (⟨S64, .i32⟩ : BufTy).Contents (Elt F) → (⟨S1x64, .i32⟩ : BufTy).Contents (Elt F)),
    unary main_arg4 main_v28 (broadcastInDim S16x1 ![0] bcast_S16_S16x1_0 : (⟨S16, .i32⟩ : BufTy).Contents (Elt F) → (⟨S16x1, .i32⟩ : BufTy).Contents (Elt F)),
    unary main_v27 main_v29 (broadcastInDim S16x64 ![0, 1] bcast_S1x64_S16x64_0_1 : (⟨S1x64, .i32⟩ : BufTy).Contents (Elt F) → (⟨S16x64, .i32⟩ : BufTy).Contents (Elt F)),
    unary main_v28 main_v30 (broadcastInDim S16x64 ![0, 1] bcast_S16x1_S16x64_0_1 : (⟨S16x1, .i32⟩ : BufTy).Contents (Elt F) → (⟨S16x64, .i32⟩ : BufTy).Contents (Elt F)),
    binary main_v29 main_v30 main_v31 (cmpi .slt : (⟨S16x64, .i32⟩ : BufTy).Contents (Elt F) → (⟨S16x64, .i32⟩ : BufTy).Contents (Elt F) → (⟨S16x64, .i1⟩ : BufTy).Contents (Elt F)),
    nullary main_call3_cst ((constant S_ .f32 0xFF800000#32) : (⟨S_, .f32⟩ : BufTy).Contents (Elt F)),
    binary main_arg5 main_call3_cst main_call3_v0 ((fun x v => Host.reduce FloatOps.maximumf x v reducesTo_S16x64x20_S16x64_d2 h_S_) : (⟨S16x64x20, .f32⟩ : BufTy).Contents (Elt F) → (⟨S_, .f32⟩ : BufTy).Contents (Elt F) → (⟨S16x64, .f32⟩ : BufTy).Contents (Elt F)),
    nullary main_call3_cst_0 ((constant S_ .f32 0xFF800000#32) : (⟨S_, .f32⟩ : BufTy).Contents (Elt F)),
    unary main_call3_cst_0 main_call3_v1 ((broadcastInDim S16x64 ![] bcast_S_S16x64) : (⟨S_, .f32⟩ : BufTy).Contents (Elt F) → (⟨S16x64, .f32⟩ : BufTy).Contents (Elt F)),
    binary main_call3_v1 main_call3_v0 main_call3_v2 (maximumf : (⟨S16x64, .f32⟩ : BufTy).Contents (Elt F) → (⟨S16x64, .f32⟩ : BufTy).Contents (Elt F) → (⟨S16x64, .f32⟩ : BufTy).Contents (Elt F)),
    unary main_call3_v2 main_call3_v3 ((broadcastInDim S16x64x1 ![0, 1] bcast_S16x64_S16x64x1_0_1) : (⟨S16x64, .f32⟩ : BufTy).Contents (Elt F) → (⟨S16x64x1, .f32⟩ : BufTy).Contents (Elt F)),
    unary main_call3_v3 main_call3_v4 ((broadcastInDim S16x64x20 ![0, 1, 2] bcast_S16x64x1_S16x64x20_0_1_2) : (⟨S16x64x1, .f32⟩ : BufTy).Contents (Elt F) → (⟨S16x64x20, .f32⟩ : BufTy).Contents (Elt F)),
    binary main_arg5 main_call3_v4 main_call3_v5 (subf : (⟨S16x64x20, .f32⟩ : BufTy).Contents (Elt F) → (⟨S16x64x20, .f32⟩ : BufTy).Contents (Elt F) → (⟨S16x64x20, .f32⟩ : BufTy).Contents (Elt F)),
    unary main_call3_v5 main_call3_v6 (Host.exp : (⟨S16x64x20, .f32⟩ : BufTy).Contents (Elt F) → (⟨S16x64x20, .f32⟩ : BufTy).Contents (Elt F)),
    nullary main_call3_cst_1 ((constant S_ .f32 0x00000000#32) : (⟨S_, .f32⟩ : BufTy).Contents (Elt F)),
    binary main_call3_v6 main_call3_cst_1 main_call3_v7 ((fun x v => Host.reduceAdd x v reducesTo_S16x64x20_S16x64_d2 h_S_) : (⟨S16x64x20, .f32⟩ : BufTy).Contents (Elt F) → (⟨S_, .f32⟩ : BufTy).Contents (Elt F) → (⟨S16x64, .f32⟩ : BufTy).Contents (Elt F)),
    unary main_call3_v7 main_call3_v8 ((broadcastInDim S16x64x1 ![0, 1] bcast_S16x64_S16x64x1_0_1) : (⟨S16x64, .f32⟩ : BufTy).Contents (Elt F) → (⟨S16x64x1, .f32⟩ : BufTy).Contents (Elt F)),
    unary main_call3_v8 main_call3_v9 (Host.log : (⟨S16x64x1, .f32⟩ : BufTy).Contents (Elt F) → (⟨S16x64x1, .f32⟩ : BufTy).Contents (Elt F)),
    unary main_call3_v9 main_call3_v10 ((broadcastInDim S16x64x20 ![0, 1, 2] bcast_S16x64x1_S16x64x20_0_1_2) : (⟨S16x64x1, .f32⟩ : BufTy).Contents (Elt F) → (⟨S16x64x20, .f32⟩ : BufTy).Contents (Elt F)),
    binary main_call3_v5 main_call3_v10 main_v32 (subf : (⟨S16x64x20, .f32⟩ : BufTy).Contents (Elt F) → (⟨S16x64x20, .f32⟩ : BufTy).Contents (Elt F) → (⟨S16x64x20, .f32⟩ : BufTy).Contents (Elt F)),
    unary main_arg3 main_v33 (broadcastInDim S16x64x1 ![0, 1] bcast_S16x64_S16x64x1_0_1 : (⟨S16x64, .i32⟩ : BufTy).Contents (Elt F) → (⟨S16x64x1, .i32⟩ : BufTy).Contents (Elt F)),
    nullary main_call4_c ((constantI S_ 32 0#32) : (⟨S_, .i32⟩ : BufTy).Contents (Elt F)),
    unary main_call4_c main_call4_v0 ((broadcastInDim S16x64x1 ![] bcast_S_S16x64x1) : (⟨S_, .i32⟩ : BufTy).Contents (Elt F) → (⟨S16x64x1, .i32⟩ : BufTy).Contents (Elt F)),
    binary main_v33 main_call4_v0 main_call4_v1 ((cmpi .slt) : (⟨S16x64x1, .i32⟩ : BufTy).Contents (Elt F) → (⟨S16x64x1, .i32⟩ : BufTy).Contents (Elt F) → (⟨S16x64x1, .i1⟩ : BufTy).Contents (Elt F)),
    nullary main_call4_c_0 ((constantI S_ 32 20#32) : (⟨S_, .i32⟩ : BufTy).Contents (Elt F)),
    unary main_call4_c_0 main_call4_v2 ((broadcastInDim S16x64x1 ![] bcast_S_S16x64x1) : (⟨S_, .i32⟩ : BufTy).Contents (Elt F) → (⟨S16x64x1, .i32⟩ : BufTy).Contents (Elt F)),
    binary main_v33 main_call4_v2 main_call4_v3 (addi : (⟨S16x64x1, .i32⟩ : BufTy).Contents (Elt F) → (⟨S16x64x1, .i32⟩ : BufTy).Contents (Elt F) → (⟨S16x64x1, .i32⟩ : BufTy).Contents (Elt F)),
    ternary main_call4_v1 main_call4_v3 main_v33 main_call4_v4 (select : (⟨S16x64x1, .i1⟩ : BufTy).Contents (Elt F) → (⟨S16x64x1, .i32⟩ : BufTy).Contents (Elt F) → (⟨S16x64x1, .i32⟩ : BufTy).Contents (Elt F) → (⟨S16x64x1, .i32⟩ : BufTy).Contents (Elt F)),
    reshape main_call4_v4 main_call4_v5 rfl shapeCasts_S16x64x1_S16x64x1x1,
    nullary main_call4_c_1 ((constantI S1 32 19#32) : (⟨S1, .i32⟩ : BufTy).Contents (Elt F)),
    nullary main_call4_c_2 ((constantI S_ 32 0#32) : (⟨S_, .i32⟩ : BufTy).Contents (Elt F)),
    unary main_call4_c_2 main_call4_v6 ((broadcastInDim S16x64x1x1 ![] bcast_S_S16x64x1x1) : (⟨S_, .i32⟩ : BufTy).Contents (Elt F) → (⟨S16x64x1x1, .i32⟩ : BufTy).Contents (Elt F)),
    binary main_call4_v5 main_call4_v6 main_call4_v7 ((cmpi .sge) : (⟨S16x64x1x1, .i32⟩ : BufTy).Contents (Elt F) → (⟨S16x64x1x1, .i32⟩ : BufTy).Contents (Elt F) → (⟨S16x64x1x1, .i1⟩ : BufTy).Contents (Elt F)),
    unary main_call4_c_1 main_call4_v8 ((broadcastInDim S1x1x1x1 ![3] bcast_S1_S1x1x1x1_3) : (⟨S1, .i32⟩ : BufTy).Contents (Elt F) → (⟨S1x1x1x1, .i32⟩ : BufTy).Contents (Elt F)),
    unary main_call4_v8 main_call4_v9 ((broadcastInDim S16x64x1x1 ![0, 1, 2, 3] bcast_S1x1x1x1_S16x64x1x1_0_1_2_3) : (⟨S1x1x1x1, .i32⟩ : BufTy).Contents (Elt F) → (⟨S16x64x1x1, .i32⟩ : BufTy).Contents (Elt F)),
    binary main_call4_v5 main_call4_v9 main_call4_v10 ((cmpi .sle) : (⟨S16x64x1x1, .i32⟩ : BufTy).Contents (Elt F) → (⟨S16x64x1x1, .i32⟩ : BufTy).Contents (Elt F) → (⟨S16x64x1x1, .i1⟩ : BufTy).Contents (Elt F)),
    binary main_call4_v7 main_call4_v10 main_call4_v11 (andi : (⟨S16x64x1x1, .i1⟩ : BufTy).Contents (Elt F) → (⟨S16x64x1x1, .i1⟩ : BufTy).Contents (Elt F) → (⟨S16x64x1x1, .i1⟩ : BufTy).Contents (Elt F)),
    nullary main_call4_c_3 ((constantI S_ 1 1#1) : (⟨S_, .i1⟩ : BufTy).Contents (Elt F)),
    binary main_call4_v11 main_call4_c_3 main_call4_v12 ((fun x v => Host.reduce IntOp.andi x v reducesTo_S16x64x1x1_S16x64x1_d3 h_S_) : (⟨S16x64x1x1, .i1⟩ : BufTy).Contents (Elt F) → (⟨S_, .i1⟩ : BufTy).Contents (Elt F) → (⟨S16x64x1, .i1⟩ : BufTy).Contents (Elt F)),
    binary main_v32 main_call4_v5 main_call4_v13 ((fun x i => Host.gather gather_S16x64x20_S16x64x1x1_S16x64x1_n_2_01_01_2_3_111 x i) : (⟨S16x64x20, .f32⟩ : BufTy).Contents (Elt F) → (⟨S16x64x1x1, .i32⟩ : BufTy).Contents (Elt F) → (⟨S16x64x1, .f32⟩ : BufTy).Contents (Elt F)),
    nullary main_call4_cst ((constant S_ .f32 0x7FC00000#32) : (⟨S_, .f32⟩ : BufTy).Contents (Elt F)),
    unary main_call4_cst main_call4_v14 ((broadcastInDim S16x64x1 ![] bcast_S_S16x64x1) : (⟨S_, .f32⟩ : BufTy).Contents (Elt F) → (⟨S16x64x1, .f32⟩ : BufTy).Contents (Elt F)),
    ternary main_call4_v12 main_call4_v13 main_call4_v14 main_v34 (select : (⟨S16x64x1, .i1⟩ : BufTy).Contents (Elt F) → (⟨S16x64x1, .f32⟩ : BufTy).Contents (Elt F) → (⟨S16x64x1, .f32⟩ : BufTy).Contents (Elt F) → (⟨S16x64x1, .f32⟩ : BufTy).Contents (Elt F)),
    reshape main_v34 main_v35 rfl shapeCasts_S16x64x1_S16x64,
    unary main_v35 main_v36 (Host.negf : (⟨S16x64, .f32⟩ : BufTy).Contents (Elt F) → (⟨S16x64, .f32⟩ : BufTy).Contents (Elt F)),
    nullary main_cst_2 (constant S_ .f32 0x00000000#32),
    unary main_cst_2 main_call5_v0 (id : (⟨S_, .f32⟩ : BufTy).Contents (Elt F) → (⟨S_, .f32⟩ : BufTy).Contents (Elt F)),
    unary main_call5_v0 main_call5_v1 ((broadcastInDim S16x64 ![] bcast_S_S16x64) : (⟨S_, .f32⟩ : BufTy).Contents (Elt F) → (⟨S16x64, .f32⟩ : BufTy).Contents (Elt F)),
    ternary main_v31 main_v36 main_call5_v1 main_v37 (select : (⟨S16x64, .i1⟩ : BufTy).Contents (Elt F) → (⟨S16x64, .f32⟩ : BufTy).Contents (Elt F) → (⟨S16x64, .f32⟩ : BufTy).Contents (Elt F) → (⟨S16x64, .f32⟩ : BufTy).Contents (Elt F)),
    nullary main_cst_3 (constant S_ .f32 0x00000000#32),
    binary main_v37 main_cst_3 main_v38 ((fun x v => Host.reduceAdd x v reducesTo_S16x64_S_d0_1 h_S_) : (⟨S16x64, .f32⟩ : BufTy).Contents (Elt F) → (⟨S_, .f32⟩ : BufTy).Contents (Elt F) → (⟨S_, .f32⟩ : BufTy).Contents (Elt F)),
    unary main_v31 main_v39 ((extui 32 · natLt_1_32) : (⟨S16x64, .i1⟩ : BufTy).Contents (Elt F) → (⟨S16x64, .i32⟩ : BufTy).Contents (Elt F)),
    nullary main_c_4 (constantI S_ 32 0#32),
    binary main_v39 main_c_4 main_v40 ((fun x v => Host.reduce IntOp.addi x v reducesTo_S16x64_S_d0_1 h_S_) : (⟨S16x64, .i32⟩ : BufTy).Contents (Elt F) → (⟨S_, .i32⟩ : BufTy).Contents (Elt F) → (⟨S_, .i32⟩ : BufTy).Contents (Elt F)),
    nullary main_c_5 (constantI S_ 32 1#32),
    binary main_v40 main_c_5 main_v41 (maxsi : (⟨S_, .i32⟩ : BufTy).Contents (Elt F) → (⟨S_, .i32⟩ : BufTy).Contents (Elt F) → (⟨S_, .i32⟩ : BufTy).Contents (Elt F)),
    unary main_v41 main_v42 (sitofp .f32 : (⟨S_, .i32⟩ : BufTy).Contents (Elt F) → (⟨S_, .f32⟩ : BufTy).Contents (Elt F)),
    binary main_v38 main_v42 main_v43 (Host.divf : (⟨S_, .f32⟩ : BufTy).Contents (Elt F) → (⟨S_, .f32⟩ : BufTy).Contents (Elt F) → (⟨S_, .f32⟩ : BufTy).Contents (Elt F)),
    nullary main_v44 (iotaInDim S16 32 0),
    unary main_v44 main_v45 (broadcastInDim S1x16 ![1] bcast_S16_S1x16_1 : (⟨S16, .i32⟩ : BufTy).Contents (Elt F) → (⟨S1x16, .i32⟩ : BufTy).Contents (Elt F)),
    unary main_arg8 main_v46 (broadcastInDim S16x1 ![0] bcast_S16_S16x1_0 : (⟨S16, .i32⟩ : BufTy).Contents (Elt F) → (⟨S16x1, .i32⟩ : BufTy).Contents (Elt F)),
    unary main_v45 main_v47 (broadcastInDim S16x16 ![0, 1] bcast_S1x16_S16x16_0_1 : (⟨S1x16, .i32⟩ : BufTy).Contents (Elt F) → (⟨S16x16, .i32⟩ : BufTy).Contents (Elt F)),
    unary main_v46 main_v48 (broadcastInDim S16x16 ![0, 1] bcast_S16x1_S16x16_0_1 : (⟨S16x1, .i32⟩ : BufTy).Contents (Elt F) → (⟨S16x16, .i32⟩ : BufTy).Contents (Elt F)),
    binary main_v47 main_v48 main_v49 (cmpi .slt : (⟨S16x16, .i32⟩ : BufTy).Contents (Elt F) → (⟨S16x16, .i32⟩ : BufTy).Contents (Elt F) → (⟨S16x16, .i1⟩ : BufTy).Contents (Elt F)),
    unary main_arg7 main_v50 ((extractStridedSlice S16x16x1 ![0, 0, 1] · slices_S16x16x2_S16x16x1_0_0_1) : (⟨S16x16x2, .f32⟩ : BufTy).Contents (Elt F) → (⟨S16x16x1, .f32⟩ : BufTy).Contents (Elt F)),
    reshape main_v50 main_v51 rfl shapeCasts_S16x16x1_S16x16,
    unary main_arg6 main_v52 ((extractStridedSlice S16x16x1 ![0, 0, 1] · slices_S16x16x2_S16x16x1_0_0_1) : (⟨S16x16x2, .f32⟩ : BufTy).Contents (Elt F) → (⟨S16x16x1, .f32⟩ : BufTy).Contents (Elt F)),
    reshape main_v52 main_v53 rfl shapeCasts_S16x16x1_S16x16,
    binary main_v51 main_v53 main_v54 (minimumf : (⟨S16x16, .f32⟩ : BufTy).Contents (Elt F) → (⟨S16x16, .f32⟩ : BufTy).Contents (Elt F) → (⟨S16x16, .f32⟩ : BufTy).Contents (Elt F)),
    unary main_arg7 main_v55 ((extractStridedSlice S16x16x1 ![0, 0, 0] · slices_S16x16x2_S16x16x1_0_0_0) : (⟨S16x16x2, .f32⟩ : BufTy).Contents (Elt F) → (⟨S16x16x1, .f32⟩ : BufTy).Contents (Elt F)),
    reshape main_v55 main_v56 rfl shapeCasts_S16x16x1_S16x16,
    unary main_arg6 main_v57 ((extractStridedSlice S16x16x1 ![0, 0, 0] · slices_S16x16x2_S16x16x1_0_0_0) : (⟨S16x16x2, .f32⟩ : BufTy).Contents (Elt F) → (⟨S16x16x1, .f32⟩ : BufTy).Contents (Elt F)),
    reshape main_v57 main_v58 rfl shapeCasts_S16x16x1_S16x16,
    binary main_v56 main_v58 main_v59 (maximumf : (⟨S16x16, .f32⟩ : BufTy).Contents (Elt F) → (⟨S16x16, .f32⟩ : BufTy).Contents (Elt F) → (⟨S16x16, .f32⟩ : BufTy).Contents (Elt F)),
    binary main_v54 main_v59 main_v60 (subf : (⟨S16x16, .f32⟩ : BufTy).Contents (Elt F) → (⟨S16x16, .f32⟩ : BufTy).Contents (Elt F) → (⟨S16x16, .f32⟩ : BufTy).Contents (Elt F)),
    nullary main_cst_6 (constant S_ .f32 0x00000000#32),
    unary main_cst_6 main_call6_v0 (id : (⟨S_, .f32⟩ : BufTy).Contents (Elt F) → (⟨S_, .f32⟩ : BufTy).Contents (Elt F)),
    unary main_call6_v0 main_call6_v1 ((broadcastInDim S16x16 ![] bcast_S_S16x16) : (⟨S_, .f32⟩ : BufTy).Contents (Elt F) → (⟨S16x16, .f32⟩ : BufTy).Contents (Elt F)),
    binary main_call6_v1 main_v60 main_v61 (maximumf : (⟨S16x16, .f32⟩ : BufTy).Contents (Elt F) → (⟨S16x16, .f32⟩ : BufTy).Contents (Elt F) → (⟨S16x16, .f32⟩ : BufTy).Contents (Elt F)),
    unary main_arg7 main_v62 ((extractStridedSlice S16x16x1 ![0, 0, 1] · slices_S16x16x2_S16x16x1_0_0_1) : (⟨S16x16x2, .f32⟩ : BufTy).Contents (Elt F) → (⟨S16x16x1, .f32⟩ : BufTy).Contents (Elt F)),
    reshape main_v62 main_v63 rfl shapeCasts_S16x16x1_S16x16,
    unary main_arg6 main_v64 ((extractStridedSlice S16x16x1 ![0, 0, 1] · slices_S16x16x2_S16x16x1_0_0_1) : (⟨S16x16x2, .f32⟩ : BufTy).Contents (Elt F) → (⟨S16x16x1, .f32⟩ : BufTy).Contents (Elt F)),
    reshape main_v64 main_v65 rfl shapeCasts_S16x16x1_S16x16,
    binary main_v63 main_v65 main_v66 (maximumf : (⟨S16x16, .f32⟩ : BufTy).Contents (Elt F) → (⟨S16x16, .f32⟩ : BufTy).Contents (Elt F) → (⟨S16x16, .f32⟩ : BufTy).Contents (Elt F)),
    unary main_arg7 main_v67 ((extractStridedSlice S16x16x1 ![0, 0, 0] · slices_S16x16x2_S16x16x1_0_0_0) : (⟨S16x16x2, .f32⟩ : BufTy).Contents (Elt F) → (⟨S16x16x1, .f32⟩ : BufTy).Contents (Elt F)),
    reshape main_v67 main_v68 rfl shapeCasts_S16x16x1_S16x16,
    unary main_arg6 main_v69 ((extractStridedSlice S16x16x1 ![0, 0, 0] · slices_S16x16x2_S16x16x1_0_0_0) : (⟨S16x16x2, .f32⟩ : BufTy).Contents (Elt F) → (⟨S16x16x1, .f32⟩ : BufTy).Contents (Elt F)),
    reshape main_v69 main_v70 rfl shapeCasts_S16x16x1_S16x16,
    binary main_v68 main_v70 main_v71 (minimumf : (⟨S16x16, .f32⟩ : BufTy).Contents (Elt F) → (⟨S16x16, .f32⟩ : BufTy).Contents (Elt F) → (⟨S16x16, .f32⟩ : BufTy).Contents (Elt F)),
    binary main_v66 main_v71 main_v72 (subf : (⟨S16x16, .f32⟩ : BufTy).Contents (Elt F) → (⟨S16x16, .f32⟩ : BufTy).Contents (Elt F) → (⟨S16x16, .f32⟩ : BufTy).Contents (Elt F)),
    nullary main_cst_7 (constant S_ .f32 0x322BCC77#32),
    unary main_cst_7 main_v73 (broadcastInDim S16x16 ![] bcast_S_S16x16 : (⟨S_, .f32⟩ : BufTy).Contents (Elt F) → (⟨S16x16, .f32⟩ : BufTy).Contents (Elt F)),
    binary main_v72 main_v73 main_v74 (maximumf : (⟨S16x16, .f32⟩ : BufTy).Contents (Elt F) → (⟨S16x16, .f32⟩ : BufTy).Contents (Elt F) → (⟨S16x16, .f32⟩ : BufTy).Contents (Elt F)),
    binary main_v61 main_v74 main_v75 (Host.divf : (⟨S16x16, .f32⟩ : BufTy).Contents (Elt F) → (⟨S16x16, .f32⟩ : BufTy).Contents (Elt F) → (⟨S16x16, .f32⟩ : BufTy).Contents (Elt F)),
    nullary main_cst_8 (constant S_ .f32 0x00000000#32),
    unary main_cst_8 main_call7_v0 (id : (⟨S_, .f32⟩ : BufTy).Contents (Elt F) → (⟨S_, .f32⟩ : BufTy).Contents (Elt F)),
    unary main_call7_v0 main_call7_v1 ((broadcastInDim S16x16 ![] bcast_S_S16x16) : (⟨S_, .f32⟩ : BufTy).Contents (Elt F) → (⟨S16x16, .f32⟩ : BufTy).Contents (Elt F)),
    ternary main_v49 main_v75 main_call7_v1 main_v76 (select : (⟨S16x16, .i1⟩ : BufTy).Contents (Elt F) → (⟨S16x16, .f32⟩ : BufTy).Contents (Elt F) → (⟨S16x16, .f32⟩ : BufTy).Contents (Elt F) → (⟨S16x16, .f32⟩ : BufTy).Contents (Elt F)),
    nullary main_c_9 (constantI S_ 32 0#32),
    binary main_arg8 main_c_9 main_v77 ((fun x v => Host.reduce IntOp.addi x v reducesTo_S16_S_d0 h_S_) : (⟨S16, .i32⟩ : BufTy).Contents (Elt F) → (⟨S_, .i32⟩ : BufTy).Contents (Elt F) → (⟨S_, .i32⟩ : BufTy).Contents (Elt F)),
    nullary main_c_10 (constantI S_ 32 1#32),
    binary main_v77 main_c_10 main_v78 (maxsi : (⟨S_, .i32⟩ : BufTy).Contents (Elt F) → (⟨S_, .i32⟩ : BufTy).Contents (Elt F) → (⟨S_, .i32⟩ : BufTy).Contents (Elt F)),
    unary main_v78 main_v79 (sitofp .f32 : (⟨S_, .i32⟩ : BufTy).Contents (Elt F) → (⟨S_, .f32⟩ : BufTy).Contents (Elt F)),
    nullary main_cst_11 (constant S_ .f32 0x00000000#32),
    binary main_v76 main_cst_11 main_v80 ((fun x v => Host.reduceAdd x v reducesTo_S16x16_S_d0_1 h_S_) : (⟨S16x16, .f32⟩ : BufTy).Contents (Elt F) → (⟨S_, .f32⟩ : BufTy).Contents (Elt F) → (⟨S_, .f32⟩ : BufTy).Contents (Elt F)),
    binary main_v80 main_v79 main_v81 (Host.divf : (⟨S_, .f32⟩ : BufTy).Contents (Elt F) → (⟨S_, .f32⟩ : BufTy).Contents (Elt F) → (⟨S_, .f32⟩ : BufTy).Contents (Elt F)),
    nullary main_cst_12 (constant S_ .f32 0x3F800000#32),
    binary main_cst_12 main_v81 main_v82 (subf : (⟨S_, .f32⟩ : BufTy).Contents (Elt F) → (⟨S_, .f32⟩ : BufTy).Contents (Elt F) → (⟨S_, .f32⟩ : BufTy).Contents (Elt F)),
    binary main_v25 main_v43 main_v83 (addf : (⟨S_, .f32⟩ : BufTy).Contents (Elt F) → (⟨S_, .f32⟩ : BufTy).Contents (Elt F) → (⟨S_, .f32⟩ : BufTy).Contents (Elt F)) ]

theorem plain_14 : (TRef.nullary (TRef.of (T := ⟨S_, .f32⟩) main_call0_cst) (constant S_ .f32 0xFF800000#32) : HloOp τ sig (Elt F)) = nullary main_call0_cst ((constant S_ .f32 0xFF800000#32) : (⟨S_, .f32⟩ : BufTy).Contents (Elt F)) := by
  simp only [TRef.nullary, TRef.unary, TRef.binary, TRef.ternary, TRef.reshape, TRef.ofBuf, TRef.toBuf, cast_eq] <;> rfl

theorem plain_15 : (TRef.binary (TRef.of (T := ⟨S16x16x32x12000, .f32⟩) main_arg2) (TRef.of (T := ⟨S_, .f32⟩) main_call0_cst) (TRef.of (T := ⟨S16x16x32, .f32⟩) main_call0_v0) (fun x v => Host.reduce FloatOps.maximumf x v reducesTo_S16x16x32x12000_S16x16x32_d3 h_S_) : HloOp τ sig (Elt F)) = binary main_arg2 main_call0_cst main_call0_v0 ((fun x v => Host.reduce FloatOps.maximumf x v reducesTo_S16x16x32x12000_S16x16x32_d3 h_S_) : (⟨S16x16x32x12000, .f32⟩ : BufTy).Contents (Elt F) → (⟨S_, .f32⟩ : BufTy).Contents (Elt F) → (⟨S16x16x32, .f32⟩ : BufTy).Contents (Elt F)) := by
  simp only [TRef.nullary, TRef.unary, TRef.binary, TRef.ternary, TRef.reshape, TRef.ofBuf, TRef.toBuf, cast_eq] <;> rfl

theorem plain_16 : (TRef.nullary (TRef.of (T := ⟨S_, .f32⟩) main_call0_cst_0) (constant S_ .f32 0xFF800000#32) : HloOp τ sig (Elt F)) = nullary main_call0_cst_0 ((constant S_ .f32 0xFF800000#32) : (⟨S_, .f32⟩ : BufTy).Contents (Elt F)) := by
  simp only [TRef.nullary, TRef.unary, TRef.binary, TRef.ternary, TRef.reshape, TRef.ofBuf, TRef.toBuf, cast_eq] <;> rfl

theorem plain_17 : (TRef.unary (TRef.of (T := ⟨S_, .f32⟩) main_call0_cst_0) (TRef.of (T := ⟨S16x16x32, .f32⟩) main_call0_v1) (broadcastInDim S16x16x32 ![] bcast_S_S16x16x32) : HloOp τ sig (Elt F)) = unary main_call0_cst_0 main_call0_v1 ((broadcastInDim S16x16x32 ![] bcast_S_S16x16x32) : (⟨S_, .f32⟩ : BufTy).Contents (Elt F) → (⟨S16x16x32, .f32⟩ : BufTy).Contents (Elt F)) := by
  simp only [TRef.nullary, TRef.unary, TRef.binary, TRef.ternary, TRef.reshape, TRef.ofBuf, TRef.toBuf, cast_eq] <;> rfl

theorem plain_18 : (TRef.binary (TRef.of (T := ⟨S16x16x32, .f32⟩) main_call0_v1) (TRef.of (T := ⟨S16x16x32, .f32⟩) main_call0_v0) (TRef.of (T := ⟨S16x16x32, .f32⟩) main_call0_v2) maximumf : HloOp τ sig (Elt F)) = binary main_call0_v1 main_call0_v0 main_call0_v2 (maximumf : (⟨S16x16x32, .f32⟩ : BufTy).Contents (Elt F) → (⟨S16x16x32, .f32⟩ : BufTy).Contents (Elt F) → (⟨S16x16x32, .f32⟩ : BufTy).Contents (Elt F)) := by
  simp only [TRef.nullary, TRef.unary, TRef.binary, TRef.ternary, TRef.reshape, TRef.ofBuf, TRef.toBuf, cast_eq] <;> rfl

theorem plain_19 : (TRef.unary (TRef.of (T := ⟨S16x16x32, .f32⟩) main_call0_v2) (TRef.of (T := ⟨S16x16x32x1, .f32⟩) main_call0_v3) (broadcastInDim S16x16x32x1 ![0, 1, 2] bcast_S16x16x32_S16x16x32x1_0_1_2) : HloOp τ sig (Elt F)) = unary main_call0_v2 main_call0_v3 ((broadcastInDim S16x16x32x1 ![0, 1, 2] bcast_S16x16x32_S16x16x32x1_0_1_2) : (⟨S16x16x32, .f32⟩ : BufTy).Contents (Elt F) → (⟨S16x16x32x1, .f32⟩ : BufTy).Contents (Elt F)) := by
  simp only [TRef.nullary, TRef.unary, TRef.binary, TRef.ternary, TRef.reshape, TRef.ofBuf, TRef.toBuf, cast_eq] <;> rfl

theorem plain_20 : (TRef.unary (TRef.of (T := ⟨S16x16x32x1, .f32⟩) main_call0_v3) (TRef.of (T := ⟨S16x16x32x12000, .f32⟩) main_call0_v4) (broadcastInDim S16x16x32x12000 ![0, 1, 2, 3] bcast_S16x16x32x1_S16x16x32x12000_0_1_2_3) : HloOp τ sig (Elt F)) = unary main_call0_v3 main_call0_v4 ((broadcastInDim S16x16x32x12000 ![0, 1, 2, 3] bcast_S16x16x32x1_S16x16x32x12000_0_1_2_3) : (⟨S16x16x32x1, .f32⟩ : BufTy).Contents (Elt F) → (⟨S16x16x32x12000, .f32⟩ : BufTy).Contents (Elt F)) := by
  simp only [TRef.nullary, TRef.unary, TRef.binary, TRef.ternary, TRef.reshape, TRef.ofBuf, TRef.toBuf, cast_eq] <;> rfl

theorem plain_21 : (TRef.binary (TRef.of (T := ⟨S16x16x32x12000, .f32⟩) main_arg2) (TRef.of (T := ⟨S16x16x32x12000, .f32⟩) main_call0_v4) (TRef.of (T := ⟨S16x16x32x12000, .f32⟩) main_call0_v5) subf : HloOp τ sig (Elt F)) = binary main_arg2 main_call0_v4 main_call0_v5 (subf : (⟨S16x16x32x12000, .f32⟩ : BufTy).Contents (Elt F) → (⟨S16x16x32x12000, .f32⟩ : BufTy).Contents (Elt F) → (⟨S16x16x32x12000, .f32⟩ : BufTy).Contents (Elt F)) := by
  simp only [TRef.nullary, TRef.unary, TRef.binary, TRef.ternary, TRef.reshape, TRef.ofBuf, TRef.toBuf, cast_eq] <;> rfl

theorem plain_22 : (TRef.unary (TRef.of (T := ⟨S16x16x32x12000, .f32⟩) main_call0_v5) (TRef.of (T := ⟨S16x16x32x12000, .f32⟩) main_call0_v6) Host.exp : HloOp τ sig (Elt F)) = unary main_call0_v5 main_call0_v6 (Host.exp : (⟨S16x16x32x12000, .f32⟩ : BufTy).Contents (Elt F) → (⟨S16x16x32x12000, .f32⟩ : BufTy).Contents (Elt F)) := by
  simp only [TRef.nullary, TRef.unary, TRef.binary, TRef.ternary, TRef.reshape, TRef.ofBuf, TRef.toBuf, cast_eq] <;> rfl

theorem plain_23 : (TRef.nullary (TRef.of (T := ⟨S_, .f32⟩) main_call0_cst_1) (constant S_ .f32 0x00000000#32) : HloOp τ sig (Elt F)) = nullary main_call0_cst_1 ((constant S_ .f32 0x00000000#32) : (⟨S_, .f32⟩ : BufTy).Contents (Elt F)) := by
  simp only [TRef.nullary, TRef.unary, TRef.binary, TRef.ternary, TRef.reshape, TRef.ofBuf, TRef.toBuf, cast_eq] <;> rfl

theorem plain_24 : (TRef.binary (TRef.of (T := ⟨S16x16x32x12000, .f32⟩) main_call0_v6) (TRef.of (T := ⟨S_, .f32⟩) main_call0_cst_1) (TRef.of (T := ⟨S16x16x32, .f32⟩) main_call0_v7) (fun x v => Host.reduceAdd x v reducesTo_S16x16x32x12000_S16x16x32_d3 h_S_) : HloOp τ sig (Elt F)) = binary main_call0_v6 main_call0_cst_1 main_call0_v7 ((fun x v => Host.reduceAdd x v reducesTo_S16x16x32x12000_S16x16x32_d3 h_S_) : (⟨S16x16x32x12000, .f32⟩ : BufTy).Contents (Elt F) → (⟨S_, .f32⟩ : BufTy).Contents (Elt F) → (⟨S16x16x32, .f32⟩ : BufTy).Contents (Elt F)) := by
  simp only [TRef.nullary, TRef.unary, TRef.binary, TRef.ternary, TRef.reshape, TRef.ofBuf, TRef.toBuf, cast_eq] <;> rfl

theorem plain_25 : (TRef.unary (TRef.of (T := ⟨S16x16x32, .f32⟩) main_call0_v7) (TRef.of (T := ⟨S16x16x32x1, .f32⟩) main_call0_v8) (broadcastInDim S16x16x32x1 ![0, 1, 2] bcast_S16x16x32_S16x16x32x1_0_1_2) : HloOp τ sig (Elt F)) = unary main_call0_v7 main_call0_v8 ((broadcastInDim S16x16x32x1 ![0, 1, 2] bcast_S16x16x32_S16x16x32x1_0_1_2) : (⟨S16x16x32, .f32⟩ : BufTy).Contents (Elt F) → (⟨S16x16x32x1, .f32⟩ : BufTy).Contents (Elt F)) := by
  simp only [TRef.nullary, TRef.unary, TRef.binary, TRef.ternary, TRef.reshape, TRef.ofBuf, TRef.toBuf, cast_eq] <;> rfl

theorem plain_26 : (TRef.unary (TRef.of (T := ⟨S16x16x32x1, .f32⟩) main_call0_v8) (TRef.of (T := ⟨S16x16x32x1, .f32⟩) main_call0_v9) Host.log : HloOp τ sig (Elt F)) = unary main_call0_v8 main_call0_v9 (Host.log : (⟨S16x16x32x1, .f32⟩ : BufTy).Contents (Elt F) → (⟨S16x16x32x1, .f32⟩ : BufTy).Contents (Elt F)) := by
  simp only [TRef.nullary, TRef.unary, TRef.binary, TRef.ternary, TRef.reshape, TRef.ofBuf, TRef.toBuf, cast_eq] <;> rfl

theorem plain_27 : (TRef.unary (TRef.of (T := ⟨S16x16x32x1, .f32⟩) main_call0_v9) (TRef.of (T := ⟨S16x16x32x12000, .f32⟩) main_call0_v10) (broadcastInDim S16x16x32x12000 ![0, 1, 2, 3] bcast_S16x16x32x1_S16x16x32x12000_0_1_2_3) : HloOp τ sig (Elt F)) = unary main_call0_v9 main_call0_v10 ((broadcastInDim S16x16x32x12000 ![0, 1, 2, 3] bcast_S16x16x32x1_S16x16x32x12000_0_1_2_3) : (⟨S16x16x32x1, .f32⟩ : BufTy).Contents (Elt F) → (⟨S16x16x32x12000, .f32⟩ : BufTy).Contents (Elt F)) := by
  simp only [TRef.nullary, TRef.unary, TRef.binary, TRef.ternary, TRef.reshape, TRef.ofBuf, TRef.toBuf, cast_eq] <;> rfl

theorem plain_28 : (TRef.binary (TRef.of (T := ⟨S16x16x32x12000, .f32⟩) main_call0_v5) (TRef.of (T := ⟨S16x16x32x12000, .f32⟩) main_call0_v10) (TRef.of (T := ⟨S16x16x32x12000, .f32⟩) main_v14) subf : HloOp τ sig (Elt F)) = binary main_call0_v5 main_call0_v10 main_v14 (subf : (⟨S16x16x32x12000, .f32⟩ : BufTy).Contents (Elt F) → (⟨S16x16x32x12000, .f32⟩ : BufTy).Contents (Elt F) → (⟨S16x16x32x12000, .f32⟩ : BufTy).Contents (Elt F)) := by
  simp only [TRef.nullary, TRef.unary, TRef.binary, TRef.ternary, TRef.reshape, TRef.ofBuf, TRef.toBuf, cast_eq] <;> rfl

theorem plain_30 : (TRef.nullary (TRef.of (T := ⟨S_, .i32⟩) main_call1_c) (constantI S_ 32 0#32) : HloOp τ sig (Elt F)) = nullary main_call1_c ((constantI S_ 32 0#32) : (⟨S_, .i32⟩ : BufTy).Contents (Elt F)) := by
  simp only [TRef.nullary, TRef.unary, TRef.binary, TRef.ternary, TRef.reshape, TRef.ofBuf, TRef.toBuf, cast_eq] <;> rfl

theorem plain_31 : (TRef.unary (TRef.of (T := ⟨S_, .i32⟩) main_call1_c) (TRef.of (T := ⟨S16x16x32x1, .i32⟩) main_call1_v0) (broadcastInDim S16x16x32x1 ![] bcast_S_S16x16x32x1) : HloOp τ sig (Elt F)) = unary main_call1_c main_call1_v0 ((broadcastInDim S16x16x32x1 ![] bcast_S_S16x16x32x1) : (⟨S_, .i32⟩ : BufTy).Contents (Elt F) → (⟨S16x16x32x1, .i32⟩ : BufTy).Contents (Elt F)) := by
  simp only [TRef.nullary, TRef.unary, TRef.binary, TRef.ternary, TRef.reshape, TRef.ofBuf, TRef.toBuf, cast_eq] <;> rfl

theorem plain_32 : (TRef.binary (TRef.of (T := ⟨S16x16x32x1, .i32⟩) main_v15) (TRef.of (T := ⟨S16x16x32x1, .i32⟩) main_call1_v0) (TRef.of (T := ⟨S16x16x32x1, .i1⟩) main_call1_v1) (cmpi .slt) : HloOp τ sig (Elt F)) = binary main_v15 main_call1_v0 main_call1_v1 ((cmpi .slt) : (⟨S16x16x32x1, .i32⟩ : BufTy).Contents (Elt F) → (⟨S16x16x32x1, .i32⟩ : BufTy).Contents (Elt F) → (⟨S16x16x32x1, .i1⟩ : BufTy).Contents (Elt F)) := by
  simp only [TRef.nullary, TRef.unary, TRef.binary, TRef.ternary, TRef.reshape, TRef.ofBuf, TRef.toBuf, cast_eq] <;> rfl

theorem plain_33 : (TRef.nullary (TRef.of (T := ⟨S_, .i32⟩) main_call1_c_0) (constantI S_ 32 12000#32) : HloOp τ sig (Elt F)) = nullary main_call1_c_0 ((constantI S_ 32 12000#32) : (⟨S_, .i32⟩ : BufTy).Contents (Elt F)) := by
  simp only [TRef.nullary, TRef.unary, TRef.binary, TRef.ternary, TRef.reshape, TRef.ofBuf, TRef.toBuf, cast_eq] <;> rfl

theorem plain_34 : (TRef.unary (TRef.of (T := ⟨S_, .i32⟩) main_call1_c_0) (TRef.of (T := ⟨S16x16x32x1, .i32⟩) main_call1_v2) (broadcastInDim S16x16x32x1 ![] bcast_S_S16x16x32x1) : HloOp τ sig (Elt F)) = unary main_call1_c_0 main_call1_v2 ((broadcastInDim S16x16x32x1 ![] bcast_S_S16x16x32x1) : (⟨S_, .i32⟩ : BufTy).Contents (Elt F) → (⟨S16x16x32x1, .i32⟩ : BufTy).Contents (Elt F)) := by
  simp only [TRef.nullary, TRef.unary, TRef.binary, TRef.ternary, TRef.reshape, TRef.ofBuf, TRef.toBuf, cast_eq] <;> rfl

theorem plain_35 : (TRef.binary (TRef.of (T := ⟨S16x16x32x1, .i32⟩) main_v15) (TRef.of (T := ⟨S16x16x32x1, .i32⟩) main_call1_v2) (TRef.of (T := ⟨S16x16x32x1, .i32⟩) main_call1_v3) addi : HloOp τ sig (Elt F)) = binary main_v15 main_call1_v2 main_call1_v3 (addi : (⟨S16x16x32x1, .i32⟩ : BufTy).Contents (Elt F) → (⟨S16x16x32x1, .i32⟩ : BufTy).Contents (Elt F) → (⟨S16x16x32x1, .i32⟩ : BufTy).Contents (Elt F)) := by
  simp only [TRef.nullary, TRef.unary, TRef.binary, TRef.ternary, TRef.reshape, TRef.ofBuf, TRef.toBuf, cast_eq] <;> rfl

theorem plain_36 : (TRef.ternary (TRef.of (T := ⟨S16x16x32x1, .i1⟩) main_call1_v1) (TRef.of (T := ⟨S16x16x32x1, .i32⟩) main_call1_v3) (TRef.of (T := ⟨S16x16x32x1, .i32⟩) main_v15) (TRef.of (T := ⟨S16x16x32x1, .i32⟩) main_call1_v4) select : HloOp τ sig (Elt F)) = ternary main_call1_v1 main_call1_v3 main_v15 main_call1_v4 (select : (⟨S16x16x32x1, .i1⟩ : BufTy).Contents (Elt F) → (⟨S16x16x32x1, .i32⟩ : BufTy).Contents (Elt F) → (⟨S16x16x32x1, .i32⟩ : BufTy).Contents (Elt F) → (⟨S16x16x32x1, .i32⟩ : BufTy).Contents (Elt F)) := by
  simp only [TRef.nullary, TRef.unary, TRef.binary, TRef.ternary, TRef.reshape, TRef.ofBuf, TRef.toBuf, cast_eq] <;> rfl

theorem plain_37 : (TRef.reshape (TRef.of (T := ⟨S16x16x32x1, .i32⟩) main_call1_v4) (TRef.of (T := ⟨S16x16x32x1x1, .i32⟩) main_call1_v5) rfl shapeCasts_S16x16x32x1_S16x16x32x1x1 : HloOp τ sig (Elt F)) = reshape main_call1_v4 main_call1_v5 rfl shapeCasts_S16x16x32x1_S16x16x32x1x1 := by
  simp only [TRef.nullary, TRef.unary, TRef.binary, TRef.ternary, TRef.reshape, TRef.ofBuf, TRef.toBuf, cast_eq] <;> rfl

theorem plain_38 : (TRef.nullary (TRef.of (T := ⟨S1, .i32⟩) main_call1_c_1) (constantI S1 32 11999#32) : HloOp τ sig (Elt F)) = nullary main_call1_c_1 ((constantI S1 32 11999#32) : (⟨S1, .i32⟩ : BufTy).Contents (Elt F)) := by
  simp only [TRef.nullary, TRef.unary, TRef.binary, TRef.ternary, TRef.reshape, TRef.ofBuf, TRef.toBuf, cast_eq] <;> rfl

theorem plain_39 : (TRef.nullary (TRef.of (T := ⟨S_, .i32⟩) main_call1_c_2) (constantI S_ 32 0#32) : HloOp τ sig (Elt F)) = nullary main_call1_c_2 ((constantI S_ 32 0#32) : (⟨S_, .i32⟩ : BufTy).Contents (Elt F)) := by
  simp only [TRef.nullary, TRef.unary, TRef.binary, TRef.ternary, TRef.reshape, TRef.ofBuf, TRef.toBuf, cast_eq] <;> rfl

theorem plain_40 : (TRef.unary (TRef.of (T := ⟨S_, .i32⟩) main_call1_c_2) (TRef.of (T := ⟨S16x16x32x1x1, .i32⟩) main_call1_v6) (broadcastInDim S16x16x32x1x1 ![] bcast_S_S16x16x32x1x1) : HloOp τ sig (Elt F)) = unary main_call1_c_2 main_call1_v6 ((broadcastInDim S16x16x32x1x1 ![] bcast_S_S16x16x32x1x1) : (⟨S_, .i32⟩ : BufTy).Contents (Elt F) → (⟨S16x16x32x1x1, .i32⟩ : BufTy).Contents (Elt F)) := by
  simp only [TRef.nullary, TRef.unary, TRef.binary, TRef.ternary, TRef.reshape, TRef.ofBuf, TRef.toBuf, cast_eq] <;> rfl

theorem plain_41 : (TRef.binary (TRef.of (T := ⟨S16x16x32x1x1, .i32⟩) main_call1_v5) (TRef.of (T := ⟨S16x16x32x1x1, .i32⟩) main_call1_v6) (TRef.of (T := ⟨S16x16x32x1x1, .i1⟩) main_call1_v7) (cmpi .sge) : HloOp τ sig (Elt F)) = binary main_call1_v5 main_call1_v6 main_call1_v7 ((cmpi .sge) : (⟨S16x16x32x1x1, .i32⟩ : BufTy).Contents (Elt F) → (⟨S16x16x32x1x1, .i32⟩ : BufTy).Contents (Elt F) → (⟨S16x16x32x1x1, .i1⟩ : BufTy).Contents (Elt F)) := by
  simp only [TRef.nullary, TRef.unary, TRef.binary, TRef.ternary, TRef.reshape, TRef.ofBuf, TRef.toBuf, cast_eq] <;> rfl

theorem plain_42 : (TRef.unary (TRef.of (T := ⟨S1, .i32⟩) main_call1_c_1) (TRef.of (T := ⟨S1x1x1x1x1, .i32⟩) main_call1_v8) (broadcastInDim S1x1x1x1x1 ![4] bcast_S1_S1x1x1x1x1_4) : HloOp τ sig (Elt F)) = unary main_call1_c_1 main_call1_v8 ((broadcastInDim S1x1x1x1x1 ![4] bcast_S1_S1x1x1x1x1_4) : (⟨S1, .i32⟩ : BufTy).Contents (Elt F) → (⟨S1x1x1x1x1, .i32⟩ : BufTy).Contents (Elt F)) := by
  simp only [TRef.nullary, TRef.unary, TRef.binary, TRef.ternary, TRef.reshape, TRef.ofBuf, TRef.toBuf, cast_eq] <;> rfl

theorem plain_43 : (TRef.unary (TRef.of (T := ⟨S1x1x1x1x1, .i32⟩) main_call1_v8) (TRef.of (T := ⟨S16x16x32x1x1, .i32⟩) main_call1_v9) (broadcastInDim S16x16x32x1x1 ![0, 1, 2, 3, 4] bcast_S1x1x1x1x1_S16x16x32x1x1_0_1_2_3_4) : HloOp τ sig (Elt F)) = unary main_call1_v8 main_call1_v9 ((broadcastInDim S16x16x32x1x1 ![0, 1, 2, 3, 4] bcast_S1x1x1x1x1_S16x16x32x1x1_0_1_2_3_4) : (⟨S1x1x1x1x1, .i32⟩ : BufTy).Contents (Elt F) → (⟨S16x16x32x1x1, .i32⟩ : BufTy).Contents (Elt F)) := by
  simp only [TRef.nullary, TRef.unary, TRef.binary, TRef.ternary, TRef.reshape, TRef.ofBuf, TRef.toBuf, cast_eq] <;> rfl

theorem plain_44 : (TRef.binary (TRef.of (T := ⟨S16x16x32x1x1, .i32⟩) main_call1_v5) (TRef.of (T := ⟨S16x16x32x1x1, .i32⟩) main_call1_v9) (TRef.of (T := ⟨S16x16x32x1x1, .i1⟩) main_call1_v10) (cmpi .sle) : HloOp τ sig (Elt F)) = binary main_call1_v5 main_call1_v9 main_call1_v10 ((cmpi .sle) : (⟨S16x16x32x1x1, .i32⟩ : BufTy).Contents (Elt F) → (⟨S16x16x32x1x1, .i32⟩ : BufTy).Contents (Elt F) → (⟨S16x16x32x1x1, .i1⟩ : BufTy).Contents (Elt F)) := by
  simp only [TRef.nullary, TRef.unary, TRef.binary, TRef.ternary, TRef.reshape, TRef.ofBuf, TRef.toBuf, cast_eq] <;> rfl

theorem plain_45 : (TRef.binary (TRef.of (T := ⟨S16x16x32x1x1, .i1⟩) main_call1_v7) (TRef.of (T := ⟨S16x16x32x1x1, .i1⟩) main_call1_v10) (TRef.of (T := ⟨S16x16x32x1x1, .i1⟩) main_call1_v11) andi : HloOp τ sig (Elt F)) = binary main_call1_v7 main_call1_v10 main_call1_v11 (andi : (⟨S16x16x32x1x1, .i1⟩ : BufTy).Contents (Elt F) → (⟨S16x16x32x1x1, .i1⟩ : BufTy).Contents (Elt F) → (⟨S16x16x32x1x1, .i1⟩ : BufTy).Contents (Elt F)) := by
  simp only [TRef.nullary, TRef.unary, TRef.binary, TRef.ternary, TRef.reshape, TRef.ofBuf, TRef.toBuf, cast_eq] <;> rfl

theorem plain_46 : (TRef.nullary (TRef.of (T := ⟨S_, .i1⟩) main_call1_c_3) (constantI S_ 1 1#1) : HloOp τ sig (Elt F)) = nullary main_call1_c_3 ((constantI S_ 1 1#1) : (⟨S_, .i1⟩ : BufTy).Contents (Elt F)) := by
  simp only [TRef.nullary, TRef.unary, TRef.binary, TRef.ternary, TRef.reshape, TRef.ofBuf, TRef.toBuf, cast_eq] <;> rfl

theorem plain_47 : (TRef.binary (TRef.of (T := ⟨S16x16x32x1x1, .i1⟩) main_call1_v11) (TRef.of (T := ⟨S_, .i1⟩) main_call1_c_3) (TRef.of (T := ⟨S16x16x32x1, .i1⟩) main_call1_v12) (fun x v => Host.reduce IntOp.andi x v reducesTo_S16x16x32x1x1_S16x16x32x1_d4 h_S_) : HloOp τ sig (Elt F)) = binary main_call1_v11 main_call1_c_3 main_call1_v12 ((fun x v => Host.reduce IntOp.andi x v reducesTo_S16x16x32x1x1_S16x16x32x1_d4 h_S_) : (⟨S16x16x32x1x1, .i1⟩ : BufTy).Contents (Elt F) → (⟨S_, .i1⟩ : BufTy).Contents (Elt F) → (⟨S16x16x32x1, .i1⟩ : BufTy).Contents (Elt F)) := by
  simp only [TRef.nullary, TRef.unary, TRef.binary, TRef.ternary, TRef.reshape, TRef.ofBuf, TRef.toBuf, cast_eq] <;> rfl

theorem plain_48 : (TRef.binary (TRef.of (T := ⟨S16x16x32x12000, .f32⟩) main_v14) (TRef.of (T := ⟨S16x16x32x1x1, .i32⟩) main_call1_v5) (TRef.of (T := ⟨S16x16x32x1, .f32⟩) main_call1_v13) (fun x i => Host.gather gather_S16x16x32x12000_S16x16x32x1x1_S16x16x32x1_n_3_012_012_3_4_1111 x i) : HloOp τ sig (Elt F)) = binary main_v14 main_call1_v5 main_call1_v13 ((fun x i => Host.gather gather_S16x16x32x12000_S16x16x32x1x1_S16x16x32x1_n_3_012_012_3_4_1111 x i) : (⟨S16x16x32x12000, .f32⟩ : BufTy).Contents (Elt F) → (⟨S16x16x32x1x1, .i32⟩ : BufTy).Contents (Elt F) → (⟨S16x16x32x1, .f32⟩ : BufTy).Contents (Elt F)) := by
  simp only [TRef.nullary, TRef.unary, TRef.binary, TRef.ternary, TRef.reshape, TRef.ofBuf, TRef.toBuf, cast_eq] <;> rfl

theorem plain_49 : (TRef.nullary (TRef.of (T := ⟨S_, .f32⟩) main_call1_cst) (constant S_ .f32 0x7FC00000#32) : HloOp τ sig (Elt F)) = nullary main_call1_cst ((constant S_ .f32 0x7FC00000#32) : (⟨S_, .f32⟩ : BufTy).Contents (Elt F)) := by
  simp only [TRef.nullary, TRef.unary, TRef.binary, TRef.ternary, TRef.reshape, TRef.ofBuf, TRef.toBuf, cast_eq] <;> rfl

theorem plain_50 : (TRef.unary (TRef.of (T := ⟨S_, .f32⟩) main_call1_cst) (TRef.of (T := ⟨S16x16x32x1, .f32⟩) main_call1_v14) (broadcastInDim S16x16x32x1 ![] bcast_S_S16x16x32x1) : HloOp τ sig (Elt F)) = unary main_call1_cst main_call1_v14 ((broadcastInDim S16x16x32x1 ![] bcast_S_S16x16x32x1) : (⟨S_, .f32⟩ : BufTy).Contents (Elt F) → (⟨S16x16x32x1, .f32⟩ : BufTy).Contents (Elt F)) := by
  simp only [TRef.nullary, TRef.unary, TRef.binary, TRef.ternary, TRef.reshape, TRef.ofBuf, TRef.toBuf, cast_eq] <;> rfl

theorem plain_51 : (TRef.ternary (TRef.of (T := ⟨S16x16x32x1, .i1⟩) main_call1_v12) (TRef.of (T := ⟨S16x16x32x1, .f32⟩) main_call1_v13) (TRef.of (T := ⟨S16x16x32x1, .f32⟩) main_call1_v14) (TRef.of (T := ⟨S16x16x32x1, .f32⟩) main_v16) select : HloOp τ sig (Elt F)) = ternary main_call1_v12 main_call1_v13 main_call1_v14 main_v16 (select : (⟨S16x16x32x1, .i1⟩ : BufTy).Contents (Elt F) → (⟨S16x16x32x1, .f32⟩ : BufTy).Contents (Elt F) → (⟨S16x16x32x1, .f32⟩ : BufTy).Contents (Elt F) → (⟨S16x16x32x1, .f32⟩ : BufTy).Contents (Elt F)) := by
  simp only [TRef.nullary, TRef.unary, TRef.binary, TRef.ternary, TRef.reshape, TRef.ofBuf, TRef.toBuf, cast_eq] <;> rfl

theorem plain_61 : (TRef.unary (TRef.of (T := ⟨S_, .f32⟩) main_cst) (TRef.of (T := ⟨S_, .f32⟩) main_call2_v0) id : HloOp τ sig (Elt F)) = unary main_cst main_call2_v0 (id : (⟨S_, .f32⟩ : BufTy).Contents (Elt F) → (⟨S_, .f32⟩ : BufTy).Contents (Elt F)) := by
  simp only [TRef.nullary, TRef.unary, TRef.binary, TRef.ternary, TRef.reshape, TRef.ofBuf, TRef.toBuf, cast_eq] <;> rfl

theorem plain_62 : (TRef.unary (TRef.of (T := ⟨S_, .f32⟩) main_call2_v0) (TRef.of (T := ⟨S16x16x32, .f32⟩) main_call2_v1) (broadcastInDim S16x16x32 ![] bcast_S_S16x16x32) : HloOp τ sig (Elt F)) = unary main_call2_v0 main_call2_v1 ((broadcastInDim S16x16x32 ![] bcast_S_S16x16x32) : (⟨S_, .f32⟩ : BufTy).Contents (Elt F) → (⟨S16x16x32, .f32⟩ : BufTy).Contents (Elt F)) := by
  simp only [TRef.nullary, TRef.unary, TRef.binary, TRef.ternary, TRef.reshape, TRef.ofBuf, TRef.toBuf, cast_eq] <;> rfl

theorem plain_63 : (TRef.ternary (TRef.of (T := ⟨S16x16x32, .i1⟩) main_v13) (TRef.of (T := ⟨S16x16x32, .f32⟩) main_v18) (TRef.of (T := ⟨S16x16x32, .f32⟩) main_call2_v1) (TRef.of (T := ⟨S16x16x32, .f32⟩) main_v23) select : HloOp τ sig (Elt F)) = ternary main_v13 main_v18 main_call2_v1 main_v23 (select : (⟨S16x16x32, .i1⟩ : BufTy).Contents (Elt F) → (⟨S16x16x32, .f32⟩ : BufTy).Contents (Elt F) → (⟨S16x16x32, .f32⟩ : BufTy).Contents (Elt F) → (⟨S16x16x32, .f32⟩ : BufTy).Contents (Elt F)) := by
  simp only [TRef.nullary, TRef.unary, TRef.binary, TRef.ternary, TRef.reshape, TRef.ofBuf, TRef.toBuf, cast_eq] <;> rfl

theorem plain_73 : (TRef.nullary (TRef.of (T := ⟨S_, .f32⟩) main_call3_cst) (constant S_ .f32 0xFF800000#32) : HloOp τ sig (Elt F)) = nullary main_call3_cst ((constant S_ .f32 0xFF800000#32) : (⟨S_, .f32⟩ : BufTy).Contents (Elt F)) := by
  simp only [TRef.nullary, TRef.unary, TRef.binary, TRef.ternary, TRef.reshape, TRef.ofBuf, TRef.toBuf, cast_eq] <;> rfl

theorem plain_74 : (TRef.binary (TRef.of (T := ⟨S16x64x20, .f32⟩) main_arg5) (TRef.of (T := ⟨S_, .f32⟩) main_call3_cst) (TRef.of (T := ⟨S16x64, .f32⟩) main_call3_v0) (fun x v => Host.reduce FloatOps.maximumf x v reducesTo_S16x64x20_S16x64_d2 h_S_) : HloOp τ sig (Elt F)) = binary main_arg5 main_call3_cst main_call3_v0 ((fun x v => Host.reduce FloatOps.maximumf x v reducesTo_S16x64x20_S16x64_d2 h_S_) : (⟨S16x64x20, .f32⟩ : BufTy).Contents (Elt F) → (⟨S_, .f32⟩ : BufTy).Contents (Elt F) → (⟨S16x64, .f32⟩ : BufTy).Contents (Elt F)) := by
  simp only [TRef.nullary, TRef.unary, TRef.binary, TRef.ternary, TRef.reshape, TRef.ofBuf, TRef.toBuf, cast_eq] <;> rfl

theorem plain_75 : (TRef.nullary (TRef.of (T := ⟨S_, .f32⟩) main_call3_cst_0) (constant S_ .f32 0xFF800000#32) : HloOp τ sig (Elt F)) = nullary main_call3_cst_0 ((constant S_ .f32 0xFF800000#32) : (⟨S_, .f32⟩ : BufTy).Contents (Elt F)) := by
  simp only [TRef.nullary, TRef.unary, TRef.binary, TRef.ternary, TRef.reshape, TRef.ofBuf, TRef.toBuf, cast_eq] <;> rfl

theorem plain_76 : (TRef.unary (TRef.of (T := ⟨S_, .f32⟩) main_call3_cst_0) (TRef.of (T := ⟨S16x64, .f32⟩) main_call3_v1) (broadcastInDim S16x64 ![] bcast_S_S16x64) : HloOp τ sig (Elt F)) = unary main_call3_cst_0 main_call3_v1 ((broadcastInDim S16x64 ![] bcast_S_S16x64) : (⟨S_, .f32⟩ : BufTy).Contents (Elt F) → (⟨S16x64, .f32⟩ : BufTy).Contents (Elt F)) := by
  simp only [TRef.nullary, TRef.unary, TRef.binary, TRef.ternary, TRef.reshape, TRef.ofBuf, TRef.toBuf, cast_eq] <;> rfl

theorem plain_77 : (TRef.binary (TRef.of (T := ⟨S16x64, .f32⟩) main_call3_v1) (TRef.of (T := ⟨S16x64, .f32⟩) main_call3_v0) (TRef.of (T := ⟨S16x64, .f32⟩) main_call3_v2) maximumf : HloOp τ sig (Elt F)) = binary main_call3_v1 main_call3_v0 main_call3_v2 (maximumf : (⟨S16x64, .f32⟩ : BufTy).Contents (Elt F) → (⟨S16x64, .f32⟩ : BufTy).Contents (Elt F) → (⟨S16x64, .f32⟩ : BufTy).Contents (Elt F)) := by
  simp only [TRef.nullary, TRef.unary, TRef.binary, TRef.ternary, TRef.reshape, TRef.ofBuf, TRef.toBuf, cast_eq] <;> rfl

theorem plain_78 : (TRef.unary (TRef.of (T := ⟨S16x64, .f32⟩) main_call3_v2) (TRef.of (T := ⟨S16x64x1, .f32⟩) main_call3_v3) (broadcastInDim S16x64x1 ![0, 1] bcast_S16x64_S16x64x1_0_1) : HloOp τ sig (Elt F)) = unary main_call3_v2 main_call3_v3 ((broadcastInDim S16x64x1 ![0, 1] bcast_S16x64_S16x64x1_0_1) : (⟨S16x64, .f32⟩ : BufTy).Contents (Elt F) → (⟨S16x64x1, .f32⟩ : BufTy).Contents (Elt F)) := by
  simp only [TRef.nullary, TRef.unary, TRef.binary, TRef.ternary, TRef.reshape, TRef.ofBuf, TRef.toBuf, cast_eq] <;> rfl

theorem plain_79 : (TRef.unary (TRef.of (T := ⟨S16x64x1, .f32⟩) main_call3_v3) (TRef.of (T := ⟨S16x64x20, .f32⟩) main_call3_v4) (broadcastInDim S16x64x20 ![0, 1, 2] bcast_S16x64x1_S16x64x20_0_1_2) : HloOp τ sig (Elt F)) = unary main_call3_v3 main_call3_v4 ((broadcastInDim S16x64x20 ![0, 1, 2] bcast_S16x64x1_S16x64x20_0_1_2) : (⟨S16x64x1, .f32⟩ : BufTy).Contents (Elt F) → (⟨S16x64x20, .f32⟩ : BufTy).Contents (Elt F)) := by
  simp only [TRef.nullary, TRef.unary, TRef.binary, TRef.ternary, TRef.reshape, TRef.ofBuf, TRef.toBuf, cast_eq] <;> rfl

theorem plain_80 : (TRef.binary (TRef.of (T := ⟨S16x64x20, .f32⟩) main_arg5) (TRef.of (T := ⟨S16x64x20, .f32⟩) main_call3_v4) (TRef.of (T := ⟨S16x64x20, .f32⟩) main_call3_v5) subf : HloOp τ sig (Elt F)) = binary main_arg5 main_call3_v4 main_call3_v5 (subf : (⟨S16x64x20, .f32⟩ : BufTy).Contents (Elt F) → (⟨S16x64x20, .f32⟩ : BufTy).Contents (Elt F) → (⟨S16x64x20, .f32⟩ : BufTy).Contents (Elt F)) := by
  simp only [TRef.nullary, TRef.unary, TRef.binary, TRef.ternary, TRef.reshape, TRef.ofBuf, TRef.toBuf, cast_eq] <;> rfl

theorem plain_81 : (TRef.unary (TRef.of (T := ⟨S16x64x20, .f32⟩) main_call3_v5) (TRef.of (T := ⟨S16x64x20, .f32⟩) main_call3_v6) Host.exp : HloOp τ sig (Elt F)) = unary main_call3_v5 main_call3_v6 (Host.exp : (⟨S16x64x20, .f32⟩ : BufTy).Contents (Elt F) → (⟨S16x64x20, .f32⟩ : BufTy).Contents (Elt F)) := by
  simp only [TRef.nullary, TRef.unary, TRef.binary, TRef.ternary, TRef.reshape, TRef.ofBuf, TRef.toBuf, cast_eq] <;> rfl

theorem plain_82 : (TRef.nullary (TRef.of (T := ⟨S_, .f32⟩) main_call3_cst_1) (constant S_ .f32 0x00000000#32) : HloOp τ sig (Elt F)) = nullary main_call3_cst_1 ((constant S_ .f32 0x00000000#32) : (⟨S_, .f32⟩ : BufTy).Contents (Elt F)) := by
  simp only [TRef.nullary, TRef.unary, TRef.binary, TRef.ternary, TRef.reshape, TRef.ofBuf, TRef.toBuf, cast_eq] <;> rfl

theorem plain_83 : (TRef.binary (TRef.of (T := ⟨S16x64x20, .f32⟩) main_call3_v6) (TRef.of (T := ⟨S_, .f32⟩) main_call3_cst_1) (TRef.of (T := ⟨S16x64, .f32⟩) main_call3_v7) (fun x v => Host.reduceAdd x v reducesTo_S16x64x20_S16x64_d2 h_S_) : HloOp τ sig (Elt F)) = binary main_call3_v6 main_call3_cst_1 main_call3_v7 ((fun x v => Host.reduceAdd x v reducesTo_S16x64x20_S16x64_d2 h_S_) : (⟨S16x64x20, .f32⟩ : BufTy).Contents (Elt F) → (⟨S_, .f32⟩ : BufTy).Contents (Elt F) → (⟨S16x64, .f32⟩ : BufTy).Contents (Elt F)) := by
  simp only [TRef.nullary, TRef.unary, TRef.binary, TRef.ternary, TRef.reshape, TRef.ofBuf, TRef.toBuf, cast_eq] <;> rfl

theorem plain_84 : (TRef.unary (TRef.of (T := ⟨S16x64, .f32⟩) main_call3_v7) (TRef.of (T := ⟨S16x64x1, .f32⟩) main_call3_v8) (broadcastInDim S16x64x1 ![0, 1] bcast_S16x64_S16x64x1_0_1) : HloOp τ sig (Elt F)) = unary main_call3_v7 main_call3_v8 ((broadcastInDim S16x64x1 ![0, 1] bcast_S16x64_S16x64x1_0_1) : (⟨S16x64, .f32⟩ : BufTy).Contents (Elt F) → (⟨S16x64x1, .f32⟩ : BufTy).Contents (Elt F)) := by
  simp only [TRef.nullary, TRef.unary, TRef.binary, TRef.ternary, TRef.reshape, TRef.ofBuf, TRef.toBuf, cast_eq] <;> rfl

theorem plain_85 : (TRef.unary (TRef.of (T := ⟨S16x64x1, .f32⟩) main_call3_v8) (TRef.of (T := ⟨S16x64x1, .f32⟩) main_call3_v9) Host.log : HloOp τ sig (Elt F)) = unary main_call3_v8 main_call3_v9 (Host.log : (⟨S16x64x1, .f32⟩ : BufTy).Contents (Elt F) → (⟨S16x64x1, .f32⟩ : BufTy).Contents (Elt F)) := by
  simp only [TRef.nullary, TRef.unary, TRef.binary, TRef.ternary, TRef.reshape, TRef.ofBuf, TRef.toBuf, cast_eq] <;> rfl

theorem plain_86 : (TRef.unary (TRef.of (T := ⟨S16x64x1, .f32⟩) main_call3_v9) (TRef.of (T := ⟨S16x64x20, .f32⟩) main_call3_v10) (broadcastInDim S16x64x20 ![0, 1, 2] bcast_S16x64x1_S16x64x20_0_1_2) : HloOp τ sig (Elt F)) = unary main_call3_v9 main_call3_v10 ((broadcastInDim S16x64x20 ![0, 1, 2] bcast_S16x64x1_S16x64x20_0_1_2) : (⟨S16x64x1, .f32⟩ : BufTy).Contents (Elt F) → (⟨S16x64x20, .f32⟩ : BufTy).Contents (Elt F)) := by
  simp only [TRef.nullary, TRef.unary, TRef.binary, TRef.ternary, TRef.reshape, TRef.ofBuf, TRef.toBuf, cast_eq] <;> rfl

theorem plain_87 : (TRef.binary (TRef.of (T := ⟨S16x64x20, .f32⟩) main_call3_v5) (TRef.of (T := ⟨S16x64x20, .f32⟩) main_call3_v10) (TRef.of (T := ⟨S16x64x20, .f32⟩) main_v32) subf : HloOp τ sig (Elt F)) = binary main_call3_v5 main_call3_v10 main_v32 (subf : (⟨S16x64x20, .f32⟩ : BufTy).Contents (Elt F) → (⟨S16x64x20, .f32⟩ : BufTy).Contents (Elt F) → (⟨S16x64x20, .f32⟩ : BufTy).Contents (Elt F)) := by
  simp only [TRef.nullary, TRef.unary, TRef.binary, TRef.ternary, TRef.reshape, TRef.ofBuf, TRef.toBuf, cast_eq] <;> rfl

theorem plain_89 : (TRef.nullary (TRef.of (T := ⟨S_, .i32⟩) main_call4_c) (constantI S_ 32 0#32) : HloOp τ sig (Elt F)) = nullary main_call4_c ((constantI S_ 32 0#32) : (⟨S_, .i32⟩ : BufTy).Contents (Elt F)) := by
  simp only [TRef.nullary, TRef.unary, TRef.binary, TRef.ternary, TRef.reshape, TRef.ofBuf, TRef.toBuf, cast_eq] <;> rfl

theorem plain_90 : (TRef.unary (TRef.of (T := ⟨S_, .i32⟩) main_call4_c) (TRef.of (T := ⟨S16x64x1, .i32⟩) main_call4_v0) (broadcastInDim S16x64x1 ![] bcast_S_S16x64x1) : HloOp τ sig (Elt F)) = unary main_call4_c main_call4_v0 ((broadcastInDim S16x64x1 ![] bcast_S_S16x64x1) : (⟨S_, .i32⟩ : BufTy).Contents (Elt F) → (⟨S16x64x1, .i32⟩ : BufTy).Contents (Elt F)) := by
  simp only [TRef.nullary, TRef.unary, TRef.binary, TRef.ternary, TRef.reshape, TRef.ofBuf, TRef.toBuf, cast_eq] <;> rfl

theorem plain_91 : (TRef.binary (TRef.of (T := ⟨S16x64x1, .i32⟩) main_v33) (TRef.of (T := ⟨S16x64x1, .i32⟩) main_call4_v0) (TRef.of (T := ⟨S16x64x1, .i1⟩) main_call4_v1) (cmpi .slt) : HloOp τ sig (Elt F)) = binary main_v33 main_call4_v0 main_call4_v1 ((cmpi .slt) : (⟨S16x64x1, .i32⟩ : BufTy).Contents (Elt F) → (⟨S16x64x1, .i32⟩ : BufTy).Contents (Elt F) → (⟨S16x64x1, .i1⟩ : BufTy).Contents (Elt F)) := by
  simp only [TRef.nullary, TRef.unary, TRef.binary, TRef.ternary, TRef.reshape, TRef.ofBuf, TRef.toBuf, cast_eq] <;> rfl

theorem plain_92 : (TRef.nullary (TRef.of (T := ⟨S_, .i32⟩) main_call4_c_0) (constantI S_ 32 20#32) : HloOp τ sig (Elt F)) = nullary main_call4_c_0 ((constantI S_ 32 20#32) : (⟨S_, .i32⟩ : BufTy).Contents (Elt F)) := by
  simp only [TRef.nullary, TRef.unary, TRef.binary, TRef.ternary, TRef.reshape, TRef.ofBuf, TRef.toBuf, cast_eq] <;> rfl

theorem plain_93 : (TRef.unary (TRef.of (T := ⟨S_, .i32⟩) main_call4_c_0) (TRef.of (T := ⟨S16x64x1, .i32⟩) main_call4_v2) (broadcastInDim S16x64x1 ![] bcast_S_S16x64x1) : HloOp τ sig (Elt F)) = unary main_call4_c_0 main_call4_v2 ((broadcastInDim S16x64x1 ![] bcast_S_S16x64x1) : (⟨S_, .i32⟩ : BufTy).Contents (Elt F) → (⟨S16x64x1, .i32⟩ : BufTy).Contents (Elt F)) := by
  simp only [TRef.nullary, TRef.unary, TRef.binary, TRef.ternary, TRef.reshape, TRef.ofBuf, TRef.toBuf, cast_eq] <;> rfl

theorem plain_94 : (TRef.binary (TRef.of (T := ⟨S16x64x1, .i32⟩) main_v33) (TRef.of (T := ⟨S16x64x1, .i32⟩) main_call4_v2) (TRef.of (T := ⟨S16x64x1, .i32⟩) main_call4_v3) addi : HloOp τ sig (Elt F)) = binary main_v33 main_call4_v2 main_call4_v3 (addi : (⟨S16x64x1, .i32⟩ : BufTy).Contents (Elt F) → (⟨S16x64x1, .i32⟩ : BufTy).Contents (Elt F) → (⟨S16x64x1, .i32⟩ : BufTy).Contents (Elt F)) := by
  simp only [TRef.nullary, TRef.unary, TRef.binary, TRef.ternary, TRef.reshape, TRef.ofBuf, TRef.toBuf, cast_eq] <;> rfl

theorem plain_95 : (TRef.ternary (TRef.of (T := ⟨S16x64x1, .i1⟩) main_call4_v1) (TRef.of (T := ⟨S16x64x1, .i32⟩) main_call4_v3) (TRef.of (T := ⟨S16x64x1, .i32⟩) main_v33) (TRef.of (T := ⟨S16x64x1, .i32⟩) main_call4_v4) select : HloOp τ sig (Elt F)) = ternary main_call4_v1 main_call4_v3 main_v33 main_call4_v4 (select : (⟨S16x64x1, .i1⟩ : BufTy).Contents (Elt F) → (⟨S16x64x1, .i32⟩ : BufTy).Contents (Elt F) → (⟨S16x64x1, .i32⟩ : BufTy).Contents (Elt F) → (⟨S16x64x1, .i32⟩ : BufTy).Contents (Elt F)) := by
  simp only [TRef.nullary, TRef.unary, TRef.binary, TRef.ternary, TRef.reshape, TRef.ofBuf, TRef.toBuf, cast_eq] <;> rfl

theorem plain_96 : (TRef.reshape (TRef.of (T := ⟨S16x64x1, .i32⟩) main_call4_v4) (TRef.of (T := ⟨S16x64x1x1, .i32⟩) main_call4_v5) rfl shapeCasts_S16x64x1_S16x64x1x1 : HloOp τ sig (Elt F)) = reshape main_call4_v4 main_call4_v5 rfl shapeCasts_S16x64x1_S16x64x1x1 := by
  simp only [TRef.nullary, TRef.unary, TRef.binary, TRef.ternary, TRef.reshape, TRef.ofBuf, TRef.toBuf, cast_eq] <;> rfl

theorem plain_97 : (TRef.nullary (TRef.of (T := ⟨S1, .i32⟩) main_call4_c_1) (constantI S1 32 19#32) : HloOp τ sig (Elt F)) = nullary main_call4_c_1 ((constantI S1 32 19#32) : (⟨S1, .i32⟩ : BufTy).Contents (Elt F)) := by
  simp only [TRef.nullary, TRef.unary, TRef.binary, TRef.ternary, TRef.reshape, TRef.ofBuf, TRef.toBuf, cast_eq] <;> rfl

theorem plain_98 : (TRef.nullary (TRef.of (T := ⟨S_, .i32⟩) main_call4_c_2) (constantI S_ 32 0#32) : HloOp τ sig (Elt F)) = nullary main_call4_c_2 ((constantI S_ 32 0#32) : (⟨S_, .i32⟩ : BufTy).Contents (Elt F)) := by
  simp only [TRef.nullary, TRef.unary, TRef.binary, TRef.ternary, TRef.reshape, TRef.ofBuf, TRef.toBuf, cast_eq] <;> rfl

theorem plain_99 : (TRef.unary (TRef.of (T := ⟨S_, .i32⟩) main_call4_c_2) (TRef.of (T := ⟨S16x64x1x1, .i32⟩) main_call4_v6) (broadcastInDim S16x64x1x1 ![] bcast_S_S16x64x1x1) : HloOp τ sig (Elt F)) = unary main_call4_c_2 main_call4_v6 ((broadcastInDim S16x64x1x1 ![] bcast_S_S16x64x1x1) : (⟨S_, .i32⟩ : BufTy).Contents (Elt F) → (⟨S16x64x1x1, .i32⟩ : BufTy).Contents (Elt F)) := by
  simp only [TRef.nullary, TRef.unary, TRef.binary, TRef.ternary, TRef.reshape, TRef.ofBuf, TRef.toBuf, cast_eq] <;> rfl

theorem plain_100 : (TRef.binary (TRef.of (T := ⟨S16x64x1x1, .i32⟩) main_call4_v5) (TRef.of (T := ⟨S16x64x1x1, .i32⟩) main_call4_v6) (TRef.of (T := ⟨S16x64x1x1, .i1⟩) main_call4_v7) (cmpi .sge) : HloOp τ sig (Elt F)) = binary main_call4_v5 main_call4_v6 main_call4_v7 ((cmpi .sge) : (⟨S16x64x1x1, .i32⟩ : BufTy).Contents (Elt F) → (⟨S16x64x1x1, .i32⟩ : BufTy).Contents (Elt F) → (⟨S16x64x1x1, .i1⟩ : BufTy).Contents (Elt F)) := by
  simp only [TRef.nullary, TRef.unary, TRef.binary, TRef.ternary, TRef.reshape, TRef.ofBuf, TRef.toBuf, cast_eq] <;> rfl

theorem plain_101 : (TRef.unary (TRef.of (T := ⟨S1, .i32⟩) main_call4_c_1) (TRef.of (T := ⟨S1x1x1x1, .i32⟩) main_call4_v8) (broadcastInDim S1x1x1x1 ![3] bcast_S1_S1x1x1x1_3) : HloOp τ sig (Elt F)) = unary main_call4_c_1 main_call4_v8 ((broadcastInDim S1x1x1x1 ![3] bcast_S1_S1x1x1x1_3) : (⟨S1, .i32⟩ : BufTy).Contents (Elt F) → (⟨S1x1x1x1, .i32⟩ : BufTy).Contents (Elt F)) := by
  simp only [TRef.nullary, TRef.unary, TRef.binary, TRef.ternary, TRef.reshape, TRef.ofBuf, TRef.toBuf, cast_eq] <;> rfl

theorem plain_102 : (TRef.unary (TRef.of (T := ⟨S1x1x1x1, .i32⟩) main_call4_v8) (TRef.of (T := ⟨S16x64x1x1, .i32⟩) main_call4_v9) (broadcastInDim S16x64x1x1 ![0, 1, 2, 3] bcast_S1x1x1x1_S16x64x1x1_0_1_2_3) : HloOp τ sig (Elt F)) = unary main_call4_v8 main_call4_v9 ((broadcastInDim S16x64x1x1 ![0, 1, 2, 3] bcast_S1x1x1x1_S16x64x1x1_0_1_2_3) : (⟨S1x1x1x1, .i32⟩ : BufTy).Contents (Elt F) → (⟨S16x64x1x1, .i32⟩ : BufTy).Contents (Elt F)) := by
  simp only [TRef.nullary, TRef.unary, TRef.binary, TRef.ternary, TRef.reshape, TRef.ofBuf, TRef.toBuf, cast_eq] <;> rfl

theorem plain_103 : (TRef.binary (TRef.of (T := ⟨S16x64x1x1, .i32⟩) main_call4_v5) (TRef.of (T := ⟨S16x64x1x1, .i32⟩) main_call4_v9) (TRef.of (T := ⟨S16x64x1x1, .i1⟩) main_call4_v10) (cmpi .sle) : HloOp τ sig (Elt F)) = binary main_call4_v5 main_call4_v9 main_call4_v10 ((cmpi .sle) : (⟨S16x64x1x1, .i32⟩ : BufTy).Contents (Elt F) → (⟨S16x64x1x1, .i32⟩ : BufTy).Contents (Elt F) → (⟨S16x64x1x1, .i1⟩ : BufTy).Contents (Elt F)) := by
  simp only [TRef.nullary, TRef.unary, TRef.binary, TRef.ternary, TRef.reshape, TRef.ofBuf, TRef.toBuf, cast_eq] <;> rfl

theorem plain_104 : (TRef.binary (TRef.of (T := ⟨S16x64x1x1, .i1⟩) main_call4_v7) (TRef.of (T := ⟨S16x64x1x1, .i1⟩) main_call4_v10) (TRef.of (T := ⟨S16x64x1x1, .i1⟩) main_call4_v11) andi : HloOp τ sig (Elt F)) = binary main_call4_v7 main_call4_v10 main_call4_v11 (andi : (⟨S16x64x1x1, .i1⟩ : BufTy).Contents (Elt F) → (⟨S16x64x1x1, .i1⟩ : BufTy).Contents (Elt F) → (⟨S16x64x1x1, .i1⟩ : BufTy).Contents (Elt F)) := by
  simp only [TRef.nullary, TRef.unary, TRef.binary, TRef.ternary, TRef.reshape, TRef.ofBuf, TRef.toBuf, cast_eq] <;> rfl

theorem plain_105 : (TRef.nullary (TRef.of (T := ⟨S_, .i1⟩) main_call4_c_3) (constantI S_ 1 1#1) : HloOp τ sig (Elt F)) = nullary main_call4_c_3 ((constantI S_ 1 1#1) : (⟨S_, .i1⟩ : BufTy).Contents (Elt F)) := by
  simp only [TRef.nullary, TRef.unary, TRef.binary, TRef.ternary, TRef.reshape, TRef.ofBuf, TRef.toBuf, cast_eq] <;> rfl

theorem plain_106 : (TRef.binary (TRef.of (T := ⟨S16x64x1x1, .i1⟩) main_call4_v11) (TRef.of (T := ⟨S_, .i1⟩) main_call4_c_3) (TRef.of (T := ⟨S16x64x1, .i1⟩) main_call4_v12) (fun x v => Host.reduce IntOp.andi x v reducesTo_S16x64x1x1_S16x64x1_d3 h_S_) : HloOp τ sig (Elt F)) = binary main_call4_v11 main_call4_c_3 main_call4_v12 ((fun x v => Host.reduce IntOp.andi x v reducesTo_S16x64x1x1_S16x64x1_d3 h_S_) : (⟨S16x64x1x1, .i1⟩ : BufTy).Contents (Elt F) → (⟨S_, .i1⟩ : BufTy).Contents (Elt F) → (⟨S16x64x1, .i1⟩ : BufTy).Contents (Elt F)) := by
  simp only [TRef.nullary, TRef.unary, TRef.binary, TRef.ternary, TRef.reshape, TRef.ofBuf, TRef.toBuf, cast_eq] <;> rfl

theorem plain_107 : (TRef.binary (TRef.of (T := ⟨S16x64x20, .f32⟩) main_v32) (TRef.of (T := ⟨S16x64x1x1, .i32⟩) main_call4_v5) (TRef.of (T := ⟨S16x64x1, .f32⟩) main_call4_v13) (fun x i => Host.gather gather_S16x64x20_S16x64x1x1_S16x64x1_n_2_01_01_2_3_111 x i) : HloOp τ sig (Elt F)) = binary main_v32 main_call4_v5 main_call4_v13 ((fun x i => Host.gather gather_S16x64x20_S16x64x1x1_S16x64x1_n_2_01_01_2_3_111 x i) : (⟨S16x64x20, .f32⟩ : BufTy).Contents (Elt F) → (⟨S16x64x1x1, .i32⟩ : BufTy).Contents (Elt F) → (⟨S16x64x1, .f32⟩ : BufTy).Contents (Elt F)) := by
  simp only [TRef.nullary, TRef.unary, TRef.binary, TRef.ternary, TRef.reshape, TRef.ofBuf, TRef.toBuf, cast_eq] <;> rfl

theorem plain_108 : (TRef.nullary (TRef.of (T := ⟨S_, .f32⟩) main_call4_cst) (constant S_ .f32 0x7FC00000#32) : HloOp τ sig (Elt F)) = nullary main_call4_cst ((constant S_ .f32 0x7FC00000#32) : (⟨S_, .f32⟩ : BufTy).Contents (Elt F)) := by
  simp only [TRef.nullary, TRef.unary, TRef.binary, TRef.ternary, TRef.reshape, TRef.ofBuf, TRef.toBuf, cast_eq] <;> rfl

theorem plain_109 : (TRef.unary (TRef.of (T := ⟨S_, .f32⟩) main_call4_cst) (TRef.of (T := ⟨S16x64x1, .f32⟩) main_call4_v14) (broadcastInDim S16x64x1 ![] bcast_S_S16x64x1) : HloOp τ sig (Elt F)) = unary main_call4_cst main_call4_v14 ((broadcastInDim S16x64x1 ![] bcast_S_S16x64x1) : (⟨S_, .f32⟩ : BufTy).Contents (Elt F) → (⟨S16x64x1, .f32⟩ : BufTy).Contents (Elt F)) := by
  simp only [TRef.nullary, TRef.unary, TRef.binary, TRef.ternary, TRef.reshape, TRef.ofBuf, TRef.toBuf, cast_eq] <;> rfl

theorem plain_110 : (TRef.ternary (TRef.of (T := ⟨S16x64x1, .i1⟩) main_call4_v12) (TRef.of (T := ⟨S16x64x1, .f32⟩) main_call4_v13) (TRef.of (T := ⟨S16x64x1, .f32⟩) main_call4_v14) (TRef.of (T := ⟨S16x64x1, .f32⟩) main_v34) select : HloOp τ sig (Elt F)) = ternary main_call4_v12 main_call4_v13 main_call4_v14 main_v34 (select : (⟨S16x64x1, .i1⟩ : BufTy).Contents (Elt F) → (⟨S16x64x1, .f32⟩ : BufTy).Contents (Elt F) → (⟨S16x64x1, .f32⟩ : BufTy).Contents (Elt F) → (⟨S16x64x1, .f32⟩ : BufTy).Contents (Elt F)) := by
  simp only [TRef.nullary, TRef.unary, TRef.binary, TRef.ternary, TRef.reshape, TRef.ofBuf, TRef.toBuf, cast_eq] <;> rfl

theorem plain_114 : (TRef.unary (TRef.of (T := ⟨S_, .f32⟩) main_cst_2) (TRef.of (T := ⟨S_, .f32⟩) main_call5_v0) id : HloOp τ sig (Elt F)) = unary main_cst_2 main_call5_v0 (id : (⟨S_, .f32⟩ : BufTy).Contents (Elt F) → (⟨S_, .f32⟩ : BufTy).Contents (Elt F)) := by
  simp only [TRef.nullary, TRef.unary, TRef.binary, TRef.ternary, TRef.reshape, TRef.ofBuf, TRef.toBuf, cast_eq] <;> rfl

theorem plain_115 : (TRef.unary (TRef.of (T := ⟨S_, .f32⟩) main_call5_v0) (TRef.of (T := ⟨S16x64, .f32⟩) main_call5_v1) (broadcastInDim S16x64 ![] bcast_S_S16x64) : HloOp τ sig (Elt F)) = unary main_call5_v0 main_call5_v1 ((broadcastInDim S16x64 ![] bcast_S_S16x64) : (⟨S_, .f32⟩ : BufTy).Contents (Elt F) → (⟨S16x64, .f32⟩ : BufTy).Contents (Elt F)) := by
  simp only [TRef.nullary, TRef.unary, TRef.binary, TRef.ternary, TRef.reshape, TRef.ofBuf, TRef.toBuf, cast_eq] <;> rfl

theorem plain_116 : (TRef.ternary (TRef.of (T := ⟨S16x64, .i1⟩) main_v31) (TRef.of (T := ⟨S16x64, .f32⟩) main_v36) (TRef.of (T := ⟨S16x64, .f32⟩) main_call5_v1) (TRef.of (T := ⟨S16x64, .f32⟩) main_v37) select : HloOp τ sig (Elt F)) = ternary main_v31 main_v36 main_call5_v1 main_v37 (select : (⟨S16x64, .i1⟩ : BufTy).Contents (Elt F) → (⟨S16x64, .f32⟩ : BufTy).Contents (Elt F) → (⟨S16x64, .f32⟩ : BufTy).Contents (Elt F) → (⟨S16x64, .f32⟩ : BufTy).Contents (Elt F)) := by
  simp only [TRef.nullary, TRef.unary, TRef.binary, TRef.ternary, TRef.reshape, TRef.ofBuf, TRef.toBuf, cast_eq] <;> rfl

theorem plain_144 : (TRef.unary (TRef.of (T := ⟨S_, .f32⟩) main_cst_6) (TRef.of (T := ⟨S_, .f32⟩) main_call6_v0) id : HloOp τ sig (Elt F)) = unary main_cst_6 main_call6_v0 (id : (⟨S_, .f32⟩ : BufTy).Contents (Elt F) → (⟨S_, .f32⟩ : BufTy).Contents (Elt F)) := by
  simp only [TRef.nullary, TRef.unary, TRef.binary, TRef.ternary, TRef.reshape, TRef.ofBuf, TRef.toBuf, cast_eq] <;> rfl

theorem plain_145 : (TRef.unary (TRef.of (T := ⟨S_, .f32⟩) main_call6_v0) (TRef.of (T := ⟨S16x16, .f32⟩) main_call6_v1) (broadcastInDim S16x16 ![] bcast_S_S16x16) : HloOp τ sig (Elt F)) = unary main_call6_v0 main_call6_v1 ((broadcastInDim S16x16 ![] bcast_S_S16x16) : (⟨S_, .f32⟩ : BufTy).Contents (Elt F) → (⟨S16x16, .f32⟩ : BufTy).Contents (Elt F)) := by
  simp only [TRef.nullary, TRef.unary, TRef.binary, TRef.ternary, TRef.reshape, TRef.ofBuf, TRef.toBuf, cast_eq] <;> rfl

theorem plain_146 : (TRef.binary (TRef.of (T := ⟨S16x16, .f32⟩) main_call6_v1) (TRef.of (T := ⟨S16x16, .f32⟩) main_v60) (TRef.of (T := ⟨S16x16, .f32⟩) main_v61) maximumf : HloOp τ sig (Elt F)) = binary main_call6_v1 main_v60 main_v61 (maximumf : (⟨S16x16, .f32⟩ : BufTy).Contents (Elt F) → (⟨S16x16, .f32⟩ : BufTy).Contents (Elt F) → (⟨S16x16, .f32⟩ : BufTy).Contents (Elt F)) := by
  simp only [TRef.nullary, TRef.unary, TRef.binary, TRef.ternary, TRef.reshape, TRef.ofBuf, TRef.toBuf, cast_eq] <;> rfl

theorem plain_163 : (TRef.unary (TRef.of (T := ⟨S_, .f32⟩) main_cst_8) (TRef.of (T := ⟨S_, .f32⟩) main_call7_v0) id : HloOp τ sig (Elt F)) = unary main_cst_8 main_call7_v0 (id : (⟨S_, .f32⟩ : BufTy).Contents (Elt F) → (⟨S_, .f32⟩ : BufTy).Contents (Elt F)) := by
  simp only [TRef.nullary, TRef.unary, TRef.binary, TRef.ternary, TRef.reshape, TRef.ofBuf, TRef.toBuf, cast_eq] <;> rfl

theorem plain_164 : (TRef.unary (TRef.of (T := ⟨S_, .f32⟩) main_call7_v0) (TRef.of (T := ⟨S16x16, .f32⟩) main_call7_v1) (broadcastInDim S16x16 ![] bcast_S_S16x16) : HloOp τ sig (Elt F)) = unary main_call7_v0 main_call7_v1 ((broadcastInDim S16x16 ![] bcast_S_S16x16) : (⟨S_, .f32⟩ : BufTy).Contents (Elt F) → (⟨S16x16, .f32⟩ : BufTy).Contents (Elt F)) := by
  simp only [TRef.nullary, TRef.unary, TRef.binary, TRef.ternary, TRef.reshape, TRef.ofBuf, TRef.toBuf, cast_eq] <;> rfl

theorem plain_165 : (TRef.ternary (TRef.of (T := ⟨S16x16, .i1⟩) main_v49) (TRef.of (T := ⟨S16x16, .f32⟩) main_v75) (TRef.of (T := ⟨S16x16, .f32⟩) main_call7_v1) (TRef.of (T := ⟨S16x16, .f32⟩) main_v76) select : HloOp τ sig (Elt F)) = ternary main_v49 main_v75 main_call7_v1 main_v76 (select : (⟨S16x16, .i1⟩ : BufTy).Contents (Elt F) → (⟨S16x16, .f32⟩ : BufTy).Contents (Elt F) → (⟨S16x16, .f32⟩ : BufTy).Contents (Elt F) → (⟨S16x16, .f32⟩ : BufTy).Contents (Elt F)) := by
  simp only [TRef.nullary, TRef.unary, TRef.binary, TRef.ternary, TRef.reshape, TRef.ofBuf, TRef.toBuf, cast_eq] <;> rfl

set_option maxRecDepth 8192 in
/-- The two lists are the same list. -/
theorem ops_eq : (ops : List (HloOp τ sig (Elt F))) = opsPlain := by
  unfold ops opsPlain
  simp only [plain_14, plain_15, plain_16, plain_17, plain_18, plain_19, plain_20, plain_21, plain_22, plain_23, plain_24, plain_25, plain_26, plain_27, plain_28, plain_30, plain_31, plain_32, plain_33, plain_34, plain_35, plain_36, plain_37, plain_38, plain_39, plain_40, plain_41, plain_42, plain_43, plain_44, plain_45, plain_46, plain_47, plain_48, plain_49, plain_50, plain_51, plain_61, plain_62, plain_63, plain_73, plain_74, plain_75, plain_76, plain_77, plain_78, plain_79, plain_80, plain_81, plain_82, plain_83, plain_84, plain_85, plain_86, plain_87, plain_89, plain_90, plain_91, plain_92, plain_93, plain_94, plain_95, plain_96, plain_97, plain_98, plain_99, plain_100, plain_101, plain_102, plain_103, plain_104, plain_105, plain_106, plain_107, plain_108, plain_109, plain_110, plain_114, plain_115, plain_116, plain_144, plain_145, plain_146, plain_163, plain_164, plain_165]

end Cert.ReferenceIdeal.RunH

end
-- ==== Proof.Ref.AfterV25.lean ====
/-
  The fold of the reference's operations at the buffer of the caption loss is that result's stage: the operations it depends on,
  composed, as a function of the arguments. The fold is taken over the list spelt with plain operations.
-/
import proofs.«424876_j87643102642642_3_alg».proof.Proof.RefReadP
import proofs.«424876_j87643102642642_3_alg».proof.Proof.Ref.PlainOps

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

set_option maxRecDepth 65536 in
set_option maxHeartbeats 16000000 in
theorem after_v25 (m : (ℓ : Loc nD τ sig) → Buf (Elt F) ℓ) (c : Dev nD) :
    after (ops (F := F)) (launchContents m c) (Proc.devRef .tc main_v25) = val_main_v25 (F := F) (m ((c.tc : Thread nD τ).loc main_arg0)) (m ((c.tc : Thread nD τ).loc main_arg1)) (m ((c.tc : Thread nD τ).loc main_arg2)) (m ((c.tc : Thread nD τ).loc main_arg8)) := by
  rw [ops_eq]
  after_results_simp <;> rfl

end Cert.ReferenceIdeal.RunH

end
-- ==== Proof.Ref.AfterV43.lean ====
/-
  The fold of the reference's operations at the buffer of the program loss is that result's stage: the operations it depends on,
  composed, as a function of the arguments.
-/
import proofs.«424876_j87643102642642_3_alg».proof.Proof.RefReadP

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

set_option maxRecDepth 65536 in
set_option maxHeartbeats 16000000 in
theorem after_v43 (m : (ℓ : Loc nD τ sig) → Buf (Elt F) ℓ) (c : Dev nD) :
    after (ops (F := F)) (launchContents m c) (Proc.devRef .tc main_v43) = val_main_v43 (F := F) (m ((c.tc : Thread nD τ).loc main_arg3)) (m ((c.tc : Thread nD τ).loc main_arg4)) (m ((c.tc : Thread nD τ).loc main_arg5)) := by
  after_results_simp <;> (try simp only [TRef.ofBuf, TRef.toBuf, cast_eq]) <;> rfl

end Cert.ReferenceIdeal.RunH

end
-- ==== Proof.Ref.AfterV82.lean ====
/-
  The fold of the reference's operations at the buffer of the interval loss is that result's stage: the operations it depends on,
  composed, as a function of the arguments.
-/
import proofs.«424876_j87643102642642_3_alg».proof.Proof.RefReadP

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

set_option maxRecDepth 65536 in
set_option maxHeartbeats 16000000 in
theorem after_v82 (m : (ℓ : Loc nD τ sig) → Buf (Elt F) ℓ) (c : Dev nD) :
    after (ops (F := F)) (launchContents m c) (Proc.devRef .tc main_v82) = val_main_v82 (F := F) (m ((c.tc : Thread nD τ).loc main_arg6)) (m ((c.tc : Thread nD τ).loc main_arg7)) (m ((c.tc : Thread nD τ).loc main_arg8)) := by
  after_results_simp <;> (try simp only [TRef.ofBuf, TRef.toBuf, cast_eq]) <;> rfl

end Cert.ReferenceIdeal.RunH

end
-- ==== Proof.Ref.AfterV83.lean ====
/-
  The fold of the reference's operations at the buffer of the total loss is that result's stage: the operations it depends on,
  composed, as a function of the arguments. The fold is taken over the list spelt with plain operations.
-/
import proofs.«424876_j87643102642642_3_alg».proof.Proof.RefReadP
import proofs.«424876_j87643102642642_3_alg».proof.Proof.Ref.PlainOps

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

set_option maxRecDepth 65536 in
set_option maxHeartbeats 16000000 in
theorem after_v83 (m : (ℓ : Loc nD τ sig) → Buf (Elt F) ℓ) (c : Dev nD) :
    after (ops (F := F)) (launchContents m c) (Proc.devRef .tc main_v83) = val_main_v83 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) := by
  rw [ops_eq]
  after_results_simp <;> rfl

end Cert.ReferenceIdeal.RunH

end
-- ==== Proof.Ref.Run.lean ====
/-
  The reference's run with its results named: every weakly fair execution terminates with the total loss, the caption loss,
  the program loss and the interval loss at their stages (each the composed term of the operations it depends on, as a
  function of the arguments), and the ten arguments unchanged.
-/
import proofs.«424876_j87643102642642_3_alg».proof.Proof.Ref.RunAfter
import proofs.«424876_j87643102642642_3_alg».proof.Proof.Ref.AfterArgs
import proofs.«424876_j87643102642642_3_alg».proof.Proof.Ref.AfterV25
import proofs.«424876_j87643102642642_3_alg».proof.Proof.Ref.AfterV43
import proofs.«424876_j87643102642642_3_alg».proof.Proof.Ref.AfterV82
import proofs.«424876_j87643102642642_3_alg».proof.Proof.Ref.AfterV83

noncomputable section

namespace Cert.ReferenceIdeal.RunH

open Cert.ReferenceIdeal Cert.ReferenceIdeal.Gen Idealize.ShloMosaic Idealize.ShloMosaic.TcCoe Idealize.SL.Sem Idealize.ShloMosaic.StableHlo
open Cert.ReferenceIdeal.ValueP Cert.ReferenceIdeal.ReadP

variable {F : FTy → Type} [FloatOps F]

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v83) = val_main_v83 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8))
      ∧ r.2.mem ((c.tc : Thread nD τ).loc main_v25) = val_main_v25 (F := F) (m ((c.tc : Thread nD τ).loc main_arg0)) (m ((c.tc : Thread nD τ).loc main_arg1)) (m ((c.tc : Thread nD τ).loc main_arg2)) (m ((c.tc : Thread nD τ).loc main_arg8))
      ∧ r.2.mem ((c.tc : Thread nD τ).loc main_v43) = val_main_v43 (F := F) (m ((c.tc : Thread nD τ).loc main_arg3)) (m ((c.tc : Thread nD τ).loc main_arg4)) (m ((c.tc : Thread nD τ).loc main_arg5))
      ∧ r.2.mem ((c.tc : Thread nD τ).loc main_v82) = val_main_v82 (F := F) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v83).trans (after_v83 m c), (h c main_v25).trans (after_v25 m c),
      (h c main_v43).trans (after_v43 m c), (h c main_v82).trans (after_v82 m c),
      (h c main_arg0).trans (after_arg0 m c),
      (h c main_arg1).trans (after_arg1 m c),
      (h c main_arg2).trans (after_arg2 m c),
      (h c main_arg3).trans (after_arg3 m c),
      (h c main_arg4).trans (after_arg4 m c),
      (h c main_arg5).trans (after_arg5 m c),
      (h c main_arg6).trans (after_arg6 m c),
      (h c main_arg7).trans (after_arg7 m c),
      (h c main_arg8).trans (after_arg8 m c),
      (h c main_arg9).trans (after_arg9 m c)⟩)
    (run_after m ρ)

end Cert.ReferenceIdeal.RunH

end
-- ==== Proof.Spec.lean ====
/-
  The caption loss's numerator as one function of the argument arrays, over the extended reals.

  There are 8192 = 16 * 16 * 32 tokens (video, caption, position), each with 12000 logits and one label.
  A token's negative log-likelihood is written the way a streaming evaluation has it,
  `(log (sum_j exp (x_j - M)) + M) - x_label` with `M` the largest logit, and the label's logit is
  picked out by comparing the label with every position: `sum_j (if j = label then x_j else 0)`.
  The numerator is the sum of the tokens' likelihoods over the tokens a 0/1 mask keeps.
-/
import Idealize.ShloMosaic.Lib.ValueIdx
import Idealize.ShloMosaic.PureOps.Ideal.Laws

noncomputable section

namespace Cert.Spec

open Idealize.ShloMosaic Idealize.ShloMosaic.ValueIdx

/-- logits: video, caption, position, vocabulary entry -/
abbrev SLogits : Shape := ⟨4, ![16, 16, 32, 12000]⟩
/-- tokens: video, caption, position -/
abbrev STok : Shape := ⟨3, ![16, 16, 32]⟩
/-- the logits with the tokens laid out in one line -/
abbrev SFlat : Shape := ⟨2, ![8192, 12000]⟩
/-- one number per token, as a column -/
abbrev SCol : Shape := ⟨2, ![8192, 1]⟩

/-- Token number `i` of the 8192, in row-major order, as (video, caption, position). -/
def tok (i : Fin 8192) : STok.Idx :=
  ix3 (⟨i.val / 512, by omega⟩ : Fin 16) (⟨i.val / 32 % 16, by omega⟩ : Fin 16) (⟨i.val % 32, by omega⟩ : Fin 32)

/-- The logits of token number `i`. -/
def row (X : SLogits.Idx → EReal) (i : Fin 8192) (j : Fin 12000) : EReal :=
  X (ix4 (⟨i.val / 512, by omega⟩ : Fin 16) (⟨i.val / 32 % 16, by omega⟩ : Fin 16) (⟨i.val % 32, by omega⟩ : Fin 32) j)

/-- The largest of a token's logits: the fold of `max` from minus infinity. -/
def rowMax (x : Fin 12000 → EReal) : EReal := (Finset.univ : Finset (Fin 12000)).fold max ⊥ x

/-- log-sum-exp of a token's logits, shifted by their maximum. -/
def lse (x : Fin 12000 → EReal) : EReal := Ideal.log (∑ j : Fin 12000, Ideal.exp (x j - rowMax x)) + rowMax x

/-- The logit at the label, picked by comparing every position's number with the label's word. -/
def pick (x : Fin 12000 → EReal) (k : BitVec 32) : EReal :=
  ∑ j : Fin 12000, if BitVec.ofNat 32 j.val = k then x j else 0

/-- A token's negative log-likelihood. -/
def nll (x : Fin 12000 → EReal) (k : BitVec 32) : EReal := lse x - pick x k

/-- The numerator over the flat layout the kernel streams: row `i` of `xs`, the label `ks (i, 0)`, kept when the
    float mask `ms (i, 0)` exceeds one half. -/
def capSumFlat (xs : SFlat.Idx → EReal) (ks : SCol.Idx → BitVec 32) (ms : SCol.Idx → EReal) : EReal :=
  ∑ i : Fin 8192, if (Ideal.ofBits .f32 0x3F000000#32) < ms (ix2 i (0 : Fin 1)) then nll (fun j => xs (ix2 i j)) (ks (ix2 i (0 : Fin 1))) else 0

/-- The numerator over the argument arrays: logits `X`, labels `L`, and a mask of bits `M` over the tokens. -/
def capSum (X : SLogits.Idx → EReal) (L : STok.Idx → BitVec 32) (M : STok.Idx → BitVec 1) : EReal :=
  ∑ i : Fin 8192, if M (tok i) = 1#1 then nll (row X i) (L (tok i)) else 0

end Cert.Spec

end
-- ==== Proof.LibRowReduce.lean ====
/-
  Row reductions of a matrix and the "keepdims" column they are carried in, read at coordinates.

  A matrix of shape `[a, b]` reduced along its second axis gives one number per row. Kept as a column `[a, 1]`
  (a shape cast of the `[a]` vector) and broadcast back over the `b` columns, entry `(r, c)` of the broadcast is
  the number of row `r`. At the extended reals the sum along a row is the finite sum of the row's entries, and the
  maximum along a row is the fold of `max` over them from the accumulator's value.
-/
import Idealize.ShloMosaic.Lib.ValueLayout
import Idealize.ShloMosaic.PureOps.Ideal.Laws

noncomputable section

namespace Cert.RowReduce

open Idealize.ShloMosaic Idealize.ShloMosaic.ValueIdx

variable {α : Type}

/-- A vector `[a]` cast to the column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` columns reads, at `(i, j)`, the column at row `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Along the second axis of `[a, b]`, the source index over row `r` with coordinate `k` inserted is `(r, k)`. -/
theorem lift_row {a b : ℕ} (h : (⟨2, ![a, b]⟩ : Shape).Reduces [1] (⟨1, ![a]⟩ : Shape)) (r : Fin a)
    (k : Fin ((⟨2, ![a, b]⟩ : Shape).size 1)) : h.lift (ix1 r) k = ix2 r (⟨k.val, k.isLt⟩ : Fin b) := by
  funext c; apply Fin.ext
  fin_cases c <;> rfl

variable {φ : FTy}

/-- A sum along the rows of a matrix of extended reals, at row `r`: the finite sum of that row's entries. -/
theorem rowSum_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ) (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- A maximum along the rows of a matrix of extended reals, at row `r`: the fold of `max` over that row's entries
    from the accumulator's value. -/
theorem rowMax_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (fun f => Finset.fold max (Ideal.ofBits φ acc) f (Finset.univ : Finset (Fin b)))
    (funext fun k => congrArg src (lift_row h r k))

end Cert.RowReduce

end
-- ==== Proof.KI.PayloadValue.lean ====
/-
  The arithmetic of one tile of 128 rows, read over the extended reals.

  A tile holds the logits of 128 tokens, one row of 12000 numbers each, with one label and one mask value per row.
  For every row the body takes the largest logit, the sum of the exponentials of the logits shifted by it, the
  logarithm of that sum moved back by the maximum, and the logit at the label, picked by comparing every position's
  number with the label's word. The difference of the last two is the row's negative log-likelihood. Rows whose mask
  value exceeds one half are kept, the others count zero, and the sum over the 128 rows is added to the running total.

  Here each step is read at a row: the value the body adds to the total is the sum over the rows of the specification's
  negative log-likelihood of the row, where the mask keeps it.
-/
import proofs.«424876_j87643102642642_3_alg».proof.Proof.Gen.KernelIdeal.Skeleton
import proofs.«424876_j87643102642642_3_alg».proof.Proof.Spec
import proofs.«424876_j87643102642642_3_alg».proof.Proof.LibRowReduce
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.PayloadValue

open Cert.KernelIdeal Cert.KernelIdeal.Gen Idealize.ShloMosaic Idealize.ShloMosaic.ValueIdx

/-! ## Scalars -/

/-- The word of minus infinity denotes the bottom of the extended reals. -/
theorem ofBits_neg_inf : Ideal.ofBits .f32 0xFF800000#32 = ⊥ := by simp [Ideal.ofBits, Ideal.ieee]

/-- A select on the equality of two words is the `if` on their equality. -/
theorem select_cmpi_eq {α : Type} (x y : BitVec 32) (a b : α) :
    Scalar.select (IntOp.cmpi .eq x y) a b = if x = y then a else b := by
  by_cases h : x = y
  · subst h; simp [Scalar.select, IntOp.cmpi]
  · have hb : (x == y) = false := beq_eq_false_iff_ne.mpr h
    have hc : IntOp.cmpi .eq x y = 0#1 := by simp [IntOp.cmpi, hb]
    rw [if_neg h, hc]
    exact select_zero a b

/-- A select on "the first is greater than the second" of two extended reals is the `if` on the strict order. -/
theorem select_cmp_ogt {α : Type} (m c : EReal) (a b : α) :
    Scalar.select (Ideal.cmp .ogt m c) a b = if c < m then a else b := by
  by_cases h : c < m <;> simp [Scalar.select, Ideal.cmp, h]

section Pointwise
variable {s : Shape} {φ : FTy}

/-- An exponential at an index is the exponential of the element. -/
theorem exp_apply (a : FVec Ideal s φ) (i : s.Idx) : exp a i = Ideal.exp (a i) := rfl
/-- A logarithm at an index is the logarithm of the element. -/
theorem log_apply (a : FVec Ideal s φ) (i : s.Idx) : log a i = Ideal.log (a i) := rfl
/-- A comparison of words at an index compares the elements. -/
theorem cmpi_apply {w : Nat} (p : CmpIPredicate) (a b : IVec s w) (i : s.Idx) : cmpi p a b i = IntOp.cmpi p (a i) (b i) := rfl

end Pointwise

/-! ## The sum over the rows -/

/-- The indices of a [1, 128, 1] array are its 128 middle coordinates. -/
def midEquiv : Fin 128 ≃ S1x128x1.Idx where
  toFun r := ix3 (0 : Fin 1) r (0 : Fin 1)
  invFun i := i 1
  left_inv _ := rfl
  right_inv i := by
    have h0 : (i 0).val = 0 := by have := (i 0).isLt; change _ < 1 at this; omega
    have h2 : (i 2).val = 0 := by have := (i 2).isLt; change _ < 1 at this; omega
    funext a; apply Fin.ext
    match a with
    | ⟨0, _⟩ => exact h0.symm
    | ⟨1, _⟩ => rfl
    | ⟨2, _⟩ => exact h2.symm

/-- A column of 128 numbers, viewed [1, 128, 1], summed over its last two axes, and the one entry of the result read
    out: the sum of the column's 128 entries. -/
theorem total_apply (v : FVec Ideal S128x1 .f32) (h1 : S128x1.ShapeCasts S1x128x1) (h2 : S1x128x1.Reduces [1, 2] S1)
    (h3 : S1.ShapeCasts S1x1x1) (h4 : ∀ a, (![0, 0, 0] : Fin 3 → Nat) a < S1x1x1.size a)
    (hφ : FKind.Formats .f32) (hacc : (0x00000000#32 : BitVec 32) = FKind.add.neutral .f32 hφ) :
    extractAt ![0, 0, 0] (shapeCast S1x1x1 (multiReduction .add [1, 2] S1 (shapeCast S1x128x1 v h1) 0x00000000#32 h2 hφ hacc) h3) h4
      = ∑ r : Fin 128, v (ix2 r (0 : Fin 1)) := by
  show multiReduction .add [1, 2] S1 (shapeCast S1x128x1 v h1) 0x00000000#32 h2 hφ hacc _ = _
  rw [Ideal.multiReduction_add_total _ _ h2 (fun b => match b with | ⟨0, _⟩ => rfl) hφ hacc, ← Equiv.sum_comp midEquiv]
  exact Finset.sum_congr rfl fun r _ => shapeCast_ab_1ab_apply v h1 0 r 0

/-! ## One row -/

section Row
variable (x : FVec Ideal S128x12000 .f32) (h : S128x12000.Reduces [1] S128) (hc : S128.ShapeCasts S128x1)
  (hb : S128x1.Broadcasts S128x12000) (hφ : FKind.Formats .f32)
  (hmax : (0xFF800000#32 : BitVec 32) = FKind.maximumf.neutral .f32 hφ)
  (hadd : (0x00000000#32 : BitVec 32) = FKind.add.neutral .f32 hφ)

/-- The column of row maxima at row `r`: the largest logit of the row. -/
theorem rmax_apply (r : Fin 128) (u : Fin 1) :
    shapeCast S128x1 (multiReduction .maximumf [1] S128 x 0xFF800000#32 h hφ hmax) hc (ix2 r u)
      = Cert.Spec.rowMax (fun j : Fin 12000 => x (ix2 r j)) := by
  rw [Cert.RowReduce.shapeCast_a_a1_apply, Cert.RowReduce.rowMax_apply, ofBits_neg_inf]
  rfl

/-- The logarithm of the row's sum of shifted exponentials, moved back by the maximum: the row's log-sum-exp. -/
theorem lse_apply (r : Fin 128) :
    addf (log (shapeCast S128x1 (multiReduction .add [1] S128
        (exp (subf x (broadcastTo S128x12000 (shapeCast S128x1 (multiReduction .maximumf [1] S128 x 0xFF800000#32 h hφ hmax) hc) hb)))
        0x00000000#32 h hφ hadd) hc))
      (shapeCast S128x1 (multiReduction .maximumf [1] S128 x 0xFF800000#32 h hφ hmax) hc) (ix2 r (0 : Fin 1))
      = Cert.Spec.lse (fun j : Fin 12000 => x (ix2 r j)) := by
  rw [addf_apply, log_apply, rmax_apply, Cert.RowReduce.shapeCast_a_a1_apply, Cert.RowReduce.rowSum_apply]
  refine congrArg (fun t => Ideal.log t + Cert.Spec.rowMax (fun j : Fin 12000 => x (ix2 r j))) (Finset.sum_congr rfl fun j _ => ?_)
  rw [exp_apply, subf_apply, Cert.RowReduce.broadcastTo_a1_ab_apply, rmax_apply]

/-- The row's sum of its logits where the position's number is the label's word, zero elsewhere: the logit picked
    at the label. -/
theorem pick_apply (ks : IVec S128x1 32) (hi : S128x12000.Iotas .tc 32 [1]) (r : Fin 128) (u : Fin 1) :
    shapeCast S128x1 (multiReduction .add [1] S128
        (select (cmpi .eq (iota .tc S128x12000 32 [1] hi) (broadcastTo S128x12000 ks hb)) x
          (broadcast S128x12000 (Scalar.ofBits (F := Ideal) .f32 0x00000000#32)))
        0x00000000#32 h hφ hadd) hc (ix2 r u)
      = Cert.Spec.pick (fun j : Fin 12000 => x (ix2 r j)) (ks (ix2 r (0 : Fin 1))) := by
  rw [Cert.RowReduce.shapeCast_a_a1_apply, Cert.RowReduce.rowSum_apply]
  refine Finset.sum_congr rfl fun j _ => ?_
  rw [select_apply, cmpi_apply, broadcast_apply, iota_single_apply, Cert.RowReduce.broadcastTo_a1_ab_apply, select_cmpi_eq]
  exact congrArg (fun z => if BitVec.ofNat 32 j.val = ks (ix2 r (0 : Fin 1)) then x (ix2 r j) else z) Ideal.ofBits_zero_f32

end Row

/-- A column kept where the mask exceeds one half and zero elsewhere, at an index. -/
theorem masked_apply (ms L P : FVec Ideal S128x1 .f32) (i : S128x1.Idx) :
    select (cmpf .ogt ms (broadcast S128x1 (Scalar.ofBits (F := Ideal) .f32 0x3F000000#32))) (subf L P)
        (broadcast S128x1 (Scalar.ofBits (F := Ideal) .f32 0x00000000#32)) i
      = if Ideal.ofBits .f32 0x3F000000#32 < ms i then L i - P i else 0 := by
  rw [select_apply, cmpf_apply, subf_apply, broadcast_apply, broadcast_apply, Ideal.cmpf_def, select_cmp_ogt]
  exact congrArg (fun z => if Ideal.ofBits .f32 0x3F000000#32 < ms i then L i - P i else z) Ideal.ofBits_zero_f32

/-! ## The three stored values -/

/-- What the body adds to the running total for one tile: the total before, plus the sum over the tile's 128 rows of
    the row's negative log-likelihood where the row's mask value exceeds one half. -/
theorem pay3_apply (x : Vec Ideal S128x12000 .f32) (ks : Vec Ideal S128x1 .i32) (ms : Vec Ideal S128x1 .f32)
    (acc : Vec Ideal S1x1 .f32) (y : S1x1.Idx) :
    k0_pay3 (F := Ideal) x ks ms acc y
      = acc y + ∑ r : Fin 128, (if Ideal.ofBits .f32 0x3F000000#32 < ms (ix2 r (0 : Fin 1))
          then Cert.Spec.nll (fun j : Fin 12000 => x (ix2 r j)) (ks (ix2 r (0 : Fin 1))) else 0) := by
  unfold k0_pay3
  simp only [shapeCast_self]
  rw [addf_apply, broadcast_apply]
  refine congrArg (fun t => acc y + t) ?_
  refine (total_apply _ shapeCasts_S128x1_S1x128x1 reduces_S1x128x1_S1 shapeCasts_S1_S1x1x1 inpos_S1x1x1_p0_0_0
    (.inl rfl) rfl).trans ?_
  refine Finset.sum_congr rfl fun r _ => ?_
  refine (masked_apply ms _ _ (ix2 r (0 : Fin 1))).trans ?_
  exact if_congr Iff.rfl
    (congrArg₂ (fun a b : EReal => a - b)
      (lse_apply x reduces_S128x12000_S128 shapeCasts_S128_S128x1 broadcasts_S128x1_S128x12000 (.inl rfl) rfl rfl r)
      (pick_apply x reduces_S128x12000_S128 shapeCasts_S128_S128x1 broadcasts_S128x1_S128x12000 (.inl rfl) rfl ks
        iota_S128x12000_d1_w32 r (0 : Fin 1)))
    rfl

/-- The stored total is the computed total: a cast to its own shape changes nothing. -/
theorem pay1_eq (v : FVec Ideal S1x1 .f32) : k0_pay1 (F := Ideal) v = v := by
  unfold k0_pay1
  exact shapeCast_self v _

/-- The total is started at zero. -/
theorem pay2_apply (y : S1x1.Idx) : k0_pay2 (F := Ideal) y = 0 := by
  unfold k0_pay2
  simp only [shapeCast_self]
  exact Ideal.ofBits_zero_f32

end Cert.KernelIdeal.PayloadValue

end
-- ==== Proof.KI.AccValue.lean ====
/-
  What the accumulator holds after each grid point, at the extended reals.

  Each case's stores, read back, are the body's arithmetic applied to what the body loaded: the accumulator ends a point
  at (what it started the point with) + (this tile's contribution), starting the first point at zero. A tile's
  contribution is the sum over its 128 rows of the row's negative log-likelihood where the row's mask exceeds one
  half. So after point `n` the accumulator holds the sum of the contributions of the tiles `0 … n`, and at the last
  point the output's buffer is stored with the same number.
-/
import proofs.«424876_j87643102642642_3_alg».proof.Proof.KI.Frame
import proofs.«424876_j87643102642642_3_alg».proof.Proof.KI.PayloadValue

set_option maxRecDepth 16384

noncomputable section

namespace Cert.KernelIdeal.Reg

open Cert.KernelIdeal Cert.KernelIdeal.Gen
open Idealize.ShloMosaic Idealize.ShloMosaic.TcCoe Idealize.ShloMosaic.ValueIdx
open Idealize.ShloMosaic.Pipeline (Dat Cfg Window)
open Idealize.ShloMosaic.Tactic

variable {F : FTy → Type} [FloatOps F]
variable (m : (ℓ : Loc nD τ sig) → Buf (Elt F) ℓ)

/-- The three input blocks at a point, at their literal types: the tile's logits, labels and mask. -/
abbrev xblk (c : Dev nD) (t : Fin cfg0.N) : Vec F S128x12000 .f32 := iblk m c 0 t
abbrev kblk (c : Dev nD) (t : Fin cfg0.N) : Vec F S128x1 .i32 := iblk m c 1 t
abbrev mblk (c : Dev nD) (t : Fin cfg0.N) : Vec F S128x1 .f32 := iblk m c 2 t

/-! ## Each case's stores are the body's arithmetic (any float instance) -/

/-- The accumulator's and the output's buffers are stored whole: the stores' offsets are zero. -/
theorem zeroOffsets2 : (![0, 0] : Fin 2 → Nat) = fun _ => 0 := funext fun a => by fin_cases a <;> rfl

/-- The first point leaves in the accumulator the body's sum over a zero accumulator. -/
theorem sout0_A_0_eq (c : Dev nD) (i : grid0.Coords) (arg1 : Memref sig .tc .vmem S128x12000 .f32) (harg1 : arg1.IsWhole) (arg2 : Memref sig .tc .vmem S128x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S1x1 .f32) (harg5 : arg5.IsWhole) (hc0 : cond0_0 i) (hc1 : ¬cond0_1 i)
    (x0 : Vec F S128x12000 .f32) (x1 : Vec F S128x1 .i32) (x2 : Vec F S128x1 .f32) :
    sout0_A_0 c i arg1 harg1 arg2 harg2 arg3 harg3 arg4 harg4 arg5 harg5 hc0 hc1 x0 x1 x2 = k0_pay1 (k0_pay3 x0 x1 x2 (k0_pay2 (F := F))) := by
  unfold sout0_A_0
  rw [View.read_writes_eq_canon _ _ _ (scover0_A_0 c i arg1 harg1 arg2 harg2 arg3 harg3 arg4 harg4 arg5 harg5 hc0 hc1 x0 x1 x2)]
  unfold kernelRun0_A
  dsimp only
  sl_unfold_words
  rw [View.canon_cons_unit_zero (S := S1x1) zeroOffsets2, View.readCov_unit_zero (S := S1x1) _ zeroOffsets2]
  simp only [View.readAt_eq_ld, harg1.read_unread, harg2.read_unread, harg3.read_unread,
    View.ld_unit_zero (S := S128x12000) zeroOffsets2, View.ld_unit_zero (S := S128x1) zeroOffsets2]

/-- A middle point leaves in the accumulator the body's sum over what it found there. -/
theorem sout0_B_0_eq (c : Dev nD) (i : grid0.Coords) (arg1 : Memref sig .tc .vmem S128x12000 .f32) (harg1 : arg1.IsWhole) (arg2 : Memref sig .tc .vmem S128x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : ¬cond0_1 i)
    (x0 : Vec F S128x12000 .f32) (x1 : Vec F S128x1 .i32) (x2 : Vec F S128x1 .f32) (xs0 : Vec F S1x1 .f32) :
    sout0_B_0 c i arg1 harg1 arg2 harg2 arg3 harg3 arg4 harg4 arg5 harg5 hc0 hc1 x0 x1 x2 xs0 = k0_pay1 (k0_pay3 x0 x1 x2 xs0) := by
  unfold sout0_B_0
  rw [View.read_writes_eq_canon _ _ _ (scover0_B_0 c i arg1 harg1 arg2 harg2 arg3 harg3 arg4 harg4 arg5 harg5 hc0 hc1 x0 x1 x2 xs0)]
  unfold kernelRun0_B
  dsimp only
  sl_unfold_words
  rw [View.canon_unit_zero (S := S1x1) zeroOffsets2]
  simp only [View.readAt_eq_ld, harg1.read_unread, harg2.read_unread, harg3.read_unread, harg5.read_unread,
    View.ld_unit_zero (S := S128x12000) zeroOffsets2, View.ld_unit_zero (S := S128x1) zeroOffsets2, View.ld_unit_zero (S := S1x1) zeroOffsets2]

/-- The last point leaves the same in the accumulator, -/
theorem sout0_C_0_eq (c : Dev nD) (i : grid0.Coords) (arg1 : Memref sig .tc .vmem S128x12000 .f32) (harg1 : arg1.IsWhole) (arg2 : Memref sig .tc .vmem S128x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S128x12000 .f32) (x1 : Vec F S128x1 .i32) (x2 : Vec F S128x1 .f32) (xs0 : Vec F S1x1 .f32) :
    sout0_C_0 c i arg1 harg1 arg2 harg2 arg3 harg3 arg4 harg4 arg5 harg5 hc0 hc1 x0 x1 x2 xs0 = k0_pay1 (k0_pay3 x0 x1 x2 xs0) := by
  unfold sout0_C_0
  rw [View.read_writes_eq_canon _ _ _ (scover0_C_0 c i arg1 harg1 arg2 harg2 arg3 harg3 arg4 harg4 arg5 harg5 hc0 hc1 x0 x1 x2 xs0)]
  unfold kernelRun0_C
  dsimp only
  sl_unfold_words
  rw [View.canon_unit_zero (S := S1x1) zeroOffsets2]
  simp only [View.readAt_eq_ld, harg1.read_unread, harg2.read_unread, harg3.read_unread, harg5.read_unread,
    View.ld_unit_zero (S := S128x12000) zeroOffsets2, View.ld_unit_zero (S := S128x1) zeroOffsets2, View.ld_unit_zero (S := S1x1) zeroOffsets2]

/-- and stores the output's buffer with it. -/
theorem out0_C_3_eq (c : Dev nD) (i : grid0.Coords) (arg1 : Memref sig .tc .vmem S128x12000 .f32) (harg1 : arg1.IsWhole) (arg2 : Memref sig .tc .vmem S128x1 .i32) (harg2 : arg2.IsWhole) (arg3 : Memref sig .tc .vmem S128x1 .f32) (harg3 : arg3.IsWhole) (arg4 : Memref sig .tc .vmem S1x1 .f32) (harg4 : arg4.IsWhole) (arg5 : Memref sig .tc .vmem S1x1 .f32) (harg5 : arg5.IsWhole) (hc0 : ¬cond0_0 i) (hc1 : cond0_1 i)
    (x0 : Vec F S128x12000 .f32) (x1 : Vec F S128x1 .i32) (x2 : Vec F S128x1 .f32) (xs0 : Vec F S1x1 .f32) :
    out0_C_3 c i arg1 harg1 arg2 harg2 arg3 harg3 arg4 harg4 arg5 harg5 hc0 hc1 x0 x1 x2 xs0 = k0_pay1 (k0_pay3 x0 x1 x2 xs0) := by
  unfold out0_C_3
  rw [View.read_writes_eq_canon _ _ _ (cover0_C_3 c i arg1 harg1 arg2 harg2 arg3 harg3 arg4 harg4 arg5 harg5 hc0 hc1 x0 x1 x2 xs0)]
  unfold kernelRun0_C
  dsimp only
  sl_unfold_words
  rw [View.canon_unit_zero (S := S1x1) zeroOffsets2, View.readCov_unit_zero (S := S1x1) _ zeroOffsets2]
  simp only [View.readAt_eq_ld, harg1.read_unread, harg2.read_unread, harg3.read_unread, harg5.read_unread,
    View.ld_unit_zero (S := S128x12000) zeroOffsets2, View.ld_unit_zero (S := S128x1) zeroOffsets2, View.ld_unit_zero (S := S1x1) zeroOffsets2]

/-! ## The accumulation at the extended reals -/

/-- Tile `t`'s contribution: over its 128 rows, the row's negative log-likelihood where its mask exceeds one half. -/
def contrib (mI : (ℓ : Loc nD τ sig) → Buf (Elt Ideal) ℓ) (c : Dev nD) (t : Fin cfg0.N) : EReal :=
  ∑ r : Fin 128, (if Ideal.ofBits .f32 0x3F000000#32 < mblk mI c t (ix2 r (0 : Fin 1))
    then Cert.Spec.nll (fun j : Fin 12000 => xblk mI c t (ix2 r j)) (kblk mI c t (ix2 r (0 : Fin 1))) else 0)

/-- After point `n` the accumulator holds the contributions of the tiles `0 … n`. -/
theorem acc_at (mI : (ℓ : Loc nD τ sig) → Buf (Elt Ideal) ℓ) (c : Dev nD) (n : ℕ) (hn : n < cfg0.N) (y : S1x1.Idx) :
    (outsAt0 (F := Ideal) mI c n hn).2 y = ∑ t : Fin (n + 1), contrib mI c ⟨t.val, lt_of_lt_of_le t.isLt hn⟩ := by
  induction n with
  | zero =>
    have hc0 : cond0_0 (grid0.coords (⟨0, hn⟩ : Fin cfg0.N)) := (hcond0_0 ⟨0, hn⟩).mpr (Nat.zero_mod _)
    have hc1 : ¬cond0_1 (grid0.coords (⟨0, hn⟩ : Fin cfg0.N)) := not_last_zero hn
    rw [outsAt0_A mI c ⟨0, hn⟩ rfl hc0 hc1]
    dsimp only
    refine (congrFun (sout0_A_0_eq (F := Ideal) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole cc0_scratch0) hc0 hc1 (xblk mI c ⟨0, hn⟩) (kblk mI c ⟨0, hn⟩) (mblk mI c ⟨0, hn⟩)) y).trans ?_
    rw [PayloadValue.pay1_eq]
    refine (PayloadValue.pay3_apply (xblk mI c ⟨0, hn⟩) (kblk mI c ⟨0, hn⟩) (mblk mI c ⟨0, hn⟩) (k0_pay2 (F := Ideal)) y).trans ?_
    rw [PayloadValue.pay2_apply, zero_add, Fin.sum_univ_one]
    rfl
  | succ n ih =>
    have ih' := ih (Nat.lt_of_succ_lt hn)
    have hc0 : ¬cond0_0 (grid0.coords (⟨n + 1, hn⟩ : Fin cfg0.N)) := not_first n hn
    rw [Fin.sum_univ_castSucc]
    by_cases h1 : (n + 1) % 64 = 63
    · have hc1 : cond0_1 (grid0.coords (⟨n + 1, hn⟩ : Fin cfg0.N)) := (hcond0_1 ⟨n + 1, hn⟩).mpr h1
      rw [outsAt0_C mI c ⟨n + 1, hn⟩ (Nat.succ_ne_zero n) h1 hc0 hc1]
      dsimp only
      refine (congrFun (sout0_C_0_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole cc0_scratch0) hc0 hc1 (xblk mI c ⟨n + 1, hn⟩) (kblk mI c ⟨n + 1, hn⟩) (mblk mI c ⟨n + 1, hn⟩) (outsAt0 mI c n (Nat.lt_of_succ_lt hn)).2) y).trans ?_
      rw [PayloadValue.pay1_eq]
      refine (PayloadValue.pay3_apply (xblk mI c ⟨n + 1, hn⟩) (kblk mI c ⟨n + 1, hn⟩) (mblk mI c ⟨n + 1, hn⟩) (outsAt0 mI c n (Nat.lt_of_succ_lt hn)).2 y).trans ?_
      exact congrArg₂ (fun a b : EReal => a + b) ih' rfl
    · have hc1 : ¬cond0_1 (grid0.coords (⟨n + 1, hn⟩ : Fin cfg0.N)) := fun h => h1 ((hcond0_1 ⟨n + 1, hn⟩).mp h)
      rw [outsAt0_B mI c ⟨n + 1, hn⟩ (Nat.succ_ne_zero n) h1 hc0 hc1]
      dsimp only
      refine (congrFun (sout0_B_0_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole cc0_scratch0) hc0 hc1 (xblk mI c ⟨n + 1, hn⟩) (kblk mI c ⟨n + 1, hn⟩) (mblk mI c ⟨n + 1, hn⟩) (outsAt0 mI c n (Nat.lt_of_succ_lt hn)).2) y).trans ?_
      rw [PayloadValue.pay1_eq]
      refine (PayloadValue.pay3_apply (xblk mI c ⟨n + 1, hn⟩) (kblk mI c ⟨n + 1, hn⟩) (mblk mI c ⟨n + 1, hn⟩) (outsAt0 mI c n (Nat.lt_of_succ_lt hn)).2 y).trans ?_
      exact congrArg₂ (fun a b : EReal => a + b) ih' rfl

/-- At a point that is the last of its sweep the output's buffer is stored with the contributions so far. -/
theorem out_at_last (mI : (ℓ : Loc nD τ sig) → Buf (Elt Ideal) ℓ) (c : Dev nD) (n : ℕ) (hn : n + 1 < cfg0.N)
    (h1 : (n + 1) % 64 = 63) (y : S1x1.Idx) :
    (outsAt0 (F := Ideal) mI c (n + 1) hn).1 y = ∑ t : Fin (n + 1 + 1), contrib mI c ⟨t.val, lt_of_lt_of_le t.isLt hn⟩ := by
  have hc0 : ¬cond0_0 (grid0.coords (⟨n + 1, hn⟩ : Fin cfg0.N)) := not_first n hn
  have hc1 : cond0_1 (grid0.coords (⟨n + 1, hn⟩ : Fin cfg0.N)) := (hcond0_1 ⟨n + 1, hn⟩).mpr h1
  rw [Fin.sum_univ_castSucc, outsAt0_C mI c ⟨n + 1, hn⟩ (Nat.succ_ne_zero n) h1 hc0 hc1]
  dsimp only
  refine (congrFun (out0_C_3_eq (F := Ideal) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole cc0_scratch0) hc0 hc1 (xblk mI c ⟨n + 1, hn⟩) (kblk mI c ⟨n + 1, hn⟩) (mblk mI c ⟨n + 1, hn⟩) (outsAt0 mI c n (Nat.lt_of_succ_lt hn)).2) y).trans ?_
  rw [PayloadValue.pay1_eq]
  refine (PayloadValue.pay3_apply (xblk mI c ⟨n + 1, hn⟩) (kblk mI c ⟨n + 1, hn⟩) (mblk mI c ⟨n + 1, hn⟩) (outsAt0 mI c n (Nat.lt_of_succ_lt hn)).2 y).trans ?_
  exact congrArg₂ (fun a b : EReal => a + b) (acc_at mI c n (Nat.lt_of_succ_lt hn) y) rfl

/-- At the last point the output's buffer is stored with all 64 tiles' contributions. -/
theorem out_last (mI : (ℓ : Loc nD τ sig) → Buf (Elt Ideal) ℓ) (c : Dev nD) (hn : 63 < cfg0.N) (y : S1x1.Idx) :
    (outsAt0 (F := Ideal) mI c 63 hn).1 y = ∑ t : Fin 64, contrib mI c ⟨t.val, lt_of_lt_of_le t.isLt hn⟩ :=
  out_at_last mI c 62 hn rfl y

end Cert.KernelIdeal.Reg

end
-- ==== Proof.LibMaskSum.lean ====
/-
  A 0/1-masked contraction over the extended reals is a sum over the mask's support.

  On the extended reals `x * 0 = 0` and `x * 1 = x` for EVERY `x`, the infinities included (the extended reals are a
  commutative monoid with zero), so a mask factor `if g i = k then 1 else 0` inside a sum keeps exactly the terms with
  `g i = k`, with no finiteness side condition. When the index set is `H` consecutive blocks of `B` and `g` is
  "which block" (`c / B`), the support of block `k` is the `B` positions `B * k + b`, and the sum over it is a sum
  over `Fin B`. The one-hot expansion `∑ h, t h * [q = h] = t q` is the same fact read the other way.
-/
import Mathlib.Data.EReal.Inv
import Mathlib.Algebra.BigOperators.Group.Finset.Basic
import Mathlib.Algebra.BigOperators.Group.Finset.Piecewise

open scoped BigOperators

namespace Cert.Lib

/-- A 0/1 mask factor on the extended reals: `(if c then 1 else 0) * a` is `a` where the condition holds and `0`
    where it does not, for every `a` (infinite ones too). -/
theorem mask_mul (c : Prop) [Decidable c] (a : EReal) : (if c then (1 : EReal) else 0) * a = if c then a else 0 := by
  split_ifs <;> simp

/-- The same with the mask on the right. -/
theorem mul_mask (c : Prop) [Decidable c] (a : EReal) : a * (if c then (1 : EReal) else 0) = if c then a else 0 := by
  split_ifs <;> simp

/-- A masked term of a contraction: `p * ((if c then 1 else 0) * a)` is `p * a` where the condition holds and `0`
    where it does not, for every `p`, `a` on the extended reals. -/
theorem mul_mask_mul (c : Prop) [Decidable c] (p a : EReal) :
    p * ((if c then (1 : EReal) else 0) * a) = if c then p * a else 0 := by
  split_ifs <;> simp

/-- A 0/1-masked contraction is the sum over the mask's support: for finite `ι`, any `g : ι → κ`, `k : κ` and any
    `p a : ι → EReal`, `∑ i, p i * ((if g i = k then 1 else 0) * a i) = ∑ i ∈ univ.filter (g · = k), p i * a i`. -/
theorem sum_mul_mask_mul {ι κ : Type*} [Fintype ι] [DecidableEq κ] (g : ι → κ) (k : κ) (p a : ι → EReal) :
    ∑ i, p i * ((if g i = k then (1 : EReal) else 0) * a i)
      = ∑ i ∈ Finset.univ.filter (fun i => g i = k), p i * a i := by
  rw [Finset.sum_filter]
  exact Finset.sum_congr rfl fun i _ => mul_mask_mul _ _ _

/-- The same for a mask stated by any decidable predicate `q` on the index. -/
theorem sum_mul_maskP_mul {ι : Type*} [Fintype ι] (q : ι → Prop) [DecidablePred q] (p a : ι → EReal) :
    ∑ i, p i * ((if q i then (1 : EReal) else 0) * a i) = ∑ i ∈ Finset.univ.filter q, p i * a i := by
  rw [Finset.sum_filter]
  exact Finset.sum_congr rfl fun i _ => mul_mask_mul _ _ _

/-- A masked sum with the mask as the only other factor: `∑ i, (if q i then 1 else 0) * a i` is the sum of `a` over
    the indices where `q` holds. -/
theorem sum_maskP_mul {ι : Type*} [Fintype ι] (q : ι → Prop) [DecidablePred q] (a : ι → EReal) :
    ∑ i, (if q i then (1 : EReal) else 0) * a i = ∑ i ∈ Finset.univ.filter q, a i := by
  rw [Finset.sum_filter]
  exact Finset.sum_congr rfl fun i _ => mask_mul _ _

/-- Position `B * k + b` of block `k < H` at offset `b < B` lies below `H * B`. -/
theorem block_pos_lt {n H B : Nat} (hn : n = H * B) (k : Fin H) (b : Fin B) : B * k.val + b.val < n := by
  subst hn
  calc B * k.val + b.val < B * k.val + B := Nat.add_lt_add_left b.isLt _
    _ = B * (k.val + 1) := (Nat.mul_succ _ _).symm
    _ ≤ B * H := Nat.mul_le_mul_left B k.isLt
    _ = H * B := Nat.mul_comm _ _

/-- The sum over block `k` of an index set of `H` consecutive blocks of `B`: the indices `c : Fin n`
    (`n = H * B`) with `c / B = k` are the `B` positions `B * k + b`, so the filtered sum is a sum over `Fin B`.
    For any additive commutative monoid. -/
theorem sum_filter_block {α : Type*} [AddCommMonoid α] {n H B : Nat} (hn : n = H * B) (k : Fin H) (f : Fin n → α) :
    ∑ c ∈ Finset.univ.filter (fun c : Fin n => c.val / B = k.val), f c
      = ∑ b : Fin B, f ⟨B * k.val + b.val, block_pos_lt hn k b⟩ := by
  symm
  refine Finset.sum_bij (fun b _ => (⟨B * k.val + b.val, block_pos_lt hn k b⟩ : Fin n)) ?_ ?_ ?_ ?_
  · intro b _
    have hB : 0 < B := Nat.lt_of_le_of_lt (Nat.zero_le _) b.isLt
    simp only [Finset.mem_filter, Finset.mem_univ, true_and]
    rw [Nat.mul_add_div hB, Nat.div_eq_of_lt b.isLt, Nat.add_zero]
  · intro b₁ _ b₂ _ h
    have := congrArg Fin.val h
    simp only at this
    exact Fin.ext (by omega)
  · intro c hc
    simp only [Finset.mem_filter, Finset.mem_univ, true_and] at hc
    have hB : 0 < B := Nat.pos_of_ne_zero (by
      rintro rfl
      have h1 : c.val < H * 0 := lt_of_lt_of_eq c.isLt hn
      exact absurd h1 (by simp))
    refine ⟨⟨c.val % B, Nat.mod_lt _ hB⟩, Finset.mem_univ _, ?_⟩
    apply Fin.ext
    show B * k.val + c.val % B = c.val
    rw [← hc]; exact Nat.div_add_mod _ _
  · intro b _; rfl

/-- The block form of the masked contraction: over `Fin n` with `n = H * B` and the mask "`c` lies in block `k`"
    (`c / B = k`), `∑ c, p c * ((if c / B = k then 1 else 0) * a c) = ∑ b : Fin B, p (B·k + b) * a (B·k + b)`. -/
theorem sum_mul_blockmask_mul {n H B : Nat} (hn : n = H * B) (k : Fin H) (p a : Fin n → EReal) :
    ∑ c : Fin n, p c * ((if c.val / B = k.val then (1 : EReal) else 0) * a c)
      = ∑ b : Fin B, p ⟨B * k.val + b.val, block_pos_lt hn k b⟩ * a ⟨B * k.val + b.val, block_pos_lt hn k b⟩ := by
  rw [sum_mul_maskP_mul (fun c : Fin n => c.val / B = k.val) p a]
  exact sum_filter_block hn k fun c => p c * a c

/-- The one-hot expansion: `∑ h : Fin H, t h * (if j = h then 1 else 0) = t j` on the extended reals. -/
theorem sum_mul_onehot {H : Nat} (t : Fin H → EReal) (j : Fin H) :
    ∑ h : Fin H, t h * (if j = h then (1 : EReal) else 0) = t j := by
  simp only [mul_mask]
  rw [Finset.sum_ite_eq Finset.univ j t, if_pos (Finset.mem_univ _)]

/-- The one-hot expansion with the selected position a natural number `q < H` compared with the summation index's
    value: `∑ h : Fin H, t h * (if q = h then 1 else 0) = t q`. With `q = c / B` for `c < H * B` this is the block
    number of `c`. -/
theorem sum_mul_onehot_val {H : Nat} (t : Fin H → EReal) (q : Nat) (hq : q < H) :
    ∑ h : Fin H, t h * (if q = h.val then (1 : EReal) else 0) = t ⟨q, hq⟩ := by
  rw [← sum_mul_onehot t ⟨q, hq⟩]
  refine Finset.sum_congr rfl fun h _ => ?_
  have : (q = h.val) ↔ ((⟨q, hq⟩ : Fin H) = h) := ⟨fun e => Fin.ext e, fun e => congrArg Fin.val e⟩
  simp only [this]

/-- The block number of a position below `H * B` is below `H`. -/
theorem block_lt {n H B : Nat} (hn : n = H * B) (c : Fin n) : c.val / B < H := by
  have hc : c.val < H * B := lt_of_lt_of_eq c.isLt hn
  exact Nat.div_lt_of_lt_mul (lt_of_lt_of_eq hc (Nat.mul_comm H B))

/-- The one-hot expansion at a block number: for `c : Fin n`, `n = H * B`,
    `∑ h : Fin H, t h * (if c / B = h then 1 else 0) = t (c / B)`. -/
theorem sum_mul_onehot_block {n H B : Nat} (hn : n = H * B) (t : Fin H → EReal) (c : Fin n) :
    ∑ h : Fin H, t h * (if c.val / B = h.val then (1 : EReal) else 0) = t ⟨c.val / B, block_lt hn c⟩ :=
  sum_mul_onehot_val t _ _

end Cert.Lib
-- ==== Proof.LibBlockSum.lean ====
/-
  A sum over `H` consecutive blocks of `B` positions is the sum over all `H * B` positions; and a small natural
  number's 32-bit word is the word whose signed reading is that number.
-/
import proofs.«424876_j87643102642642_3_alg».proof.Proof.LibMaskSum
import Idealize.ShloMosaic.Lib.StableHlo.Predicate
import Mathlib.Algebra.BigOperators.Fin

open scoped BigOperators

namespace Cert.Lib

open Idealize.ShloMosaic

/-- Summing block by block: over `Fin n` with `n = H * B`, the double sum over the block `k` and the offset `b` of
    `f (B * k + b)` is the sum of `f` over every position. For any additive commutative monoid. -/
theorem sum_blocks {α : Type*} [AddCommMonoid α] {n H B : Nat} (hn : n = H * B) (f : Fin n → α) :
    ∑ k : Fin H, ∑ b : Fin B, f ⟨B * k.val + b.val, block_pos_lt hn k b⟩ = ∑ c : Fin n, f c := by
  subst hn
  rw [← Fintype.sum_prod_type (f := fun p : Fin H × Fin B => f ⟨B * p.1.val + p.2.val, block_pos_lt rfl p.1 p.2⟩)]
  refine Fintype.sum_equiv finProdFinEquiv _ _ fun p => congrArg f (Fin.ext ?_)
  show B * p.1.val + p.2.val = (finProdFinEquiv p).val
  rw [finProdFinEquiv_apply_val]
  exact Nat.add_comm _ _

/-- A 32-bit word is the word of a natural number `g < 2 ^ 31` exactly when its signed reading is `g`. -/
theorem ofNat_eq_iff_toInt (g : Nat) (hg : g < 2 ^ 31) (w : BitVec 32) :
    BitVec.ofNat 32 g = w ↔ w.toInt = (g : Int) := by
  constructor
  · rintro rfl
    exact StableHlo.Predicate.toInt_ofNat_small g hg
  · intro h
    apply BitVec.eq_of_toInt_eq
    rw [h, StableHlo.Predicate.toInt_ofNat_small g hg]

end Cert.Lib
-- ==== Proof.KI.OutValue.lean ====
/-
  The kernel's output after the run, over the extended reals.

  A tile's three input blocks are rows `128 t … 128 t + 127` of the three arrays the region streams: the logits, the
  labels and the mask. The output array has one element; its one block is written back once, after the last of the
  64 tiles, with what the body stored in the output's buffer there: the sum of the 64 tiles' contributions. A tile's
  contribution is the sum over its 128 rows, so the total is the sum over all 8192 = 64 * 128 rows of the row's negative
  log-likelihood where the row's mask exceeds one half: the specification's numerator over the flat layout.
-/
import proofs.«424876_j87643102642642_3_alg».proof.Proof.KI.AccValue
import proofs.«424876_j87643102642642_3_alg».proof.Proof.LibBlockSum
import proofs.«424876_j87643102642642_3_alg».proof.Proof.Spec
import Idealize.ShloMosaic.Lib.Pipeline.Value

set_option maxRecDepth 16384

noncomputable section

namespace Cert.KernelIdeal.Reg

open Cert.KernelIdeal Cert.KernelIdeal.Gen
open Idealize.ShloMosaic Idealize.ShloMosaic.TcCoe Idealize.ShloMosaic.ValueIdx
open Idealize.ShloMosaic.Pipeline (Dat Cfg Window)

/-! ## The tiles' blocks are rows of the streamed arrays -/

/-- The windows' block indices, decided over the 64 points: each input's block at point `t` is block `(t, 0)`, the
    output's is block `(0, 0)`. -/
theorem tile_index : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0 :=
  (by decide +kernel : ∀ t : Fin grid0.N, _)

/-- Row `r` of tile `t` is row `128 t + r` of the 8192. -/
theorem tile_row_lt (t : Fin cfg0.N) (r : Fin 128) : 128 * t.val + r.val < 8192 := by
  have hN : t.val < 64 := lt_of_lt_of_eq t.isLt (show cfg0.N = 64 from N_0)
  omega

/-- The tile's logits are rows `128 t …` of the logits array. -/
theorem xblk_apply (mI : (ℓ : Loc nD τ sig) → Buf (Elt Ideal) ℓ) (c : Dev nD) (t : Fin cfg0.N) (r : Fin 128) (j : Fin 12000) :
    xblk mI c t (ix2 r j) = (V mI c main_v17 : S8192x12000.Idx → EReal) (ix2 (⟨128 * t.val + r.val, tile_row_lt t r⟩ : Fin 8192) j) := by
  obtain ⟨e0, e1, -⟩ := tile_index t
  unfold xblk iblk
  rw [View.read_apply]
  show V mI c main_v17 (((cfg0.win 0).blk t).view.emb (ix2 r j)) = V mI c main_v17 _
  congr 1
  funext a
  apply Fin.ext
  match a with
  | ⟨0, _⟩ => show win0_0.index t (0 : Fin 2) * 128 + 1 * r.val = 128 * t.val + r.val; rw [e0]; omega
  | ⟨1, _⟩ => show win0_0.index t (1 : Fin 2) * 12000 + 1 * j.val = j.val; rw [e1]; omega

/-- The tile's labels are rows `128 t …` of the labels' column. -/
theorem kblk_apply (mI : (ℓ : Loc nD τ sig) → Buf (Elt Ideal) ℓ) (c : Dev nD) (t : Fin cfg0.N) (r : Fin 128) :
    kblk mI c t (ix2 r (0 : Fin 1)) = (V mI c main_v16 : S8192x1.Idx → BitVec 32) (ix2 (⟨128 * t.val + r.val, tile_row_lt t r⟩ : Fin 8192) (0 : Fin 1)) := by
  obtain ⟨-, -, e0, e1, -⟩ := tile_index t
  unfold kblk iblk
  rw [View.read_apply]
  show V mI c main_v16 (((cfg0.win 1).blk t).view.emb (ix2 r (0 : Fin 1))) = V mI c main_v16 _
  congr 1
  funext a
  apply Fin.ext
  match a with
  | ⟨0, _⟩ => show win0_1.index t (0 : Fin 2) * 128 + 1 * r.val = 128 * t.val + r.val; rw [e0]; omega
  | ⟨1, _⟩ => show win0_1.index t (1 : Fin 2) * 1 + 1 * 0 = 0; rw [e1]

/-- The tile's mask values are rows `128 t …` of the mask's column. -/
theorem mblk_apply (mI : (ℓ : Loc nD τ sig) → Buf (Elt Ideal) ℓ) (c : Dev nD) (t : Fin cfg0.N) (r : Fin 128) :
    mblk mI c t (ix2 r (0 : Fin 1)) = (V mI c main_v15 : S8192x1.Idx → EReal) (ix2 (⟨128 * t.val + r.val, tile_row_lt t r⟩ : Fin 8192) (0 : Fin 1)) := by
  obtain ⟨-, -, -, -, e0, e1, -⟩ := tile_index t
  unfold mblk iblk
  rw [View.read_apply]
  show V mI c main_v15 (((cfg0.win 2).blk t).view.emb (ix2 r (0 : Fin 1))) = V mI c main_v15 _
  congr 1
  funext a
  apply Fin.ext
  match a with
  | ⟨0, _⟩ => show win0_2.index t (0 : Fin 2) * 128 + 1 * r.val = 128 * t.val + r.val; rw [e0]; omega
  | ⟨1, _⟩ => show win0_2.index t (1 : Fin 2) * 1 + 1 * 0 = 0; rw [e1]

/-! ## The output array after the run -/

/-- The last of the 64 points. -/
theorem last_point_lt : 63 < cfg0.N := lt_of_lt_of_eq (by decide : 63 < 64) (show (64 : ℕ) = cfg0.N from N_0.symm)

/-- The accumulation at equal positions. -/
theorem outsAt0_congr {F : FTy → Type} [FloatOps F] (m : (ℓ : Loc nD τ sig) → Buf (Elt F) ℓ) (c : Dev nD) {n n' : ℕ} (h : n = n')
    (hn : n < cfg0.N) (hn' : n' < cfg0.N) : outsAt0 m c n hn = outsAt0 m c n' hn' := by
  subst h; rfl

/-- The one write-back, at the last point, writes what the body left in the output's buffer there: block (0, 0) of
    the one-element array, read through zero offsets, is the array. -/
theorem flushed_out (mI : (ℓ : Loc nD τ sig) → Buf (Elt Ideal) ℓ) (c : Dev nD) (t : Fin cfg0.N) (hf : (cfg0.win 3).flush t = true) :
    (dats (F := Ideal) mI 0 c).flushed 3 t = ((cfg0.win 3).blk t).view.read (Elt Ideal) ((outsAt0 (F := Ideal) mI c 63 last_point_lt).1) := by
  have hN : cfg0.N = 64 := N_0
  have h1 : t.val = 63 := by have := (flush0_3 t).mp hf; have := t.isLt; omega
  show (cfg0.win 3).cut (grid0.coords t) ((dats mI 0 c).after 3 t) = _
  rw [after0_3, outsAt0_congr mI c h1 t.isLt last_point_lt]
  obtain ⟨-, -, -, -, -, -, e6, e7⟩ := tile_index t
  have hz' : (fun a => win0_3.index t a * main_v22.ty.shape.size a) = fun _ => 0 := funext fun a => by
    match a with
    | ⟨0, _⟩ => show win0_3.index t (0 : Fin 2) * 1 = 0; rw [e6]
    | ⟨1, _⟩ => show win0_3.index t (1 : Fin 2) * 1 = 0; rw [e7]
  exact (Memref.read_access_unit_zero (Elt Ideal) main_v22 hz' (fun a => by rw [congrFun hz' a]; simp) _).symm

/-- The output window's block at a point holds one element on each axis. -/
theorem out_block_size : ∀ t : Fin cfg0.N, win0_3.xsize (grid0.coords t) (0 : Fin 2) = 1 ∧ win0_3.xsize (grid0.coords t) (1 : Fin 2) = 1 :=
  (by decide +kernel : ∀ t : Fin grid0.N, _)

/-- THE OUTPUT ARRAY after the run: its one block is written back once, at the last point, with what the body left
    in the output's buffer there. -/
theorem arrAt_out (mI : (ℓ : Loc nD τ sig) → Buf (Elt Ideal) ℓ) (c : Dev nD) :
    (dats (F := Ideal) mI 0 c).arrAt 3 cfg0.N = (outsAt0 (F := Ideal) mI c 63 last_point_lt).1 :=
  (dats (F := Ideal) mI 0 c).arrAt_eq_of_cover 3 ((outsAt0 (F := Ideal) mI c 63 last_point_lt).1) (flushed_out mI c) fun i =>
    ⟨⟨63, last_point_lt⟩, (flush0_3 ⟨63, last_point_lt⟩).mpr rfl, by
      show i ∈ ((View.whole main_v22).slice (win0_3.rect ⟨63, last_point_lt⟩)).set
      rw [View.set_slice_whole, Rect.mem_set_unit]
      intro a
      obtain ⟨-, -, -, -, -, -, e6, e7⟩ := tile_index ⟨63, last_point_lt⟩
      obtain ⟨x0, x1⟩ := out_block_size ⟨63, last_point_lt⟩
      have h0 : (i 0 : Nat) < 1 := (i 0).isLt
      have h1 : (i 1 : Nat) < 1 := (i 1).isLt
      match a with
      | ⟨0, _⟩ => show win0_3.index ⟨63, last_point_lt⟩ (0 : Fin 2) * 1 ≤ (i 0 : Nat) ∧ (i 0 : Nat) < win0_3.index ⟨63, last_point_lt⟩ (0 : Fin 2) * 1 + win0_3.xsize (grid0.coords ⟨63, last_point_lt⟩) (0 : Fin 2)
                  rw [e6, x0]; omega
      | ⟨1, _⟩ => show win0_3.index ⟨63, last_point_lt⟩ (1 : Fin 2) * 1 ≤ (i 1 : Nat) ∧ (i 1 : Nat) < win0_3.index ⟨63, last_point_lt⟩ (1 : Fin 2) * 1 + win0_3.xsize (grid0.coords ⟨63, last_point_lt⟩) (1 : Fin 2)
                  rw [e7, x1]; omega⟩

/-- THE OUTPUT'S VALUE: the one element the region leaves is the numerator over the flat layout, of the three arrays
    the region streams: the 64 tiles' contributions, each a sum over the tile's 128 rows, are the sum over all 8192 rows. -/
theorem out_value (mI : (ℓ : Loc nD τ sig) → Buf (Elt Ideal) ℓ) (c : Dev nD) :
    (dats (F := Ideal) mI 0 c).arrAt 3 cfg0.N = fun _ => Cert.Spec.capSumFlat (V mI c main_v17) (V mI c main_v16) (V mI c main_v15) := by
  rw [arrAt_out]
  funext y
  rw [out_last mI c last_point_lt y]
  unfold Cert.Spec.capSumFlat
  rw [← Cert.Lib.sum_blocks (show 8192 = 64 * 128 from rfl)]
  refine Finset.sum_congr rfl fun t _ => ?_
  unfold contrib
  refine Finset.sum_congr rfl fun r _ => ?_
  rw [mblk_apply, kblk_apply]
  simp only [xblk_apply]

end Cert.KernelIdeal.Reg

end
-- ==== Proof.KI.HostValue.lean ====
/-
  What the program's host operations compute, as functions of the argument arrays, for any float instance.

  Before the region: the token mask as bits (position below the caption's length, and caption below the video's
  caption count), the same mask as floats with the 8192 tokens in one line, the labels and the logits in that
  layout, and the token count (at least 1) as a float. After the region: the region's one number divided by the
  token count; the program loss (the mean over the kept (video, step) pairs of minus the log-softmax of the
  program logits at the program label); the IoU loss (one minus the mean over the kept (video, caption) pairs
  of the clipped intersection over the floored union of two intervals); and the sum of the first two.
-/
import proofs.«424876_j87643102642642_3_alg».proof.Proof.KI.Around

set_option maxRecDepth 16384

noncomputable section

namespace Cert.KernelIdeal.HostValue

open Cert.KernelIdeal Cert.KernelIdeal.Gen Cert.KernelIdeal.Reg Idealize.ShloMosaic Idealize.ShloMosaic.TcCoe

variable {F : FTy → Type} [FloatOps F]

/-! ## Before the region -/

/-- The token mask as bits: position `p` of caption `k` of video `v` is kept when `p` is below the caption's length
    and `k` is below the video's caption count. -/
def maskOf (lens : IVec S16x16 32) (caps : IVec S16 32) : IVec S16x16x32 1 :=
  andi
    (cmpi .slt
      (broadcastInDim S16x16x32 ![0, 1, 2] bcast_S1x1x32_S16x16x32_0_1_2
        (broadcastInDim S1x1x32 ![2] bcast_S32_S1x1x32_2 (iotaInDim S32 32 0)))
      (broadcastInDim S16x16x32 ![0, 1, 2] bcast_S16x16x1_S16x16x32_0_1_2
        (broadcastInDim S16x16x1 ![0, 1] bcast_S16x16_S16x16x1_0_1 lens)))
    (broadcastInDim S16x16x32 ![0, 1, 2] bcast_S16x16x1_S16x16x32_0_1_2
      (cmpi .slt
        (broadcastInDim S16x16x1 ![0, 1, 2] bcast_S1x16x1_S16x16x1_0_1_2
          (broadcastInDim S1x16x1 ![1] bcast_S16_S1x16x1_1 (iotaInDim S16 32 0)))
        (broadcastInDim S16x16x1 ![0, 1, 2] bcast_S16x1x1_S16x16x1_0_1_2
          (broadcastInDim S16x1x1 ![0] bcast_S16_S16x1x1_0 caps))))

/-- The number of kept tokens, at least 1, as a float. -/
def countOf (mask : IVec S16x16x32 1) : FVec F S_ .f32 :=
  sitofp .f32
    (maxsi (Host.reduce IntOp.addi (extui 32 mask natLt_1_32) (constantI S_ 32 0#32) reducesTo_S16x16x32_S_d0_1_2 h_S_)
      (constantI S_ 32 1#32))

variable (m : (ℓ : Loc nD τ sig) → Buf (Elt F) ℓ) (c : Dev nD)

/-- The token mask of the launch. -/
def maskBits : IVec S16x16x32 1 :=
  maskOf (m ((c : Thread nD τ).loc main_arg1)) (m ((c : Thread nD τ).loc main_arg8))

/-- The token count of the launch. -/
def ntok : FVec F S_ .f32 := countOf (maskBits m c)

theorem V_v13 : (V m c main_v13 : IVec S16x16x32 1) = maskBits m c := by
  dsimp only [V, V0]
  simp only [hostOps0, List.flatten_cons, List.flatten_nil, List.append_nil, List.cons_append, List.nil_append]
  after_results
  rfl

theorem V_v21 : (V m c main_v21 : FVec F S_ .f32) = ntok m c := by
  dsimp only [V, V0]
  simp only [hostOps0, List.flatten_cons, List.flatten_nil, List.append_nil, List.cons_append, List.nil_append]
  after_results
  rfl

/-- The logits with the 8192 tokens in one line. -/
theorem V_v17 : (V m c main_v17 : FVec F S8192x12000 .f32)
    = shapeCast S8192x12000 (m ((c : Thread nD τ).loc main_arg2)) shapeCasts_S16x16x32x12000_S8192x12000 := by
  dsimp only [V, V0]
  simp only [hostOps0, List.flatten_cons, List.flatten_nil, List.append_nil, List.cons_append, List.nil_append]
  after_results
  rfl

/-- The labels as a column over the 8192 tokens. -/
theorem V_v16 : (V m c main_v16 : IVec S8192x1 32)
    = shapeCast S8192x1 (m ((c : Thread nD τ).loc main_arg0)) shapeCasts_S16x16x32_S8192x1 := by
  dsimp only [V, V0]
  simp only [hostOps0, List.flatten_cons, List.flatten_nil, List.append_nil, List.cons_append, List.nil_append]
  after_results
  rfl

/-- The token mask as floats, as a column over the 8192 tokens. -/
theorem V_v15 : (V m c main_v15 : FVec F S8192x1 .f32)
    = shapeCast S8192x1 (uitofp (F := F) .f32 (maskBits m c)) shapeCasts_S16x16x32_S8192x1 := by
  dsimp only [V, V0]
  simp only [hostOps0, List.flatten_cons, List.flatten_nil, List.append_nil, List.cons_append, List.nil_append]
  after_results
  rfl

/-! ## After the region -/

/-- The log-softmax of the program logits along the 20 programs. -/
def logSoftmax (x : FVec F S16x64x20 .f32) : FVec F S16x64x20 .f32 :=
  subf
    (subf x
      (broadcastInDim S16x64x20 ![0, 1, 2] bcast_S16x64x1_S16x64x20_0_1_2
        (broadcastInDim S16x64x1 ![0, 1] bcast_S16x64_S16x64x1_0_1
          (maximumf (broadcastInDim S16x64 ![] bcast_S_S16x64 (constant (F := F) S_ .f32 0xFF800000#32))
            (Host.reduce FloatOps.maximumf x (constant (F := F) S_ .f32 0xFF800000#32) reducesTo_S16x64x20_S16x64_d2 h_S_)))))
    (broadcastInDim S16x64x20 ![0, 1, 2] bcast_S16x64x1_S16x64x20_0_1_2
      (Host.log
        (broadcastInDim S16x64x1 ![0, 1] bcast_S16x64_S16x64x1_0_1
          (Host.reduceAdd
            (Host.exp
              (subf x
                (broadcastInDim S16x64x20 ![0, 1, 2] bcast_S16x64x1_S16x64x20_0_1_2
                  (broadcastInDim S16x64x1 ![0, 1] bcast_S16x64_S16x64x1_0_1
                    (maximumf (broadcastInDim S16x64 ![] bcast_S_S16x64 (constant (F := F) S_ .f32 0xFF800000#32))
                      (Host.reduce FloatOps.maximumf x (constant (F := F) S_ .f32 0xFF800000#32) reducesTo_S16x64x20_S16x64_d2 h_S_))))))
            (constant (F := F) S_ .f32 0x00000000#32) reducesTo_S16x64x20_S16x64_d2 h_S_))))

/-- The program labels as take indices: a negative label counts from the end. -/
def takeIdx (labels : IVec S16x64 32) : IVec S16x64x1x1 32 :=
  shapeCast S16x64x1x1
    (select
      (cmpi .slt (broadcastInDim S16x64x1 ![0, 1] bcast_S16x64_S16x64x1_0_1 labels)
        (broadcastInDim S16x64x1 ![] bcast_S_S16x64x1 (constantI S_ 32 0#32)))
      (addi (broadcastInDim S16x64x1 ![0, 1] bcast_S16x64_S16x64x1_0_1 labels)
        (broadcastInDim S16x64x1 ![] bcast_S_S16x64x1 (constantI S_ 32 20#32)))
      (broadcastInDim S16x64x1 ![0, 1] bcast_S16x64_S16x64x1_0_1 labels))
    shapeCasts_S16x64x1_S16x64x1x1

/-- The entry of `y` each take index names, junk where the index is outside [0, 19]. -/
def takeAlong (y : FVec F S16x64x20 .f32) (idx : IVec S16x64x1x1 32) : FVec F S16x64x1 .f32 :=
  select
    (Host.reduce IntOp.andi
      (andi
        (cmpi .sge idx (broadcastInDim S16x64x1x1 ![] bcast_S_S16x64x1x1 (constantI S_ 32 0#32)))
        (cmpi .sle idx
          (broadcastInDim S16x64x1x1 ![0, 1, 2, 3] bcast_S1x1x1x1_S16x64x1x1_0_1_2_3
            (broadcastInDim S1x1x1x1 ![3] bcast_S1_S1x1x1x1_3 (constantI S1 32 19#32)))))
      (constantI S_ 1 1#1) reducesTo_S16x64x1x1_S16x64x1_d3 h_S_)
    (Host.gather gather_S16x64x20_S16x64x1x1_S16x64x1_n_2_01_01_2_3_111 y idx)
    (broadcastInDim S16x64x1 ![] bcast_S_S16x64x1 (constant (F := F) S_ .f32 0x7FC00000#32))

/-- Step `s` of video `v` is kept when `s` is below the video's step count. -/
def stepMask (steps : IVec S16 32) : IVec S16x64 1 :=
  cmpi .slt
    (broadcastInDim S16x64 ![0, 1] bcast_S1x64_S16x64_0_1 (broadcastInDim S1x64 ![1] bcast_S64_S1x64_1 (iotaInDim S64 32 0)))
    (broadcastInDim S16x64 ![0, 1] bcast_S16x1_S16x64_0_1 (broadcastInDim S16x1 ![0] bcast_S16_S16x1_0 steps))

/-- The program loss: the mean, over the kept steps (at least one), of minus the log-softmax at the label. -/
def progLoss (labels : IVec S16x64 32) (steps : IVec S16 32) (logits : FVec F S16x64x20 .f32) : FVec F S_ .f32 :=
  Host.divf
    (Host.reduceAdd
      (select (stepMask steps)
        (Host.negf (shapeCast S16x64 (takeAlong (logSoftmax logits) (takeIdx labels)) shapeCasts_S16x64x1_S16x64))
        (broadcastInDim S16x64 ![] bcast_S_S16x64 (id (constant (F := F) S_ .f32 0x00000000#32))))
      (constant (F := F) S_ .f32 0x00000000#32) reducesTo_S16x64_S_d0_1 h_S_)
    (sitofp .f32
      (maxsi
        (Host.reduce IntOp.addi (extui 32 (stepMask steps) natLt_1_32) (constantI S_ 32 0#32) reducesTo_S16x64_S_d0_1 h_S_)
        (constantI S_ 32 1#32)))

/-- Caption `k` of video `v` is kept when `k` is below the video's caption count. -/
def capMask (caps : IVec S16 32) : IVec S16x16 1 :=
  cmpi .slt
    (broadcastInDim S16x16 ![0, 1] bcast_S1x16_S16x16_0_1 (broadcastInDim S1x16 ![1] bcast_S16_S1x16_1 (iotaInDim S16 32 0)))
    (broadcastInDim S16x16 ![0, 1] bcast_S16x1_S16x16_0_1 (broadcastInDim S16x1 ![0] bcast_S16_S16x1_0 caps))

/-- An interval array's end points (second entry of the last axis) as a 16 x 16 array. -/
def hiOf (x : FVec F S16x16x2 .f32) : FVec F S16x16 .f32 :=
  shapeCast S16x16 (extractStridedSlice S16x16x1 ![0, 0, 1] x slices_S16x16x2_S16x16x1_0_0_1) shapeCasts_S16x16x1_S16x16

/-- Its start points (first entry). -/
def loOf (x : FVec F S16x16x2 .f32) : FVec F S16x16 .f32 :=
  shapeCast S16x16 (extractStridedSlice S16x16x1 ![0, 0, 0] x slices_S16x16x2_S16x16x1_0_0_0) shapeCasts_S16x16x1_S16x16

/-- The IoU loss: one minus the mean, over the kept captions (the divisor is the videos' caption counts summed, at least
    one), of the intersection clipped at zero over the union floored at a small constant. -/
def iouLoss (p g : FVec F S16x16x2 .f32) (caps : IVec S16 32) : FVec F S_ .f32 :=
  subf (constant (F := F) S_ .f32 0x3F800000#32)
    (Host.divf
      (Host.reduceAdd
        (select (capMask caps)
          (Host.divf
            (maximumf (broadcastInDim S16x16 ![] bcast_S_S16x16 (id (constant (F := F) S_ .f32 0x00000000#32)))
              (subf (minimumf (hiOf g) (hiOf p)) (maximumf (loOf g) (loOf p))))
            (maximumf (subf (maximumf (hiOf g) (hiOf p)) (minimumf (loOf g) (loOf p)))
              (broadcastInDim S16x16 ![] bcast_S_S16x16 (constant (F := F) S_ .f32 0x322BCC77#32))))
          (broadcastInDim S16x16 ![] bcast_S_S16x16 (id (constant (F := F) S_ .f32 0x00000000#32))))
        (constant (F := F) S_ .f32 0x00000000#32) reducesTo_S16x16_S_d0_1 h_S_)
      (sitofp .f32
        (maxsi (Host.reduce IntOp.addi caps (constantI S_ 32 0#32) reducesTo_S16_S_d0 h_S_) (constantI S_ 32 1#32))))

variable (dats : (p : Fin 1) → (c : Dev nD) → Pipeline.Dat τ (Elt F) Unit ℕ (UR sig nD τ) ℕ (cfgs p) c)

/-- The region's result array once the region is over. -/
abbrev regionOut : FVec F S1x1 .f32 := (dats 0 c).arrAt 3 cfg0.N

set_option maxHeartbeats 4000000 in
/-- The first result: the region's number over the token count. -/
theorem tail_v24 : (Pipeline.afterTail₀ cfgs dats 0 (V0 m) tail c main_v24 : FVec F S_ .f32)
    = Host.divf (shapeCast S_ (regionOut c dats) shapeCasts_S1x1_S_) (ntok m c) := by
  unfold Pipeline.afterTail₀
  simp only [tail, hostOps1, hostOps1_1, hostOps1_2, hostOps1_3, hostOps1_4, hostOps1_5, hostOps1_6, hostOps1_7, hostOps1_8, hostOps1_9, hostOps1_10, List.flatten_cons, List.flatten_nil, List.append_nil, List.cons_append, List.nil_append]
  after_results_simp
  rw [Pipeline.withArrays_arr spec0 launch0.win.arr_inj c _ _ 3, Pipeline.withArrays_of_ne _ c (V0 m c) _ main_v21 (by decide)]
  rw [show V0 m c (Proc.devRef .tc main_v21) = ntok m c from V_v21 m c]
  rfl

set_option maxHeartbeats 4000000 in
/-- The second result: the program loss. -/
theorem tail_v42 : (Pipeline.afterTail₀ cfgs dats 0 (V0 m) tail c main_v42 : FVec F S_ .f32)
    = progLoss (m ((c : Thread nD τ).loc main_arg3)) (m ((c : Thread nD τ).loc main_arg4)) (m ((c : Thread nD τ).loc main_arg5)) := by
  unfold Pipeline.afterTail₀
  simp only [tail, hostOps1, hostOps1_1, hostOps1_2, hostOps1_3, hostOps1_4, hostOps1_5, hostOps1_6, hostOps1_7, hostOps1_8, hostOps1_9, hostOps1_10, List.flatten_cons, List.flatten_nil, List.append_nil, List.cons_append, List.nil_append]
  after_results_simp
  rw [Pipeline.withArrays_of_ne _ c (V0 m c) _ main_arg3 (by decide),
    show V0 m c (Proc.devRef .tc main_arg3) = m ((c : Thread nD τ).loc main_arg3) from V_arg m c main_arg3 (by simp only [argRefs, List.mem_cons, List.mem_nil_iff, true_or, or_true])]
  rw [Pipeline.withArrays_of_ne _ c (V0 m c) _ main_arg4 (by decide),
    show V0 m c (Proc.devRef .tc main_arg4) = m ((c : Thread nD τ).loc main_arg4) from V_arg m c main_arg4 (by simp only [argRefs, List.mem_cons, List.mem_nil_iff, true_or, or_true])]
  rw [Pipeline.withArrays_of_ne _ c (V0 m c) _ main_arg5 (by decide),
    show V0 m c (Proc.devRef .tc main_arg5) = m ((c : Thread nD τ).loc main_arg5) from V_arg m c main_arg5 (by simp only [argRefs, List.mem_cons, List.mem_nil_iff, true_or, or_true])]
  simp only [StableHlo.TRef.ofBuf, StableHlo.TRef.toBuf, cast_eq]
  rfl

set_option maxHeartbeats 4000000 in
/-- The third result: the IoU loss. -/
theorem tail_v81 : (Pipeline.afterTail₀ cfgs dats 0 (V0 m) tail c main_v81 : FVec F S_ .f32)
    = iouLoss (m ((c : Thread nD τ).loc main_arg6)) (m ((c : Thread nD τ).loc main_arg7)) (m ((c : Thread nD τ).loc main_arg8)) := by
  unfold Pipeline.afterTail₀
  simp only [tail, hostOps1, hostOps1_1, hostOps1_2, hostOps1_3, hostOps1_4, hostOps1_5, hostOps1_6, hostOps1_7, hostOps1_8, hostOps1_9, hostOps1_10, List.flatten_cons, List.flatten_nil, List.append_nil, List.cons_append, List.nil_append]
  after_results_simp
  rw [Pipeline.withArrays_of_ne _ c (V0 m c) _ main_arg6 (by decide),
    show V0 m c (Proc.devRef .tc main_arg6) = m ((c : Thread nD τ).loc main_arg6) from V_arg m c main_arg6 (by simp only [argRefs, List.mem_cons, List.mem_nil_iff, true_or, or_true])]
  rw [Pipeline.withArrays_of_ne _ c (V0 m c) _ main_arg7 (by decide),
    show V0 m c (Proc.devRef .tc main_arg7) = m ((c : Thread nD τ).loc main_arg7) from V_arg m c main_arg7 (by simp only [argRefs, List.mem_cons, List.mem_nil_iff, true_or, or_true])]
  rw [Pipeline.withArrays_of_ne _ c (V0 m c) _ main_arg8 (by decide),
    show V0 m c (Proc.devRef .tc main_arg8) = m ((c : Thread nD τ).loc main_arg8) from V_arg m c main_arg8 (by simp only [argRefs, List.mem_cons, List.mem_nil_iff, true_or, or_true])]
  simp only [StableHlo.TRef.ofBuf, StableHlo.TRef.toBuf, cast_eq]
  rfl

set_option maxHeartbeats 4000000 in
/-- The program's first loss: the sum of the first two results. -/
theorem tail_v82 : (Pipeline.afterTail₀ cfgs dats 0 (V0 m) tail c main_v82 : FVec F S_ .f32)
    = addf (Host.divf (shapeCast S_ (regionOut c dats) shapeCasts_S1x1_S_) (ntok m c))
        (progLoss (m ((c : Thread nD τ).loc main_arg3)) (m ((c : Thread nD τ).loc main_arg4)) (m ((c : Thread nD τ).loc main_arg5))) := by
  unfold Pipeline.afterTail₀
  simp only [tail, hostOps1, hostOps1_1, hostOps1_2, hostOps1_3, hostOps1_4, hostOps1_5, hostOps1_6, hostOps1_7, hostOps1_8, hostOps1_9, hostOps1_10, List.flatten_cons, List.flatten_nil, List.append_nil, List.cons_append, List.nil_append]
  after_results_simp
  rw [Pipeline.withArrays_arr spec0 launch0.win.arr_inj c _ _ 3, Pipeline.withArrays_of_ne _ c (V0 m c) _ main_v21 (by decide)]
  rw [show V0 m c (Proc.devRef .tc main_v21) = ntok m c from V_v21 m c]
  rw [Pipeline.withArrays_of_ne _ c (V0 m c) _ main_arg3 (by decide),
    show V0 m c (Proc.devRef .tc main_arg3) = m ((c : Thread nD τ).loc main_arg3) from V_arg m c main_arg3 (by simp only [argRefs, List.mem_cons, List.mem_nil_iff, true_or, or_true])]
  rw [Pipeline.withArrays_of_ne _ c (V0 m c) _ main_arg4 (by decide),
    show V0 m c (Proc.devRef .tc main_arg4) = m ((c : Thread nD τ).loc main_arg4) from V_arg m c main_arg4 (by simp only [argRefs, List.mem_cons, List.mem_nil_iff, true_or, or_true])]
  rw [Pipeline.withArrays_of_ne _ c (V0 m c) _ main_arg5 (by decide),
    show V0 m c (Proc.devRef .tc main_arg5) = m ((c : Thread nD τ).loc main_arg5) from V_arg m c main_arg5 (by simp only [argRefs, List.mem_cons, List.mem_nil_iff, true_or, or_true])]
  simp only [StableHlo.TRef.ofBuf, StableHlo.TRef.toBuf, cast_eq]
  rfl

end Cert.KernelIdeal.HostValue

end
-- ==== Proof.SpecLaws.lean ====
/-
  Laws of the caption loss's specification (Spec.lean) over the extended reals.

  For a token whose logits are all real numbers: the largest logit is real; picking the logit at a label
  `k < 12000` by comparison with every position gives that logit; and the streaming form of the negative
  log-likelihood, `(log s + M) - x_k` with `s = sum_j exp (x_j - M)`, equals the log-softmax form
  `-((x_k - M) - log s)`: all three of `log s`, `M`, `x_k` are real, so this is arithmetic in the reals.
  The 8192 token numbers enumerate the (video, caption, position) triples once each.
-/
import proofs.«424876_j87643102642642_3_alg».proof.Proof.Spec
import Mathlib.Algebra.BigOperators.Fin
import Mathlib.Data.Finset.Fold
import Mathlib.Data.EReal.Operations

noncomputable section

namespace Cert.Spec

open Idealize.ShloMosaic Idealize.ShloMosaic.ValueIdx

/-- The coercion of a finite sum of reals into the extended reals is the sum of the coercions. -/
theorem coe_sum_real {ι : Type*} (s : Finset ι) (f : ι → ℝ) :
    ∑ j ∈ s, ((f j : ℝ) : EReal) = ((∑ j ∈ s, f j : ℝ) : EReal) := by
  classical
  refine Finset.induction_on s (by simp) ?_
  intro a s ha ih
  rw [Finset.sum_insert ha, Finset.sum_insert ha, ih, EReal.coe_add]

/-- The largest of finitely many real logits is real. -/
theorem rowMax_real (x : Fin 12000 → EReal) (hx : ∀ j, ∃ r : ℝ, x j = (r : EReal)) : ∃ r : ℝ, rowMax x = (r : EReal) := by
  have hbot : rowMax x ≠ ⊥ := by
    obtain ⟨r, hr⟩ := hx 0
    have h : x 0 ≤ rowMax x := by
      unfold rowMax
      exact (Finset.le_fold_max _).mpr (Or.inr ⟨0, Finset.mem_univ _, le_rfl⟩)
    intro hb
    rw [hb, hr] at h
    exact absurd h (not_le.mpr (EReal.bot_lt_coe r))
  have htop : rowMax x ≠ ⊤ := by
    have h : rowMax x < ⊤ := by
      unfold rowMax
      refine (Finset.fold_max_lt _).mpr ⟨bot_lt_top, fun j _ => ?_⟩
      obtain ⟨r, hr⟩ := hx j
      rw [hr]
      exact EReal.coe_lt_top r
    exact ne_of_lt h
  exact ⟨(rowMax x).toReal, (EReal.coe_toReal htop hbot).symm⟩

/-- Every logit is at most the row's maximum. -/
theorem le_rowMax (x : Fin 12000 → EReal) (j : Fin 12000) : x j ≤ rowMax x := by
  unfold rowMax
  exact (Finset.le_fold_max _).mpr (Or.inr ⟨j, Finset.mem_univ _, le_rfl⟩)

/-- The sum of the shifted exponentials of real logits is a positive real. -/
theorem sumExp_real (x : Fin 12000 → EReal) (hx : ∀ j, ∃ r : ℝ, x j = (r : EReal)) :
    ∃ s : ℝ, 0 < s ∧ (∑ j : Fin 12000, Ideal.exp (x j - rowMax x)) = (s : EReal) := by
  obtain ⟨m, hm⟩ := rowMax_real x hx
  choose r hr using hx
  have hterm : ∀ j, Ideal.exp (x j - rowMax x) = ((Real.exp (r j - m) : ℝ) : EReal) := by
    intro j
    rw [hr j, hm, ← EReal.coe_sub, Ideal.exp_coe]
  refine ⟨∑ j : Fin 12000, Real.exp (r j - m), ?_, ?_⟩
  · exact Finset.sum_pos (fun j _ => Real.exp_pos _) ⟨0, Finset.mem_univ _⟩
  · rw [← coe_sum_real]
    exact Finset.sum_congr rfl (fun j _ => hterm j)

/-- Two positions below 12000 have the same 32-bit word only if they are the same position. -/
theorem ofNat_eq_iff (j k : Fin 12000) : (BitVec.ofNat 32 j.val = BitVec.ofNat 32 k.val) ↔ j = k := by
  constructor
  · intro h
    have h2 := congrArg BitVec.toNat h
    rw [BitVec.toNat_ofNat, BitVec.toNat_ofNat] at h2
    have hj := j.isLt
    have hk := k.isLt
    apply Fin.ext
    omega
  · intro h
    rw [h]

/-- Picking by comparison: at a label that is the word of a position `k < 12000`, the picked value is the logit there. -/
theorem pick_ofNat (x : Fin 12000 → EReal) (k : Fin 12000) : pick x (BitVec.ofNat 32 k.val) = x k := by
  unfold pick
  simp only [ofNat_eq_iff]
  rw [Finset.sum_ite_eq']
  simp

/-- The streaming form of the negative log-likelihood is the log-softmax form, for real logits and a label in range. -/
theorem nll_eq (x : Fin 12000 → EReal) (hx : ∀ j, ∃ r : ℝ, x j = (r : EReal)) (k : Fin 12000) :
    nll x (BitVec.ofNat 32 k.val)
      = -((x k - rowMax x) - Ideal.log (∑ j : Fin 12000, Ideal.exp (x j - rowMax x))) := by
  obtain ⟨s, hs, hS⟩ := sumExp_real x hx
  obtain ⟨m, hm⟩ := rowMax_real x hx
  obtain ⟨rk, hrk⟩ := hx k
  unfold nll lse
  rw [pick_ofNat, hS, hm, hrk, Ideal.log_coe, if_neg (not_le.mpr hs)]
  rw [← EReal.coe_add, ← EReal.coe_sub, ← EReal.coe_sub, ← EReal.coe_sub, ← EReal.coe_neg]
  congr 1
  ring

/-- Token numbering is a bijection from the 8192 numbers onto the (video, caption, position) triples. -/
theorem tok_bijective : Function.Bijective tok := by
  constructor
  · intro i i' h
    have h0 : i.val / 512 = i'.val / 512 := congrArg (fun t : STok.Idx => (t 0).val) h
    have h1 : i.val / 32 % 16 = i'.val / 32 % 16 := congrArg (fun t : STok.Idx => (t 1).val) h
    have h2 : i.val % 32 = i'.val % 32 := congrArg (fun t : STok.Idx => (t 2).val) h
    apply Fin.ext
    omega
  · intro t
    have h0 : (t 0).val < 16 := (t 0).isLt
    have h1 : (t 1).val < 16 := (t 1).isLt
    have h2 : (t 2).val < 32 := (t 2).isLt
    refine ⟨⟨(t 0).val * 512 + (t 1).val * 32 + (t 2).val, by omega⟩, ?_⟩
    funext a
    match a with
    | ⟨0, _⟩ =>
      apply Fin.ext
      show ((t 0).val * 512 + (t 1).val * 32 + (t 2).val) / 512 = (t 0).val
      omega
    | ⟨1, _⟩ =>
      apply Fin.ext
      show ((t 0).val * 512 + (t 1).val * 32 + (t 2).val) / 32 % 16 = (t 1).val
      omega
    | ⟨2, _⟩ =>
      apply Fin.ext
      show ((t 0).val * 512 + (t 1).val * 32 + (t 2).val) % 32 = (t 2).val
      omega

/-- The token numbers enumerate the triples: a sum over the 8192 numbers of `f (tok i)` is the sum of `f` over all triples. -/
theorem sum_tok {α : Type*} [AddCommMonoid α] (f : STok.Idx → α) : ∑ i : Fin 8192, f (tok i) = ∑ t : STok.Idx, f t :=
  tok_bijective.sum_comp f

/-- `row X i j` is `X` at the triple of token `i` extended by `j`. -/
theorem row_eq (X : SLogits.Idx → EReal) (i : Fin 8192) (j : Fin 12000) :
    row X i j = X (ix4 ((tok i) 0) ((tok i) 1) ((tok i) 2) j) := by
  rfl

end Cert.Spec

end
-- ==== Proof.FlatValue.lean ====
/-
  The specification over the token-flat arrays is the specification over the original ones.

  The 8192 = 16 * 16 * 32 tokens are laid out in one line: entry (i, j) of the flat logits has row-major position
  i * 12000 + j = ((b * 16 + q) * 32 + p) * 12000 + j with b = i / 512, q = i / 32 % 16, p = i % 32, which is the
  position of (b, q, p, j) in the original logits; likewise entry (i, 0) of a column of 8192 numbers is entry
  (b, q, p) of the token array. A mask bit converted to a number is 0 or 1, so it exceeds one half exactly when
  the bit is 1.
-/
import proofs.«424876_j87643102642642_3_alg».proof.Proof.Spec
import proofs.«424876_j87643102642642_3_alg».proof.Proof.SpecLaws
import Idealize.ShloMosaic.Lib.ValueIdx
import Idealize.ShloMosaic.Lib.Pipeline.Value
import Idealize.ShloMosaic.Lib.ValueLayout
import Idealize.ShloMosaic.PureOps.Ideal.Laws

noncomputable section

namespace Cert.Spec

open Idealize.ShloMosaic Idealize.ShloMosaic.ValueIdx

/-- The flat logits at (i, j) are the original logits of token `i` at `j`. -/
theorem shapeCast_flat_apply {α : Type} (X : SLogits.Idx → α) (hX : SLogits.ShapeCasts SFlat) (i : Fin 8192) (j : Fin 12000) :
    shapeCast SFlat X hX (ix2 i j)
      = X (ix4 (⟨i.val / 512, by omega⟩ : Fin 16) (⟨i.val / 32 % 16, by omega⟩ : Fin 16) (⟨i.val % 32, by omega⟩ : Fin 32) j) :=
  shapeCast_apply X hX _ _ (by
    rw [Shape.rowMajor_val_four, Shape.rowMajor_val_two]
    show ((i.val / 512 * 16 + i.val / 32 % 16) * 32 + i.val % 32) * 12000 + j.val = i.val * 12000 + j.val
    have hi := i.isLt
    omega)

/-- A column of one number per token at (i, 0) is the token array at token `i`. -/
theorem shapeCast_col_apply {α : Type} (L : STok.Idx → α) (hL : STok.ShapeCasts SCol) (i : Fin 8192) :
    shapeCast SCol L hL (ix2 i (0 : Fin 1)) = L (tok i) :=
  shapeCast_apply L hL _ _ (by
    unfold tok
    rw [Shape.rowMajor_val_three, Shape.rowMajor_val_two]
    show (i.val / 512 * 16 + i.val / 32 % 16) * 32 + i.val % 32 = i.val * 1 + 0
    have hi := i.isLt
    omega)

/-- The f32 pattern `0x3F000000` is the real one half. -/
theorem ofBits_half_f32 : Ideal.ofBits .f32 0x3F000000#32 = (((1 : ℝ) / 2 : ℝ) : EReal) := by
  simp [Ideal.ofBits, Ideal.ieee, -EReal.coe_mul]; norm_num

/-- A bit read as a number exceeds one half exactly when it is 1. -/
theorem half_lt_uitofp_bit (b : BitVec 1) :
    (Ideal.ofBits .f32 0x3F000000#32 < FloatOps.uitofp (F := Ideal) .f32 b) ↔ b = 1#1 := by
  rw [ofBits_half_f32]
  show ((((1 : ℝ) / 2 : ℝ) : EReal) < ((b.toNat : ℝ) : EReal)) ↔ b = 1#1
  rw [EReal.coe_lt_coe_iff]
  rcases BitVec.eq_zero_or_eq_one b with h | h
  · subst h
    constructor
    · intro h1
      norm_num at h1
    · intro h1
      exact absurd h1 (by decide)
  · subst h
    constructor
    · intro _
      rfl
    · intro _
      norm_num

/-- The numerator over the flat arrays is the numerator over the original ones. -/
theorem capSumFlat_reshape (X : SLogits.Idx → EReal) (L : STok.Idx → BitVec 32) (M : STok.Idx → BitVec 1)
    (hX : SLogits.ShapeCasts SFlat) (hL : STok.ShapeCasts SCol) (hM : STok.ShapeCasts SCol) :
    capSumFlat (shapeCast SFlat X hX) (shapeCast SCol L hL) (shapeCast SCol (uitofp (F := Ideal) .f32 M) hM) = capSum X L M := by
  unfold capSumFlat capSum
  refine Finset.sum_congr rfl fun i _ => ?_
  have hrow : (fun j : Fin 12000 => shapeCast SFlat X hX (ix2 i j)) = row X i := by
    funext j
    rw [shapeCast_flat_apply]
    rfl
  have hmask : shapeCast SCol (uitofp (F := Ideal) .f32 M) hM (ix2 i (0 : Fin 1)) = FloatOps.uitofp (F := Ideal) .f32 (M (tok i)) := by
    rw [shapeCast_col_apply]
    rfl
  rw [hrow, shapeCast_col_apply L hL i, hmask]
  by_cases hb : M (tok i) = 1#1
  · rw [if_pos hb, if_pos ((half_lt_uitofp_bit _).mpr hb)]
  · rw [if_neg hb, if_neg (fun h => hb ((half_lt_uitofp_bit _).mp h))]

/-- A one-by-one array of a constant, reshaped to a scalar, is that constant. -/
theorem shapeCast_const_scalar (s : EReal) (h : (⟨2, ![1, 1]⟩ : Shape).ShapeCasts ⟨0, ![]⟩) :
    shapeCast (⟨0, ![]⟩ : Shape) (fun _ : (⟨2, ![1, 1]⟩ : Shape).Idx => s) h = fun _ => s := by
  funext j
  rfl

end Cert.Spec

end
-- ==== Proof.KI.KernelRun.lean ====
/-
  What the idealized kernel program computes, at the extended reals, as functions of its argument arrays.

  The run of @main (the frame, with the region's arrays named) ends with the region's result array at the sum of the
  64 tiles' contributions, which is the specification's numerator over the flat arrays; those are reshapes of the
  logits, the labels and the token mask, so it is the numerator over the argument arrays. The host operations after the
  region divide it by the token count (the caption loss), compute the program loss and the interval loss from the other
  arguments, and add the first two.
-/
import proofs.«424876_j87643102642642_3_alg».proof.Proof.KI.OutValue
import proofs.«424876_j87643102642642_3_alg».proof.Proof.KI.HostValue
import proofs.«424876_j87643102642642_3_alg».proof.Proof.FlatValue

set_option maxRecDepth 16384

noncomputable section

namespace Cert.KernelIdeal.Reg

open Cert.KernelIdeal Cert.KernelIdeal.Gen Cert.KernelIdeal.HostValue
open Idealize.ShloMosaic Idealize.ShloMosaic.TcCoe Idealize.SL.Sem

variable (m : (ℓ : Loc nD τ sig) → Buf (Elt Ideal) ℓ) (ρ : Dev nD → PrngReg)

/-- The caption loss: the specification's numerator over the argument arrays, divided by the token count. -/
def capK (c : Dev nD) : FVec Ideal S_ .f32 :=
  Host.divf (fun _ => Cert.Spec.capSum (m ((c : Thread nD τ).loc main_arg2)) (m ((c : Thread nD τ).loc main_arg0)) (maskBits m c)) (ntok m c)

/-- The region's result, cast to a scalar and divided by the count, is the caption loss. -/
theorem region_cap (c : Dev nD) :
    Host.divf (shapeCast S_ (regionOut c (dats m)) shapeCasts_S1x1_S_) (ntok m c) = capK m c := by
  unfold capK
  congr 1
  have h := out_value m c
  rw [V_v17 m c, V_v16 m c, V_v15 m c] at h
  rw [show regionOut c (dats m) = _ from h, Cert.Spec.capSumFlat_reshape]
  exact Cert.Spec.shapeCast_const_scalar _ _

/-- The run of the idealized kernel program with its four results named. -/
theorem kernel_run :
    θ_run defs (onTc (τ := τ) (main (F := Ideal))) ⟨m, fun _ => 0, ρ⟩ (fun r => ∀ c : Dev nD,
      (r.2.mem ((c.tc : Thread nD τ).loc main_v82) : FVec Ideal S_ .f32) = addf (capK m c) (progLoss (F := Ideal) (m ((c : Thread nD τ).loc main_arg3)) (m ((c : Thread nD τ).loc main_arg4)) (m ((c : Thread nD τ).loc main_arg5)))
      ∧ (r.2.mem ((c.tc : Thread nD τ).loc main_v24) : FVec Ideal S_ .f32) = capK m c
      ∧ (r.2.mem ((c.tc : Thread nD τ).loc main_v42) : FVec Ideal S_ .f32) = progLoss (F := Ideal) (m ((c : Thread nD τ).loc main_arg3)) (m ((c : Thread nD τ).loc main_arg4)) (m ((c : Thread nD τ).loc main_arg5))
      ∧ (r.2.mem ((c.tc : Thread nD τ).loc main_v81) : FVec Ideal S_ .f32) = iouLoss (F := Ideal) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
    ((h c).2 main_v82 (Pipeline.mem_restRefs_of main_v82 (by decide) (by decide))).trans ((tail_v82 m c (dats m)).trans (by rw [region_cap])),
    ((h c).2 main_v24 (Pipeline.mem_restRefs_of main_v24 (by decide) (by decide))).trans ((tail_v24 m c (dats m)).trans (region_cap m c)),
    ((h c).2 main_v42 (Pipeline.mem_restRefs_of main_v42 (by decide) (by decide))).trans (tail_v42 m c (dats m)),
    ((h c).2 main_v81 (Pipeline.mem_restRefs_of main_v81 (by decide) (by decide))).trans (tail_v81 m c (dats m)),
    ((h c).2 main_arg0 (Pipeline.mem_restRefs_of main_arg0 (by decide) (by decide))).trans (W_arg m (dats m) c main_arg0 (by simp only [argRefs, List.mem_cons, List.mem_nil_iff, true_or, or_true])),
    ((h c).2 main_arg1 (Pipeline.mem_restRefs_of main_arg1 (by decide) (by decide))).trans (W_arg m (dats m) c main_arg1 (by simp only [argRefs, List.mem_cons, List.mem_nil_iff, true_or, or_true])),
    ((h c).2 main_arg2 (Pipeline.mem_restRefs_of main_arg2 (by decide) (by decide))).trans (W_arg m (dats m) c main_arg2 (by simp only [argRefs, List.mem_cons, List.mem_nil_iff, true_or, or_true])),
    ((h c).2 main_arg3 (Pipeline.mem_restRefs_of main_arg3 (by decide) (by decide))).trans (W_arg m (dats m) c main_arg3 (by simp only [argRefs, List.mem_cons, List.mem_nil_iff, true_or, or_true])),
    ((h c).2 main_arg4 (Pipeline.mem_restRefs_of main_arg4 (by decide) (by decide))).trans (W_arg m (dats m) c main_arg4 (by simp only [argRefs, List.mem_cons, List.mem_nil_iff, true_or, or_true])),
    ((h c).2 main_arg5 (Pipeline.mem_restRefs_of main_arg5 (by decide) (by decide))).trans (W_arg m (dats m) c main_arg5 (by simp only [argRefs, List.mem_cons, List.mem_nil_iff, true_or, or_true])),
    ((h c).2 main_arg6 (Pipeline.mem_restRefs_of main_arg6 (by decide) (by decide))).trans (W_arg m (dats m) c main_arg6 (by simp only [argRefs, List.mem_cons, List.mem_nil_iff, true_or, or_true])),
    ((h c).2 main_arg7 (Pipeline.mem_restRefs_of main_arg7 (by decide) (by decide))).trans (W_arg m (dats m) c main_arg7 (by simp only [argRefs, List.mem_cons, List.mem_nil_iff, true_or, or_true])),
    ((h c).2 main_arg8 (Pipeline.mem_restRefs_of main_arg8 (by decide) (by decide))).trans (W_arg m (dats m) c main_arg8 (by simp only [argRefs, List.mem_cons, List.mem_nil_iff, true_or, or_true])),
    ((h c).2 main_arg9 (Pipeline.mem_restRefs_of main_arg9 (by decide) (by decide))).trans (W_arg m (dats m) c main_arg9 (by simp only [argRefs, List.mem_cons, List.mem_nil_iff, true_or, or_true]))⟩)
    (run_main m ρ)

end Cert.KernelIdeal.Reg

end
-- ==== Proof.Ref.CapNum.lean ====
/-
  The reference's caption-loss numerator over the extended reals is the specification's (Spec.lean).

  Token (b, q, p) has logits x_j = x2 (b, q, p, j) and a label word k with 0 <= k < 12000.  The reference takes the row
  maximum M = max(-inf, max_j x_j), the log-softmax (x_j - M) - log (sum_j exp (x_j - M)), and picks its entry at the
  label by a gather along the vocabulary axis: the label is not negative, so it is not wrapped by 12000, it passes the
  in-range test 0 <= k <= 11999, and the clamp to [0, 11999] leaves it alone.  The negated value is
  (log (sum_j exp (x_j - M)) + M) - x_k, the specification's likelihood, by real arithmetic (all logits are finite).
  The numerator sums these, zero where the token mask is clear, over all (b, q, p): the 8192 token numbers enumerate
  those triples once each.
-/
import proofs.«424876_j87643102642642_3_alg».proof.Proof.RefReadP
import proofs.«424876_j87643102642642_3_alg».proof.Proof.SpecLaws
import Idealize.ShloMosaic.Lib.ValueIdx
import Idealize.ShloMosaic.Lib.StableHlo.Predicate
import Idealize.ShloMosaic.PureOps.Ideal.Laws
import Idealize.ShloMosaic.PureOps.Reduce

noncomputable section

namespace Cert.ReferenceIdeal.CapNum

open Cert.ReferenceIdeal Cert.ReferenceIdeal.Gen Cert.ReferenceIdeal.ReadP Idealize.ShloMosaic Idealize.ShloMosaic.ValueIdx

/-- A maximum-reduction over the vocabulary axis, at token (b, q, p): the fold of max over that token's logits. -/
theorem reduce_max_tok (x : S16x16x32x12000.Idx → Ideal .f32) (init : S_.Idx → Ideal .f32) (b q : Fin 16) (p : Fin 32) :
    Host.reduce (FloatOps.maximumf (F := Ideal) (φ := .f32)) x init reducesTo_S16x16x32x12000_S16x16x32_d3 h_S_ (ix3 b q p)
      = (Finset.univ : Finset (Fin 12000)).fold max (init (Shape.Idx.first h_S_)) (fun k => x (ix4 b q p k)) := by
  have hR : S16x16x32x12000.Reduces [3] S16x16x32 := by decide
  rw [Host.reduce_eq_fold_single (FloatOps.maximumf (F := Ideal) (φ := .f32)) x init
    reducesTo_S16x16x32x12000_S16x16x32_d3 hR h_S_ (ix3 b q p)]
  refine congrArg (fun g => (Finset.univ : Finset (Fin 12000)).fold max (init (Shape.Idx.first h_S_)) g) ?_
  funext k
  refine congrArg x (funext fun a => Fin.ext ?_)
  match a with
  | ⟨0, _⟩ => rfl
  | ⟨1, _⟩ => rfl
  | ⟨2, _⟩ => rfl
  | ⟨3, _⟩ => rfl

/-- A fold over an index range of one element is the operation on that element and the initial value. -/
theorem fold_univ_one {β : Type} {n : Nat} (hn : n = 1) (op : β → β → β) [Std.Commutative op] [Std.Associative op] (b : β)
    (f : Fin n → β) : (Finset.univ : Finset (Fin n)).fold op b f = op (f ⟨0, by omega⟩) b := by
  subst hn
  rw [show (Finset.univ : Finset (Fin 1)) = {(⟨0, by omega⟩ : Fin 1)} from rfl, Finset.fold_singleton]

/-- An and-reduction over a last axis of extent one, at (b, q, p, 0): the initial bit and the one element. -/
theorem reduce_and_tok (y : S16x16x32x1x1.Idx → BitVec 1) (init : S_.Idx → BitVec 1) (b q : Fin 16) (p : Fin 32) :
    Host.reduce IntOp.andi y init reducesTo_S16x16x32x1x1_S16x16x32x1_d4 h_S_ (ix4 b q p (0 : Fin 1))
      = IntOp.andi (y (ix5 b q p (0 : Fin 1) (0 : Fin 1))) (init (Shape.Idx.first h_S_)) := by
  have hR : S16x16x32x1x1.Reduces [4] S16x16x32x1 := by decide
  rw [Host.reduce_eq_fold_single IntOp.andi y init
    reducesTo_S16x16x32x1x1_S16x16x32x1_d4 hR h_S_ (ix4 b q p (0 : Fin 1))]
  rw [fold_univ_one (rfl : S16x16x32x1x1.size 4 = 1)]
  refine congrArg (fun z => IntOp.andi (y z) (init (Shape.Idx.first h_S_))) (funext fun a => Fin.ext ?_)
  match a with
  | ⟨0, _⟩ => rfl
  | ⟨1, _⟩ => rfl
  | ⟨2, _⟩ => rfl
  | ⟨3, _⟩ => rfl
  | ⟨4, _⟩ => rfl

/-- The gather along the vocabulary axis, at token (b, q, p): the operand at the token's start index, read signed and
    clamped into [0, 11999]. -/
theorem gather_tok {α : Type} {w : Nat} (x : S16x16x32x12000.Idx → α) (idx : IVec S16x16x32x1x1 w) (b q : Fin 16) (p : Fin 32) :
    Host.gather gather_S16x16x32x12000_S16x16x32x1x1_S16x16x32x1_n_3_012_012_3_4_1111 x idx (ix4 b q p (0 : Fin 1))
      = x (ix4 b q p (⟨min (idx (ix5 b q p (0 : Fin 1) (0 : Fin 1))).toInt.toNat 11999, by omega⟩ : Fin 12000)) := by
  unfold Host.gather
  -- the three batching axes read the token's coordinates
  have hbat : ∀ (a : Fin S16x16x32x12000.rank) (c : Nat),
      a ∈ gather_S16x16x32x12000_S16x16x32x1x1_S16x16x32x1_n_3_012_012_3_4_1111.operandBatchingDims →
      gather_S16x16x32x12000_S16x16x32x1x1_S16x16x32x1_n_3_012_012_3_4_1111.batchCoord (ix4 b q p (0 : Fin 1)) a = c →
      (gather_S16x16x32x12000_S16x16x32x1x1_S16x16x32x1_n_3_012_012_3_4_1111.operandIdx (ix4 b q p (0 : Fin 1)) idx a).val = c := by
    intro a c ha hc
    show GatherDims.start _ _ idx a + GatherDims.batchCoord _ _ a + GatherDims.offCoord _ _ a = c
    rw [GatherDims.start_batching _ _ _ _ ha,
      GatherDims.offCoord_eq_zero _ _ _ (fun h => ((GatherDims.mem_sKept _ _).mp h).2 ha), hc]
    omega
  have h0 := hbat (0 : Fin S16x16x32x12000.rank) b.val (by decide) rfl
  have h1 := hbat (1 : Fin S16x16x32x12000.rank) q.val (by decide) rfl
  have h2 := hbat (2 : Fin S16x16x32x12000.rank) p.val (by decide) rfl
  -- the vocabulary axis reads the clamped start index
  have h3 : (gather_S16x16x32x12000_S16x16x32x1x1_S16x16x32x1_n_3_012_012_3_4_1111.operandIdx (ix4 b q p (0 : Fin 1)) idx
      (3 : Fin S16x16x32x12000.rank)).val = min (idx (ix5 b q p (0 : Fin 1) (0 : Fin 1))).toInt.toNat 11999 := by
    show GatherDims.start _ _ idx _ + GatherDims.batchCoord _ _ _ + GatherDims.offCoord _ _ _ = _
    rw [GatherDims.batchCoord_eq_zero _ _ _ (by decide),
      GatherDims.offCoord_eq_zero _ _ _ (fun h => ((GatherDims.mem_sKept _ _).mp h).1 (by decide))]
    simp only [Nat.add_zero]
    unfold GatherDims.start
    rw [dif_pos (by decide)]
    have hsi : GatherDims.siIdx gather_S16x16x32x12000_S16x16x32x1x1_S16x16x32x1_n_3_012_012_3_4_1111 (ix4 b q p (0 : Fin 1))
        ⟨List.idxOf (3 : Fin S16x16x32x12000.rank) gather_S16x16x32x12000_S16x16x32x1x1_S16x16x32x1_n_3_012_012_3_4_1111.startIndexMap,
          List.idxOf_lt_length_iff.2 (by decide)⟩ = ix5 b q p (0 : Fin 1) (0 : Fin 1) := by
      funext c; refine Fin.ext ?_
      match c with
      | ⟨0, _⟩ => rfl
      | ⟨1, _⟩ => rfl
      | ⟨2, _⟩ => rfl
      | ⟨3, _⟩ => rfl
      | ⟨4, _⟩ => rfl
    rw [hsi]
    rfl
  refine congrArg x (funext fun a => Fin.ext ?_)
  match a with
  | ⟨0, _⟩ => exact h0
  | ⟨1, _⟩ => exact h1
  | ⟨2, _⟩ => exact h2
  | ⟨3, _⟩ => exact h3

/-! ## Label words in range -/

/-- A 32-bit word whose signed value is in [0, 12000) has that value as its unsigned value. -/
theorem toNat_of_range (w : BitVec 32) (h0 : 0 ≤ w.toInt) (h1 : w.toInt < 12000) : w.toInt = (w.toNat : Int) ∧ w.toNat < 12000 := by
  have hlt := w.isLt
  rw [BitVec.toInt_eq_toNat_cond] at h0 h1 ⊢
  split at h0 <;> split at h1 <;> constructor <;> omega

/-- A word of non-negative signed value is not below zero … -/
theorem slt_zero_of_nonneg (w : BitVec 32) (h0 : 0 ≤ w.toInt) : IntOp.cmpi .slt w 0#32 = 0#1 := by
  unfold IntOp.cmpi
  have h : w.slt 0#32 = false := by
    simp only [BitVec.slt, BitVec.toInt_zero]
    exact decide_eq_false (not_lt.mpr h0)
  simp only [h]
  rfl

/-- … is at least zero … -/
theorem sge_zero_of_nonneg (w : BitVec 32) (h0 : 0 ≤ w.toInt) : IntOp.cmpi .sge w 0#32 = 1#1 := by
  unfold IntOp.cmpi
  have h : (0#32 : BitVec 32).sle w = true := by
    simp only [BitVec.sle, BitVec.toInt_zero]
    exact decide_eq_true h0
  simp only [h]
  rfl

/-- … and one of signed value below 12000 is at most 11999. -/
theorem sle_of_lt (w : BitVec 32) (h1 : w.toInt < 12000) : IntOp.cmpi .sle w 11999#32 = 1#1 := by
  unfold IntOp.cmpi
  have h : w.sle 11999#32 = true := by
    have e : (11999#32 : BitVec 32).toInt = 11999 := by decide
    simp only [BitVec.sle, e]
    exact decide_eq_true (by omega)
  simp only [h]
  rfl

/-- A word below 2^32 is the word of its unsigned value. -/
theorem ofNat_toNat_self (w : BitVec 32) : BitVec.ofNat 32 w.toNat = w := by
  apply BitVec.eq_of_toNat_eq
  rw [BitVec.toNat_ofNat]
  exact Nat.mod_eq_of_lt w.isLt

/-! ## The reference's stages at a token

Token (b, q, p) has the logits `fun j => x2 (ix4 b q p j)`; the label there is `x0 (ix3 b q p)`. -/

/-- The reference's row maximum, `max(-inf, max_j x_j)`, is the specification's. -/
theorem max_tok (x2 : (⟨S16x16x32x12000, .f32⟩ : BufTy).Contents (Elt Ideal)) (b q : Fin 16) (p : Fin 32) :
    val_main_call0_v2 (F := Ideal) x2 (ix3 b q p) = Cert.Spec.rowMax (fun j => x2 (ix4 b q p j)) := by
  rw [val_main_call0_v2_apply, val_main_call0_v1_apply, val_main_call0_cst_0_apply]
  unfold val_main_call0_v0
  rw [reduce_max_tok, val_main_call0_cst_apply]
  have hb : Ideal.ofBits .f32 0xFF800000#32 = (⊥ : EReal) := by simp [Ideal.ofBits, Ideal.ieee]
  simp only [Ideal.maximumf_def, Ideal.ofBits_def, hb]
  exact max_eq_right bot_le

/-- The shifted logit: `x_j - M`. -/
theorem shift_tok (x2 : (⟨S16x16x32x12000, .f32⟩ : BufTy).Contents (Elt Ideal)) (b q : Fin 16) (p : Fin 32) (j : Fin 12000) :
    val_main_call0_v5 (F := Ideal) x2 (ix4 b q p j)
      = x2 (ix4 b q p j) - Cert.Spec.rowMax (fun j => x2 (ix4 b q p j)) := by
  rw [val_main_call0_v5_apply, val_main_call0_v4_apply, val_main_call0_v3_apply]
  have hi : idx_main_call0_v3 (idx_main_call0_v4 (ix4 b q p j)) = ix3 b q p := by
    funext a
    match a with
    | ⟨0, _⟩ => rfl
    | ⟨1, _⟩ => rfl
    | ⟨2, _⟩ => rfl
  rw [hi, max_tok]
  rfl

/-- The sum of the shifted exponentials: `sum_j exp (x_j - M)`. -/
theorem sumexp_tok (x2 : (⟨S16x16x32x12000, .f32⟩ : BufTy).Contents (Elt Ideal)) (b q : Fin 16) (p : Fin 32) :
    val_main_call0_v7 (F := Ideal) x2 (ix3 b q p)
      = ∑ j : Fin 12000, Ideal.exp (x2 (ix4 b q p j) - Cert.Spec.rowMax (fun j => x2 (ix4 b q p j))) := by
  rw [val_main_call0_v7_apply, val_main_call0_cst_1_apply]
  simp only [Ideal.ofBits_def, Ideal.ofBits_zero_f32, zero_add]
  refine Finset.sum_congr rfl fun j _ => ?_
  have hi : idx_main_call0_v7 (ix3 b q p) j = ix4 b q p j := by
    funext a
    match a with
    | ⟨0, _⟩ => rfl
    | ⟨1, _⟩ => rfl
    | ⟨2, _⟩ => rfl
    | ⟨3, _⟩ => rfl
  rw [hi, val_main_call0_v6_apply, shift_tok]
  rfl

/-- The log-softmax at vocabulary entry k: `(x_k - M) - log (sum_j exp (x_j - M))`. -/
theorem logsoftmax_tok (x2 : (⟨S16x16x32x12000, .f32⟩ : BufTy).Contents (Elt Ideal)) (b q : Fin 16) (p : Fin 32) (k : Fin 12000) :
    val_main_v14 (F := Ideal) x2 (ix4 b q p k)
      = (x2 (ix4 b q p k) - Cert.Spec.rowMax (fun j => x2 (ix4 b q p j)))
        - Ideal.log (∑ j : Fin 12000, Ideal.exp (x2 (ix4 b q p j) - Cert.Spec.rowMax (fun j => x2 (ix4 b q p j)))) := by
  rw [val_main_v14_apply, shift_tok, val_main_call0_v10_apply, val_main_call0_v9_apply, val_main_call0_v8_apply]
  have hi : idx_main_call0_v8 (idx_main_call0_v10 (ix4 b q p k)) = ix3 b q p := by
    funext a
    match a with
    | ⟨0, _⟩ => rfl
    | ⟨1, _⟩ => rfl
    | ⟨2, _⟩ => rfl
  rw [hi, sumexp_tok]
  rfl

/-- A label of non-negative signed value is not wrapped: the start index of the gather is the label. -/
theorem label_tok (x0 : (⟨S16x16x32, .i32⟩ : BufTy).Contents (Elt Ideal)) (b q : Fin 16) (p : Fin 32)
    (h0 : 0 ≤ (x0 (ix3 b q p)).toInt) :
    val_main_call1_v5 (F := Ideal) x0 (ix5 b q p (0 : Fin 1) (0 : Fin 1)) = x0 (ix3 b q p) := by
  rw [val_main_call1_v5_apply]
  have hb := b.isLt
  have hq := q.isLt
  have hp := p.isLt
  have hi : idx_main_call1_v5 (ix5 b q p (0 : Fin 1) (0 : Fin 1)) = ix4 b q p (0 : Fin 1) := by
    funext a
    apply Fin.ext
    match a with
    | ⟨0, _⟩ =>
      show ((((b.val * 16 + q.val) * 32 + p.val) * 1 + 0) * 1 + 0) / 512 = b.val
      omega
    | ⟨1, _⟩ =>
      show ((((b.val * 16 + q.val) * 32 + p.val) * 1 + 0) * 1 + 0) / 32 % 16 = q.val
      omega
    | ⟨2, _⟩ =>
      show ((((b.val * 16 + q.val) * 32 + p.val) * 1 + 0) * 1 + 0) / 1 % 32 = p.val
      omega
    | ⟨3, _⟩ => rfl
  rw [hi, val_main_call1_v4_apply, val_main_call1_v1_apply, val_main_v15_apply, val_main_call1_v0_apply, val_main_call1_c_apply]
  have hj : idx_main_v15 (ix4 b q p (0 : Fin 1)) = ix3 b q p := by
    funext a
    match a with
    | ⟨0, _⟩ => rfl
    | ⟨1, _⟩ => rfl
    | ⟨2, _⟩ => rfl
  rw [hj, slt_zero_of_nonneg _ h0, select_zero]

/-- A label in [0, 12000) passes the gather's in-range test. -/
theorem inrange_tok (x0 : (⟨S16x16x32, .i32⟩ : BufTy).Contents (Elt Ideal)) (b q : Fin 16) (p : Fin 32)
    (h0 : 0 ≤ (x0 (ix3 b q p)).toInt) (h1 : (x0 (ix3 b q p)).toInt < 12000) :
    val_main_call1_v12 (F := Ideal) x0 (ix4 b q p (0 : Fin 1)) = 1#1 := by
  unfold val_main_call1_v12
  rw [reduce_and_tok, val_main_call1_c_3_apply, val_main_call1_v11_apply, val_main_call1_v7_apply, val_main_call1_v10_apply,
    label_tok x0 b q p h0, val_main_call1_v6_apply, val_main_call1_c_2_apply, val_main_call1_v9_apply, val_main_call1_v8_apply,
    val_main_call1_c_1_apply, sge_zero_of_nonneg _ h0, sle_of_lt _ h1]
  rfl

/-- So the value taken along the vocabulary axis is the log-softmax at the label. -/
theorem picked_tok (x0 : (⟨S16x16x32, .i32⟩ : BufTy).Contents (Elt Ideal)) (x2 : (⟨S16x16x32x12000, .f32⟩ : BufTy).Contents (Elt Ideal))
    (b q : Fin 16) (p : Fin 32) (h0 : 0 ≤ (x0 (ix3 b q p)).toInt) (h1 : (x0 (ix3 b q p)).toInt < 12000) :
    val_main_v16 (F := Ideal) x0 x2 (ix4 b q p (0 : Fin 1))
      = val_main_v14 (F := Ideal) x2 (ix4 b q p (⟨(x0 (ix3 b q p)).toNat, (toNat_of_range _ h0 h1).2⟩ : Fin 12000)) := by
  rw [val_main_v16_apply, inrange_tok x0 b q p h0 h1, select_one]
  unfold val_main_call1_v13
  rw [gather_tok]
  refine congrArg (fun k => val_main_v14 (F := Ideal) x2 (ix4 b q p k)) (Fin.ext ?_)
  have hr := toNat_of_range _ h0 h1
  show min (val_main_call1_v5 (F := Ideal) x0 (ix5 b q p (0 : Fin 1) (0 : Fin 1))).toInt.toNat 11999 = (x0 (ix3 b q p)).toNat
  rw [label_tok x0 b q p h0, hr.1, Int.toNat_natCast]
  omega

/-- The reference's negative log-likelihood at a token is the specification's. -/
theorem nll_tok (x0 : (⟨S16x16x32, .i32⟩ : BufTy).Contents (Elt Ideal)) (x2 : (⟨S16x16x32x12000, .f32⟩ : BufTy).Contents (Elt Ideal))
    (hfin : ∀ i, ∃ r : ℝ, x2 i = (r : EReal)) (b q : Fin 16) (p : Fin 32)
    (h0 : 0 ≤ (x0 (ix3 b q p)).toInt) (h1 : (x0 (ix3 b q p)).toInt < 12000) :
    val_main_v18 (F := Ideal) x0 x2 (ix3 b q p) = Cert.Spec.nll (fun j => x2 (ix4 b q p j)) (x0 (ix3 b q p)) := by
  rw [val_main_v18_apply, val_main_v17_apply]
  have hb := b.isLt
  have hq := q.isLt
  have hp := p.isLt
  have hi : idx_main_v17 (ix3 b q p) = ix4 b q p (0 : Fin 1) := by
    funext a
    apply Fin.ext
    match a with
    | ⟨0, _⟩ =>
      show ((b.val * 16 + q.val) * 32 + p.val) / 512 = b.val
      omega
    | ⟨1, _⟩ =>
      show ((b.val * 16 + q.val) * 32 + p.val) / 32 % 16 = q.val
      omega
    | ⟨2, _⟩ =>
      show ((b.val * 16 + q.val) * 32 + p.val) / 1 % 32 = p.val
      omega
    | ⟨3, _⟩ => rfl
  rw [hi, picked_tok x0 x2 b q p h0 h1, logsoftmax_tok]
  have e := Cert.Spec.nll_eq (fun j => x2 (ix4 b q p j)) (fun j => hfin _)
    (⟨(x0 (ix3 b q p)).toNat, (toNat_of_range _ h0 h1).2⟩ : Fin 12000)
  rw [show BitVec.ofNat 32 (x0 (ix3 b q p)).toNat = x0 (ix3 b q p) from ofNat_toNat_self _] at e
  rw [e]
  rfl

/-- The masked term at a token: the likelihood where the token mask is set, zero elsewhere. -/
theorem masked_tok (x0 : (⟨S16x16x32, .i32⟩ : BufTy).Contents (Elt Ideal)) (x1 : (⟨S16x16, .i32⟩ : BufTy).Contents (Elt Ideal))
    (x2 : (⟨S16x16x32x12000, .f32⟩ : BufTy).Contents (Elt Ideal)) (x8 : (⟨S16, .i32⟩ : BufTy).Contents (Elt Ideal))
    (hfin : ∀ i, ∃ r : ℝ, x2 i = (r : EReal)) (b q : Fin 16) (p : Fin 32)
    (h0 : 0 ≤ (x0 (ix3 b q p)).toInt) (h1 : (x0 (ix3 b q p)).toInt < 12000) :
    val_main_v23 (F := Ideal) x0 x1 x2 x8 (ix3 b q p)
      = if val_main_v13 (F := Ideal) x1 x8 (ix3 b q p) = 1#1
        then Cert.Spec.nll (fun j => x2 (ix4 b q p j)) (x0 (ix3 b q p)) else 0 := by
  rw [val_main_v23_apply, nll_tok x0 x2 hfin b q p h0 h1, val_main_call2_v1_apply, val_main_call2_v0_apply, val_main_cst_apply]
  simp only [Ideal.ofBits_def, Ideal.ofBits_zero_f32]
  rfl

/-- The reference's numerator is the specification's: the sum over the tokens the mask keeps of the likelihoods. -/
theorem capnum_eq
    (x0 : (⟨S16x16x32, .i32⟩ : BufTy).Contents (Elt Ideal)) (x1 : (⟨S16x16, .i32⟩ : BufTy).Contents (Elt Ideal))
    (x2 : (⟨S16x16x32x12000, .f32⟩ : BufTy).Contents (Elt Ideal)) (x8 : (⟨S16, .i32⟩ : BufTy).Contents (Elt Ideal))
    (hfin : ∀ i, ∃ r : ℝ, x2 i = (r : EReal)) (hlab : ∀ t, 0 ≤ (x0 t).toInt ∧ (x0 t).toInt < 12000) :
    val_main_v24 (F := Ideal) x0 x1 x2 x8 = fun _ => Cert.Spec.capSum x2 x0 (val_main_v13 (F := Ideal) x1 x8) := by
  funext i
  rw [val_main_v24_apply, val_main_cst_1_apply]
  simp only [Ideal.ofBits_def, Ideal.ofBits_zero_f32, zero_add]
  unfold Cert.Spec.capSum
  have hterm : ∀ n : Fin 8192,
      (if val_main_v13 (F := Ideal) x1 x8 (Cert.Spec.tok n) = 1#1
        then Cert.Spec.nll (Cert.Spec.row x2 n) (x0 (Cert.Spec.tok n)) else 0)
      = (fun t : Cert.Spec.STok.Idx => val_main_v23 (F := Ideal) x0 x1 x2 x8 t) (Cert.Spec.tok n) := by
    intro n
    have hrow : Cert.Spec.row x2 n = fun j => x2 (ix4 ((Cert.Spec.tok n) 0) ((Cert.Spec.tok n) 1) ((Cert.Spec.tok n) 2) j) :=
      funext fun j => Cert.Spec.row_eq x2 n j
    rw [hrow]
    exact (masked_tok x0 x1 x2 x8 hfin _ _ _ (hlab _).1 (hlab _).2).symm
  rw [Finset.sum_congr rfl fun n _ => hterm n, Cert.Spec.sum_tok]

end Cert.ReferenceIdeal.CapNum

end
-- ==== Proof.Bridge.lean ====
/-
  The two programs compute the token mask, the token count, the program loss and the interval loss by the same
  operations on the same argument arrays; the reference's caption loss is its numerator over the token count, and its
  first loss is the caption loss plus the program loss.  Each equation holds for every float instance: the two sides
  are one term up to the names of the shapes and of the shapes' side conditions.  In the interval loss the first array
  argument plays the predicted intervals and the second the given ones, on both sides.
-/
import proofs.«424876_j87643102642642_3_alg».proof.Proof.RefReadP
import proofs.«424876_j87643102642642_3_alg».proof.Proof.KI.HostValue

noncomputable section

namespace Cert.Bridge

open Idealize.ShloMosaic Cert.ReferenceIdeal.ReadP Cert.KernelIdeal.HostValue

variable {F : FTy → Type} [FloatOps F]

/-- The token mask. -/
theorem mask_eq (a1 : IVec Cert.KernelIdeal.S16x16 32) (a8 : IVec Cert.KernelIdeal.S16 32) :
    Cert.KernelIdeal.HostValue.maskOf a1 a8 = Cert.ReferenceIdeal.ReadP.val_main_v13 (F := F) a1 a8 := by
  rfl

/-- The token count, at least one, as a float. -/
theorem count_eq (a1 : IVec Cert.KernelIdeal.S16x16 32) (a8 : IVec Cert.KernelIdeal.S16 32) :
    Cert.KernelIdeal.HostValue.countOf (F := F) (Cert.KernelIdeal.HostValue.maskOf a1 a8)
      = Cert.ReferenceIdeal.ReadP.val_main_v22 (F := F) a1 a8 := by
  rfl

/-- The program loss. -/
theorem prog_eq (a3 : IVec Cert.KernelIdeal.S16x64 32) (a4 : IVec Cert.KernelIdeal.S16 32) (a5 : FVec F Cert.KernelIdeal.S16x64x20 .f32) :
    Cert.KernelIdeal.HostValue.progLoss (F := F) a3 a4 a5 = Cert.ReferenceIdeal.ReadP.val_main_v43 (F := F) a3 a4 a5 := by
  rfl

/-- The interval loss. -/
theorem iou_eq (a6 a7 : FVec F Cert.KernelIdeal.S16x16x2 .f32) (a8 : IVec Cert.KernelIdeal.S16 32) :
    Cert.KernelIdeal.HostValue.iouLoss (F := F) a6 a7 a8 = Cert.ReferenceIdeal.ReadP.val_main_v82 (F := F) a6 a7 a8 := by
  rfl

/-- The caption loss is the numerator over the token count. -/
theorem cap_split (x0 : (⟨Cert.ReferenceIdeal.S16x16x32, .i32⟩ : BufTy).Contents (Elt F))
    (x1 : (⟨Cert.ReferenceIdeal.S16x16, .i32⟩ : BufTy).Contents (Elt F))
    (x2 : (⟨Cert.ReferenceIdeal.S16x16x32x12000, .f32⟩ : BufTy).Contents (Elt F))
    (x8 : (⟨Cert.ReferenceIdeal.S16, .i32⟩ : BufTy).Contents (Elt F)) :
    Cert.ReferenceIdeal.ReadP.val_main_v25 (F := F) x0 x1 x2 x8
      = Host.divf (val_main_v24 (F := F) x0 x1 x2 x8) (val_main_v22 (F := F) x1 x8) := by
  rfl

/-- The first loss is the caption loss plus the program loss. -/
theorem total_split (x0 : (⟨Cert.ReferenceIdeal.S16x16x32, .i32⟩ : BufTy).Contents (Elt F))
    (x1 : (⟨Cert.ReferenceIdeal.S16x16, .i32⟩ : BufTy).Contents (Elt F))
    (x2 : (⟨Cert.ReferenceIdeal.S16x16x32x12000, .f32⟩ : BufTy).Contents (Elt F))
    (x3 : (⟨Cert.ReferenceIdeal.S16x64, .i32⟩ : BufTy).Contents (Elt F))
    (x4 : (⟨Cert.ReferenceIdeal.S16, .i32⟩ : BufTy).Contents (Elt F))
    (x5 : (⟨Cert.ReferenceIdeal.S16x64x20, .f32⟩ : BufTy).Contents (Elt F))
    (x8 : (⟨Cert.ReferenceIdeal.S16, .i32⟩ : BufTy).Contents (Elt F)) :
    Cert.ReferenceIdeal.ReadP.val_main_v83 (F := F) x0 x1 x2 x3 x4 x5 x8
      = addf (val_main_v25 (F := F) x0 x1 x2 x8) (val_main_v43 (F := F) x3 x4 x5) := by
  rfl

end Cert.Bridge

end
-- ==== Proof.PreFacts.lean ====
/-
  The stated precondition, read back as arithmetic facts about the argument arrays.

  The precondition is a conjunction of five "all entries satisfy" tests, each a reduction by "and" of an
  elementwise test to one bit. That the conjunction is 1 says every one of the tests is 1 at every entry.
  Two of them are used downstream: every logit x has |x| < +inf, so it is a real number (over the extended
  reals |x| = max x (-x), and only the two infinities fail the test); and every label, read as a signed
  word, is at least 0 and below 12000.
-/
import proofs.«424876_j87643102642642_3_alg».proof.Pre_finite_inputs
import Idealize.ShloMosaic.Lib.ValueIdx
import Idealize.ShloMosaic.Lib.ReduceAll
import Idealize.ShloMosaic.PureOps.Ideal.Laws
import Idealize.ShloMosaic.Lib.StableHlo.Predicate

noncomputable section

namespace Cert.PreFacts

open Idealize.ShloMosaic Idealize.ShloMosaic.ValueIdx

/-- The result shape of an "all" has exactly one index. -/
instance subsingleton_scalar_idx : Subsingleton Cert.Pre_finite_inputs.S_.Idx :=
  ⟨fun a b => funext fun d => d.elim0⟩

/-- The bit pattern 0x7F800000 denotes +inf. -/
theorem inf_bits : Ideal.ofBits .f32 0x7F800000#32 = (⊤ : EReal) := by
  simp [Ideal.ofBits, Ideal.ieee]

/-- An extended real whose absolute value max x (-x) is below +inf is a real number. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have h' : Ideal.cmp .olt (max (x : EReal) (-(x : EReal))) (Ideal.ofBits .f32 0x7F800000#32) = 1#1 := h
  rw [inf_bits] at h'
  unfold Ideal.cmp at h'
  have hlt : max (x : EReal) (-(x : EReal)) < ⊤ := by
    have := (StableHlo.Predicate.ofBool_eq_one_iff _).1 h'
    exact of_decide_eq_true this
  induction x using EReal.rec with
  | bot => simp at hlt
  | coe r => exact ⟨r, rfl⟩
  | top => simp at hlt

/-- A signed word that is at least 0 and below 12000 by the word comparisons has its value in that range. -/
theorem range_of_cmp (w : BitVec 32) (h1 : IntOp.cmpi .sge w 0#32 = 1#1) (h2 : IntOp.cmpi .slt w 12000#32 = 1#1) :
    0 ≤ w.toInt ∧ w.toInt < 12000 := by
  have z : (0#32 : BitVec 32).toInt = 0 := by decide
  have k : (12000#32 : BitVec 32).toInt = 12000 := by decide
  unfold IntOp.cmpi at h1 h2
  have e1 := (StableHlo.Predicate.ofBool_eq_one_iff _).1 h1
  have e2 := (StableHlo.Predicate.ofBool_eq_one_iff _).1 h2
  simp only [BitVec.sle, BitVec.slt, decide_eq_true_eq, z, k] at e1 e2
  exact ⟨e1, e2⟩

/-- The precondition, decoded: every logit is a real number, and every label is in [0, 12000). -/
theorem of_pre [Cert.Pre_finite_inputs.Facts]
    (a0 : IVec Cert.Pre_finite_inputs.S16x16x32 32) (a1 : IVec Cert.Pre_finite_inputs.S16x16 32)
    (a2 : FVec Ideal Cert.Pre_finite_inputs.S16x16x32x12000 .f32)
    (a3 : IVec Cert.Pre_finite_inputs.S16x64 32) (a4 : IVec Cert.Pre_finite_inputs.S16 32)
    (a5 : FVec Ideal Cert.Pre_finite_inputs.S16x64x20 .f32)
    (a6 a7 : FVec Ideal Cert.Pre_finite_inputs.S16x16x2 .f32) (a8 a9 : IVec Cert.Pre_finite_inputs.S16 32)
    (h : Cert.Pre_finite_inputs.fn (F := Ideal) a0 a1 a2 a3 a4 a5 a6 a7 a8 a9 = fun _ => 1#1) :
    (∀ i, ∃ r : ℝ, a2 i = (r : EReal)) ∧ (∀ t, 0 ≤ (a0 t).toInt ∧ (a0 t).toInt < 12000) := by
  have h0 := congrFun h ix0
  dsimp only [Cert.Pre_finite_inputs.fn, Cert.Pre_finite_inputs.fn_part1] at h0
  obtain ⟨h18, h24⟩ := IntOp.andi_eq_one.1 h0
  obtain ⟨h13, _⟩ := IntOp.andi_eq_one.1 h18
  obtain ⟨h8, _⟩ := IntOp.andi_eq_one.1 h13
  obtain ⟨h3, _⟩ := IntOp.andi_eq_one.1 h8
  refine ⟨fun i => ?_, fun t => ?_⟩
  · exact real_of_abs_lt_inf (a2 i) (Host.reduce_andi_all _ _ _ _ _ h3 i)
  · obtain ⟨g1, g2⟩ := IntOp.andi_eq_one.1 (Host.reduce_andi_all _ _ _ _ _ h24 t)
    exact range_of_cmp (a0 t) g1 g2

end Cert.PreFacts

end
-- ==== Proof.Algebraic.lean ====
/-
  The two idealized programs compute equal results, over the extended reals, from memories that agree on the arguments.

  Total loss = caption loss + program loss; the interval loss is the fourth result. The program loss and the interval
  loss are the same host operations in both programs. The caption loss is, in both, a numerator divided by the same
  token count: the kernel program's numerator is the streamed sum of the 8192 tokens' negative log-likelihoods
  `(log (sum exp (x - M)) + M) - x_label` over the masked tokens, the reference's is the masked sum of
  `-(log_softmax x)_label`; for finite logits and labels in `[0, 12000)` both are the specification's `capSum`.
-/
import proofs.«424876_j87643102642642_3_alg».proof.Defs
import proofs.«424876_j87643102642642_3_alg».proof.Proof.KI.KernelRun
import proofs.«424876_j87643102642642_3_alg».proof.Proof.Ref.CapNum
import proofs.«424876_j87643102642642_3_alg».proof.Proof.Ref.Run
import proofs.«424876_j87643102642642_3_alg».proof.Proof.Bridge
import proofs.«424876_j87643102642642_3_alg».proof.Proof.PreFacts
import proofs.«424876_j87643102642642_3_alg».proof.Proof.Gen.Pre_finite_inputs

set_option maxRecDepth 16384

noncomputable section

namespace Cert.Proof

open Idealize.ShloMosaic Idealize.ShloMosaic.TcCoe Idealize.SL.Sem
open Cert.ReferenceIdeal.ReadP Cert.KernelIdeal.HostValue

/-- The reference's caption loss at arguments satisfying the precondition is the kernel program's. -/
theorem cap_ref (m : (ℓ : Loc Cert.KernelIdeal.nD Cert.KernelIdeal.τ Cert.KernelIdeal.sig) → Buf (Elt Ideal) ℓ) (c : Dev Cert.KernelIdeal.nD)
    (hfin : ∀ i, ∃ r : ℝ, m ((c.tc : Thread Cert.KernelIdeal.nD Cert.KernelIdeal.τ).loc Cert.KernelIdeal.main_arg2) i = (r : EReal))
    (hlab : ∀ t, 0 ≤ (m ((c.tc : Thread Cert.KernelIdeal.nD Cert.KernelIdeal.τ).loc Cert.KernelIdeal.main_arg0) t).toInt ∧ (m ((c.tc : Thread Cert.KernelIdeal.nD Cert.KernelIdeal.τ).loc Cert.KernelIdeal.main_arg0) t).toInt < 12000) :
    val_main_v25 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg8))
      = Cert.KernelIdeal.Reg.capK m c := by
  rw [Cert.Bridge.cap_split, Cert.ReferenceIdeal.CapNum.capnum_eq _ _ _ _ hfin hlab, ← Cert.Bridge.mask_eq, ← Cert.Bridge.count_eq]
  rfl

theorem algebraic : Cert.algebraic_KernelIdeal_ReferenceIdeal := by
  intro m ρ m' ρ' hpre hagree
  refine ⟨_, _, _, _, Cert.KernelIdeal.Reg.kernel_run m ρ, ?_⟩
  refine (θ_run Cert.ReferenceIdeal.defs _ _).mono (fun _ h c => ?_) (Cert.ReferenceIdeal.RunH.run (F := Ideal) m' ρ')
  obtain ⟨h83, h25, h43, h82, hargs⟩ := h c
  obtain ⟨e0, e1, e2, e3, e4, e5, e6, e7, e8, e9⟩ := hagree c
  obtain ⟨hfin, hlab⟩ := Cert.PreFacts.of_pre _ _ _ _ _ _ _ _ _ _ (hpre c)
  have hcap := cap_ref m c hfin hlab
  refine ⟨?_, ?_, ?_, ?_, hargs⟩
  · rw [h83, e0, e1, e2, e3, e4, e5, e8, Cert.Bridge.total_split, hcap, ← Cert.Bridge.prog_eq]
  · rw [h25, e0, e1, e2, e8, hcap]
  · rw [h43, e3, e4, e5, ← Cert.Bridge.prog_eq]
  · rw [h82, e6, e7, e8, ← Cert.Bridge.iou_eq]

end Cert.Proof

end
-- ==== Proof.lean ====
/-
  The certificate: the word-level kernel program, its idealization and the idealized reference each run to the end
  without a fault and leave their ten arguments unchanged; the idealization is the kernel program's own text read at
  the extended reals (no rewrite was applied, so nothing is owed for it); and, for finite float inputs and caption
  labels in `[0, 12000)`, the idealized kernel program and the idealized reference end with equal total loss, caption
  loss, program loss and interval loss.

  The two kernel programs' frames come from one text, stated for any float instance: the body's three cases over the
  64 grid points, the accumulator carried between the points, and the host operations around the region. The
  reference is a list of host operations, so its run is the composed term of those operations. The losses' equality
  is in Proof/Algebraic.lean.
-/
import proofs.«424876_j87643102642642_3_alg».proof.Defs
import proofs.«424876_j87643102642642_3_alg».proof.Proof.Gen.Kernel
import proofs.«424876_j87643102642642_3_alg».proof.Proof.Gen.KernelIdeal
import proofs.«424876_j87643102642642_3_alg».proof.Proof.Gen.ReferenceIdeal
import proofs.«424876_j87643102642642_3_alg».proof.Proof.Gen.Pre_finite_inputs
import proofs.«424876_j87643102642642_3_alg».proof.Proof.K.Frame
import proofs.«424876_j87643102642642_3_alg».proof.Proof.KI.Frame
import proofs.«424876_j87643102642642_3_alg».proof.Proof.Ref.Run
import proofs.«424876_j87643102642642_3_alg».proof.Proof.Algebraic
import Idealize.ShloMosaic.Adequacy
import Idealize.ShloMosaic.Init

noncomputable section

namespace Cert.Proof

open Idealize.ShloMosaic Idealize.SL.Sem

theorem frame_kernel : Cert.frame_Kernel := fun m ρ _ => Cert.Kernel.Reg.frame m ρ

theorem frame_kernelIdeal : Cert.frame_KernelIdeal := fun m ρ _ => Cert.KernelIdeal.Reg.frame m ρ

/-- The reference's frame is its run with the results dropped. -/
theorem frame_referenceIdeal : Cert.frame_ReferenceIdeal := fun m ρ _ =>
  (θ_run Cert.ReferenceIdeal.defs _ _).mono (fun _ h c => (h c).2.2.2.2) (Cert.ReferenceIdeal.RunH.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
